-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S4096x1024 : Shape := ⟨2, ![4096, 1024]⟩
abbrev S50257x1024 : Shape := ⟨2, ![50257, 1024]⟩
abbrev S4096x2048 : Shape := ⟨2, ![4096, 2048]⟩
abbrev S4096 : Shape := ⟨1, ![4096]⟩
abbrev S1024x2048 : Shape := ⟨2, ![1024, 2048]⟩
abbrev S1024 : Shape := ⟨1, ![1024]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v63 : IVec S_ 1) (main_v67 : IVec S_ 1) : IVec S_ 1 :=
  let main_v68 : IVec S_ 1 := andi main_v63 main_v67
  let main_c_26 : IVec S_ 32 := constantI S_ 32 0#32
  let main_v69 : IVec S1 32 := broadcastInDim S1 ![] bcast_S_S1 main_c_26
  let main_v70 : IVec S1 1 := cmpi .sge main_arg0 main_v69
  let main_c_27 : IVec S_ 32 := constantI S_ 32 50257#32
  let main_v71 : IVec S1 32 := broadcastInDim S1 ![] bcast_S_S1 main_c_27
  let main_v72 : IVec S1 1 := cmpi .slt main_arg0 main_v71
  let main_v73 : IVec S1 1 := andi main_v70 main_v72
  let main_c_28 : IVec S_ 1 := constantI S_ 1 1#1
  let main_v74 : IVec S_ 1 := (fun x v => Host.reduce IntOp.andi x v reducesTo_S1_S_d0 h_S_) main_v73 main_c_28
  let main_v75 : IVec S_ 1 := andi main_v68 main_v74
  main_v75

def fn_part3 {F : FTy → Type} [FloatOps F] (main_arg0 : IVec S1 32) (main_arg12 : FVec F S4096 .f32) (main_arg13 : FVec F S50257x1024 .f32) (main_arg14 : FVec F S50257 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S50257x1024 .f32 := Host.absf main_arg13
  let main_cst_22 : FVec F S_ .f32 := constant S_ .f32 0x7F800000#32
  let main_v60 : FVec F S50257x1024 .f32 := broadcastInDim S50257x1024 ![] bcast_S_S50257x1024 main_cst_22
  let main_v61 : IVec S50257x1024 1 := cmpf .olt main_v59 main_v60
  let main_c_23 : IVec S_ 1 := constantI S_ 1 1#1
  let main_v62 : IVec S_ 1 := (fun x v => Host.reduce IntOp.andi x v reducesTo_S50257x1024_S_d0_1 h_S_) main_v61 main_c_23
  let main_v63 : IVec S_ 1 := andi main_v58 main_v62
  let main_v64 : FVec F S50257 .f32 := Host.absf main_arg14
  let main_cst_24 : FVec F S_ .f32 := constant S_ .f32 0x7F800000#32
  let main_v65 : FVec F S50257 .f32 := broadcastInDim S50257 ![] bcast_S_S50257 main_cst_24
  let main_v66 : IVec S50257 1 := cmpf .olt main_v64 main_v65
  let main_c_25 : IVec S_ 1 := constantI S_ 1 1#1
  let main_v67 : IVec S_ 1 := (fun x v => Host.reduce IntOp.andi x v reducesTo_S50257_S_d0 h_S_) main_v66 main_c_25
  fn_part4 (F := F) main_arg0 main_v63 main_v67

def fn_part2 {F : FTy → Type} [FloatOps F] (main_arg0 : IVec S1 32) (main_arg8 : FVec F S1024 .f32) (main_arg9 : FVec F S4096x1024 .f32) (main_arg10 : FVec F S4096 .f32) (main_arg11 : FVec F S4096x1024 .f32) (main_arg12 : FVec F S4096 .f32) (main_arg13 : FVec F S50257x1024 .f32) (main_arg14 : FVec F S50257 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096 .f32 := Host.absf main_arg10
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x1024 .f32 := Host.absf main_arg11
  let main_cst_18 : FVec F S_ .f32 := constant S_ .f32 0x7F800000#32
  let main_v50 : FVec F S4096x1024 .f32 := broadcastInDim S4096x1024 ![] bcast_S_S4096x1024 main_cst_18
  fn_part3 (F := F) main_arg0 main_arg12 main_arg13 main_arg14 main_v48 main_v49 main_v50

def fn_part1 {F : FTy → Type} [FloatOps F] (main_arg0 : IVec S1 32) (main_arg5 : FVec F S4096x2048 .f32) (main_arg6 : FVec F S4096 .f32) (main_arg7 : FVec F S1024x2048 .f32) (main_arg8 : FVec F S1024 .f32) (main_arg9 : FVec F S4096x1024 .f32) (main_arg10 : FVec F S4096 .f32) (main_arg11 : FVec F S4096x1024 .f32) (main_arg12 : FVec F S4096 .f32) (main_arg13 : FVec F S50257x1024 .f32) (main_arg14 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x2048 .f32 := Host.absf main_arg7
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S1 32) (main_arg1 : FVec F S1x1x1024 .f32) (main_arg2 : FVec F S1x1x1024 .f32) (main_arg3 : FVec F S4096x1024 .f32) (main_arg4 : FVec F S50257x1024 .f32) (main_arg5 : FVec F S4096x2048 .f32) (main_arg6 : FVec F S4096 .f32) (main_arg7 : FVec F S1024x2048 .f32) (main_arg8 : FVec F S1024 .f32) (main_arg9 : FVec F S4096x1024 .f32) (main_arg10 : FVec F S4096 .f32) (main_arg11 : FVec F S4096x1024 .f32) (main_arg12 : FVec F S4096 .f32) (main_arg13 : FVec F S50257x1024 .f32) (main_arg14 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1x1024 .f32 := Host.absf main_arg2
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S50257x1024 .f32 := Host.absf main_arg4
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S1 : Shape := ⟨1, ![1]⟩
abbrev S1x1x1024 : Shape := ⟨3, ![1, 1, 1024]⟩
abbrev S4096x1024 : Shape := ⟨2, ![4096, 1024]⟩
abbrev S50257x1024 : Shape := ⟨2, ![50257, 1024]⟩
abbrev S4096x2048 : Shape := ⟨2, ![4096, 2048]⟩
abbrev S4096 : Shape := ⟨1, ![4096]⟩
abbrev S1024x2048 : Shape := ⟨2, ![1024, 2048]⟩
abbrev S1024 : Shape := ⟨1, ![1024]⟩
abbrev S50257 : Shape := ⟨1, ![50257]⟩
abbrev S1x1024 : Shape := ⟨2, ![1, 1024]⟩
abbrev S_ : Shape := ⟨0, ![]⟩
abbrev S1x2048 : Shape := ⟨2, ![1, 2048]⟩
abbrev S8x2048 : Shape := ⟨2, ![8, 2048]⟩
abbrev S1x4096 : Shape := ⟨2, ![1, 4096]⟩
abbrev S8x4096 : Shape := ⟨2, ![8, 4096]⟩
abbrev S1x1 : Shape := ⟨2, ![1, 1]⟩
abbrev S8x1024 : Shape := ⟨2, ![8, 1024]⟩
abbrev S1x50257 : Shape := ⟨2, ![1, 50257]⟩
abbrev S8x50257 : Shape := ⟨2, ![8, 50257]⟩
abbrev S1024x512 : Shape := ⟨2, ![1024, 512]⟩
abbrev S8x512 : Shape := ⟨2, ![8, 512]⟩
abbrev S512x2048 : Shape := ⟨2, ![512, 2048]⟩
abbrev S1x512 : Shape := ⟨2, ![1, 512]⟩
abbrev S1024x1024 : Shape := ⟨2, ![1024, 1024]⟩

abbrev nBuf : Space → Nat
  | .hbm => 134
  | .vmem => 39
  | .smem => 0
  | _ => 0

abbrev hbmTy0_0 (i : Nat) : BufTy := match i % 128 with
  | 0 => ⟨S1, .i32⟩
  | 1 => ⟨S1x1x1024, .f32⟩
  | 2 => ⟨S1x1x1024, .f32⟩
  | 3 => ⟨S4096x1024, .f32⟩
  | 4 => ⟨S50257x1024, .f32⟩
  | 5 => ⟨S4096x2048, .f32⟩
  | 6 => ⟨S4096, .f32⟩
  | 7 => ⟨S1024x2048, .f32⟩
  | 8 => ⟨S1024, .f32⟩
  | 9 => ⟨S4096x1024, .f32⟩
  | 10 => ⟨S4096, .f32⟩
  | 11 => ⟨S4096x1024, .f32⟩
  | 12 => ⟨S4096, .f32⟩
  | 13 => ⟨S50257x1024, .f32⟩
  | 14 => ⟨S50257, .f32⟩
  | 15 => ⟨S1x1024, .f32⟩
  | 16 => ⟨S1x1024, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S1, .i32⟩
  | 24 => ⟨S1, .i32⟩
  | 25 => ⟨S_, .i32⟩
  | 26 => ⟨S1, .i32⟩
  | 27 => ⟨S1, .i1⟩
  | 28 => ⟨S1, .i1⟩
  | 29 => ⟨S1, .i1⟩
  | 30 => ⟨S_, .i1⟩
  | 31 => ⟨S_, .i1⟩
  | 32 => ⟨S1024, .f32⟩
  | 33 => ⟨S1024, .i1⟩
  | 34 => ⟨S_, .f32⟩
  | 35 => ⟨S1024, .f32⟩
  | 36 => ⟨S1024, .f32⟩
  | 37 => ⟨S1x1024, .f32⟩
  | 38 => ⟨S1x2048, .f32⟩
  | 39 => ⟨S_, .i32⟩
  | 40 => ⟨S_, .f32⟩
  | 41 => ⟨S8x2048, .f32⟩
  | 42 => ⟨S1x4096, .f32⟩
  | 43 => ⟨S8x4096, .f32⟩
  | 44 => ⟨S1x4096, .f32⟩
  | 45 => ⟨S_, .f32⟩
  | 46 => ⟨S1, .f32⟩
  | 47 => ⟨S_, .f32⟩
  | 48 => ⟨S1, .f32⟩
  | 49 => ⟨S1, .f32⟩
  | 50 => ⟨S1x1, .f32⟩
  | 51 => ⟨S1x4096, .f32⟩
  | 52 => ⟨S1x4096, .f32⟩
  | 53 => ⟨S1x4096, .f32⟩
  | 54 => ⟨S_, .f32⟩
  | 55 => ⟨S1, .f32⟩
  | 56 => ⟨S1x1, .f32⟩
  | 57 => ⟨S1x4096, .f32⟩
  | 58 => ⟨S1x4096, .f32⟩
  | 59 => ⟨S_, .i32⟩
  | 60 => ⟨S_, .f32⟩
  | 61 => ⟨S8x4096, .f32⟩
  | 62 => ⟨S8x1024, .f32⟩
  | 63 => ⟨S_, .i32⟩
  | 64 => ⟨S_, .f32⟩
  | 65 => ⟨S8x1024, .f32⟩
  | 66 => ⟨S8x2048, .f32⟩
  | 67 => ⟨S1x1024, .f32⟩
  | 68 => ⟨S8x1024, .f32⟩
  | 69 => ⟨S_, .i32⟩
  | 70 => ⟨S_, .f32⟩
  | 71 => ⟨S8x1024, .f32⟩
  | 72 => ⟨S1x4096, .f32⟩
  | 73 => ⟨S1x4096, .f32⟩
  | 74 => ⟨S8x4096, .f32⟩
  | 75 => ⟨S8x1024, .f32⟩
  | 76 => ⟨S8x1024, .f32⟩
  | 77 => ⟨S8x1024, .f32⟩
  | 78 => ⟨S8x1024, .f32⟩
  | 79 => ⟨S_, .i32⟩
  | 80 => ⟨S_, .f32⟩
  | 81 => ⟨S8x1024, .f32⟩
  | 82 => ⟨S8x1024, .f32⟩
  | 83 => ⟨S8x1024, .f32⟩
  | 84 => ⟨S_, .f32⟩
  | 85 => ⟨S8x1024, .f32⟩
  | 86 => ⟨S8x1024, .f32⟩
  | 87 => ⟨S_, .f32⟩
  | 88 => ⟨S8x1024, .f32⟩
  | 89 => ⟨S8x1024, .f32⟩
  | 90 => ⟨S8x1024, .f32⟩
  | 91 => ⟨S8x1024, .f32⟩
  | 92 => ⟨S8x1024, .f32⟩
  | 93 => ⟨S_, .f32⟩
  | 94 => ⟨S8x1024, .f32⟩
  | 95 => ⟨S8x1024, .f32⟩
  | 96 => ⟨S_, .f32⟩
  | 97 => ⟨S8x1024, .f32⟩
  | 98 => ⟨S8x1024, .f32⟩
  | 99 => ⟨S8x1024, .f32⟩
  | 100 => ⟨S8x1024, .f32⟩
  | 101 => ⟨S8x1024, .f32⟩
  | 102 => ⟨S8x1024, .f32⟩
  | 103 => ⟨S8x1024, .f32⟩
  | 104 => ⟨S_, .f32⟩
  | 105 => ⟨S8x1024, .f32⟩
  | 106 => ⟨S8x1024, .f32⟩
  | 107 => ⟨S_, .f32⟩
  | 108 => ⟨S8x1024, .f32⟩
  | 109 => ⟨S8x1024, .f32⟩
  | 110 => ⟨S8x1024, .f32⟩
  | 111 => ⟨S8x1024, .f32⟩
  | 112 => ⟨S1x50257, .f32⟩
  | 113 => ⟨S8x50257, .f32⟩
  | 114 => ⟨S1x50257, .f32⟩
  | 115 => ⟨S_, .f32⟩
  | 116 => ⟨S1, .f32⟩
  | 117 => ⟨S_, .f32⟩
  | 118 => ⟨S1, .f32⟩
  | 119 => ⟨S1, .f32⟩
  | 120 => ⟨S1x1, .f32⟩
  | 121 => ⟨S1x50257, .f32⟩
  | 122 => ⟨S1x50257, .f32⟩
  | 123 => ⟨S1x50257, .f32⟩
  | 124 => ⟨S_, .f32⟩
  | 125 => ⟨S1, .f32⟩
  | 126 => ⟨S1x1, .f32⟩
  | 127 => ⟨S1x1, .f32⟩
  | _ => ⟨S1, .i32⟩

abbrev hbmTy0_1 (i : Nat) : BufTy := match i % 128 with
  | 0 => ⟨S1x50257, .f32⟩
  | 1 => ⟨S1x50257, .f32⟩
  | 2 => ⟨S1x1024, .f32⟩
  | 3 => ⟨S1x1x1024, .f32⟩
  | 4 => ⟨S1x1024, .f32⟩
  | 5 => ⟨S1x1x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | .local _ .vmem, ⟨0, _⟩ => ⟨S8x2048, .f32⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S1024x512, .f32⟩
  | .local _ .vmem, ⟨10, _⟩ => ⟨S1024x512, .f32⟩
  | .local _ .vmem, ⟨11, _⟩ => ⟨S8x512, .f32⟩
  | .local _ .vmem, ⟨12, _⟩ => ⟨S8x512, .f32⟩
  | .local _ .vmem, ⟨13, _⟩ => ⟨S8x2048, .f32⟩
  | .local _ .vmem, ⟨14, _⟩ => ⟨S512x2048, .f32⟩
  | .local _ .vmem, ⟨15, _⟩ => ⟨S512x2048, .f32⟩
  | .local _ .vmem, ⟨16, _⟩ => ⟨S1x512, .f32⟩
  | .local _ .vmem, ⟨17, _⟩ => ⟨S1x512, .f32⟩
  | .local _ .vmem, ⟨18, _⟩ => ⟨S8x512, .f32⟩
  | .local _ .vmem, ⟨19, _⟩ => ⟨S8x512, .f32⟩
  | .local _ .vmem, ⟨20, _⟩ => ⟨S8x1024, .f32⟩
  | .local _ .vmem, ⟨21, _⟩ => ⟨S8x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S1024x1024, .f32⟩
  | .local _ .vmem, ⟨34, _⟩ => ⟨S1024x1024, .f32⟩
  | .local _ .vmem, ⟨35, _⟩ => ⟨S1x1024, .f32⟩
  | .local _ .vmem, ⟨36, _⟩ => ⟨S1x1024, .f32⟩
  | .local _ .vmem, ⟨37, _⟩ => ⟨S8x1024, .f32⟩
  | .local _ .vmem, ⟨38, _⟩ => ⟨S8x1024, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_call0_c : Ref sig .tc := ⟨.hbm, 18, rfl⟩
abbrev main_call0_call0_v0 : Ref sig .tc := ⟨.hbm, 19, rfl⟩
abbrev main_call0_call0_c_0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_c_1 : Ref sig .tc := ⟨.hbm, 24, rfl⟩
abbrev main_call0_call0_c_2 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_c_3 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_cst : Ref sig .tc := ⟨.hbm, 34, rfl⟩
abbrev main_call0_call0_v11 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c : Ref sig .tc := ⟨.hbm, 39, rfl⟩
abbrev main_call0_call1_v0 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_cst : Ref sig .tc := ⟨.hbm, 45, rfl⟩
abbrev main_call0_v10 : Ref sig .tc := ⟨.hbm, 46, rfl⟩
abbrev main_call0_cst_0 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_v15 : Ref sig .tc := ⟨.hbm, 52, rfl⟩
abbrev main_call0_v16 : Ref sig .tc := ⟨.hbm, 53, rfl⟩
abbrev main_call0_cst_1 : Ref sig .tc := ⟨.hbm, 54, rfl⟩
abbrev main_call0_v17 : Ref sig .tc := ⟨.hbm, 55, rfl⟩
abbrev main_call0_v18 : Ref sig .tc := ⟨.hbm, 56, rfl⟩
abbrev main_call0_v19 : Ref sig .tc := ⟨.hbm, 57, rfl⟩
abbrev main_v0_3 : Ref sig .tc := ⟨.hbm, 58, rfl⟩
abbrev main_call0_c_2 : Ref sig .tc := ⟨.hbm, 59, rfl⟩
abbrev main_call0_call2_v0 : Ref sig .tc := ⟨.hbm, 60, rfl⟩
abbrev main_call0_v21 : Ref sig .tc := ⟨.hbm, 61, rfl⟩
abbrev main_call0_v22 : Ref sig .tc := ⟨.hbm, 62, rfl⟩
abbrev main_call0_c_3 : Ref sig .tc := ⟨.hbm, 63, rfl⟩
abbrev main_call0_call3_v0 : Ref sig .tc := ⟨.hbm, 64, rfl⟩
abbrev main_call0_v23 : Ref sig .tc := ⟨.hbm, 65, rfl⟩
abbrev main_call0_v24 : Ref sig .tc := ⟨.hbm, 66, rfl⟩
abbrev main_call0_v25 : Ref sig .tc := ⟨.hbm, 67, rfl⟩
abbrev main_call0_v26 : Ref sig .tc := ⟨.hbm, 68, rfl⟩
abbrev main_call0_c_4 : Ref sig .tc := ⟨.hbm, 69, rfl⟩
abbrev main_call0_call4_v0 : Ref sig .tc := ⟨.hbm, 70, rfl⟩
abbrev main_call0_v27 : Ref sig .tc := ⟨.hbm, 71, rfl⟩
abbrev main_call0_v28 : Ref sig .tc := ⟨.hbm, 72, rfl⟩
abbrev main_call0_v29 : Ref sig .tc := ⟨.hbm, 73, rfl⟩
abbrev main_call0_v30 : Ref sig .tc := ⟨.hbm, 74, rfl⟩
abbrev main_call0_v31 : Ref sig .tc := ⟨.hbm, 75, rfl⟩
abbrev main_call0_v32 : Ref sig .tc := ⟨.hbm, 76, rfl⟩
abbrev main_call0_v33 : Ref sig .tc := ⟨.hbm, 77, rfl⟩
abbrev main_call0_v34 : Ref sig .tc := ⟨.hbm, 78, rfl⟩
abbrev main_call0_c_5 : Ref sig .tc := ⟨.hbm, 79, rfl⟩
abbrev main_call0_call5_v0 : Ref sig .tc := ⟨.hbm, 80, rfl⟩
abbrev main_call0_v35 : Ref sig .tc := ⟨.hbm, 81, rfl⟩
abbrev main_call0_v36 : Ref sig .tc := ⟨.hbm, 82, rfl⟩
abbrev main_call0_v37 : Ref sig .tc := ⟨.hbm, 83, rfl⟩
abbrev main_call0_cst_6 : Ref sig .tc := ⟨.hbm, 84, rfl⟩
abbrev main_call0_v38 : Ref sig .tc := ⟨.hbm, 85, rfl⟩
abbrev main_call0_v39 : Ref sig .tc := ⟨.hbm, 86, rfl⟩
abbrev main_call0_cst_7 : Ref sig .tc := ⟨.hbm, 87, rfl⟩
abbrev main_call0_v40 : Ref sig .tc := ⟨.hbm, 88, rfl⟩
abbrev main_call0_v41 : Ref sig .tc := ⟨.hbm, 89, rfl⟩
abbrev main_call0_v42 : Ref sig .tc := ⟨.hbm, 90, rfl⟩
abbrev main_call0_v43 : Ref sig .tc := ⟨.hbm, 91, rfl⟩
abbrev main_call0_v44 : Ref sig .tc := ⟨.hbm, 92, rfl⟩
abbrev main_call0_cst_8 : Ref sig .tc := ⟨.hbm, 93, rfl⟩
abbrev main_call0_v45 : Ref sig .tc := ⟨.hbm, 94, rfl⟩
abbrev main_call0_v46 : Ref sig .tc := ⟨.hbm, 95, rfl⟩
abbrev main_call0_cst_9 : Ref sig .tc := ⟨.hbm, 96, rfl⟩
abbrev main_call0_v47 : Ref sig .tc := ⟨.hbm, 97, rfl⟩
abbrev main_call0_v48 : Ref sig .tc := ⟨.hbm, 98, rfl⟩
abbrev main_call0_v49 : Ref sig .tc := ⟨.hbm, 99, rfl⟩
abbrev main_call0_v50 : Ref sig .tc := ⟨.hbm, 100, rfl⟩
abbrev main_call0_v51 : Ref sig .tc := ⟨.hbm, 101, rfl⟩
abbrev main_call0_v52 : Ref sig .tc := ⟨.hbm, 102, rfl⟩
abbrev main_call0_v53 : Ref sig .tc := ⟨.hbm, 103, rfl⟩
abbrev main_call0_cst_10 : Ref sig .tc := ⟨.hbm, 104, rfl⟩
abbrev main_call0_v54 : Ref sig .tc := ⟨.hbm, 105, rfl⟩
abbrev main_call0_v55 : Ref sig .tc := ⟨.hbm, 106, rfl⟩
abbrev main_call0_cst_11 : Ref sig .tc := ⟨.hbm, 107, rfl⟩
abbrev main_call0_v56 : Ref sig .tc := ⟨.hbm, 108, rfl⟩
abbrev main_call0_v57 : Ref sig .tc := ⟨.hbm, 109, rfl⟩
abbrev main_call0_v58 : Ref sig .tc := ⟨.hbm, 110, rfl⟩
abbrev main_call0_v59 : Ref sig .tc := ⟨.hbm, 111, rfl⟩
abbrev main_call0_v60 : Ref sig .tc := ⟨.hbm, 112, rfl⟩
abbrev main_call0_v61 : Ref sig .tc := ⟨.hbm, 113, rfl⟩
abbrev main_call0_v62 : Ref sig .tc := ⟨.hbm, 114, rfl⟩
abbrev main_call0_call6_cst : Ref sig .tc := ⟨.hbm, 115, rfl⟩
abbrev main_call0_call6_v0 : Ref sig .tc := ⟨.hbm, 116, rfl⟩
abbrev main_call0_call6_cst_0 : Ref sig .tc := ⟨.hbm, 117, rfl⟩
abbrev main_call0_call6_v1 : Ref sig .tc := ⟨.hbm, 118, rfl⟩
abbrev main_call0_call6_v2 : Ref sig .tc := ⟨.hbm, 119, rfl⟩
abbrev main_call0_call6_v3 : Ref sig .tc := ⟨.hbm, 120, rfl⟩
abbrev main_call0_call6_v4 : Ref sig .tc := ⟨.hbm, 121, rfl⟩
abbrev main_call0_call6_v5 : Ref sig .tc := ⟨.hbm, 122, rfl⟩
abbrev main_call0_call6_v6 : Ref sig .tc := ⟨.hbm, 123, rfl⟩
abbrev main_call0_call6_cst_1 : Ref sig .tc := ⟨.hbm, 124, rfl⟩
abbrev main_call0_call6_v7 : Ref sig .tc := ⟨.hbm, 125, rfl⟩
abbrev main_call0_call6_v8 : Ref sig .tc := ⟨.hbm, 126, rfl⟩
abbrev main_call0_call6_v9 : Ref sig .tc := ⟨.hbm, 127, rfl⟩
abbrev main_call0_call6_v10 : Ref sig .tc := ⟨.hbm, 128, rfl⟩
abbrev main_v0_0 : Ref sig .tc := ⟨.hbm, 129, rfl⟩
abbrev main_call0_v64 : Ref sig .tc := ⟨.hbm, 130, rfl⟩
abbrev main_v0_1 : Ref sig .tc := ⟨.hbm, 131, rfl⟩
abbrev main_call0_v66 : Ref sig .tc := ⟨.hbm, 132, rfl⟩
abbrev main_v0_2 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S8x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S8x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S8x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S8x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S1x1x1024_S1x1024 : S1x1x1024.ShapeCasts S1x1024
  shapeCasts_S1_S_ : S1.ShapeCasts S_
  bcast_S_S1 : S_.BroadcastsInDim S1 (![] : Fin 0 → Fin S1.rank)
  reducesTo_S1_S_d0 : S1.ReducesTo [0] S_
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  concatenates_S1x1024_S1x1024_S1x2048_d1 : Shape.Concatenates [S1x1024, S1x1024] S1x2048 1
  pads_S1x2048_S8x2048_070_000 : S1x2048.Pads (![0, 0] : Fin 2 → Nat) ![7, 0] ![0, 0] S8x2048
  shapeCasts_S4096_S1x4096 : S4096.ShapeCasts S1x4096
  slices_S8x4096_S1x4096_0_0 : S8x4096.Slices ![0, 0] S1x4096
  reducesTo_S1x4096_S1_d1 : S1x4096.ReducesTo [1] S1
  bcast_S1_S1x1_0 : S1.BroadcastsInDim S1x1 (![0] : Fin 1 → Fin S1x1.rank)
  bcast_S1x1_S1x4096_0_1 : S1x1.BroadcastsInDim S1x4096 (![0, 1] : Fin 2 → Fin S1x4096.rank)
  pads_S1x4096_S8x4096_070_000 : S1x4096.Pads (![0, 0] : Fin 2 → Nat) ![7, 0] ![0, 0] S8x4096
  pads_S1x1024_S8x1024_070_000 : S1x1024.Pads (![0, 0] : Fin 2 → Nat) ![7, 0] ![0, 0] S8x1024
  concatenates_S8x1024_S8x1024_S8x2048_d1 : Shape.Concatenates [S8x1024, S8x1024] S8x2048 1
  shapeCasts_S1024_S1x1024 : S1024.ShapeCasts S1x1024
  slices_S8x4096_S8x1024_0_0 : S8x4096.Slices ![0, 0] S8x1024
  slices_S8x4096_S8x1024_0_1024 : S8x4096.Slices ![0, 1024] S8x1024
  slices_S8x4096_S8x1024_0_2048 : S8x4096.Slices ![0, 2048] S8x1024
  slices_S8x4096_S8x1024_0_3072 : S8x4096.Slices ![0, 3072] S8x1024
  bcast_S_S8x1024 : S_.BroadcastsInDim S8x1024 (![] : Fin 0 → Fin S8x1024.rank)
  shapeCasts_S50257_S1x50257 : S50257.ShapeCasts S1x50257
  slices_S8x50257_S1x50257_0_0 : S8x50257.Slices ![0, 0] S1x50257
  reducesTo_S1x50257_S1_d1 : S1x50257.ReducesTo [1] S1
  bcast_S1x1_S1x50257_0_1 : S1x1.BroadcastsInDim S1x50257 (![0, 1] : Fin 2 → Fin S1x50257.rank)
  slices_S8x1024_S1x1024_0_0 : S8x1024.Slices ![0, 0] S1x1024
  bcast_S1x1024_S1x1x1024_1_2 : S1x1024.BroadcastsInDim S1x1x1024 (![1, 2] : Fin 2 → Fin S1x1x1024.rank)
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  inb_S8x512_S8x512_0_0 : ∀ a, (![0, 0] : Fin 2 → Nat) a + S8x512.size a ≤ S8x512.size a
  h_S8x512 : 0 < S8x512.numel
  shapeCasts_S8x1024_S8x1024 : S8x1024.ShapeCasts S8x1024
  inb_S1024x512_S1024x512_0_0 : ∀ a, (![0, 0] : Fin 2 → Nat) a + S1024x512.size a ≤ S1024x512.size a
  h_S1024x512 : 0 < S1024x512.numel
  shapeCasts_S8x512_S8x512 : S8x512.ShapeCasts S8x512
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S1024x1024_S1024x1024_0_0 : ∀ a, (![0, 0] : Fin 2 → Nat) a + S1024x1024.size a ≤ S1024x1024.size a
  h_S1024x1024 : 0 < S1024x1024.numel
  gather_S50257x1024_S1_S1024_0_0_n_n_0_0_11024_wf : GatherDims.WF S50257x1024 S1 S1024 [0] [0] [] [0] [] 0 ![1, 1024]
  dot_S8x2048_S1024x2048_S8x1024_1_1_0_0_n_n_wf : DotDims.WF S8x2048 S1024x2048 S8x1024 [1] [1] [0] [0] [] []
  dot_S8x1024_S1024x512_S8x512_1_0_0_1_n_n_wf : DotDims.WF S8x1024 S1024x512 S8x512 [1] [0] [0] [1] [] []
  dot_S8x2048_S512x2048_S8x512_1_1_0_0_n_n_wf : DotDims.WF S8x2048 S512x2048 S8x512 [1] [1] [0] [0] [] []
  dot_S8x1024_S1024x1024_S8x1024_1_1_0_0_n_n_wf : DotDims.WF S8x1024 S1024x1024 S8x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S8x2048.size a
  hwx0_0 : ∀ i : grid0.Coords, EltTy.bits .f32 = 32 ∨ (Rect.block (s := S8x2048) S8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .f32 = 32 ∨ (Rect.block (s := S4096x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x4096.size a
  hwx0_3 : ∀ i : grid0.Coords, EltTy.bits .f32 = 32 ∨ (Rect.block (s := S8x4096) S8x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024.size a ≤ S8x4096.size a
  hwx1_0 : ∀ i : grid1.Coords, EltTy.bits .f32 = 32 ∨ (Rect.block (s := S8x4096) S8x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x1024.size a
  hwx1_1 : ∀ i : grid1.Coords, EltTy.bits .f32 = 32 ∨ (Rect.block (s := S4096x1024) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x1024.size a
  hwx1_2 : ∀ i : grid1.Coords, EltTy.bits .f32 = 32 ∨ (Rect.block (s := S8x1024) S8x512.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x2048.size a ≤ S8x2048.size a
  hwx2_0 : ∀ i : grid2.Coords, EltTy.bits .f32 = 32 ∨ (Rect.block (s := S8x2048) S8x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S1024x2048.size a
  hwx2_1 : ∀ i : grid2.Coords, EltTy.bits .f32 = 32 ∨ (Rect.block (s := S1024x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x512.size a ≤ S8x1024.size a
  hwx2_3 : ∀ i : grid2.Coords, EltTy.bits .f32 = 32 ∨ (Rect.block (s := S8x1024) S8x512.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8x1024.size a ≤ S8x1024.size a
  hwx3_0 : ∀ i : grid3.Coords, EltTy.bits .f32 = 32 ∨ (Rect.block (s := S8x1024) S8x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x1024.size a ≤ S8x1024.size a
  hwx3_1 : ∀ i : grid3.Coords, EltTy.bits .f32 = 32 ∨ (Rect.block (s := S8x1024) S8x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x1024.size a
  hwx3_2 : ∀ i : grid3.Coords, EltTy.bits .f32 = 32 ∨ (Rect.block (s := S4096x1024) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x1024.size a
  hwx3_3 : ∀ i : grid3.Coords, EltTy.bits .f32 = 32 ∨ (Rect.block (s := S4096x1024) S1024x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x4096.size a
  hwx3_4 : ∀ i : grid3.Coords, EltTy.bits .f32 = 32 ∨ (Rect.block (s := S1x4096) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x4096.size a
  hwx3_5 : ∀ i : grid3.Coords, EltTy.bits .f32 = 32 ∨ (Rect.block (s := S1x4096) S1x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x1024.size a ≤ S8x4096.size a
  hwx3_6 : ∀ i : grid3.Coords, EltTy.bits .f32 = 32 ∨ (Rect.block (s := S8x4096) S8x1024.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8x1024.size a ≤ S8x1024.size a
  hwx4_0 : ∀ i : grid4.Coords, EltTy.bits .f32 = 32 ∨ (Rect.block (s := S8x1024) S8x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S1024x1024.size a < S50257x1024.size a
  hwx4_1 : ∀ i : grid4.Coords, EltTy.bits .f32 = 32 ∨ (Rect.unit (s := S50257x1024) (fun a => cc4_transform_1 i a * S1024x1024.size a) (fun a => (Pipeline.Clip.of (cc4_transform_1 i a) (S1024x1024.size a) (S50257x1024.size a)).extent (S1024x1024.size a)) fun a => Pipeline.Clip.inb (Pipeline.Clip.ok_of (hstart4_1 i a))).WholeWords (EltTy.packing .f32)
  hwxs4_1 : ∀ i : grid4.Coords, EltTy.bits .f32 = 32 ∨ (Rect.unit (s := S1024x1024) (fun _ => 0) (fun a => (Pipeline.Clip.of (cc4_transform_1 i a) (S1024x1024.size a) (S50257x1024.size a)).extent (S1024x1024.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S1x1024.size a < S1x50257.size a
  hwx4_2 : ∀ i : grid4.Coords, EltTy.bits .f32 = 32 ∨ (Rect.unit (s := S1x50257) (fun a => cc4_transform_2 i a * S1x1024.size a) (fun a => (Pipeline.Clip.of (cc4_transform_2 i a) (S1x1024.size a) (S1x50257.size a)).extent (S1x1024.size a)) fun a => Pipeline.Clip.inb (Pipeline.Clip.ok_of (hstart4_2 i a))).WholeWords (EltTy.packing .f32)
  hwxs4_2 : ∀ i : grid4.Coords, EltTy.bits .f32 = 32 ∨ (Rect.unit (s := S1x1024) (fun _ => 0) (fun a => (Pipeline.Clip.of (cc4_transform_2 i a) (S1x1024.size a) (S1x50257.size a)).extent (S1x1024.size a)) fun a => (Nat.zero_add _).trans_le (Pipeline.Clip.extent_le (Pipeline.Clip.ok_of (hstart4_2 i a)))).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hstart4_3 : ∀ (i : grid4.Coords) a, cc4_transform_3 i a * S8x1024.size a < S8x50257.size a
  hwx4_3 : ∀ i : grid4.Coords, EltTy.bits .f32 = 32 ∨ (Rect.unit (s := S8x50257) (fun a => cc4_transform_3 i a * S8x1024.size a) (fun a => (Pipeline.Clip.of (cc4_transform_3 i a) (S8x1024.size a) (S8x50257.size a)).extent (S8x1024.size a)) fun a => Pipeline.Clip.inb (Pipeline.Clip.ok_of (hstart4_3 i a))).WholeWords (EltTy.packing .f32)
  hwxs4_3 : ∀ i : grid4.Coords, EltTy.bits .f32 = 32 ∨ (Rect.unit (s := S8x1024) (fun _ => 0) (fun a => (Pipeline.Clip.of (cc4_transform_3 i a) (S8x1024.size a) (S8x50257.size a)).extent (S8x1024.size a)) fun a => (Nat.zero_add _).trans_le (Pipeline.Clip.extent_le (Pipeline.Clip.ok_of (hstart4_3 i a)))).WholeWords (EltTy.packing .f32)

variable [Facts₀]

def gather_S50257x1024_S1_S1024_0_0_n_n_0_0_11024 : GatherDims S50257x1024 S1 S1024 where
  offsetDims := [0]
  collapsedSliceDims := [0]
  operandBatchingDims := []
  startIndicesBatchingDims := []
  startIndexMap := [0]
  indexVectorDim := 0
  sliceSizes := ![1, 1024]
  wf := gather_S50257x1024_S1_S1024_0_0_n_n_0_0_11024_wf
def dot_S8x2048_S1024x2048_S8x1024_1_1_0_0_n_n : DotDims S8x2048 S1024x2048 S8x1024 where
  lhsContracting := [1]
  rhsContracting := [1]
  lhsNonContracting := [0]
  rhsNonContracting := [0]
  lhsBatch := []
  rhsBatch := []
  wf := dot_S8x2048_S1024x2048_S8x1024_1_1_0_0_n_n_wf
def dot_S8x1024_S1024x512_S8x512_1_0_0_1_n_n : DotDims S8x1024 S1024x512 S8x512 where
  lhsContracting := [1]
  rhsContracting := [0]
  lhsNonContracting := [0]
  rhsNonContracting := [1]
  lhsBatch := []
  rhsBatch := []
  wf := dot_S8x1024_S1024x512_S8x512_1_0_0_1_n_n_wf
def dot_S8x2048_S512x2048_S8x512_1_1_0_0_n_n : DotDims S8x2048 S512x2048 S8x512 where
  lhsContracting := [1]
  rhsContracting := [1]
  lhsNonContracting := [0]
  rhsNonContracting := [0]
  lhsBatch := []
  rhsBatch := []
  wf := dot_S8x2048_S512x2048_S8x512_1_1_0_0_n_n_wf
def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf

abbrev win0_0 : Pipeline.Window sig grid0 :=
  Pipeline.Window.ofSpec (Memref.whole main_call0_v6) S8x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v21) S8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v22) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v24) S8x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v25) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v26) S8x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v26) S8x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v27) S8x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S1024x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v28) S1x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_call0_v29) S1x1024.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_call0_v30) S8x1024.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_call0_v59) S8x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpecClip (Memref.whole main_arg13) S1024x1024.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_call0_v60) S1x1024.size cc4_transform_2 reads4_2 false false 2 stage4_2 sem4_2
    hrank4 hreads4_2 hstart4_2 nbuf4_2 (Memref.isWhole_whole _) hwx4_2 hwxs4_2 hstage4_2

abbrev win4_3 : Pipeline.Window sig grid4 :=
  Pipeline.Window.ofSpecClip (Memref.whole main_call0_v61) S8x1024.size cc4_transform_3 reads4_3 true false 2 stage4_3 sem4_3
    hrank4 hreads4_3 hstart4_3 nbuf4_3 (Memref.isWhole_whole _) hwx4_3 hwxs4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S4096x1024 : Shape := ⟨2, ![4096, 1024]⟩
abbrev S50257x1024 : Shape := ⟨2, ![50257, 1024]⟩
abbrev S4096x2048 : Shape := ⟨2, ![4096, 2048]⟩
abbrev S4096 : Shape := ⟨1, ![4096]⟩
abbrev S1024x2048 : Shape := ⟨2, ![1024, 2048]⟩
abbrev S1024 : Shape := ⟨1, ![1024]⟩
abbrev S50257 : Shape := ⟨1, ![50257]⟩
abbrev S1x1024 : Shape := ⟨2, ![1, 1024]⟩
abbrev S_ : Shape := ⟨0, ![]⟩
abbrev S1x1 : Shape := ⟨2, ![1, 1]⟩
abbrev S1x2048 : Shape := ⟨2, ![1, 2048]⟩
abbrev S2048x4096 : Shape := ⟨2, ![2048, 4096]⟩
abbrev S1x4096 : Shape := ⟨2, ![1, 4096]⟩
abbrev S2048x1024 : Shape := ⟨2, ![2048, 1024]⟩
abbrev S1024x4096 : Shape := ⟨2, ![1024, 4096]⟩
abbrev S1024x50257 : Shape := ⟨2, ![1024, 50257]⟩
abbrev S1x50257 : Shape := ⟨2, ![1, 50257]⟩

abbrev nBuf : Space → Nat
  | .hbm => 118
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x1024, .f32⟩
  | .hbm, ⟨3, _⟩ => ⟨S4096x1024, .f32⟩
  | .hbm, ⟨4, _⟩ => ⟨S50257x1024, .f32⟩
  | .hbm, ⟨5, _⟩ => ⟨S4096x2048, .f32⟩
  | .hbm, ⟨6, _⟩ => ⟨S4096, .f32⟩
  | .hbm, ⟨7, _⟩ => ⟨S1024x2048, .f32⟩
  | .hbm, ⟨8, _⟩ => ⟨S1024, .f32⟩
  | .hbm, ⟨9, _⟩ => ⟨S4096x1024, .f32⟩
  | .hbm, ⟨10, _⟩ => ⟨S4096, .f32⟩
  | .hbm, ⟨11, _⟩ => ⟨S4096x1024, .f32⟩
  | .hbm, ⟨12, _⟩ => ⟨S4096, .f32⟩
  | .hbm, ⟨13, _⟩ => ⟨S50257x1024, .f32⟩
  | .hbm, ⟨14, _⟩ => ⟨S50257, .f32⟩
  | .hbm, ⟨15, _⟩ => ⟨S1x1024, .f32⟩
  | .hbm, ⟨16, _⟩ => ⟨S1x1024, .f32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S1, .i32⟩
  | .hbm, ⟨24, _⟩ => ⟨S1x1, .i32⟩
  | .hbm, ⟨25, _⟩ => ⟨S1x1024, .f32⟩
  | .hbm, ⟨26, _⟩ => ⟨S1x2048, .f32⟩
  | .hbm, ⟨27, _⟩ => ⟨S2048x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x4096, .f32⟩
  | .hbm, ⟨44, _⟩ => ⟨S1x4096, .f32⟩
  | .hbm, ⟨45, _⟩ => ⟨S1x1024, .f32⟩
  | .hbm, ⟨46, _⟩ => ⟨S1x2048, .f32⟩
  | .hbm, ⟨47, _⟩ => ⟨S2048x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1024x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S1024x4096, .f32⟩
  | .hbm, ⟨59, _⟩ => ⟨S1x4096, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S_, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1024x50257, .f32⟩
  | .hbm, ⟨98, _⟩ => ⟨S1x50257, .f32⟩
  | .hbm, ⟨99, _⟩ => ⟨S1x50257, .f32⟩
  | .hbm, ⟨100, _⟩ => ⟨S1x50257, .f32⟩
  | .hbm, ⟨101, _⟩ => ⟨S_, .f32⟩
  | .hbm, ⟨102, _⟩ => ⟨S1, .f32⟩
  | .hbm, ⟨103, _⟩ => ⟨S_, .f32⟩
  | .hbm, ⟨104, _⟩ => ⟨S1, .f32⟩
  | .hbm, ⟨105, _⟩ => ⟨S1, .f32⟩
  | .hbm, ⟨106, _⟩ => ⟨S1x1, .f32⟩
  | .hbm, ⟨107, _⟩ => ⟨S1x50257, .f32⟩
  | .hbm, ⟨108, _⟩ => ⟨S1x50257, .f32⟩
  | .hbm, ⟨109, _⟩ => ⟨S1x50257, .f32⟩
  | .hbm, ⟨110, _⟩ => ⟨S_, .f32⟩
  | .hbm, ⟨111, _⟩ => ⟨S1, .f32⟩
  | .hbm, ⟨112, _⟩ => ⟨S1x1, .f32⟩
  | .hbm, ⟨113, _⟩ => ⟨S1x1, .f32⟩
  | .hbm, ⟨114, _⟩ => ⟨S1x50257, .f32⟩
  | .hbm, ⟨115, _⟩ => ⟨S1x50257, .f32⟩
  | .hbm, ⟨116, _⟩ => ⟨S1x1x1024, .f32⟩
  | .hbm, ⟨117, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_7 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩

abbrev nD : Nat := 1
abbrev τ : Topo := Topo.v7x

variable {F : FTy → Type} [FloatOps F]

class Facts₀ : Prop where
  shapeCasts_S1x1x1024_S1x1024 : S1x1x1024.ShapeCasts S1x1024
  bcast_S_S1 : S_.BroadcastsInDim S1 (![] : Fin 0 → Fin S1.rank)
  bcast_S1_S1x1_0 : S1.BroadcastsInDim S1x1 (![0] : Fin 1 → Fin S1x1.rank)
  concatenates_S1x1024_S1x1024_S1x2048_d1 : Shape.Concatenates [S1x1024, S1x1024] S1x2048 1
  transposes_S4096x2048_S2048x4096_1_0 : S4096x2048.Transposes [1, 0] S2048x4096
  bcast_S4096_S1x4096_1 : S4096.BroadcastsInDim S1x4096 (![1] : Fin 1 → Fin S1x4096.rank)
  reducesTo_S1x4096_S1_d1 : S1x4096.ReducesTo [1] S1
  h_S_ : 0 < S_.numel
  bcast_S1x1_S1x4096_0_1 : S1x1.BroadcastsInDim S1x4096 (![0, 1] : Fin 2 → Fin S1x4096.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S4096x1024_S1024x4096_1_0 : S4096x1024.Transposes [1, 0] S1024x4096
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x4096_S1x4096_1_0_0_1_n_n_wf : DotDims.WF S1x2048 S2048x4096 S1x4096 [1] [0] [0] [1] [] []
  dot_S1x4096_S4096x1024_S1x1024_1_0_0_1_n_n_wf : DotDims.WF S1x4096 S4096x1024 S1x1024 [1] [0] [0] [1] [] []
  dot_S1x2048_S2048x1024_S1x1024_1_0_0_1_n_n_wf : DotDims.WF S1x2048 S2048x1024 S1x1024 [1] [0] [0] [1] [] []
  dot_S1x1024_S1024x4096_S1x4096_1_0_0_1_n_n_wf : DotDims.WF S1x1024 S1024x4096 S1x4096 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x4096_S1x4096_1_0_0_1_n_n : DotDims S1x2048 S2048x4096 S1x4096 where
  lhsContracting := [1]
  rhsContracting := [0]
  lhsNonContracting := [0]
  rhsNonContracting := [1]
  lhsBatch := []
  rhsBatch := []
  wf := dot_S1x2048_S2048x4096_S1x4096_1_0_0_1_n_n_wf
def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.FrameKernel.R0.lean ====
import proofs.«425349_j42889543417942_3_alg».proof.Proof.Gen.Kernel.Launch
import proofs.«425349_j42889543417942_3_alg».proof.Proof.Gen.Kernel.Skeleton
import proofs.«425349_j42889543417942_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: when it is not fetched its
    block index has not moved. Stated for any proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes. -/
abbrev rx0 : Rect S8x2048 := Rect.unit (s := S8x2048) ![0, 0] S8x2048.size inb_S8x2048_S8x2048_0_0
abbrev rw0 : Rect S1024x2048 := Rect.unit (s := S1024x2048) ![0, 0] S1024x2048.size inb_S1024x2048_S1024x2048_0_0
abbrev rb0 : Rect S1x1024 := Rect.unit (s := S1x1024) ![0, 0] S1x1024.size inb_S1x1024_S1x1024_0_0
abbrev ro0 : Rect S8x1024 := Rect.unit (s := S8x1024) ![0, 0] S8x1024.size inb_S8x1024_S8x1024_0_0

/-- The output block after the body: one store of the payload of the three input blocks, over the whole block. -/
def out0_3 (x0 : Vec F S8x2048 .f32) (x1 : Vec F S1024x2048 .f32) (x2 : Vec F S1x1024 .f32) : Vec F S8x1024 .f32 :=
  View.canon [⟨ro0, k0_pay1 (View.ld x0 rx0) (View.ld x1 rw0) (View.ld x2 rb0)⟩]

theorem cover0_3 (p0 : Vec F S8x1024 .f32) (y : S8x1024.Idx) :
    ∃ pc ∈ ([⟨ro0, p0⟩] : List (View.Piece (Elt F) S8x1024 .f32)), y ∈ pc.1.set :=
  View.cover_of_tiled [⟨ro0, p0⟩] S8x1024.size (by rfl) y

set_option maxHeartbeats 1000000 in
/-- The body on whole staging memrefs: the three inputs are left as found, the output ends at `out0_3` of them. -/
theorem sound_kernel0 (c : Dev nD) (E : Set ℕ) (i : grid0.Coords)
    (arg1 : Memref sig .tc .vmem S8x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S8x1024 .f32) (harg4 : arg4.IsWhole)
    (x0 : Vec F S8x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at a point each
    input's buffer at its block and the output's at `out0_3` of the three blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameKernel.R1.lean ====
import proofs.«425349_j42889543417942_3_alg».proof.Proof.Gen.Kernel.Launch
import proofs.«425349_j42889543417942_3_alg».proof.Proof.Gen.Kernel.Skeleton
import proofs.«425349_j42889543417942_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: when it is not fetched its
    block index has not moved. Stated for any proof data whose array is `V`'s and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes. -/
abbrev rx1 : Rect S8x1024 := Rect.unit (s := S8x1024) ![0, 0] S8x1024.size inb_S8x1024_S8x1024_0_0
abbrev rw1 : Rect S1024x512 := Rect.unit (s := S1024x512) ![0, 0] S1024x512.size inb_S1024x512_S1024x512_0_0
abbrev ro1 : Rect S8x512 := Rect.unit (s := S8x512) ![0, 0] S8x512.size inb_S8x512_S8x512_0_0

/-- The accumulator after the reset: the zero block. -/
def zero1 : Vec F S8x512 .f32 := k1_pay1 (F := F)

theorem zero1_eq : zero1 (F := F) = k1_pay1 := rfl

/-- The accumulator after one step that found `a` in it: the one store of `a` plus the product of the two input
    blocks, over the whole block. -/
def acc1 (x0 : Vec F S8x1024 .f32) (x1 : Vec F S1024x512 .f32) (a : Vec F S8x512 .f32) : Vec F S8x512 .f32 :=
  View.canon [⟨ro1, k1_pay2 (View.ld x0 rx1) (View.ld x1 rw1) (View.ld a ro1)⟩]

/-- The rectangles are the whole blocks at zero offsets, so the store leaves its payload and the loads read their
    blocks. -/
theorem acc1_eq (x0 : Vec F S8x1024 .f32) (x1 : Vec F S1024x512 .f32) (a : Vec F S8x512 .f32) : acc1 x0 x1 a = k1_pay2 x0 x1 a := by
  have hz : (![0, 0] : Fin 2 → ℕ) = fun _ => 0 := by funext a; fin_cases a <;> rfl
  unfold acc1
  rw [View.canon_unit_zero (S := S8x512) hz]
  simp only [View.ld_unit_zero (S := S8x1024) hz, View.ld_unit_zero (S := S1024x512) hz, View.ld_unit_zero (S := S8x512) hz]

/-- THE ACCUMULATION. What the output's staging buffer holds after the body at position `n`: at the first step of a
    column half (`n % 4 = 0`) one step over the zero block, at a later step one step over what the step before left
    (the buffer is not written back between). -/
def outsAt1 (c : Dev nD) : (n : ℕ) → n < cfg1.N → Vec F S8x512 .f32
  | 0, hn => acc1 (iblk1 V c 0 ⟨0, hn⟩) (iblk1 V c 1 ⟨0, hn⟩) zero1
  | n + 1, hn =>
    if h0 : (n + 1) % 4 = 0 then
      acc1 (iblk1 V c 0 ⟨n + 1, hn⟩) (iblk1 V c 1 ⟨n + 1, hn⟩) zero1
    else
      acc1 (iblk1 V c 0 ⟨n + 1, hn⟩) (iblk1 V c 1 ⟨n + 1, hn⟩) (outsAt1 c n (Nat.lt_of_succ_lt hn))

/-- `outsAt1` at a first step: one step over the zero block. -/
theorem outsAt1_A (c : Dev nD) (t : Fin cfg1.N) (h0 : t.val % 4 = 0) :
    outsAt1 V c t.val t.isLt = acc1 (iblk1 V c 0 t) (iblk1 V c 1 t) zero1 := by
  obtain ⟨n, hn⟩ := t
  cases n with
  | zero => exact rfl
  | succ n => exact (dif_pos h0).trans rfl

/-- `outsAt1` at a later step: one step over what the point before left. -/
theorem outsAt1_B (c : Dev nD) (t : Fin cfg1.N) (h0 : ¬ t.val % 4 = 0) :
    outsAt1 V c t.val t.isLt = acc1 (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core `c`: the arrays as the region finds them; after the body at a point each
    input's buffer at its block and the output's at the accumulation up to that point; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

/-- The condition of the body's reset, from the grid coordinates (the printed scalar chain substituted). -/
abbrev cond1 (i : grid1.Coords) : Prop :=
  (Scalar.cmpi .ne (Scalar.extui (Scalar.cmpi .eq (BitVec.ofNat 32 (i 1).val) 0#32)) 0#32) = 1#1

/-- It holds at the first step of each column half only: decided over the eight points. -/
theorem hcond1 : ∀ t : Fin cfg1.N, cond1 (grid1.coords t) ↔ t.val % 4 = 0 :=
  (by decide +kernel : ∀ t : Fin grid1.N, cond1 (grid1.coords t) ↔ t.val % 4 = 0)

theorem zeros1 : (![0, 0] : Fin 2 → ℕ) = fun _ => 0 := by funext a; fin_cases a <;> rfl

/-- A last store over the whole block covers it, whatever came before. -/
theorem cover1_2 (p0 : Vec F S8x512 .f32) (L : List (View.Piece (Elt F) S8x512 .f32)) (y : S8x512.Idx) :
    ∃ pc ∈ ((⟨ro1, p0⟩ : View.Piece (Elt F) S8x512 .f32) :: L), y ∈ pc.1.set :=
  ⟨_, List.mem_cons_self, View.mem_set_unit_zero (S := S8x512) zeros1 inb_S8x512_S8x512_0_0 y⟩

set_option maxHeartbeats 1000000 in
/-- The body at a later step, on whole staging memrefs: the two inputs are left as found, the accumulator that held
    `a` ends at one step over `a`. -/
theorem sound_kernel1_B (c : Dev nD) (E : Set ℕ) (i : grid1.Coords) (hc : ¬ cond1 i)
    (arg2 : Memref sig .tc .vmem S8x1024 .f32) (harg2 : arg2.IsWhole) (arg3 : Memref sig .tc .vmem S1024x512 .f32) (harg3 : arg3.IsWhole)
    (arg4 : Memref sig .tc .vmem S8x512 .f32) (harg4 : arg4.IsWhole)
    (x0 : Vec F S8x1024 .f32) (x1 : Vec F S1024x512 .f32) (a : Vec F S8x512 .f32) (K : PUnit → sProp 𝕄) :
    iprop(owns (c : Thread nD τ) arg2 fullShare x0 ∗ owns (c : Thread nD τ) arg3 fullShare x1
        ∗ owns (c : Thread nD τ) arg4 fullShare a
        ∗ (iprop(owns (c : Thread nD τ) arg2 fullShare x0 ∗ owns (c : Thread nD τ) arg3 fullShare x1
            ∗ owns (c : Thread nD τ) arg4 fullShare (acc1 x0 x1 a)) -∗ K ⟨⟩))
      ⊢ wp frame (wpE (defs₀ (F := F)) Variants.none c none) E (cc1__attn_apply_kernel i arg2 harg2 arg3 harg3 arg4 harg4) K := by
  simp only [cc1__attn_apply_kernel_eq_skeleton]; unfold cc1__attn_apply_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ [])

set_option maxHeartbeats 1000000 in
/-- The body at the first step of a column half, on whole staging memrefs: the two inputs are left as found, the
    accumulator, whatever it held, is zeroed and ends at one step over the zero block. -/
theorem sound_kernel1_A (c : Dev nD) (E : Set ℕ) (i : grid1.Coords) (hc : cond1 i)
    (arg2 : Memref sig .tc .vmem S8x1024 .f32) (harg2 : arg2.IsWhole) (arg3 : Memref sig .tc .vmem S1024x512 .f32) (harg3 : arg3.IsWhole)
    (arg4 : Memref sig .tc .vmem S8x512 .f32) (harg4 : arg4.IsWhole)
    (x0 : Vec F S8x1024 .f32) (x1 : Vec F S1024x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (acc1 x0 x1 zero1)) -∗ K ⟨⟩))
      ⊢ wp frame (wpE (defs₀ (F := F)) Variants.none c none) E (cc1__attn_apply_kernel i arg2 harg2 arg3 harg3 arg4 harg4) K := by
  simp only [cc1__attn_apply_kernel_eq_skeleton]; unfold cc1__attn_apply_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _ _)]
  sl_unfold_words
  rw [View.canon_cons_unit_zero (S := S8x512) zeros1, View.readCov_unit_zero (S := S8x512) _ zeros1]
  unfold acc1 zero1
  rw [View.canon_unit_zero (S := S8x512) zeros1, View.ld_unit_zero (Val := Elt F) (e := .f32) (S := S8x512) zeros1 inb_S8x512_S8x512_0_0 k1_pay1]
  rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later step the accumulator's staging buffer holds what the body left at the point before: the point is not
    the first, the buffer was not written back between (write-back happens after step 3 only), the window is never
    idle and never cut. -/
theorem before1_2_B (c : Dev nD) (t : Fin cfg1.N) (h0 : ¬ t.val % 4 = 0) (d) :
    (dat1 V c).before 2 t d = outsAt1 V c (t.val - 1) (Nat.lt_of_le_of_lt (Nat.sub_le _ _) t.isLt) := by
  have hN : t.val < 8 := lt_of_lt_of_eq t.isLt (show cfg1.N = 8 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; the closed form of the condition says whether the
    point is a first step; at a later step the accumulator holds what the point before left; so the matching triple
    applies, and the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    iintro ⟨HΦ, Ho, ⟨%d0, H0⟩, ⟨%d1, H1⟩, ⟨%d2, H2⟩⟩
    iapply (sound_kernel1_A c Set.univ _ ((hcond1 t).mpr h0) _ _ _ _ _ _ (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_2_B V c t h0]
    iintro ⟨HΦ, Ho, ⟨%d0, H0⟩, ⟨%d1, H1⟩, ⟨%d2, H2⟩⟩
    iapply (sound_kernel1_B c Set.univ _ (fun h => h0 ((hcond1 t).mp h)) _ _ _ _ _ _ (iblk1 V c 0 t) (iblk1 V c 1 t)
      (outsAt1 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameKernel.R2.lean ====
import proofs.«425349_j42889543417942_3_alg».proof.Proof.Gen.Kernel.Launch
import proofs.«425349_j42889543417942_3_alg».proof.Proof.Gen.Kernel.Skeleton
import proofs.«425349_j42889543417942_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: when it is not fetched its
    block index has not moved. Stated for any proof data whose array is `V`'s and whose body leaves the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body reads and writes. -/
abbrev rx2 : Rect S8x2048 := Rect.unit (s := S8x2048) ![0, 0] S8x2048.size inb_S8x2048_S8x2048_0_0
abbrev rw2 : Rect S512x2048 := Rect.unit (s := S512x2048) ![0, 0] S512x2048.size inb_S512x2048_S512x2048_0_0
abbrev rb2 : Rect S1x512 := Rect.unit (s := S1x512) ![0, 0] S1x512.size inb_S1x512_S1x512_0_0
abbrev ro2 : Rect S8x512 := Rect.unit (s := S8x512) ![0, 0] S8x512.size inb_S8x512_S8x512_0_0

/-- The output block after the body: one store of the payload of the three input blocks, over the whole block. -/
def out2_3 (x0 : Vec F S8x2048 .f32) (x1 : Vec F S512x2048 .f32) (x2 : Vec F S1x512 .f32) : Vec F S8x512 .f32 :=
  View.canon [⟨ro2, k2_pay1 (View.ld x0 rx2) (View.ld x1 rw2) (View.ld x2 rb2)⟩]

theorem cover2_3 (p0 : Vec F S8x512 .f32) (y : S8x512.Idx) :
    ∃ pc ∈ ([⟨ro2, p0⟩] : List (View.Piece (Elt F) S8x512 .f32)), y ∈ pc.1.set :=
  View.cover_of_tiled [⟨ro2, p0⟩] S8x512.size (by rfl) y

set_option maxHeartbeats 1000000 in
/-- The body on whole staging memrefs: the three inputs are left as found, the output ends at `out2_3` of them. -/
theorem sound_kernel2 (c : Dev nD) (E : Set ℕ) (i : grid2.Coords)
    (arg1 : Memref sig .tc .vmem S8x2048 .f32) (harg1 : arg1.IsWhole) (arg2 : Memref sig .tc .vmem S512x2048 .f32) (harg2 : arg2.IsWhole)
    (arg3 : Memref sig .tc .vmem S1x512 .f32) (harg3 : arg3.IsWhole) (arg4 : Memref sig .tc .vmem S8x512 .f32) (harg4 : arg4.IsWhole)
    (x0 : Vec F S8x2048 .f32) (x1 : Vec F S512x2048 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at a point each
    input's buffer at its block and the output's at `out2_3` of the three blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameKernel.R3.lean ====
import proofs.«425349_j42889543417942_3_alg».proof.Proof.Gen.Kernel.Launch
import proofs.«425349_j42889543417942_3_alg».proof.Proof.Gen.Kernel.Skeleton
import proofs.«425349_j42889543417942_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: when it is not fetched its
    block index has not moved. Stated for any proof data whose array is `V`'s and whose body leaves the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body reads and writes. -/
abbrev ra3 : Rect S8x1024 := Rect.unit (s := S8x1024) ![0, 0] S8x1024.size inb_S8x1024_S8x1024_0_0
abbrev rw3 : Rect S1024x1024 := Rect.unit (s := S1024x1024) ![0, 0] S1024x1024.size inb_S1024x1024_S1024x1024_0_0
abbrev rb3 : Rect S1x1024 := Rect.unit (s := S1x1024) ![0, 0] S1x1024.size inb_S1x1024_S1x1024_0_0

/-- The output block after the body: one store of the payload of the six input blocks, over the whole block. -/
def out3_6 (x0 x1 : Vec F S8x1024 .f32) (x2 x3 : Vec F S1024x1024 .f32) (x4 x5 : Vec F S1x1024 .f32) : Vec F S8x1024 .f32 :=
  View.canon [⟨ra3, k3_pay1 (View.ld x0 ra3) (View.ld x1 ra3) (View.ld x2 rw3) (View.ld x3 rw3) (View.ld x4 rb3) (View.ld x5 rb3)⟩]

theorem cover3_6 (p0 : Vec F S8x1024 .f32) (y : S8x1024.Idx) :
    ∃ pc ∈ ([⟨ra3, p0⟩] : List (View.Piece (Elt F) S8x1024 .f32)), y ∈ pc.1.set :=
  View.cover_of_tiled [⟨ra3, p0⟩] S8x1024.size (by rfl) y

set_option maxHeartbeats 2000000 in
/-- The body on whole staging memrefs: the six inputs are left as found, the output ends at `out3_6` of them. -/
theorem sound_kernel3 (c : Dev nD) (E : Set ℕ) (i : grid3.Coords)
    (arg1 : Memref sig .tc .vmem S8x1024 .f32) (harg1 : arg1.IsWhole) (arg2 : Memref sig .tc .vmem S8x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S8x1024 .f32) (harg7 : arg7.IsWhole)
    (x0 x1 : Vec F S8x1024 .f32) (x2 x3 : Vec F S1024x1024 .f32) (x4 x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__gates_kernel i arg1 harg1 arg2 harg2 arg3 harg3 arg4 harg4 arg5 harg5 arg6 harg6 arg7 harg7) K := by
  simp only [cc3__gates_kernel_eq_skeleton]; unfold cc3__gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core `c`: the arrays as the region finds them; after the body at a point each
    input's buffer at its block and the output's at `out3_6` of the six blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.FrameKernel.R4.lean ====
import proofs.«425349_j42889543417942_3_alg».proof.Proof.Gen.Kernel.Launch
import proofs.«425349_j42889543417942_3_alg».proof.Proof.Gen.Kernel.Skeleton
import proofs.«425349_j42889543417942_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the block's part inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The weight block at point `t` as a whole (1024, 1024) buffer: its rows inside the array, and the zero word on
    the rows past the array's end (there are such rows at the last point only). -/
def wblk4 (c : Dev nD) (t : Fin cfg4.N) : Vec F S1024x1024 .f32 :=
  (cfg4.win 1).fill (cfg4.grid.coords t) (fun _ => Scalar.ofBits .f32 0#32) (iblk4 V c 1 t)

/-- The bias block at point `t` as a whole (1, 1024) buffer, filled out with the zero word likewise. -/
def bblk4 (c : Dev nD) (t : Fin cfg4.N) : Vec F S1x1024 .f32 :=
  (cfg4.win 2).fill (cfg4.grid.coords t) (fun _ => Scalar.ofBits .f32 0#32) (iblk4 V c 2 t)

/-- The payload's entry in column `n` reads, of the weight buffer, row `n` only and, of the bias buffer, entry `n`
    only: two weight buffers that agree on that row and two bias buffers that agree at that entry give one value.
    (Of a float instance's matrix product nothing is known in general; an instance says this of its own.) -/
def K4Local (F : FTy → Type) [FloatOps F] : Prop :=
  ∀ (x : Vec F S8x1024 .f32) (W W' : Vec F S1024x1024 .f32) (b b' : Vec F S1x1024 .f32) (j : S8x1024.Idx),
    (∀ i : S1024x1024.Idx, (i 0).val = (j 1).val → W i = W' i) →
    (∀ i : S1x1024.Idx, (i 1).val = (j 1).val → b i = b' i) →
    k4_pay1 x W b j = k4_pay1 x W' b' j

/-- The product contracts the second axis of both operands: the weight entry that result entry `(r, n)` meets at
    contraction index `k` is in row `n`. -/
theorem rhsIdx4_0 (j : S8x1024.Idx) (k : dot_S8x1024_S1024x1024_S8x1024_1_1_0_0_n_n.contr.Idx) :
    ((dot_S8x1024_S1024x1024_S8x1024_1_1_0_0_n_n.rhsIdx j k) 0).val = (j 1).val := by
  simp [DotDims.rhsIdx, dot_S8x1024_S1024x1024_S8x1024_1_1_0_0_n_n]; rfl

/-- At the extended reals it does: the entry is the sum over `k` of `x[r, k] · W[n, k]` (a narrowing of the format
    is the identity there), plus the bias row broadcast down the rows, `b[0, n]`. -/
theorem k4Local_ideal : K4Local Ideal := by
  intro x W W' b b' j hW hb
  unfold k4_pay1
  simp only [matmul]
  have hA : FloatOps.matmul (F := Ideal) dot_S8x1024_S1024x1024_S8x1024_1_1_0_0_n_n none
        (truncf FTy.bf16 (shapeCast S8x1024 x shapeCasts_S8x1024_S8x1024) bitsLt_bf16_f32)
        (truncf FTy.bf16 W bitsLt_bf16_f32) (constant S8x1024 FTy.f32 0#32) j
      = FloatOps.matmul (F := Ideal) dot_S8x1024_S1024x1024_S8x1024_1_1_0_0_n_n none
        (truncf FTy.bf16 (shapeCast S8x1024 x shapeCasts_S8x1024_S8x1024) bitsLt_bf16_f32)
        (truncf FTy.bf16 W' bitsLt_bf16_f32) (constant S8x1024 FTy.f32 0#32) j := by
    rw [Ideal.matmul_apply, Ideal.matmul_apply]
    refine congrArg _ (Finset.sum_congr rfl fun k _ => ?_)
    show _ * W _ = _ * W' _
    rw [hW _ (rhsIdx4_0 j k)]
  have hB : broadcastTo S8x1024 (shapeCast S1x1024 b shapeCasts_S1x1024_S1x1024) broadcasts_S1x1024_S8x1024 j
      = broadcastTo S8x1024 (shapeCast S1x1024 b' shapeCasts_S1x1024_S1x1024) broadcasts_S1x1024_S8x1024 j := by
    unfold broadcastTo shapeCast
    simp only [Shape.reshapeEquiv_self]
    exact hb _ rfl
  exact congrArg₂ (· + ·) hA hB

/-- A staging buffer filled from a block reads, on the part the transfer moves, the block, whatever filled the rest. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- How the three cut windows are cut at a point: the weight block keeps all its columns and as many rows as the
    result block keeps columns; the bias block keeps its one row and as many columns as the result block. -/
theorem xsize4 : ∀ t : Fin cfg4.N,
    (cfg4.win 1).xsize (cfg4.grid.coords t) (1 : Fin 2) = 1024
    ∧ (cfg4.win 1).xsize (cfg4.grid.coords t) (0 : Fin 2) = (cfg4.win 3).xsize (cfg4.grid.coords t) (1 : Fin 2)
    ∧ (cfg4.win 2).xsize (cfg4.grid.coords t) (0 : Fin 2) = 1
    ∧ (cfg4.win 2).xsize (cfg4.grid.coords t) (1 : Fin 2) = (cfg4.win 3).xsize (cfg4.grid.coords t) (1 : Fin 2) :=
  (by decide +kernel : ∀ t : Fin grid4.N,
    win4_1.xsize (grid4.coords t) (1 : Fin 2) = 1024
    ∧ win4_1.xsize (grid4.coords t) (0 : Fin 2) = win4_3.xsize (grid4.coords t) (1 : Fin 2)
    ∧ win4_2.xsize (grid4.coords t) (0 : Fin 2) = 1
    ∧ win4_2.xsize (grid4.coords t) (1 : Fin 2) = win4_3.xsize (grid4.coords t) (1 : Fin 2))

/-- A weight-buffer entry in a row whose number is a column the result block keeps is one the fetch moves. -/
theorem moved4_1 (t : Fin cfg4.N) (n : Nat) (hn : n < (cfg4.win 3).xsize (cfg4.grid.coords t) (1 : Fin 2))
    (i : S1024x1024.Idx) (hi : (i 0).val = n) : (cfg4.win 1).moved (cfg4.grid.coords t) i = true := by
  rw [Window.moved_iff]
  intro a
  have h := xsize4 t
  have h1 : (i 1).val < 1024 := (i 1).isLt
  match a with
  | ⟨0, _⟩ => exact Nat.lt_of_lt_of_eq (hi ▸ hn) h.2.1.symm
  | ⟨1, _⟩ => exact Nat.lt_of_lt_of_eq h1 h.1.symm

/-- A bias-buffer entry in a column the result block keeps is one the fetch moves. -/
theorem moved4_2 (t : Fin cfg4.N) (n : Nat) (hn : n < (cfg4.win 3).xsize (cfg4.grid.coords t) (1 : Fin 2))
    (i : S1x1024.Idx) (hi : (i 1).val = n) : (cfg4.win 2).moved (cfg4.grid.coords t) i = true := by
  rw [Window.moved_iff]
  intro a
  have h := xsize4 t
  have h0 : (i 0).val < 1 := (i 0).isLt
  match a with
  | ⟨0, _⟩ => exact Nat.lt_of_lt_of_eq h0 h.2.2.1.symm
  | ⟨1, _⟩ => exact Nat.lt_of_lt_of_eq (hi ▸ hn) h.2.2.2.symm

/-- On the part of the result block inside the array the payload does not depend on what fills the weight and bias
    buffers past their arrays' ends: those words are in rows and at entries whose numbers are columns past the
    result array's end. -/
theorem cut_pay4 (hloc : K4Local F) (t : Fin cfg4.N) (x : Vec F S8x1024 .f32)
    (d1 d1' : Vec F S1024x1024 .f32) (g1 : ((cfg4.win 1).xblock (cfg4.grid.coords t)).Idx → Elt F .f32)
    (d2 d2' : Vec F S1x1024 .f32) (g2 : ((cfg4.win 2).xblock (cfg4.grid.coords t)).Idx → Elt F .f32) :
    (cfg4.win 3).cut (cfg4.grid.coords t)
        (k4_pay1 x ((cfg4.win 1).fill (cfg4.grid.coords t) d1 g1) ((cfg4.win 2).fill (cfg4.grid.coords t) d2 g2))
      = (cfg4.win 3).cut (cfg4.grid.coords t)
        (k4_pay1 x ((cfg4.win 1).fill (cfg4.grid.coords t) d1' g1) ((cfg4.win 2).fill (cfg4.grid.coords t) d2' g2)) := by
  funext j
  have hn : ((j (1 : Fin 2)).val) < (cfg4.win 3).xsize (cfg4.grid.coords t) (1 : Fin 2) := (j (1 : Fin 2)).isLt
  exact hloc x _ _ _ _ ((cfg4.win 3).xinj (cfg4.grid.coords t) j)
    (fun i hi => fill_eq_of_moved (cfg4.win 1) (cfg4.grid.coords t) d1 d1' g1 i (moved4_1 t _ hn i hi))
    (fun i hi => fill_eq_of_moved (cfg4.win 2) (cfg4.grid.coords t) d2 d2' g2 i (moved4_2 t _ hn i hi))

/-- The whole-block rectangles the body reads and writes. -/
abbrev rx4 : Rect S8x1024 := Rect.unit (s := S8x1024) ![0, 0] S8x1024.size inb_S8x1024_S8x1024_0_0
abbrev rw4 : Rect S1024x1024 := Rect.unit (s := S1024x1024) ![0, 0] S1024x1024.size inb_S1024x1024_S1024x1024_0_0
abbrev rb4 : Rect S1x1024 := Rect.unit (s := S1x1024) ![0, 0] S1x1024.size inb_S1x1024_S1x1024_0_0

/-- The output buffer after the body, as the run leaves it: one store of the payload of the three loaded buffers,
    over the whole buffer. -/
def out4_3 (x0 : Vec F S8x1024 .f32) (x1 : Vec F S1024x1024 .f32) (x2 : Vec F S1x1024 .f32) : Vec F S8x1024 .f32 :=
  View.canon [⟨rx4, k4_pay1 (View.ld x0 rx4) (View.ld x1 rw4) (View.ld x2 rb4)⟩]

theorem zeros2 : (![0, 0] : Fin 2 → Nat) = fun _ => 0 := funext fun a => by fin_cases a <;> rfl

/-- Loads and the store are of whole buffers: the output buffer ends at the payload of the input buffers. -/
theorem out4_3_eq (x0 : Vec F S8x1024 .f32) (x1 : Vec F S1024x1024 .f32) (x2 : Vec F S1x1024 .f32) :
    out4_3 x0 x1 x2 = k4_pay1 x0 x1 x2 := by
  unfold out4_3
  rw [View.canon_unit_zero zeros2, View.ld_unit_zero zeros2, View.ld_unit_zero zeros2, View.ld_unit_zero zeros2]

theorem cover4_3 (p0 : Vec F S8x1024 .f32) (y : S8x1024.Idx) :
    ∃ pc ∈ ([⟨rx4, p0⟩] : List (View.Piece (Elt F) S8x1024 .f32)), y ∈ pc.1.set :=
  View.cover_of_tiled [⟨rx4, p0⟩] S8x1024.size (by rfl) y

set_option maxHeartbeats 1000000 in
/-- The body on whole staging memrefs holding anything: the three inputs are left as found, the output ends at the
    payload of them. -/
theorem sound_kernel4 (c : Dev nD) (E : Set ℕ) (i : grid4.Coords)
    (arg1 : Memref sig .tc .vmem S8x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S8x1024 .f32) (harg4 : arg4.IsWhole)
    (x0 : Vec F S8x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k4_pay1 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover4_3 _)).trans (out4_3_eq _ _ _)

/-- The proof data of pipeline 4 on core `c`: the arrays as the region finds them; after the body at a point the
    activation's buffer at its block, the weight's and the bias's at their blocks filled out with zeros, and the
    result's at the payload of those three; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => wblk4 V c t
    | ⟨2, _⟩ => bblk4 V c t
    | ⟨3, _⟩ => k4_pay1 (iblk4 V c 0 t) (wblk4 V c t) (bblk4 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = wblk4 V c t := by dsimp only [dat4]
theorem after4_2 (c : Dev nD) (t : Fin cfg4.N) : (dat4 V c).after 2 t = bblk4 V c t := by dsimp only [dat4]
theorem after4_3 (c : Dev nD) (t : Fin cfg4.N) :
    (dat4 V c).after 3 t = k4_pay1 (iblk4 V c 0 t) (wblk4 V c t) (bblk4 V c t) := by dsimp only [dat4]

/-- What the write-back at point `t` writes: the payload of the three blocks (the weight's and the bias's filled out
    with zeros) on the result block's part inside the array. -/
theorem after4_3_cut (c : Dev nD) (t : Fin cfg4.N) :
    (cfg4.win 3).cut (cfg4.grid.coords t) ((dat4 V c).after 3 t)
      = fun j => k4_pay1 (iblk4 V c 0 t) (wblk4 V c t) (bblk4 V c t) ((cfg4.win 3).xinj (cfg4.grid.coords t) j) := by
  rw [after4_3]

/-- The weight's and the bias's buffers, cut back to the part inside their arrays, are their blocks. -/
theorem cut_wblk4 (c : Dev nD) (t : Fin cfg4.N) : (cfg4.win 1).cut (cfg4.grid.coords t) (wblk4 V c t) = iblk4 V c 1 t :=
  (cfg4.win 1).cut_fill _ _ _
theorem cut_bblk4 (c : Dev nD) (t : Fin cfg4.N) : (cfg4.win 2).cut (cfg4.grid.coords t) (bblk4 V c t) = iblk4 V c 2 t :=
  (cfg4.win 2).cut_fill _ _ _

/-- The activation's buffer holds its block at every point, fetched there (the first) or not: its block index
    never moves and the body leaves it in place. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-- The weight's and the bias's buffers are fetched at every point: each holds its block on the part the fetch
    moves and, past the array's end, what the buffer held (any `d`). -/
theorem before4_1 (c : Dev nD) (t : Fin cfg4.N) (d) :
    (dat4 V c).before 1 t d = (cfg4.win 1).fill (cfg4.grid.coords t) d (iblk4 V c 1 t) := by
  unfold Dat.before; rw [if_pos (fetch4_1 t)]; unfold Dat.fetched Dat.blockOf iblk4; rw [A_eq4]
theorem before4_2 (c : Dev nD) (t : Fin cfg4.N) (d) :
    (dat4 V c).before 2 t d = (cfg4.win 2).fill (cfg4.grid.coords t) d (iblk4 V c 2 t) := by
  unfold Dat.before; rw [if_pos (fetch4_2 t)]; unfold Dat.fetched Dat.blockOf iblk4; rw [A_eq4]

/-- What the body is called with at point `t`, the result's buffer at anything (what it is handed when that window is
    forgotten, and all the body needs: it overwrites the buffer), -/
def bodyPreFgt4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ X, owns (c : Thread nD τ) (st4_3 t) fullShare X))

/-- what it is called with when the result's window is not forgotten, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- what it returns when the result's window is forgotten, -/
def bodyPostFgt4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ (∃ d, owns (c : Thread nD τ) (st4_1 t) fullShare
        ((cfg4.win 1).fill (cfg4.grid.coords t) d ((cfg4.win 1).cut (cfg4.grid.coords t) ((dat4 V c).after 1 t))))
    ∗ (∃ d, owns (c : Thread nD τ) (st4_2 t) fullShare
        ((cfg4.win 2).fill (cfg4.grid.coords t) d ((cfg4.win 2).cut (cfg4.grid.coords t) ((dat4 V c).after 2 t))))
    ∗ (∃ X, owns (c : Thread nD τ) (st4_3 t) fullShare X))

/-- and what it returns when it is not: each cut window's buffer stated on the part inside the array. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ (∃ d, owns (c : Thread nD τ) (st4_1 t) fullShare
        ((cfg4.win 1).fill (cfg4.grid.coords t) d ((cfg4.win 1).cut (cfg4.grid.coords t) ((dat4 V c).after 1 t))))
    ∗ (∃ d, owns (c : Thread nD τ) (st4_2 t) fullShare
        ((cfg4.win 2).fill (cfg4.grid.coords t) d ((cfg4.win 2).cut (cfg4.grid.coords t) ((dat4 V c).after 2 t))))
    ∗ (∃ d, owns (c : Thread nD τ) (st4_3 t) fullShare
        ((cfg4.win 3).fill (cfg4.grid.coords t) d ((cfg4.win 3).cut (cfg4.grid.coords t) ((dat4 V c).after 3 t)))))

/-- The body at point `t`, its buffers followed through: the three inputs come back as handed over — the
    activation's at its block, the weight's and the bias's at their blocks filled out by whatever `d₁`, `d₂` the
    fetches left —, the result's at the payload of exactly those. -/
theorem run_body4 (c : Dev nD) (t : Fin cfg4.N) (K : PUnit → sProp 𝕄) :
    iprop(bodyPreFgt4 V c t
        ∗ (∀ d₁ d₂, iprop((dat4 V c).Φ t.castSucc ∗ (dat4 V c).owesAt () t.castSucc
            ∗ owns (c : Thread nD τ) (st4_0 t) fullShare (iblk4 V c 0 t)
            ∗ owns (c : Thread nD τ) (st4_1 t) fullShare ((cfg4.win 1).fill (cfg4.grid.coords t) d₁ (iblk4 V c 1 t))
            ∗ owns (c : Thread nD τ) (st4_2 t) fullShare ((cfg4.win 2).fill (cfg4.grid.coords t) d₂ (iblk4 V c 2 t))
            ∗ owns (c : Thread nD τ) (st4_3 t) fullShare
                (k4_pay1 (iblk4 V c 0 t) ((cfg4.win 1).fill (cfg4.grid.coords t) d₁ (iblk4 V c 1 t))
                  ((cfg4.win 2).fill (cfg4.grid.coords t) d₂ (iblk4 V c 2 t)))) -∗ K ⟨⟩))
      ⊢ wp frame (wpE (defs₀ (F := F)) Variants.none c none) Set.univ (bodyAt4 t) K := by
  unfold bodyPreFgt4 bodyAt4
  simp only [before4_0, before4_1, before4_2]
  iintro ⟨⟨HΦ, Ho, ⟨%d0, H0⟩, ⟨%d1, H1⟩, ⟨%d2, H2⟩, ⟨%d3, H3⟩⟩, Hk⟩
  iapply (sound_kernel4 c Set.univ _ _ _ _ _ _ _ _ _ (iblk4 V c 0 t)
    ((cfg4.win 1).fill (cfg4.grid.coords t) d1 (iblk4 V c 1 t)) ((cfg4.win 2).fill (cfg4.grid.coords t) d2 (iblk4 V c 2 t)) _)
  isplitl [H0]; · iexact H0
  isplitl [H1]; · iexact H1
  isplitl [H2]; · iexact H2
  isplitl [H3]; · iexists _; iexact H3
  iintro ⟨H0, H1, H2, H3⟩
  iapply Hk
  isplitl [HΦ]; · iexact HΦ
  isplitl [Ho]; · iexact Ho
  isplitl [H0]; · iexact H0
  isplitl [H1]; · iexact H1
  isplitl [H2]; · iexact H2
  iexact H3

theorem sound_body_fgt4 (c : Dev nD) (t : Fin cfg4.N) :
    bodyPreFgt4 V c t ⊢ wp frame (wpE (defs₀ (F := F)) Variants.none c none) Set.univ (bodyAt4 t) (fun _ => bodyPostFgt4 V c t) := by
  iintro Hpre
  iapply (run_body4 V c t _)
  isplitl [Hpre]; · iexact Hpre
  iintro %d1 %d2 ⟨HΦ, Ho, H0, H1, H2, H3⟩
  unfold bodyPostFgt4
  rw [show (dat4 V c).Φ t.succ = (dat4 V c).Φ t.castSucc from rfl,
    show (dat4 V c).owesAt () t.succ = (dat4 V c).owesAt () t.castSucc from rfl,
    after4_0, after4_1, after4_2, cut_wblk4, cut_bblk4]
  isplitl [HΦ]; · iexact HΦ
  isplitl [Ho]; · iexact Ho
  isplitl [H0]; · iexact H0
  isplitl [H1]; · iexists d1; iexact H1
  isplitl [H2]; · iexists d2; iexact H2
  iexists _; iexact H3

theorem sound_body4 (hloc : K4Local F) (c : Dev nD) (t : Fin cfg4.N) :
    bodyPre4 V c t ⊢ wp frame (wpE (defs₀ (F := F)) Variants.none c none) Set.univ (bodyAt4 t) (fun _ => bodyPost4 V c t) := by
  unfold bodyPre4
  iintro ⟨HΦ, Ho, H0, H1, H2, ⟨%d3, H3⟩⟩
  iapply (run_body4 V c t _)
  isplitl [HΦ Ho H0 H1 H2 H3]
  · unfold bodyPreFgt4
    isplitl [HΦ]; · iexact HΦ
    isplitl [Ho]; · iexact Ho
    isplitl [H0]; · iexact H0
    isplitl [H1]; · iexact H1
    isplitl [H2]; · iexact H2
    iexists _; iexact H3
  iintro %d1 %d2 ⟨HΦ, Ho, H0, H1, H2, H3⟩
  unfold bodyPost4
  rw [show (dat4 V c).Φ t.succ = (dat4 V c).Φ t.castSucc from rfl,
    show (dat4 V c).owesAt () t.succ = (dat4 V c).owesAt () t.castSucc from rfl,
    after4_0, after4_1, after4_2, after4_3, cut_wblk4, cut_bblk4]
  isplitl [HΦ]; · iexact HΦ
  isplitl [Ho]; · iexact Ho
  isplitl [H0]; · iexact H0
  isplitl [H1]; · iexists d1; iexact H1
  isplitl [H2]; · iexists d2; iexact H2
  -- the payload of the buffers as found agrees, inside the array, with the payload of the zero-filled blocks
  have e : (cfg4.win 3).fill (cfg4.grid.coords t)
        (k4_pay1 (iblk4 V c 0 t) ((cfg4.win 1).fill (cfg4.grid.coords t) d1 (iblk4 V c 1 t))
          ((cfg4.win 2).fill (cfg4.grid.coords t) d2 (iblk4 V c 2 t)))
        ((cfg4.win 3).cut (cfg4.grid.coords t) (k4_pay1 (iblk4 V c 0 t) (wblk4 V c t) (bblk4 V c t)))
      = k4_pay1 (iblk4 V c 0 t) ((cfg4.win 1).fill (cfg4.grid.coords t) d1 (iblk4 V c 1 t))
          ((cfg4.win 2).fill (cfg4.grid.coords t) d2 (iblk4 V c 2 t)) :=
    (cfg4.win 3).fill_congr_cut (cfg4.grid.coords t)
      (cut_pay4 hloc t (iblk4 V c 0 t) d1 (fun _ => Scalar.ofBits .f32 0#32) (iblk4 V c 1 t) d2 (fun _ => Scalar.ofBits .f32 0#32) (iblk4 V c 2 t))
  iexists (k4_pay1 (iblk4 V c 0 t) ((cfg4.win 1).fill (cfg4.grid.coords t) d1 (iblk4 V c 1 t))
    ((cfg4.win 2).fill (cfg4.grid.coords t) d2 (iblk4 V c 2 t)))
  rw [e]
  iexact H3

/-- The windows a frame that states nothing of the result forgets: the result's. -/
def forgets4 : Fin cfg4.W → Bool := fun w => w.val == 3

/-- The body obligation with the result's window forgotten: its buffer is handed over and taken back at contents
    nothing names, so nothing is asked of the payload. -/
theorem body_obligation4_fgt (c : Dev nD) :
    BodyObligationLoose (dat4 (F := F) V c) (defs₀ (F := F)) Variants.none () Set.univ forgets4 := fun t => by
  rw [bigSep_W4, bigSep_W4]
  exact sound_body_fgt4 V c t

/-- The library's body obligation, at every point. -/
theorem body_obligation4 (hloc : K4Local F) (c : Dev nD) :
    BodyObligationLoose (dat4 (F := F) V c) (defs₀ (F := F)) Variants.none () Set.univ := fun t => by
  rw [bigSep_W4, bigSep_W4]
  exact sound_body4 V hloc c t

end Cert.Kernel.Hand

end
-- ==== Proof.FrameKernel.RunB.lean ====
/-
  The word-level program's run, from the launch to the return, and its frame claim: every argument array ends as it
  was launched. The contents of the unscoped buffers are followed boundary by boundary (a host stretch applies its
  operations, a kernel region leaves its arrays at what its write-backs add up to and every other buffer as it found
  it) up to the entry of the last region. That region's result block overhangs its array at the last grid point, and
  at a float instance whose matrix product is not interpreted what the body leaves there is not a named function of
  the arrays; so the last region's result window is forgotten: its proof data is read relationally, the array of the
  result ends at SOME contents, and the boundary after that region, the last host stretch and the final state are
  stated for some such contents. The arguments are read off the final state: no host stretch writes one and a region
  changes only the array of its result.
-/
import proofs.«425349_j42889543417942_3_alg».proof.Proof.FrameKernel.R0
import proofs.«425349_j42889543417942_3_alg».proof.Proof.FrameKernel.R1
import proofs.«425349_j42889543417942_3_alg».proof.Proof.FrameKernel.R2
import proofs.«425349_j42889543417942_3_alg».proof.Proof.FrameKernel.R3
import proofs.«425349_j42889543417942_3_alg».proof.Proof.FrameKernel.R4
import proofs.«425349_j42889543417942_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
/-- The same read at the TensorCore's references: what region 0 is entered from. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A region changes only the array of its result: an input window's array ends as it was entered, and a buffer that
    is no array of the region is not touched. -/
theorem W2_keep (c : Dev nD) (b : Ref sig .tc) (hb : b ≠ main_call0_v8) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (W2_arr m ρ c w).trans (((dat0 (V1 m ρ) c).arrAt_in w hw _).trans (A_eq0 (V1 m ρ) c w))
  · exact W2_of_ne m ρ c b (fun w e => h ⟨w, e⟩)

/-- After the host stretch before region 1. -/
abbrev W3 : Dev nD → Valuation τ sig (Elt F) := fun c => StableHlo.after hostOps1 (W2 m ρ c)
/-- The same read at the TensorCore's references: what region 1 is entered from. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A region changes only the array of its result: an input window's array ends as it was entered, and a buffer that
    is no array of the region is not touched. -/
theorem W4_keep (c : Dev nD) (b : Ref sig .tc) (hb : b ≠ main_call0_v22) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => exact absurd rfl hb
    exact (W4_arr m ρ c w).trans (((dat1 (V3 m ρ) c).arrAt_in w hw _).trans (A_eq1 (V3 m ρ) c w))
  · exact W4_of_ne m ρ c b (fun w e => h ⟨w, e⟩)

/-- After the host stretch before region 2. -/
abbrev W5 : Dev nD → Valuation τ sig (Elt F) := fun c => StableHlo.after hostOps2 (W4 m ρ c)
/-- The same read at the TensorCore's references: what region 2 is entered from. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A region changes only the array of its result: an input window's array ends as it was entered, and a buffer that
    is no array of the region is not touched. -/
theorem W6_keep (c : Dev nD) (b : Ref sig .tc) (hb : b ≠ main_call0_v26) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => exact absurd rfl hb
    exact (W6_arr m ρ c w).trans (((dat2 (V5 m ρ) c).arrAt_in w hw _).trans (A_eq2 (V5 m ρ) c w))
  · exact W6_of_ne m ρ c b (fun w e => h ⟨w, e⟩)

/-- After the host stretch before region 3. -/
abbrev W7 : Dev nD → Valuation τ sig (Elt F) := fun c => StableHlo.after hostOps3 (W6 m ρ c)
/-- The same read at the TensorCore's references: what region 3 is entered from. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A region changes only the array of its result: an input window's array ends as it was entered, and a buffer that
    is no array of the region is not touched. -/
theorem W8_keep (c : Dev nD) (b : Ref sig .tc) (hb : b ≠ main_call0_v30) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W8_arr m ρ c w).trans (((dat3 (V7 m ρ) c).arrAt_in w hw _).trans (A_eq3 (V7 m ρ) c w))
  · exact W8_of_ne m ρ c b (fun w e => h ⟨w, e⟩)

/-- After the host stretch before region 4. -/
abbrev W9 : Dev nD → Valuation τ sig (Elt F) := fun c => StableHlo.after hostOps4 (W8 m ρ c)
/-- The same read at the TensorCore's references: what region 4 is entered from. -/
abbrev V9 : (c : Dev nD) → (b : Ref sig .tc) → Buf (Elt F) ((c : Thread nD τ).loc b) := fun c b => W9 m ρ c b

/-! ## The proof data -/

/-- The five pipelines' proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c

/-- The last region's data read relationally, its result window forgotten: of what the body leaves in that window's
    buffer nothing is said. -/
abbrev rdat4 (c : Dev nD) : RDat τ (Elt F) Unit ℕ (UR sig nD τ) ℕ cfg4 c := (dat4 (V9 m ρ) c).toRForget forgets4

/-- The five pipelines' proof data read relationally: the first four exactly, the last with its result forgotten. -/
def rdats : (p : Fin 5) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => (dat1 (V3 m ρ) c).toR
  | ⟨2, _⟩ => fun c => (dat2 (V5 m ρ) c).toR
  | ⟨3, _⟩ => fun c => (dat3 (V7 m ρ) c).toR
  | ⟨4, _⟩ => fun c => rdat4 m ρ c

/-! ## The last region's exit -/

/-- Contents the last region may leave in its arrays: for each, contents the relational data allows after every
    write-back. -/
def Ok4 (c : Dev nD) (A : (w : Fin cfg4.W) → Buf (Elt F) ((cfg4.win w).arr.view.loc (c : Thread nD τ))) : Prop :=
  ∀ w, (rdat4 m ρ c).ArrAt w cfg4.N (A w)

/-- The buffers at the last region's exit, its arrays at `A`: every other buffer as entered. -/
def W10 (c : Dev nD) (A : (w : Fin cfg4.W) → Buf (Elt F) ((cfg4.win w).arr.view.loc (c : Thread nD τ))) : Valuation τ sig (Elt F) :=
  Pipeline.withArrays spec4 c (W9 m ρ c) A
theorem W10_arr (c : Dev nD) (A : (w : Fin cfg4.W) → Buf (Elt F) ((cfg4.win w).arr.view.loc (c : Thread nD τ))) (w : Fin cfg4.W) :
    W10 m ρ c A (Proc.devRef .tc (Pipeline.arrRef spec4 w)) = A w := by
  unfold W10; exact Pipeline.withArrays_arr spec4 launch4.win.arr_inj c _ _ w
theorem W10_of_ne (c : Dev nD) (A : (w : Fin cfg4.W) → Buf (Elt F) ((cfg4.win w).arr.view.loc (c : Thread nD τ))) (b : Ref sig .tc)
    (hb : ∀ w, Pipeline.arrRef spec4 w ≠ b) : W10 m ρ c A (Proc.devRef .tc b) = W9 m ρ c (Proc.devRef .tc b) := by
  unfold W10; exact Pipeline.withArrays_of_ne spec4 c _ _ b hb
/-- The last region changes only the array of its result: an input window's array is never written, so the relation
    allows it its entry contents only; a buffer that is no array of the region is not touched. -/
theorem W10_keep (c : Dev nD) (A : (w : Fin cfg4.W) → Buf (Elt F) ((cfg4.win w).arr.view.loc (c : Thread nD τ))) (hA : Ok4 m ρ c A)
    (b : Ref sig .tc) (hb : b ≠ main_call0_v61) : W10 m ρ c A (Proc.devRef .tc b) = W9 m ρ c (Proc.devRef .tc b) := by
  by_cases h : ∃ w, Pipeline.arrRef spec4 w = b
  · obtain ⟨w, rfl⟩ := h
    have hw : (cfg4.win w).isOut = false := by
      match w with
      | ⟨0, _⟩ => rfl
      | ⟨1, _⟩ => rfl
      | ⟨2, _⟩ => rfl
      | ⟨3, _⟩ => exact absurd rfl hb
    have hAw : A w = (rdat4 m ρ c).A w := (congrFun ((rdat4 m ρ c).ArrAt_in w hw cfg4.N) (A w)).mp (hA w)
    exact (W10_arr m ρ c A w).trans (hAw.trans (A_eq4 (V9 m ρ) c w))
  · exact W10_of_ne m ρ c A b (fun w e => h ⟨w, e⟩)

/-- The arrays after every write-back, opened: each held at SOME contents the relation allows. -/
theorem arraysAt4_open (c : Dev nD) :
    ((rdat4 m ρ c).arraysAt cfg4.N : sProp 𝕄) ⊢ iprop(∃ A, ⌜Ok4 m ρ c A⌝ ∗ (rdat4 m ρ c).arrays A) := by
  unfold RDat.arraysAt RDat.arrays
  iintro Ha
  ihave Ha' := (BI.bigSep_exists_pi Finset.univ (fun w F => iprop(⌜(rdat4 m ρ c).ArrAt w cfg4.N F⌝
      ∗ (cfg4.win w).arr.view.loc (c : Thread nD τ) ↦[(cfg4.win w).arr.view.set]{(rdat4 m ρ c).share w} F))) $$ Ha
  icases Ha' with ⟨%A, Ha⟩
  ihave Ha2 := (BI.bigSep_pure_sep Finset.univ (fun w => (rdat4 m ρ c).ArrAt w cfg4.N (A w))
      (fun w => (cfg4.win w).arr.view.loc (c : Thread nD τ) ↦[(cfg4.win w).arr.view.set]{(rdat4 m ρ c).share w} A w)) $$ Ha
  icases Ha2 with ⟨%hA', Ha⟩
  iexists A; isplitr; · ipureintro; exact fun w => hA' w (Finset.mem_univ w)
  iexact Ha

/-! ## What no stretch and no region writes -/

/-- Every reference some stretch writes or some region may change. -/
abbrev written : List (Ref sig .tc) :=
  hostOps0_W ++ hostOps1_W ++ hostOps2_W ++ hostOps3_W ++ hostOps4_W ++ hostOps5_W
    ++ [main_call0_v8, main_call0_v22, main_call0_v26, main_call0_v30, main_call0_v61]

/-- A buffer nothing writes ends as launched, whatever the last region left in its arrays. -/
theorem W11_of (c : Dev nD) (A : (w : Fin cfg4.W) → Buf (Elt F) ((cfg4.win w).arr.view.loc (c : Thread nD τ))) (hA : Ok4 m ρ c A)
    (b : Ref sig .tc) (h : b ∉ written) :
    StableHlo.after hostOps5 (W10 m ρ c A) (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  calc StableHlo.after hostOps5 (W10 m ρ c A) (Proc.devRef .tc b)
    _ = W10 m ρ c A (Proc.devRef .tc b) := StableHlo.after_of_writes_sub hostOps5 _ hostOps5_writes h5
    _ = W9 m ρ c (Proc.devRef .tc b) := W10_keep m ρ c A hA b hv61
    _ = W8 m ρ c (Proc.devRef .tc b) := StableHlo.after_of_writes_sub hostOps4 _ hostOps4_writes h4
    _ = W7 m ρ c (Proc.devRef .tc b) := W8_keep m ρ c b hv30
    _ = W6 m ρ c (Proc.devRef .tc b) := StableHlo.after_of_writes_sub hostOps3 _ hostOps3_writes h3
    _ = W5 m ρ c (Proc.devRef .tc b) := W6_keep m ρ c b hv26
    _ = W4 m ρ c (Proc.devRef .tc b) := StableHlo.after_of_writes_sub hostOps2 _ hostOps2_writes h2
    _ = W3 m ρ c (Proc.devRef .tc b) := W4_keep m ρ c b hv22
    _ = W2 m ρ c (Proc.devRef .tc b) := StableHlo.after_of_writes_sub hostOps1 _ hostOps1_writes h1
    _ = W1 m ρ c (Proc.devRef .tc b) := W2_keep m ρ c b hv8
    _ = W0 m ρ c (Proc.devRef .tc b) := StableHlo.after_of_writes_sub hostOps0 _ hostOps0_writes h0
    _ = m ((c : Thread nD τ).loc b) := rfl

/-! ## The thread states and the host stretches -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state after the last region: every unscoped buffer held, the region's arrays at some contents the
    relation allows and every other buffer as the region was entered. -/
abbrev T10 (c : Dev nD) : sProp 𝕄 :=
  iprop(∃ A, ⌜Ok4 m ρ c A⌝ ∗ StableHlo.held (c : Thread nD τ) (Pipeline.ucRefs τ sig) (W10 m ρ c A) ∗ R c)
/-- The thread state at the return: the last stretch's operations applied to such contents. -/
abbrev T11 (c : Dev nD) : sProp 𝕄 :=
  iprop(∃ A, ⌜Ok4 m ρ c A⌝ ∗ StableHlo.held (c : Thread nD τ) (Pipeline.ucRefs τ sig) (StableHlo.after hostOps5 (W10 m ρ c A)) ∗ R c)

/-- The last host stretch, from some contents the last region may have left to the same with the stretch's operations
    applied: whatever those contents are, the stretch runs from them as any stretch does. -/
def hseg5 : Pipeline.HostSeg (Name := ℕ) (U := UR sig nD τ) (pcfgs (F := F)) defs₀ 𝒱₀ L lv where
  prog := StableHlo.seq hostOps5
  pre := T10 m ρ
  post := T11 m ρ
  run c {β} k K := by
    iintro ⟨Hk, Hbd, ⟨%A, %hA, Hh, HR⟩, Hl⟩
    have hrun := (hseg hostOps5 hostOps5_sub hostOps5_fresh (fun _ => W10 m ρ c A)).run c k K
    dsimp only [hseg, Pipeline.HostSeg.ofOps] at hrun
    iapply hrun
    isplitl [Hk]
    · iintro ⟨Hbd, Hh, HR⟩
      iapply Hk
      isplitl [Hbd]; · iexact Hbd
      iexists A; isplitr; · ipureintro; exact hA
      isplitl [Hh] <;> iassumption
    isplitl [Hbd]; · iexact Hbd
    isplitl [Hh HR]
    · isplitl [Hh] <;> iassumption
    iexact Hl

/-! ## The regions as segments -/

set_option backward.isDefEq.respectTransparency.types false in
/-- Region 0 between its two boundaries: its arrays are split out of the unscoped buffers at entry and put back at
    their exit contents, which the exact data names; the generator register goes through the invariant; nothing is owed. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    rw [show (rdats m ρ 0 c).arraysAt (Pipeline.pin (pcfgs (F := F)) adm 0).N = ((pdats m ρ 0 c).arrays ((pdats m ρ 0 c).arrAt · cfg0.N) : sProp 𝕄)
      from (dat0 (V1 m ρ) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 between its two boundaries: its arrays are split out of the unscoped buffers at entry and put back at
    their exit contents, which the exact data names; the generator register goes through the invariant; nothing is owed. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose.toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    rw [show (rdats m ρ 1 c).arraysAt (Pipeline.pin (pcfgs (F := F)) adm 1).N = ((pdats m ρ 1 c).arrays ((pdats m ρ 1 c).arrAt · cfg1.N) : sProp 𝕄)
      from (dat1 (V3 m ρ) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 2 between its two boundaries: its arrays are split out of the unscoped buffers at entry and put back at
    their exit contents, which the exact data names; the generator register goes through the invariant; nothing is owed. -/
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose.toR
  hwaits := Pipeline.RDat.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.RDat.arrays_of_unscopedBufs (p := 2) (pcfgs (F := F)) adm (rdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    rw [show (rdats m ρ 2 c).arraysAt (Pipeline.pin (pcfgs (F := F)) adm 2).N = ((pdats m ρ 2 c).arrays ((pdats m ρ 2 c).arrAt · cfg2.N) : sProp 𝕄)
      from (dat2 (V5 m ρ) c).toR_arraysAt_eq cfg2.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 3 between its two boundaries: its arrays are split out of the unscoped buffers at entry and put back at
    their exit contents, which the exact data names; the generator register goes through the invariant; nothing is owed. -/
def reg3 : Pipeline.RDat.RegionSeg (pcfgs (F := F)) adm (rdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose.toR
  hwaits := Pipeline.RDat.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.RDat.arrays_of_unscopedBufs (p := 3) (pcfgs (F := F)) adm (rdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    rw [show (rdats m ρ 3 c).arraysAt (Pipeline.pin (pcfgs (F := F)) adm 3).N = ((pdats m ρ 3 c).arrays ((pdats m ρ 3 c).arrAt · cfg3.N) : sProp 𝕄)
      from (dat3 (V7 m ρ) c).toR_arraysAt_eq cfg3.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The last region between its two boundaries: its arrays are split out of the unscoped buffers at entry; at exit they
    come back at SOME contents the relation allows, and the boundary after the region is stated for such contents. -/
def reg4 : Pipeline.RDat.RegionSeg (pcfgs (F := F)) adm (rdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4_fgt (V9 m ρ) c).toRForget
  hwaits := Pipeline.RDat.hwaits_of_owed_zero _ _ _ _ L lv 4 fun _ _ => rfl
  pre c := iprop(StableHlo.held (c : Thread nD τ) (Pipeline.ucRefs τ sig) (W9 m ρ c) ∗ R c)
  post := T10 m ρ
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.RDat.arrays_of_unscopedBufs (p := 4) (pcfgs (F := F)) adm (rdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (rdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    rw [show (rdats m ρ 4 c).arraysAt (Pipeline.pin (pcfgs (F := F)) adm 4).N = ((rdat4 m ρ c).arraysAt cfg4.N : sProp 𝕄) from rfl]
    iintro ⟨Ha, HO, HY, Hrest⟩
    ihave Ha' := (arraysAt4_open m ρ c) $$ Ha
    icases Ha' with ⟨%A, %hA, Ha⟩
    ihave Hb := (show ((rdat4 m ρ c).arrays A : sProp 𝕄) ⊢ (pdats m ρ 4 c).arrays A from .rfl) $$ Ha
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (fun b => W10 m ρ c A (Proc.devRef .tc b)) A (fun w => (W10_arr m ρ c A w).symm)
      (fun b hb => W10_of_ne m ρ c A b fun w e => hb (Finset.mem_image.mpr ⟨w, Finset.mem_univ _, e⟩))
    rw [Pipeline.unscopedBufs_held] at hjoin
    imodintro
    iexists A; isplitr; · ipureintro; exact hA
    isplitl [Hb Hrest]
    · iapply hjoin; isplitl [Hb] <;> iassumption
    isplitl [HY]; · iexact HY
    unfold Pipeline.RDat.owesAt Pipeline.owesWithin
    icases HO with ⟨%W, -, HO⟩; iexists W; iexact HO

/-! ## @main as segments, and the launch -/

/-- @main's eleven segments in order. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg5 m ρ) ]

theorem main_run (c : Dev nD) : main (F := F) c = Pipeline.RDat.Seg.run (segs m ρ) := (main_chain c).trans (by chain_rfl)

/-- The last thread state without the dues: every unscoped buffer held, at the last stretch's operations applied to
    some contents the last region may have left; the generator register at some state. -/
abbrev Tₙ (c : Dev nD) : sProp 𝕄 :=
  iprop(∃ A, ⌜Ok4 m ρ c A⌝ ∗ StableHlo.held (c : Thread nD τ) (Pipeline.ucRefs τ sig) (StableHlo.after hostOps5 (W10 m ρ c A)) ∗ ∃ r, prngReg c r)

/-- What a final memory satisfies on core `c`: every unscoped buffer at the last stretch's operations applied to some
    contents the last region may have left. -/
def Final (c : Dev nD) (s : MemSt nD τ sig (Elt F)) : Prop :=
  ∃ A, Ok4 m ρ c A ∧ ∀ b ∈ Pipeline.ucRefs τ sig, s.mem (((c : Thread nD τ)).1, b) = StableHlo.after hostOps5 (W10 m ρ c A) b

set_option backward.isDefEq.respectTransparency.types false in
/-- THE RUN: from any memory with zero counters every weakly fair execution of @main terminates, nothing faulting, and
    every final state holds every unscoped buffer at such contents. -/
theorem run_all : θ_run defs (onTc (τ := τ) (main (F := F))) ⟨m, fun _ => 0, ρ⟩ (fun r => ∀ c : Dev nD, Final m ρ c r.2) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (T11 m ρ c : sProp 𝕄) ⊢ iprop(Tₙ m ρ c ∗ ∃ W, owes (c : Thread nD τ) (0 : CellTallies nD τ sig Unit) W)
        iintro ⟨%A, %hA, Hh, Hp, HO⟩
        isplitl [Hh Hp]
        · iexists A; isplitr; · ipureintro; exact hA
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := Final m ρ)
    (hfin := fun c s' => by
      iintro ⟨⟨%A, %hA, Hh, -⟩, HSI⟩
      unfold StableHlo.held
      imodintro
      ihave H := (pointsTo_read_all (Pipeline.ucRefs τ sig) (fun b => (((c : Thread nD τ)).1, b)) (StableHlo.after hostOps5 (W10 m ρ c A)) s') $$ [Hh HSI]
      · isplitl [Hh] <;> iassumption
      icases H with ⟨%h, HSI⟩
      isplitr; · ipureintro; exact ⟨A, hA, h⟩
      iexact HSI)
    (hQ := fun s h c => h c)

/-! ## The frame claim -/

/-- An argument in a final memory: it is an unscoped buffer nothing writes. -/
theorem arg_kept (c : Dev nD) (s : MemSt nD τ sig (Elt F)) (h : Final m ρ c s) (b : Ref sig .tc)
    (hu : ¬ (Proc.devRef .tc b : DevRef τ sig).isScoped) (hb : b ∉ written) :
    s.mem ((c : Thread nD τ).loc b) = m ((c : Thread nD τ).loc b) := by
  obtain ⟨A, hA, hs⟩ := h
  exact (hs _ (mem_uc b hu)).trans (W11_of m ρ c A hA b hb)

/-- THE FRAME: every weakly fair execution of @main terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨arg_kept m ρ c r.2 (h c) main_arg0 (by decide) (by decide),
     arg_kept m ρ c r.2 (h c) main_arg1 (by decide) (by decide),
     arg_kept m ρ c r.2 (h c) main_arg2 (by decide) (by decide),
     arg_kept m ρ c r.2 (h c) main_arg3 (by decide) (by decide),
     arg_kept m ρ c r.2 (h c) main_arg4 (by decide) (by decide),
     arg_kept m ρ c r.2 (h c) main_arg5 (by decide) (by decide),
     arg_kept m ρ c r.2 (h c) main_arg6 (by decide) (by decide),
     arg_kept m ρ c r.2 (h c) main_arg7 (by decide) (by decide),
     arg_kept m ρ c r.2 (h c) main_arg8 (by decide) (by decide),
     arg_kept m ρ c r.2 (h c) main_arg9 (by decide) (by decide),
     arg_kept m ρ c r.2 (h c) main_arg10 (by decide) (by decide),
     arg_kept m ρ c r.2 (h c) main_arg11 (by decide) (by decide),
     arg_kept m ρ c r.2 (h c) main_arg12 (by decide) (by decide),
     arg_kept m ρ c r.2 (h c) main_arg13 (by decide) (by decide),
     arg_kept m ρ c r.2 (h c) main_arg14 (by decide) (by decide)⟩) (run_all m ρ)

end Cert.Kernel.Hand

end
-- ==== Proof.FrameKernelIdeal.R0.lean ====
/-
  Region 0 of the decode step: the attention logits, `y = x · Wᵀ + b` over an (8, 2048) activation block kept in
  place, a (1024, 2048) weight block and a (1, 1024) bias block per grid point, four points along the 4096 output
  columns. This module states, at any float instance and for any contents `V` of the buffers when the region is
  entered: what each window's block is at a point, that the body stores the payload of the three input blocks over
  the whole output block, the proof data of the pipeline and the body obligation at every point.
-/
import proofs.«425349_j42889543417942_3_alg».proof.Proof.Gen.KernelIdeal.Launch
import proofs.«425349_j42889543417942_3_alg».proof.Proof.Gen.KernelIdeal.Skeleton
import proofs.«425349_j42889543417942_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: when it is not fetched its
    block index has not moved. Stated for any proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes. -/
abbrev rx0 : Rect S8x2048 := Rect.unit (s := S8x2048) ![0, 0] S8x2048.size inb_S8x2048_S8x2048_0_0
abbrev rw0 : Rect S1024x2048 := Rect.unit (s := S1024x2048) ![0, 0] S1024x2048.size inb_S1024x2048_S1024x2048_0_0
abbrev rb0 : Rect S1x1024 := Rect.unit (s := S1x1024) ![0, 0] S1x1024.size inb_S1x1024_S1x1024_0_0
abbrev ro0 : Rect S8x1024 := Rect.unit (s := S8x1024) ![0, 0] S8x1024.size inb_S8x1024_S8x1024_0_0

/-- The output block after the body: one store of the payload of the three input blocks, over the whole block. -/
def out0_3 (x0 : Vec F S8x2048 .f32) (x1 : Vec F S1024x2048 .f32) (x2 : Vec F S1x1024 .f32) : Vec F S8x1024 .f32 :=
  View.canon [⟨ro0, k0_pay1 (View.ld x0 rx0) (View.ld x1 rw0) (View.ld x2 rb0)⟩]

theorem cover0_3 (p0 : Vec F S8x1024 .f32) (y : S8x1024.Idx) :
    ∃ pc ∈ ([⟨ro0, p0⟩] : List (View.Piece (Elt F) S8x1024 .f32)), y ∈ pc.1.set :=
  View.cover_of_tiled [⟨ro0, p0⟩] S8x1024.size (by rfl) y

set_option maxHeartbeats 1000000 in
/-- The body on whole staging memrefs: the three inputs are left as found, the output ends at `out0_3` of them. -/
theorem sound_kernel0 (c : Dev nD) (E : Set ℕ) (i : grid0.Coords)
    (arg1 : Memref sig .tc .vmem S8x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S8x1024 .f32) (harg4 : arg4.IsWhole)
    (x0 : Vec F S8x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at a point each
    input's buffer at its block and the output's at `out0_3` of the three blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameKernelIdeal.R1.lean ====
/-
  Region 1 of the decode step: the attention context, `acc ← acc + w · E` with an (8, 1024) block of the attention
  weights and a (1024, 512) block of the encoder outputs per grid point, over a grid of 2 column halves by 4 steps
  along the 4096 contracted rows. The (8, 512) output block is an accumulator carried across the four steps of a
  column half: the body zeroes it at step 0, adds the step's product at every step, and it is written back after
  step 3. This module states, at any float instance and for any contents `V` of the buffers when the region is
  entered: what each input window's block is at a point, what the output block holds after the body at each point
  (by recursion on the points), the proof data of the pipeline and the body obligation at every point.
-/
import proofs.«425349_j42889543417942_3_alg».proof.Proof.Gen.KernelIdeal.Launch
import proofs.«425349_j42889543417942_3_alg».proof.Proof.Gen.KernelIdeal.Skeleton
import proofs.«425349_j42889543417942_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: when it is not fetched its
    block index has not moved. Stated for any proof data whose array is `V`'s and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes. -/
abbrev rx1 : Rect S8x1024 := Rect.unit (s := S8x1024) ![0, 0] S8x1024.size inb_S8x1024_S8x1024_0_0
abbrev rw1 : Rect S1024x512 := Rect.unit (s := S1024x512) ![0, 0] S1024x512.size inb_S1024x512_S1024x512_0_0
abbrev ro1 : Rect S8x512 := Rect.unit (s := S8x512) ![0, 0] S8x512.size inb_S8x512_S8x512_0_0

/-- The accumulator after the reset: the zero block. -/
def zero1 : Vec F S8x512 .f32 := k1_pay1 (F := F)

theorem zero1_eq : zero1 (F := F) = k1_pay1 := rfl

/-- The accumulator after one step that found `a` in it: the one store of `a` plus the product of the two input
    blocks, over the whole block. -/
def acc1 (x0 : Vec F S8x1024 .f32) (x1 : Vec F S1024x512 .f32) (a : Vec F S8x512 .f32) : Vec F S8x512 .f32 :=
  View.canon [⟨ro1, k1_pay2 (View.ld x0 rx1) (View.ld x1 rw1) (View.ld a ro1)⟩]

/-- The rectangles are the whole blocks at zero offsets, so the store leaves its payload and the loads read their
    blocks. -/
theorem acc1_eq (x0 : Vec F S8x1024 .f32) (x1 : Vec F S1024x512 .f32) (a : Vec F S8x512 .f32) : acc1 x0 x1 a = k1_pay2 x0 x1 a := by
  have hz : (![0, 0] : Fin 2 → ℕ) = fun _ => 0 := by funext a; fin_cases a <;> rfl
  unfold acc1
  rw [View.canon_unit_zero (S := S8x512) hz]
  simp only [View.ld_unit_zero (S := S8x1024) hz, View.ld_unit_zero (S := S1024x512) hz, View.ld_unit_zero (S := S8x512) hz]

/-- THE ACCUMULATION. What the output's staging buffer holds after the body at position `n`: at the first step of a
    column half (`n % 4 = 0`) one step over the zero block, at a later step one step over what the step before left
    (the buffer is not written back between). -/
def outsAt1 (c : Dev nD) : (n : ℕ) → n < cfg1.N → Vec F S8x512 .f32
  | 0, hn => acc1 (iblk1 V c 0 ⟨0, hn⟩) (iblk1 V c 1 ⟨0, hn⟩) zero1
  | n + 1, hn =>
    if h0 : (n + 1) % 4 = 0 then
      acc1 (iblk1 V c 0 ⟨n + 1, hn⟩) (iblk1 V c 1 ⟨n + 1, hn⟩) zero1
    else
      acc1 (iblk1 V c 0 ⟨n + 1, hn⟩) (iblk1 V c 1 ⟨n + 1, hn⟩) (outsAt1 c n (Nat.lt_of_succ_lt hn))

/-- `outsAt1` at a first step: one step over the zero block. -/
theorem outsAt1_A (c : Dev nD) (t : Fin cfg1.N) (h0 : t.val % 4 = 0) :
    outsAt1 V c t.val t.isLt = acc1 (iblk1 V c 0 t) (iblk1 V c 1 t) zero1 := by
  obtain ⟨n, hn⟩ := t
  cases n with
  | zero => exact rfl
  | succ n => exact (dif_pos h0).trans rfl

/-- `outsAt1` at a later step: one step over what the point before left. -/
theorem outsAt1_B (c : Dev nD) (t : Fin cfg1.N) (h0 : ¬ t.val % 4 = 0) :
    outsAt1 V c t.val t.isLt = acc1 (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of pipeline 1 on core `c`: the arrays as the region finds them; after the body at a point each
    input's buffer at its block and the output's at the accumulation up to that point; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

/-- The condition of the body's reset, from the grid coordinates (the printed scalar chain substituted). -/
abbrev cond1 (i : grid1.Coords) : Prop :=
  (Scalar.cmpi .ne (Scalar.extui (Scalar.cmpi .eq (BitVec.ofNat 32 (i 1).val) 0#32)) 0#32) = 1#1

/-- It holds at the first step of each column half only: decided over the eight points. -/
theorem hcond1 : ∀ t : Fin cfg1.N, cond1 (grid1.coords t) ↔ t.val % 4 = 0 :=
  (by decide +kernel : ∀ t : Fin grid1.N, cond1 (grid1.coords t) ↔ t.val % 4 = 0)

theorem zeros1 : (![0, 0] : Fin 2 → ℕ) = fun _ => 0 := by funext a; fin_cases a <;> rfl

/-- A last store over the whole block covers it, whatever came before. -/
theorem cover1_2 (p0 : Vec F S8x512 .f32) (L : List (View.Piece (Elt F) S8x512 .f32)) (y : S8x512.Idx) :
    ∃ pc ∈ ((⟨ro1, p0⟩ : View.Piece (Elt F) S8x512 .f32) :: L), y ∈ pc.1.set :=
  ⟨_, List.mem_cons_self, View.mem_set_unit_zero (S := S8x512) zeros1 inb_S8x512_S8x512_0_0 y⟩

set_option maxHeartbeats 1000000 in
/-- The body at a later step, on whole staging memrefs: the two inputs are left as found, the accumulator that held
    `a` ends at one step over `a`. -/
theorem sound_kernel1_B (c : Dev nD) (E : Set ℕ) (i : grid1.Coords) (hc : ¬ cond1 i)
    (arg2 : Memref sig .tc .vmem S8x1024 .f32) (harg2 : arg2.IsWhole) (arg3 : Memref sig .tc .vmem S1024x512 .f32) (harg3 : arg3.IsWhole)
    (arg4 : Memref sig .tc .vmem S8x512 .f32) (harg4 : arg4.IsWhole)
    (x0 : Vec F S8x1024 .f32) (x1 : Vec F S1024x512 .f32) (a : Vec F S8x512 .f32) (K : PUnit → sProp 𝕄) :
    iprop(owns (c : Thread nD τ) arg2 fullShare x0 ∗ owns (c : Thread nD τ) arg3 fullShare x1
        ∗ owns (c : Thread nD τ) arg4 fullShare a
        ∗ (iprop(owns (c : Thread nD τ) arg2 fullShare x0 ∗ owns (c : Thread nD τ) arg3 fullShare x1
            ∗ owns (c : Thread nD τ) arg4 fullShare (acc1 x0 x1 a)) -∗ K ⟨⟩))
      ⊢ wp frame (wpE (defs₀ (F := F)) Variants.none c none) E (cc1__attn_apply_kernel i arg2 harg2 arg3 harg3 arg4 harg4) K := by
  simp only [cc1__attn_apply_kernel_eq_skeleton]; unfold cc1__attn_apply_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ [])

set_option maxHeartbeats 1000000 in
/-- The body at the first step of a column half, on whole staging memrefs: the two inputs are left as found, the
    accumulator, whatever it held, is zeroed and ends at one step over the zero block. -/
theorem sound_kernel1_A (c : Dev nD) (E : Set ℕ) (i : grid1.Coords) (hc : cond1 i)
    (arg2 : Memref sig .tc .vmem S8x1024 .f32) (harg2 : arg2.IsWhole) (arg3 : Memref sig .tc .vmem S1024x512 .f32) (harg3 : arg3.IsWhole)
    (arg4 : Memref sig .tc .vmem S8x512 .f32) (harg4 : arg4.IsWhole)
    (x0 : Vec F S8x1024 .f32) (x1 : Vec F S1024x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (acc1 x0 x1 zero1)) -∗ K ⟨⟩))
      ⊢ wp frame (wpE (defs₀ (F := F)) Variants.none c none) E (cc1__attn_apply_kernel i arg2 harg2 arg3 harg3 arg4 harg4) K := by
  simp only [cc1__attn_apply_kernel_eq_skeleton]; unfold cc1__attn_apply_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _ _)]
  sl_unfold_words
  rw [View.canon_cons_unit_zero (S := S8x512) zeros1, View.readCov_unit_zero (S := S8x512) _ zeros1]
  unfold acc1 zero1
  rw [View.canon_unit_zero (S := S8x512) zeros1, View.ld_unit_zero (Val := Elt F) (e := .f32) (S := S8x512) zeros1 inb_S8x512_S8x512_0_0 k1_pay1]
  rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later step the accumulator's staging buffer holds what the body left at the point before: the point is not
    the first, the buffer was not written back between (write-back happens after step 3 only), the window is never
    idle and never cut. -/
theorem before1_2_B (c : Dev nD) (t : Fin cfg1.N) (h0 : ¬ t.val % 4 = 0) (d) :
    (dat1 V c).before 2 t d = outsAt1 V c (t.val - 1) (Nat.lt_of_le_of_lt (Nat.sub_le _ _) t.isLt) := by
  have hN : t.val < 8 := lt_of_lt_of_eq t.isLt (show cfg1.N = 8 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; the closed form of the condition says whether the
    point is a first step; at a later step the accumulator holds what the point before left; so the matching triple
    applies, and the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    iintro ⟨HΦ, Ho, ⟨%d0, H0⟩, ⟨%d1, H1⟩, ⟨%d2, H2⟩⟩
    iapply (sound_kernel1_A c Set.univ _ ((hcond1 t).mpr h0) _ _ _ _ _ _ (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_2_B V c t h0]
    iintro ⟨HΦ, Ho, ⟨%d0, H0⟩, ⟨%d1, H1⟩, ⟨%d2, H2⟩⟩
    iapply (sound_kernel1_B c Set.univ _ (fun h => h0 ((hcond1 t).mp h)) _ _ _ _ _ _ (iblk1 V c 0 t) (iblk1 V c 1 t)
      (outsAt1 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKernelIdeal.R2.lean ====
import proofs.«425349_j42889543417942_3_alg».proof.Proof.Gen.KernelIdeal.Launch
import proofs.«425349_j42889543417942_3_alg».proof.Proof.Gen.KernelIdeal.Skeleton
import proofs.«425349_j42889543417942_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: when it is not fetched its
    block index has not moved. Stated for any proof data whose array is `V`'s and whose body leaves the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body reads and writes. -/
abbrev rx2 : Rect S8x2048 := Rect.unit (s := S8x2048) ![0, 0] S8x2048.size inb_S8x2048_S8x2048_0_0
abbrev rw2 : Rect S512x2048 := Rect.unit (s := S512x2048) ![0, 0] S512x2048.size inb_S512x2048_S512x2048_0_0
abbrev rb2 : Rect S1x512 := Rect.unit (s := S1x512) ![0, 0] S1x512.size inb_S1x512_S1x512_0_0
abbrev ro2 : Rect S8x512 := Rect.unit (s := S8x512) ![0, 0] S8x512.size inb_S8x512_S8x512_0_0

/-- The output block after the body: one store of the payload of the three input blocks, over the whole block. -/
def out2_3 (x0 : Vec F S8x2048 .f32) (x1 : Vec F S512x2048 .f32) (x2 : Vec F S1x512 .f32) : Vec F S8x512 .f32 :=
  View.canon [⟨ro2, k2_pay1 (View.ld x0 rx2) (View.ld x1 rw2) (View.ld x2 rb2)⟩]

theorem cover2_3 (p0 : Vec F S8x512 .f32) (y : S8x512.Idx) :
    ∃ pc ∈ ([⟨ro2, p0⟩] : List (View.Piece (Elt F) S8x512 .f32)), y ∈ pc.1.set :=
  View.cover_of_tiled [⟨ro2, p0⟩] S8x512.size (by rfl) y

set_option maxHeartbeats 1000000 in
/-- The body on whole staging memrefs: the three inputs are left as found, the output ends at `out2_3` of them. -/
theorem sound_kernel2 (c : Dev nD) (E : Set ℕ) (i : grid2.Coords)
    (arg1 : Memref sig .tc .vmem S8x2048 .f32) (harg1 : arg1.IsWhole) (arg2 : Memref sig .tc .vmem S512x2048 .f32) (harg2 : arg2.IsWhole)
    (arg3 : Memref sig .tc .vmem S1x512 .f32) (harg3 : arg3.IsWhole) (arg4 : Memref sig .tc .vmem S8x512 .f32) (harg4 : arg4.IsWhole)
    (x0 : Vec F S8x2048 .f32) (x1 : Vec F S512x2048 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at a point each
    input's buffer at its block and the output's at `out2_3` of the three blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameKernelIdeal.R3.lean ====
/-
  Region 3 of the decode step: the LSTM gates' pre-activations, `x · Wihᵀ + h · Whhᵀ + bih + bhh` over two (8, 1024)
  activation blocks kept in place, two (1024, 1024) weight blocks and two (1, 1024) bias blocks per grid point, four
  points along the 4096 gate columns. Each window's block at a point, the body's one whole-block store of the payload
  of the six input blocks, the proof data of the pipeline and the body obligation at every point, at any float
  instance and for any contents `V` of the buffers when the region is entered.
-/
import proofs.«425349_j42889543417942_3_alg».proof.Proof.Gen.KernelIdeal.Launch
import proofs.«425349_j42889543417942_3_alg».proof.Proof.Gen.KernelIdeal.Skeleton
import proofs.«425349_j42889543417942_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: when it is not fetched its
    block index has not moved. Stated for any proof data whose array is `V`'s and whose body leaves the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body reads and writes. -/
abbrev ra3 : Rect S8x1024 := Rect.unit (s := S8x1024) ![0, 0] S8x1024.size inb_S8x1024_S8x1024_0_0
abbrev rw3 : Rect S1024x1024 := Rect.unit (s := S1024x1024) ![0, 0] S1024x1024.size inb_S1024x1024_S1024x1024_0_0
abbrev rb3 : Rect S1x1024 := Rect.unit (s := S1x1024) ![0, 0] S1x1024.size inb_S1x1024_S1x1024_0_0

/-- The output block after the body: one store of the payload of the six input blocks, over the whole block. -/
def out3_6 (x0 x1 : Vec F S8x1024 .f32) (x2 x3 : Vec F S1024x1024 .f32) (x4 x5 : Vec F S1x1024 .f32) : Vec F S8x1024 .f32 :=
  View.canon [⟨ra3, k3_pay1 (View.ld x0 ra3) (View.ld x1 ra3) (View.ld x2 rw3) (View.ld x3 rw3) (View.ld x4 rb3) (View.ld x5 rb3)⟩]

theorem cover3_6 (p0 : Vec F S8x1024 .f32) (y : S8x1024.Idx) :
    ∃ pc ∈ ([⟨ra3, p0⟩] : List (View.Piece (Elt F) S8x1024 .f32)), y ∈ pc.1.set :=
  View.cover_of_tiled [⟨ra3, p0⟩] S8x1024.size (by rfl) y

set_option maxHeartbeats 2000000 in
/-- The body on whole staging memrefs: the six inputs are left as found, the output ends at `out3_6` of them. -/
theorem sound_kernel3 (c : Dev nD) (E : Set ℕ) (i : grid3.Coords)
    (arg1 : Memref sig .tc .vmem S8x1024 .f32) (harg1 : arg1.IsWhole) (arg2 : Memref sig .tc .vmem S8x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S8x1024 .f32) (harg7 : arg7.IsWhole)
    (x0 x1 : Vec F S8x1024 .f32) (x2 x3 : Vec F S1024x1024 .f32) (x4 x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__gates_kernel i arg1 harg1 arg2 harg2 arg3 harg3 arg4 harg4 arg5 harg5 arg6 harg6 arg7 harg7) K := by
  simp only [cc3__gates_kernel_eq_skeleton]; unfold cc3__gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core `c`: the arrays as the region finds them; after the body at a point each
    input's buffer at its block and the output's at `out3_6` of the six blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrameKernelIdeal.R4.lean ====
/-
  Region 4 of the decode step: the output projection, `y = x · Wᵀ + b` over the vocabulary. An (8, 1024) activation
  block is kept in place; at grid point `t` (fifty of them) the body reads rows `1024 t ‥` of the (50257, 1024)
  weight array as a (1024, 1024) block and columns `1024 t ‥` of the (1, 50257) bias as a (1, 1024) block, and
  writes columns `1024 t ‥` of the (8, 50257) result from an (8, 1024) block. Since 50257 = 49 · 1024 + 81, the last
  point's weight block has only its first 81 rows inside the array and its bias and result blocks only their first
  81 columns: a transfer there moves that part alone, and the rest of a fetched buffer holds words nothing names.

  This module states, at any float instance and for any contents `V` of the buffers when the region is entered:
  what each window's block is at a point (its part inside the array); that the body stores the payload of its three
  WHOLE input buffers, whatever they hold, over the whole output buffer; the proof data of the pipeline, whose
  contents after the body are the blocks filled out past the arrays' ends with a zero word and the payload of those;
  and the body obligation at every point, which describes the cut windows' buffers on the part inside the array only.
  That last step needs one fact about the payload, `K4Local`: its entry in column `n` reads row `n` of the weight
  buffer and entry `n` of the bias buffer and no other entry of either — so on the columns inside the array the
  unnamed words are never read. It is a hypothesis here (a float instance's matrix product is its own to describe)
  and a theorem at the extended reals, where the product is the sum of products (`k4Local_ideal`).
-/
import proofs.«425349_j42889543417942_3_alg».proof.Proof.Gen.KernelIdeal.Launch
import proofs.«425349_j42889543417942_3_alg».proof.Proof.Gen.KernelIdeal.Skeleton
import proofs.«425349_j42889543417942_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the block's part inside the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The weight block at point `t` as a whole (1024, 1024) buffer: its rows inside the array, and the zero word on
    the rows past the array's end (there are such rows at the last point only). -/
def wblk4 (c : Dev nD) (t : Fin cfg4.N) : Vec F S1024x1024 .f32 :=
  (cfg4.win 1).fill (cfg4.grid.coords t) (fun _ => Scalar.ofBits .f32 0#32) (iblk4 V c 1 t)

/-- The bias block at point `t` as a whole (1, 1024) buffer, filled out with the zero word likewise. -/
def bblk4 (c : Dev nD) (t : Fin cfg4.N) : Vec F S1x1024 .f32 :=
  (cfg4.win 2).fill (cfg4.grid.coords t) (fun _ => Scalar.ofBits .f32 0#32) (iblk4 V c 2 t)

/-- The payload's entry in column `n` reads, of the weight buffer, row `n` only and, of the bias buffer, entry `n`
    only: two weight buffers that agree on that row and two bias buffers that agree at that entry give one value.
    (Of a float instance's matrix product nothing is known in general; an instance says this of its own.) -/
def K4Local (F : FTy → Type) [FloatOps F] : Prop :=
  ∀ (x : Vec F S8x1024 .f32) (W W' : Vec F S1024x1024 .f32) (b b' : Vec F S1x1024 .f32) (j : S8x1024.Idx),
    (∀ i : S1024x1024.Idx, (i 0).val = (j 1).val → W i = W' i) →
    (∀ i : S1x1024.Idx, (i 1).val = (j 1).val → b i = b' i) →
    k4_pay1 x W b j = k4_pay1 x W' b' j

/-- The product contracts the second axis of both operands: the weight entry that result entry `(r, n)` meets at
    contraction index `k` is in row `n`. -/
theorem rhsIdx4_0 (j : S8x1024.Idx) (k : dot_S8x1024_S1024x1024_S8x1024_1_1_0_0_n_n.contr.Idx) :
    ((dot_S8x1024_S1024x1024_S8x1024_1_1_0_0_n_n.rhsIdx j k) 0).val = (j 1).val := by
  simp [DotDims.rhsIdx, dot_S8x1024_S1024x1024_S8x1024_1_1_0_0_n_n]; rfl

/-- At the extended reals it does: the entry is the sum over `k` of `x[r, k] · W[n, k]` (a narrowing of the format
    is the identity there), plus the bias row broadcast down the rows, `b[0, n]`. -/
theorem k4Local_ideal : K4Local Ideal := by
  intro x W W' b b' j hW hb
  unfold k4_pay1
  simp only [matmul]
  have hA : FloatOps.matmul (F := Ideal) dot_S8x1024_S1024x1024_S8x1024_1_1_0_0_n_n none
        (truncf FTy.bf16 (shapeCast S8x1024 x shapeCasts_S8x1024_S8x1024) bitsLt_bf16_f32)
        (truncf FTy.bf16 W bitsLt_bf16_f32) (constant S8x1024 FTy.f32 0#32) j
      = FloatOps.matmul (F := Ideal) dot_S8x1024_S1024x1024_S8x1024_1_1_0_0_n_n none
        (truncf FTy.bf16 (shapeCast S8x1024 x shapeCasts_S8x1024_S8x1024) bitsLt_bf16_f32)
        (truncf FTy.bf16 W' bitsLt_bf16_f32) (constant S8x1024 FTy.f32 0#32) j := by
    rw [Ideal.matmul_apply, Ideal.matmul_apply]
    refine congrArg _ (Finset.sum_congr rfl fun k _ => ?_)
    show _ * W _ = _ * W' _
    rw [hW _ (rhsIdx4_0 j k)]
  have hB : broadcastTo S8x1024 (shapeCast S1x1024 b shapeCasts_S1x1024_S1x1024) broadcasts_S1x1024_S8x1024 j
      = broadcastTo S8x1024 (shapeCast S1x1024 b' shapeCasts_S1x1024_S1x1024) broadcasts_S1x1024_S8x1024 j := by
    unfold broadcastTo shapeCast
    simp only [Shape.reshapeEquiv_self]
    exact hb _ rfl
  exact congrArg₂ (· + ·) hA hB

/-- A staging buffer filled from a block reads, on the part the transfer moves, the block, whatever filled the rest. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- How the three cut windows are cut at a point: the weight block keeps all its columns and as many rows as the
    result block keeps columns; the bias block keeps its one row and as many columns as the result block. -/
theorem xsize4 : ∀ t : Fin cfg4.N,
    (cfg4.win 1).xsize (cfg4.grid.coords t) (1 : Fin 2) = 1024
    ∧ (cfg4.win 1).xsize (cfg4.grid.coords t) (0 : Fin 2) = (cfg4.win 3).xsize (cfg4.grid.coords t) (1 : Fin 2)
    ∧ (cfg4.win 2).xsize (cfg4.grid.coords t) (0 : Fin 2) = 1
    ∧ (cfg4.win 2).xsize (cfg4.grid.coords t) (1 : Fin 2) = (cfg4.win 3).xsize (cfg4.grid.coords t) (1 : Fin 2) :=
  (by decide +kernel : ∀ t : Fin grid4.N,
    win4_1.xsize (grid4.coords t) (1 : Fin 2) = 1024
    ∧ win4_1.xsize (grid4.coords t) (0 : Fin 2) = win4_3.xsize (grid4.coords t) (1 : Fin 2)
    ∧ win4_2.xsize (grid4.coords t) (0 : Fin 2) = 1
    ∧ win4_2.xsize (grid4.coords t) (1 : Fin 2) = win4_3.xsize (grid4.coords t) (1 : Fin 2))

/-- A weight-buffer entry in a row whose number is a column the result block keeps is one the fetch moves. -/
theorem moved4_1 (t : Fin cfg4.N) (n : Nat) (hn : n < (cfg4.win 3).xsize (cfg4.grid.coords t) (1 : Fin 2))
    (i : S1024x1024.Idx) (hi : (i 0).val = n) : (cfg4.win 1).moved (cfg4.grid.coords t) i = true := by
  rw [Window.moved_iff]
  intro a
  have h := xsize4 t
  have h1 : (i 1).val < 1024 := (i 1).isLt
  match a with
  | ⟨0, _⟩ => exact Nat.lt_of_lt_of_eq (hi ▸ hn) h.2.1.symm
  | ⟨1, _⟩ => exact Nat.lt_of_lt_of_eq h1 h.1.symm

/-- A bias-buffer entry in a column the result block keeps is one the fetch moves. -/
theorem moved4_2 (t : Fin cfg4.N) (n : Nat) (hn : n < (cfg4.win 3).xsize (cfg4.grid.coords t) (1 : Fin 2))
    (i : S1x1024.Idx) (hi : (i 1).val = n) : (cfg4.win 2).moved (cfg4.grid.coords t) i = true := by
  rw [Window.moved_iff]
  intro a
  have h := xsize4 t
  have h0 : (i 0).val < 1 := (i 0).isLt
  match a with
  | ⟨0, _⟩ => exact Nat.lt_of_lt_of_eq h0 h.2.2.1.symm
  | ⟨1, _⟩ => exact Nat.lt_of_lt_of_eq (hi ▸ hn) h.2.2.2.symm

/-- On the part of the result block inside the array the payload does not depend on what fills the weight and bias
    buffers past their arrays' ends: those words are in rows and at entries whose numbers are columns past the
    result array's end. -/
theorem cut_pay4 (hloc : K4Local F) (t : Fin cfg4.N) (x : Vec F S8x1024 .f32)
    (d1 d1' : Vec F S1024x1024 .f32) (g1 : ((cfg4.win 1).xblock (cfg4.grid.coords t)).Idx → Elt F .f32)
    (d2 d2' : Vec F S1x1024 .f32) (g2 : ((cfg4.win 2).xblock (cfg4.grid.coords t)).Idx → Elt F .f32) :
    (cfg4.win 3).cut (cfg4.grid.coords t)
        (k4_pay1 x ((cfg4.win 1).fill (cfg4.grid.coords t) d1 g1) ((cfg4.win 2).fill (cfg4.grid.coords t) d2 g2))
      = (cfg4.win 3).cut (cfg4.grid.coords t)
        (k4_pay1 x ((cfg4.win 1).fill (cfg4.grid.coords t) d1' g1) ((cfg4.win 2).fill (cfg4.grid.coords t) d2' g2)) := by
  funext j
  have hn : ((j (1 : Fin 2)).val) < (cfg4.win 3).xsize (cfg4.grid.coords t) (1 : Fin 2) := (j (1 : Fin 2)).isLt
  exact hloc x _ _ _ _ ((cfg4.win 3).xinj (cfg4.grid.coords t) j)
    (fun i hi => fill_eq_of_moved (cfg4.win 1) (cfg4.grid.coords t) d1 d1' g1 i (moved4_1 t _ hn i hi))
    (fun i hi => fill_eq_of_moved (cfg4.win 2) (cfg4.grid.coords t) d2 d2' g2 i (moved4_2 t _ hn i hi))

/-- The whole-block rectangles the body reads and writes. -/
abbrev rx4 : Rect S8x1024 := Rect.unit (s := S8x1024) ![0, 0] S8x1024.size inb_S8x1024_S8x1024_0_0
abbrev rw4 : Rect S1024x1024 := Rect.unit (s := S1024x1024) ![0, 0] S1024x1024.size inb_S1024x1024_S1024x1024_0_0
abbrev rb4 : Rect S1x1024 := Rect.unit (s := S1x1024) ![0, 0] S1x1024.size inb_S1x1024_S1x1024_0_0

/-- The output buffer after the body, as the run leaves it: one store of the payload of the three loaded buffers,
    over the whole buffer. -/
def out4_3 (x0 : Vec F S8x1024 .f32) (x1 : Vec F S1024x1024 .f32) (x2 : Vec F S1x1024 .f32) : Vec F S8x1024 .f32 :=
  View.canon [⟨rx4, k4_pay1 (View.ld x0 rx4) (View.ld x1 rw4) (View.ld x2 rb4)⟩]

theorem zeros2 : (![0, 0] : Fin 2 → Nat) = fun _ => 0 := funext fun a => by fin_cases a <;> rfl

/-- Loads and the store are of whole buffers: the output buffer ends at the payload of the input buffers. -/
theorem out4_3_eq (x0 : Vec F S8x1024 .f32) (x1 : Vec F S1024x1024 .f32) (x2 : Vec F S1x1024 .f32) :
    out4_3 x0 x1 x2 = k4_pay1 x0 x1 x2 := by
  unfold out4_3
  rw [View.canon_unit_zero zeros2, View.ld_unit_zero zeros2, View.ld_unit_zero zeros2, View.ld_unit_zero zeros2]

theorem cover4_3 (p0 : Vec F S8x1024 .f32) (y : S8x1024.Idx) :
    ∃ pc ∈ ([⟨rx4, p0⟩] : List (View.Piece (Elt F) S8x1024 .f32)), y ∈ pc.1.set :=
  View.cover_of_tiled [⟨rx4, p0⟩] S8x1024.size (by rfl) y

set_option maxHeartbeats 1000000 in
/-- The body on whole staging memrefs holding anything: the three inputs are left as found, the output ends at the
    payload of them. -/
theorem sound_kernel4 (c : Dev nD) (E : Set ℕ) (i : grid4.Coords)
    (arg1 : Memref sig .tc .vmem S8x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S8x1024 .f32) (harg4 : arg4.IsWhole)
    (x0 : Vec F S8x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k4_pay1 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover4_3 _)).trans (out4_3_eq _ _ _)

/-- The proof data of pipeline 4 on core `c`: the arrays as the region finds them; after the body at a point the
    activation's buffer at its block, the weight's and the bias's at their blocks filled out with zeros, and the
    result's at the payload of those three; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => wblk4 V c t
    | ⟨2, _⟩ => bblk4 V c t
    | ⟨3, _⟩ => k4_pay1 (iblk4 V c 0 t) (wblk4 V c t) (bblk4 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = wblk4 V c t := by dsimp only [dat4]
theorem after4_2 (c : Dev nD) (t : Fin cfg4.N) : (dat4 V c).after 2 t = bblk4 V c t := by dsimp only [dat4]
theorem after4_3 (c : Dev nD) (t : Fin cfg4.N) :
    (dat4 V c).after 3 t = k4_pay1 (iblk4 V c 0 t) (wblk4 V c t) (bblk4 V c t) := by dsimp only [dat4]

/-- What the write-back at point `t` writes: the payload of the three blocks (the weight's and the bias's filled out
    with zeros) on the result block's part inside the array. -/
theorem after4_3_cut (c : Dev nD) (t : Fin cfg4.N) :
    (cfg4.win 3).cut (cfg4.grid.coords t) ((dat4 V c).after 3 t)
      = fun j => k4_pay1 (iblk4 V c 0 t) (wblk4 V c t) (bblk4 V c t) ((cfg4.win 3).xinj (cfg4.grid.coords t) j) := by
  rw [after4_3]

/-- The weight's and the bias's buffers, cut back to the part inside their arrays, are their blocks. -/
theorem cut_wblk4 (c : Dev nD) (t : Fin cfg4.N) : (cfg4.win 1).cut (cfg4.grid.coords t) (wblk4 V c t) = iblk4 V c 1 t :=
  (cfg4.win 1).cut_fill _ _ _
theorem cut_bblk4 (c : Dev nD) (t : Fin cfg4.N) : (cfg4.win 2).cut (cfg4.grid.coords t) (bblk4 V c t) = iblk4 V c 2 t :=
  (cfg4.win 2).cut_fill _ _ _

/-- The activation's buffer holds its block at every point, fetched there (the first) or not: its block index
    never moves and the body leaves it in place. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-- The weight's and the bias's buffers are fetched at every point: each holds its block on the part the fetch
    moves and, past the array's end, what the buffer held (any `d`). -/
theorem before4_1 (c : Dev nD) (t : Fin cfg4.N) (d) :
    (dat4 V c).before 1 t d = (cfg4.win 1).fill (cfg4.grid.coords t) d (iblk4 V c 1 t) := by
  unfold Dat.before; rw [if_pos (fetch4_1 t)]; unfold Dat.fetched Dat.blockOf iblk4; rw [A_eq4]
theorem before4_2 (c : Dev nD) (t : Fin cfg4.N) (d) :
    (dat4 V c).before 2 t d = (cfg4.win 2).fill (cfg4.grid.coords t) d (iblk4 V c 2 t) := by
  unfold Dat.before; rw [if_pos (fetch4_2 t)]; unfold Dat.fetched Dat.blockOf iblk4; rw [A_eq4]

/-- What the body is called with at point `t`, the result's buffer at anything (what it is handed when that window is
    forgotten, and all the body needs: it overwrites the buffer), -/
def bodyPreFgt4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ X, owns (c : Thread nD τ) (st4_3 t) fullShare X))

/-- what it is called with when the result's window is not forgotten, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- what it returns when the result's window is forgotten, -/
def bodyPostFgt4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ (∃ d, owns (c : Thread nD τ) (st4_1 t) fullShare
        ((cfg4.win 1).fill (cfg4.grid.coords t) d ((cfg4.win 1).cut (cfg4.grid.coords t) ((dat4 V c).after 1 t))))
    ∗ (∃ d, owns (c : Thread nD τ) (st4_2 t) fullShare
        ((cfg4.win 2).fill (cfg4.grid.coords t) d ((cfg4.win 2).cut (cfg4.grid.coords t) ((dat4 V c).after 2 t))))
    ∗ (∃ X, owns (c : Thread nD τ) (st4_3 t) fullShare X))

/-- and what it returns when it is not: each cut window's buffer stated on the part inside the array. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ (∃ d, owns (c : Thread nD τ) (st4_1 t) fullShare
        ((cfg4.win 1).fill (cfg4.grid.coords t) d ((cfg4.win 1).cut (cfg4.grid.coords t) ((dat4 V c).after 1 t))))
    ∗ (∃ d, owns (c : Thread nD τ) (st4_2 t) fullShare
        ((cfg4.win 2).fill (cfg4.grid.coords t) d ((cfg4.win 2).cut (cfg4.grid.coords t) ((dat4 V c).after 2 t))))
    ∗ (∃ d, owns (c : Thread nD τ) (st4_3 t) fullShare
        ((cfg4.win 3).fill (cfg4.grid.coords t) d ((cfg4.win 3).cut (cfg4.grid.coords t) ((dat4 V c).after 3 t)))))

/-- The body at point `t`, its buffers followed through: the three inputs come back as handed over — the
    activation's at its block, the weight's and the bias's at their blocks filled out by whatever `d₁`, `d₂` the
    fetches left —, the result's at the payload of exactly those. -/
theorem run_body4 (c : Dev nD) (t : Fin cfg4.N) (K : PUnit → sProp 𝕄) :
    iprop(bodyPreFgt4 V c t
        ∗ (∀ d₁ d₂, iprop((dat4 V c).Φ t.castSucc ∗ (dat4 V c).owesAt () t.castSucc
            ∗ owns (c : Thread nD τ) (st4_0 t) fullShare (iblk4 V c 0 t)
            ∗ owns (c : Thread nD τ) (st4_1 t) fullShare ((cfg4.win 1).fill (cfg4.grid.coords t) d₁ (iblk4 V c 1 t))
            ∗ owns (c : Thread nD τ) (st4_2 t) fullShare ((cfg4.win 2).fill (cfg4.grid.coords t) d₂ (iblk4 V c 2 t))
            ∗ owns (c : Thread nD τ) (st4_3 t) fullShare
                (k4_pay1 (iblk4 V c 0 t) ((cfg4.win 1).fill (cfg4.grid.coords t) d₁ (iblk4 V c 1 t))
                  ((cfg4.win 2).fill (cfg4.grid.coords t) d₂ (iblk4 V c 2 t)))) -∗ K ⟨⟩))
      ⊢ wp frame (wpE (defs₀ (F := F)) Variants.none c none) Set.univ (bodyAt4 t) K := by
  unfold bodyPreFgt4 bodyAt4
  simp only [before4_0, before4_1, before4_2]
  iintro ⟨⟨HΦ, Ho, ⟨%d0, H0⟩, ⟨%d1, H1⟩, ⟨%d2, H2⟩, ⟨%d3, H3⟩⟩, Hk⟩
  iapply (sound_kernel4 c Set.univ _ _ _ _ _ _ _ _ _ (iblk4 V c 0 t)
    ((cfg4.win 1).fill (cfg4.grid.coords t) d1 (iblk4 V c 1 t)) ((cfg4.win 2).fill (cfg4.grid.coords t) d2 (iblk4 V c 2 t)) _)
  isplitl [H0]; · iexact H0
  isplitl [H1]; · iexact H1
  isplitl [H2]; · iexact H2
  isplitl [H3]; · iexists _; iexact H3
  iintro ⟨H0, H1, H2, H3⟩
  iapply Hk
  isplitl [HΦ]; · iexact HΦ
  isplitl [Ho]; · iexact Ho
  isplitl [H0]; · iexact H0
  isplitl [H1]; · iexact H1
  isplitl [H2]; · iexact H2
  iexact H3

theorem sound_body_fgt4 (c : Dev nD) (t : Fin cfg4.N) :
    bodyPreFgt4 V c t ⊢ wp frame (wpE (defs₀ (F := F)) Variants.none c none) Set.univ (bodyAt4 t) (fun _ => bodyPostFgt4 V c t) := by
  iintro Hpre
  iapply (run_body4 V c t _)
  isplitl [Hpre]; · iexact Hpre
  iintro %d1 %d2 ⟨HΦ, Ho, H0, H1, H2, H3⟩
  unfold bodyPostFgt4
  rw [show (dat4 V c).Φ t.succ = (dat4 V c).Φ t.castSucc from rfl,
    show (dat4 V c).owesAt () t.succ = (dat4 V c).owesAt () t.castSucc from rfl,
    after4_0, after4_1, after4_2, cut_wblk4, cut_bblk4]
  isplitl [HΦ]; · iexact HΦ
  isplitl [Ho]; · iexact Ho
  isplitl [H0]; · iexact H0
  isplitl [H1]; · iexists d1; iexact H1
  isplitl [H2]; · iexists d2; iexact H2
  iexists _; iexact H3

theorem sound_body4 (hloc : K4Local F) (c : Dev nD) (t : Fin cfg4.N) :
    bodyPre4 V c t ⊢ wp frame (wpE (defs₀ (F := F)) Variants.none c none) Set.univ (bodyAt4 t) (fun _ => bodyPost4 V c t) := by
  unfold bodyPre4
  iintro ⟨HΦ, Ho, H0, H1, H2, ⟨%d3, H3⟩⟩
  iapply (run_body4 V c t _)
  isplitl [HΦ Ho H0 H1 H2 H3]
  · unfold bodyPreFgt4
    isplitl [HΦ]; · iexact HΦ
    isplitl [Ho]; · iexact Ho
    isplitl [H0]; · iexact H0
    isplitl [H1]; · iexact H1
    isplitl [H2]; · iexact H2
    iexists _; iexact H3
  iintro %d1 %d2 ⟨HΦ, Ho, H0, H1, H2, H3⟩
  unfold bodyPost4
  rw [show (dat4 V c).Φ t.succ = (dat4 V c).Φ t.castSucc from rfl,
    show (dat4 V c).owesAt () t.succ = (dat4 V c).owesAt () t.castSucc from rfl,
    after4_0, after4_1, after4_2, after4_3, cut_wblk4, cut_bblk4]
  isplitl [HΦ]; · iexact HΦ
  isplitl [Ho]; · iexact Ho
  isplitl [H0]; · iexact H0
  isplitl [H1]; · iexists d1; iexact H1
  isplitl [H2]; · iexists d2; iexact H2
  -- the payload of the buffers as found agrees, inside the array, with the payload of the zero-filled blocks
  have e : (cfg4.win 3).fill (cfg4.grid.coords t)
        (k4_pay1 (iblk4 V c 0 t) ((cfg4.win 1).fill (cfg4.grid.coords t) d1 (iblk4 V c 1 t))
          ((cfg4.win 2).fill (cfg4.grid.coords t) d2 (iblk4 V c 2 t)))
        ((cfg4.win 3).cut (cfg4.grid.coords t) (k4_pay1 (iblk4 V c 0 t) (wblk4 V c t) (bblk4 V c t)))
      = k4_pay1 (iblk4 V c 0 t) ((cfg4.win 1).fill (cfg4.grid.coords t) d1 (iblk4 V c 1 t))
          ((cfg4.win 2).fill (cfg4.grid.coords t) d2 (iblk4 V c 2 t)) :=
    (cfg4.win 3).fill_congr_cut (cfg4.grid.coords t)
      (cut_pay4 hloc t (iblk4 V c 0 t) d1 (fun _ => Scalar.ofBits .f32 0#32) (iblk4 V c 1 t) d2 (fun _ => Scalar.ofBits .f32 0#32) (iblk4 V c 2 t))
  iexists (k4_pay1 (iblk4 V c 0 t) ((cfg4.win 1).fill (cfg4.grid.coords t) d1 (iblk4 V c 1 t))
    ((cfg4.win 2).fill (cfg4.grid.coords t) d2 (iblk4 V c 2 t)))
  rw [e]
  iexact H3

/-- The windows a frame that states nothing of the result forgets: the result's. -/
def forgets4 : Fin cfg4.W → Bool := fun w => w.val == 3

/-- The body obligation with the result's window forgotten: its buffer is handed over and taken back at contents
    nothing names, so nothing is asked of the payload. -/
theorem body_obligation4_fgt (c : Dev nD) :
    BodyObligationLoose (dat4 (F := F) V c) (defs₀ (F := F)) Variants.none () Set.univ forgets4 := fun t => by
  rw [bigSep_W4, bigSep_W4]
  exact sound_body_fgt4 V c t

/-- The library's body obligation, at every point. -/
theorem body_obligation4 (hloc : K4Local F) (c : Dev nD) :
    BodyObligationLoose (dat4 (F := F) V c) (defs₀ (F := F)) Variants.none () Set.univ := fun t => by
  rw [bigSep_W4, bigSep_W4]
  exact sound_body4 V hloc c t

end Cert.KernelIdeal.Hand

end
-- ==== Proof.FrameKernelIdeal.RunI.lean ====
/-
  The ideal program's run, from the launch to the return: the contents of the unscoped buffers at each boundary between
  a stretch of host operations and a kernel region (a fold: a stretch applies its operations, a region leaves its
  arrays at what its write-backs add up to and every other buffer as it found it), the five pipelines' proof data each
  at its region's entry contents, each region as a segment between two such boundaries, and the whole run: every
  weakly fair execution terminates with every unscoped buffer at the last boundary's contents. The frame claim and the
  values of the results are read off that last boundary. Generic in the float instance, under the one hypothesis
  region 4 needs: an output entry of its payload reads only the weight row and the bias entry of its own column.
-/
import proofs.«425349_j42889543417942_3_alg».proof.Proof.FrameKernelIdeal.R0
import proofs.«425349_j42889543417942_3_alg».proof.Proof.FrameKernelIdeal.R1
import proofs.«425349_j42889543417942_3_alg».proof.Proof.FrameKernelIdeal.R2
import proofs.«425349_j42889543417942_3_alg».proof.Proof.FrameKernelIdeal.R3
import proofs.«425349_j42889543417942_3_alg».proof.Proof.FrameKernelIdeal.R4
import proofs.«425349_j42889543417942_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
/-- The same read at the TensorCore's references: what region 0 is entered from. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A region changes only its output array: an input window's array ends as it was entered, and a buffer that is no
    array of the region is not touched. -/
theorem W2_keep (c : Dev nD) (b : Ref sig .tc) (hb : b ≠ main_call0_v8) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (W2_arr m ρ c w).trans (((dat0 (V1 m ρ) c).arrAt_in w hw _).trans (A_eq0 (V1 m ρ) c w))
  · exact W2_of_ne m ρ c b (fun w e => h ⟨w, e⟩)

/-- After the host stretch before region 1. -/
abbrev W3 : Dev nD → Valuation τ sig (Elt F) := fun c => StableHlo.after hostOps1 (W2 m ρ c)
/-- The same read at the TensorCore's references: what region 1 is entered from. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A region changes only its output array: an input window's array ends as it was entered, and a buffer that is no
    array of the region is not touched. -/
theorem W4_keep (c : Dev nD) (b : Ref sig .tc) (hb : b ≠ main_call0_v22) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => exact absurd rfl hb
    exact (W4_arr m ρ c w).trans (((dat1 (V3 m ρ) c).arrAt_in w hw _).trans (A_eq1 (V3 m ρ) c w))
  · exact W4_of_ne m ρ c b (fun w e => h ⟨w, e⟩)

/-- After the host stretch before region 2. -/
abbrev W5 : Dev nD → Valuation τ sig (Elt F) := fun c => StableHlo.after hostOps2 (W4 m ρ c)
/-- The same read at the TensorCore's references: what region 2 is entered from. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A region changes only its output array: an input window's array ends as it was entered, and a buffer that is no
    array of the region is not touched. -/
theorem W6_keep (c : Dev nD) (b : Ref sig .tc) (hb : b ≠ main_call0_v26) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => exact absurd rfl hb
    exact (W6_arr m ρ c w).trans (((dat2 (V5 m ρ) c).arrAt_in w hw _).trans (A_eq2 (V5 m ρ) c w))
  · exact W6_of_ne m ρ c b (fun w e => h ⟨w, e⟩)

/-- After the host stretch before region 3. -/
abbrev W7 : Dev nD → Valuation τ sig (Elt F) := fun c => StableHlo.after hostOps3 (W6 m ρ c)
/-- The same read at the TensorCore's references: what region 3 is entered from. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A region changes only its output array: an input window's array ends as it was entered, and a buffer that is no
    array of the region is not touched. -/
theorem W8_keep (c : Dev nD) (b : Ref sig .tc) (hb : b ≠ main_call0_v30) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W8_arr m ρ c w).trans (((dat3 (V7 m ρ) c).arrAt_in w hw _).trans (A_eq3 (V7 m ρ) c w))
  · exact W8_of_ne m ρ c b (fun w e => h ⟨w, e⟩)

/-- After the host stretch before region 4. -/
abbrev W9 : Dev nD → Valuation τ sig (Elt F) := fun c => StableHlo.after hostOps4 (W8 m ρ c)
/-- The same read at the TensorCore's references: what region 4 is entered from. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A region changes only its output array: an input window's array ends as it was entered, and a buffer that is no
    array of the region is not touched. -/
theorem W10_keep (c : Dev nD) (b : Ref sig .tc) (hb : b ≠ main_call0_v61) :
    W10 m ρ c (Proc.devRef .tc b) = W9 m ρ c (Proc.devRef .tc b) := by
  by_cases h : ∃ w, Pipeline.arrRef spec4 w = b
  · obtain ⟨w, rfl⟩ := h
    have hw : (cfg4.win w).isOut = false := by
      match w with
      | ⟨0, _⟩ => rfl
      | ⟨1, _⟩ => rfl
      | ⟨2, _⟩ => rfl
      | ⟨3, _⟩ => exact absurd rfl hb
    exact (W10_arr m ρ c w).trans (((dat4 (V9 m ρ) c).arrAt_in w hw _).trans (A_eq4 (V9 m ρ) c w))
  · exact W10_of_ne m ρ c b (fun w e => h ⟨w, e⟩)

/-- After the last host stretch: the contents the launch returns with. -/
abbrev W11 : Dev nD → Valuation τ sig (Elt F) := fun c => StableHlo.after hostOps5 (W10 m ρ c)

/-- Every reference some stretch writes or some region may change. -/
abbrev written : List (Ref sig .tc) :=
  hostOps0_W ++ hostOps1_W ++ hostOps2_W ++ hostOps3_W ++ hostOps4_W ++ hostOps5_W
    ++ [main_call0_v8, main_call0_v22, main_call0_v26, main_call0_v30, main_call0_v61]

/-- A buffer nothing writes ends as launched. -/
theorem W11_of (c : Dev nD) (b : Ref sig .tc) (h : b ∉ written) :
    W11 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  calc W11 m ρ c (Proc.devRef .tc b)
    _ = W10 m ρ c (Proc.devRef .tc b) := StableHlo.after_of_writes_sub hostOps5 _ hostOps5_writes h5
    _ = W9 m ρ c (Proc.devRef .tc b) := W10_keep m ρ c b hv61
    _ = W8 m ρ c (Proc.devRef .tc b) := StableHlo.after_of_writes_sub hostOps4 _ hostOps4_writes h4
    _ = W7 m ρ c (Proc.devRef .tc b) := W8_keep m ρ c b hv30
    _ = W6 m ρ c (Proc.devRef .tc b) := StableHlo.after_of_writes_sub hostOps3 _ hostOps3_writes h3
    _ = W5 m ρ c (Proc.devRef .tc b) := W6_keep m ρ c b hv26
    _ = W4 m ρ c (Proc.devRef .tc b) := StableHlo.after_of_writes_sub hostOps2 _ hostOps2_writes h2
    _ = W3 m ρ c (Proc.devRef .tc b) := W4_keep m ρ c b hv22
    _ = W2 m ρ c (Proc.devRef .tc b) := StableHlo.after_of_writes_sub hostOps1 _ hostOps1_writes h1
    _ = W1 m ρ c (Proc.devRef .tc b) := W2_keep m ρ c b hv8
    _ = W0 m ρ c (Proc.devRef .tc b) := StableHlo.after_of_writes_sub hostOps0 _ hostOps0_writes h0
    _ = m ((c : Thread nD τ).loc b) := rfl

/-! ## The proof data family and the thread state -/

/-- The five pipelines' proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 between its two boundaries: its arrays are split out of the unscoped buffers at entry and put back at
    their exit contents; the generator register goes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between its two boundaries: its arrays are split out of the unscoped buffers at entry and put back at
    their exit contents; the generator register goes through the invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between its two boundaries: its arrays are split out of the unscoped buffers at entry and put back at
    their exit contents; the generator register goes through the invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between its two boundaries: its arrays are split out of the unscoped buffers at entry and put back at
    their exit contents; the generator register goes through the invariant; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between its two boundaries: its arrays are split out of the unscoped buffers at entry and put back at
    their exit contents; the generator register goes through the invariant; nothing is owed. -/
def reg4 (hloc : K4Local F) : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := body_obligation4 (V9 m ρ) hloc c
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs (hloc : K4Local F) : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ hloc),
    .host (hseg hostOps5 hostOps5_sub hostOps5_fresh (W10 m ρ)) ]

theorem main_run (hloc : K4Local F) (c : Dev nD) : main (F := F) c = Pipeline.Seg.run (segs m ρ hloc) := (main_chain c).trans (by chain_rfl)

/-- The last thread state without the dues: every unscoped buffer at the last boundary's contents, the generator
    register at some state. -/
abbrev Tₙ (c : Dev nD) : sProp 𝕄 := iprop(StableHlo.held (c : Thread nD τ) (Pipeline.ucRefs τ sig) (W11 m ρ c) ∗ ∃ r, prngReg c r)

set_option backward.isDefEq.respectTransparency.types false in
/-- THE RUN: from any memory with zero counters every weakly fair execution of @main terminates, nothing faulting, and
    every final state holds every unscoped buffer at the last boundary's contents. -/
theorem run_all (hloc : K4Local F) : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c =>
        show iprop(StableHlo.held (c : Thread nD τ) (Pipeline.ucRefs τ sig) (W11 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Hand

end
-- ==== Proof.Bridge.KerStages.lean ====
/-
  The host arithmetic between the kernel regions of the decode step, as functions of arrays: padding a one-row array
  to eight rows with zeros, joining two arrays along the feature axis, the row-wise softmax over the 4096 encoder
  steps, the LSTM cell update from the four gate pre-activations (input, forget, cell, output gates at columns
  0‥1023, 1024‥2047, 2048‥3071, 3072‥4095), the log-softmax over the vocabulary, and taking row 0 of an eight-row
  array. Each is the composition of host operations the program applies, in its order, at any float instance.
-/
import proofs.«425349_j42889543417942_3_alg».proof.Proof.Gen.KernelIdeal

noncomputable section

namespace Cert.KernelIdeal.Stages

open Cert.KernelIdeal Cert.KernelIdeal.Gen Idealize.ShloMosaic

variable {F : FTy → Type} [FloatOps F]

/-- A one-row array under seven rows of zeros. -/
def pad2048 (a : FVec F S1x2048 .f32) : FVec F S8x2048 .f32 :=
  pad S8x2048 ![0, 0] ![7, 0] ![0, 0] a (sitofp .f32 (constantI S_ 32 0#32)) pads_S1x2048_S8x2048_070_000 h_S_
def pad4096 (a : FVec F S1x4096 .f32) : FVec F S8x4096 .f32 :=
  pad S8x4096 ![0, 0] ![7, 0] ![0, 0] a (sitofp .f32 (constantI S_ 32 0#32)) pads_S1x4096_S8x4096_070_000 h_S_
def pad1024 (a : FVec F S1x1024 .f32) : FVec F S8x1024 .f32 :=
  pad S8x1024 ![0, 0] ![7, 0] ![0, 0] a (sitofp .f32 (constantI S_ 32 0#32)) pads_S1x1024_S8x1024_070_000 h_S_

/-- The attention layer's input: the embedded token beside the hidden state, padded to eight rows. -/
def attnIn (e h0 : FVec F S1x1024 .f32) : FVec F S8x2048 .f32 :=
  pad2048 (concatenate S1x2048 1 [⟨S1x1024, e⟩, ⟨S1x1024, h0⟩] concatenates_S1x1024_S1x1024_S1x2048_d1)

/-- Row 0 of an eight-row array. -/
def row4096 (l : FVec F S8x4096 .f32) : FVec F S1x4096 .f32 := extractStridedSlice S1x4096 ![0, 0] l slices_S8x4096_S1x4096_0_0
def row1024 (l : FVec F S8x1024 .f32) : FVec F S1x1024 .f32 := extractStridedSlice S1x1024 ![0, 0] l slices_S8x1024_S1x1024_0_0
def row50257 (l : FVec F S8x50257 .f32) : FVec F S1x50257 .f32 := extractStridedSlice S1x50257 ![0, 0] l slices_S8x50257_S1x50257_0_0

/-- The softmax of a row over the 4096 encoder steps: `exp (x - max x) / ∑ exp (x - max x)`. -/
def softmax (x : FVec F S1x4096 .f32) : FVec F S1x4096 .f32 :=
  Host.divf
    (Host.exp (subf x (broadcastInDim S1x4096 ![0, 1] bcast_S1x1_S1x4096_0_1 (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x4096_S1_d1 h_S_))))))
    (broadcastInDim S1x4096 ![0, 1] bcast_S1x1_S1x4096_0_1 (broadcastInDim S1x1 ![0] bcast_S1_S1x1_0
      (Host.reduceAdd
        (Host.exp (subf x (broadcastInDim S1x4096 ![0, 1] bcast_S1x1_S1x4096_0_1 (broadcastInDim S1x1 ![0] bcast_S1_S1x1_0
          (maximumf (broadcastInDim S1 ![] bcast_S_S1 (constant S_ .f32 0xFF800000#32))
            (Host.reduce FloatOps.maximumf x (constant S_ .f32 0xFF800000#32) reducesTo_S1x4096_S1_d1 h_S_))))))
        (constant S_ .f32 0x00000000#32) reducesTo_S1x4096_S1_d1 h_S_)))

/-- The combining layer's input: the padded embedded token beside the attention read-out. -/
def combIn (e : FVec F S1x1024 .f32) (aa : FVec F S8x1024 .f32) : FVec F S8x2048 .f32 :=
  concatenate S8x2048 1 [⟨S8x1024, pad1024 e⟩, ⟨S8x1024, aa⟩] concatenates_S8x1024_S8x1024_S8x2048_d1

/-- The logistic function `1 / (1 + exp (-x))`, entry by entry. -/
def sigm (x : FVec F S8x1024 .f32) : FVec F S8x1024 .f32 :=
  Host.divf (broadcastInDim S8x1024 ![] bcast_S_S8x1024 (constant S_ .f32 0x3F800000#32))
    (addf (broadcastInDim S8x1024 ![] bcast_S_S8x1024 (constant S_ .f32 0x3F800000#32)) (Host.exp (Host.negf x)))

/-- The four gates' columns of the pre-activations. -/
def gateI (g : FVec F S8x4096 .f32) : FVec F S8x1024 .f32 := extractStridedSlice S8x1024 ![0, 0] g slices_S8x4096_S8x1024_0_0
def gateF (g : FVec F S8x4096 .f32) : FVec F S8x1024 .f32 := extractStridedSlice S8x1024 ![0, 1024] g slices_S8x4096_S8x1024_0_1024
def gateG (g : FVec F S8x4096 .f32) : FVec F S8x1024 .f32 := extractStridedSlice S8x1024 ![0, 2048] g slices_S8x4096_S8x1024_0_2048
def gateO (g : FVec F S8x4096 .f32) : FVec F S8x1024 .f32 := extractStridedSlice S8x1024 ![0, 3072] g slices_S8x4096_S8x1024_0_3072

/-- The new cell state `σ(f)·c₀ + σ(i)·tanh(g)` and the new hidden state `σ(o)·tanh(c₁)`, on eight rows. -/
def cell1 (g : FVec F S8x4096 .f32) (c0 : FVec F S1x1024 .f32) : FVec F S8x1024 .f32 :=
  addf (mulf (sigm (gateF g)) (pad1024 c0)) (mulf (sigm (gateI g)) (Host.tanh (gateG g)))
def hid1 (g : FVec F S8x4096 .f32) (c0 : FVec F S1x1024 .f32) : FVec F S8x1024 .f32 :=
  mulf (sigm (gateO g)) (Host.tanh (cell1 g c0))

/-- The log-softmax of a row over the vocabulary: `(x - max x) - log ∑ exp (x - max x)`. -/
def logSoftmax (x : FVec F S1x50257 .f32) : FVec F S1x50257 .f32 :=
  subf
    (subf x (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd
        (Host.exp (subf x (broadcastInDim S1x50257 ![0, 1] bcast_S1x1_S1x50257_0_1 (broadcastInDim S1x1 ![0] bcast_S1_S1x1_0
          (maximumf (broadcastInDim S1 ![] bcast_S_S1 (constant S_ .f32 0xFF800000#32))
            (Host.reduce FloatOps.maximumf x (constant S_ .f32 0xFF800000#32) reducesTo_S1x50257_S1_d1 h_S_))))))
        (constant S_ .f32 0x00000000#32) reducesTo_S1x50257_S1_d1 h_S_))))

/-- A one-row array as a (1, 1, 1024) array. -/
def lift3 (a : FVec F S1x1024 .f32) : FVec F S1x1x1024 .f32 := broadcastInDim S1x1x1024 ![1, 2] bcast_S1x1024_S1x1x1024_1_2 a

/-- A vector as a one-row array. -/
def asRow4096 (b : FVec F S4096 .f32) : FVec F S1x4096 .f32 := shapeCast _ b shapeCasts_S4096_S1x4096
def asRow1024 (b : FVec F S1024 .f32) : FVec F S1x1024 .f32 := shapeCast _ b shapeCasts_S1024_S1x1024
def asRow50257 (b : FVec F S50257 .f32) : FVec F S1x50257 .f32 := shapeCast _ b shapeCasts_S50257_S1x50257
/-- The (1, 1, 1024) state as a one-row array. -/
def state2 (h : FVec F S1x1x1024 .f32) : FVec F S1x1024 .f32 := shapeCast _ h shapeCasts_S1x1x1024_S1x1024

end Cert.KernelIdeal.Stages

end
-- ==== Proof.ValueKernelIdeal.HostReads.lean ====
/-
  What the program's buffers hold at each boundary of its run, as far as the host operations decide it: every stretch
  of host operations applies its operations to what the boundary before it holds, a buffer no later segment writes is
  carried along unchanged, and a buffer nothing writes holds its launch contents. Stated at any float instance: these
  are identities between compositions of the same host operations.
-/
import proofs.«425349_j42889543417942_3_alg».proof.Proof.FrameKernelIdeal.RunI
import proofs.«425349_j42889543417942_3_alg».proof.Proof.Bridge.KerStages
import Idealize.ShloMosaic.Lib.StableHlo.Run

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem Idealize.ShloMosaic.StableHlo

variable {F : FTy → Type} [FloatOps F]
variable (m : (ℓ : Loc nD τ sig) → Buf (Elt F) ℓ) (ρ : Dev nD → PrngReg)

/-- Reading contents at a reference's declared type and writing them back at it is the identity. -/
theorem ofBuf_toBuf' {T : BufTy} (x : StableHlo.TRef sig T) (v : T.Contents (Elt F)) : x.ofBuf (x.toBuf v) = v := by
  unfold StableHlo.TRef.ofBuf StableHlo.TRef.toBuf
  rw [cast_cast, cast_eq]

/-! ## A buffer nothing writes holds its launch contents at every boundary -/

theorem W1_nw (c : Dev nD) (b : Ref sig .tc) (h : b ∉ written) :
    W1 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (StableHlo.after_of_writes_sub hostOps0 _ hostOps0_writes h0).trans rfl
theorem W2_nw (c : Dev nD) (b : Ref sig .tc) (h : b ∉ written) :
    W2 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (W2_keep m ρ c b hv8).trans (W1_nw m ρ c b (by simp only [written, List.mem_append, not_or]; exact ⟨⟨⟨⟨⟨⟨h0, h1⟩, h2⟩, h3⟩, h4⟩, h5⟩, hl⟩))
theorem W3_nw (c : Dev nD) (b : Ref sig .tc) (h : b ∉ written) :
    W3 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (StableHlo.after_of_writes_sub hostOps1 _ hostOps1_writes h1).trans (W2_nw m ρ c b (by simp only [written, List.mem_append, not_or]; exact ⟨⟨⟨⟨⟨⟨h0, h1⟩, h2⟩, h3⟩, h4⟩, h5⟩, hl⟩))
theorem W4_nw (c : Dev nD) (b : Ref sig .tc) (h : b ∉ written) :
    W4 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (W4_keep m ρ c b hv22).trans (W3_nw m ρ c b (by simp only [written, List.mem_append, not_or]; exact ⟨⟨⟨⟨⟨⟨h0, h1⟩, h2⟩, h3⟩, h4⟩, h5⟩, hl⟩))
theorem W5_nw (c : Dev nD) (b : Ref sig .tc) (h : b ∉ written) :
    W5 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (StableHlo.after_of_writes_sub hostOps2 _ hostOps2_writes h2).trans (W4_nw m ρ c b (by simp only [written, List.mem_append, not_or]; exact ⟨⟨⟨⟨⟨⟨h0, h1⟩, h2⟩, h3⟩, h4⟩, h5⟩, hl⟩))
theorem W6_nw (c : Dev nD) (b : Ref sig .tc) (h : b ∉ written) :
    W6 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (W6_keep m ρ c b hv26).trans (W5_nw m ρ c b (by simp only [written, List.mem_append, not_or]; exact ⟨⟨⟨⟨⟨⟨h0, h1⟩, h2⟩, h3⟩, h4⟩, h5⟩, hl⟩))
theorem W7_nw (c : Dev nD) (b : Ref sig .tc) (h : b ∉ written) :
    W7 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (StableHlo.after_of_writes_sub hostOps3 _ hostOps3_writes h3).trans (W6_nw m ρ c b (by simp only [written, List.mem_append, not_or]; exact ⟨⟨⟨⟨⟨⟨h0, h1⟩, h2⟩, h3⟩, h4⟩, h5⟩, hl⟩))
theorem W8_nw (c : Dev nD) (b : Ref sig .tc) (h : b ∉ written) :
    W8 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (W8_keep m ρ c b hv30).trans (W7_nw m ρ c b (by simp only [written, List.mem_append, not_or]; exact ⟨⟨⟨⟨⟨⟨h0, h1⟩, h2⟩, h3⟩, h4⟩, h5⟩, hl⟩))
theorem W9_nw (c : Dev nD) (b : Ref sig .tc) (h : b ∉ written) :
    W9 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (StableHlo.after_of_writes_sub hostOps4 _ hostOps4_writes h4).trans (W8_nw m ρ c b (by simp only [written, List.mem_append, not_or]; exact ⟨⟨⟨⟨⟨⟨h0, h1⟩, h2⟩, h3⟩, h4⟩, h5⟩, hl⟩))
theorem W10_nw (c : Dev nD) (b : Ref sig .tc) (h : b ∉ written) :
    W10 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (W10_keep m ρ c b hv61).trans (W9_nw m ρ c b (by simp only [written, List.mem_append, not_or]; exact ⟨⟨⟨⟨⟨⟨h0, h1⟩, h2⟩, h3⟩, h4⟩, h5⟩, hl⟩))
theorem W11_nw (c : Dev nD) (b : Ref sig .tc) (h : b ∉ written) :
    W11 m ρ c (Proc.devRef .tc b) = m ((c : Thread nD τ).loc b) := by
  simp only [written, List.mem_append, not_or] at h
  obtain ⟨⟨⟨⟨⟨⟨h0, h1⟩, h2⟩, h3⟩, h4⟩, h5⟩, hl⟩ := h
  have hv8 : b ≠ main_call0_v8 := fun e => hl (e ▸ List.Mem.head _)
  have hv22 : b ≠ main_call0_v22 := fun e => hl (e ▸ .tail _ (.head _))
  have hv26 : b ≠ main_call0_v26 := fun e => hl (e ▸ .tail _ (.tail _ (.head _)))
  have hv30 : b ≠ main_call0_v30 := fun e => hl (e ▸ .tail _ (.tail _ (.tail _ (.head _))))
  have hv61 : b ≠ main_call0_v61 := fun e => hl (e ▸ .tail _ (.tail _ (.tail _ (.tail _ (.head _)))))
  exact (StableHlo.after_of_writes_sub hostOps5 _ hostOps5_writes h5).trans (W10_nw m ρ c b (by simp only [written, List.mem_append, not_or]; exact ⟨⟨⟨⟨⟨⟨h0, h1⟩, h2⟩, h3⟩, h4⟩, h5⟩, hl⟩))

/-! ## The first stretch: the two states as rows, the attention layer's input and bias row -/

theorem W1_v0 (c : Dev nD) : @Eq (FVec F S1x1024 .f32) (W1 m ρ c (Proc.devRef .tc main_call0_v0))
    (Stages.state2 (F := F) (m ((c : Thread nD τ).loc main_arg1))) := by
  show StableHlo.after hostOps0 _ (Proc.devRef .tc main_call0_v0) = _
  after_results_simp <;> (try simp only [ofBuf_toBuf']) <;> rfl

theorem W1_v1 (c : Dev nD) : @Eq (FVec F S1x1024 .f32) (W1 m ρ c (Proc.devRef .tc main_call0_v1))
    (Stages.state2 (F := F) (m ((c : Thread nD τ).loc main_arg2))) := by
  show StableHlo.after hostOps0 _ (Proc.devRef .tc main_call0_v1) = _
  after_results_simp <;> (try simp only [ofBuf_toBuf']) <;> rfl

theorem W1_v7 (c : Dev nD) : @Eq (FVec F S1x4096 .f32) (W1 m ρ c (Proc.devRef .tc main_call0_v7))
    (Stages.asRow4096 (F := F) (m ((c : Thread nD τ).loc main_arg6))) := by
  show StableHlo.after hostOps0 _ (Proc.devRef .tc main_call0_v7) = _
  after_results_simp <;> (try simp only [ofBuf_toBuf']) <;> rfl

theorem W1_v6 (c : Dev nD) : @Eq (FVec F S8x2048 .f32) (W1 m ρ c (Proc.devRef .tc main_call0_v6))
    (Stages.attnIn (F := F) (W1 m ρ c (Proc.devRef .tc main_call0_v4)) (Stages.state2 (F := F) (m ((c : Thread nD τ).loc main_arg1)))) := by
  show @Eq (FVec F S8x2048 .f32) (StableHlo.after hostOps0 (W0 m ρ c) (Proc.devRef .tc main_call0_v6))
    (Stages.attnIn (F := F) (StableHlo.after hostOps0 (W0 m ρ c) (Proc.devRef .tc main_call0_v4)) _)
  after_results_simp <;> (try simp only [ofBuf_toBuf']) <;> rfl

/-! ## Region 0 and the softmax stretch -/

theorem W3_v0_3 (c : Dev nD) : @Eq (FVec F S1x4096 .f32) (W3 m ρ c (Proc.devRef .tc main_v0_3))
    (Stages.softmax (F := F) (Stages.row4096 (F := F) (W2 m ρ c (Proc.devRef .tc main_call0_v8)))) := by
  show StableHlo.after hostOps1 _ (Proc.devRef .tc main_v0_3) = _
  after_results_simp <;> (try simp only [ofBuf_toBuf']) <;> rfl

theorem W3_v21 (c : Dev nD) : @Eq (FVec F S8x4096 .f32) (W3 m ρ c (Proc.devRef .tc main_call0_v21))
    (Stages.pad4096 (F := F) (Stages.softmax (F := F) (Stages.row4096 (F := F) (W2 m ρ c (Proc.devRef .tc main_call0_v8))))) := by
  show StableHlo.after hostOps1 _ (Proc.devRef .tc main_call0_v21) = _
  after_results_simp <;> (try simp only [ofBuf_toBuf']) <;> rfl

/-! ## Region 1 and the stretch that joins its result to the embedded token -/

theorem W3_arg3 (c : Dev nD) : W3 m ρ c (Proc.devRef .tc main_arg3) = (m ((c : Thread nD τ).loc main_arg3)) := W3_nw m ρ c main_arg3 (by decide)

theorem W4_v4 (c : Dev nD) : W4 m ρ c (Proc.devRef .tc main_call0_v4) = W1 m ρ c (Proc.devRef .tc main_call0_v4) :=
  (W4_keep m ρ c main_call0_v4 (by decide)).trans <| (StableHlo.after_of_writes_sub hostOps1 _ hostOps1_writes (by decide)).trans <|
    W2_keep m ρ c main_call0_v4 (by decide)

theorem W5_v24 (c : Dev nD) : @Eq (FVec F S8x2048 .f32) (W5 m ρ c (Proc.devRef .tc main_call0_v24))
    (Stages.combIn (F := F) (W4 m ρ c (Proc.devRef .tc main_call0_v4)) (W4 m ρ c (Proc.devRef .tc main_call0_v22))) := by
  show StableHlo.after hostOps2 _ (Proc.devRef .tc main_call0_v24) = _
  after_results_simp <;> (try simp only [ofBuf_toBuf']) <;> rfl

theorem W5_v25 (c : Dev nD) : @Eq (FVec F S1x1024 .f32) (W5 m ρ c (Proc.devRef .tc main_call0_v25))
    (Stages.asRow1024 (F := F) (W4 m ρ c (Proc.devRef .tc main_arg8))) := by
  show StableHlo.after hostOps2 _ (Proc.devRef .tc main_call0_v25) = _
  after_results_simp <;> (try simp only [ofBuf_toBuf']) <;> rfl

/-! ## Region 2 and the stretch that pads the hidden state -/

theorem W6_v0 (c : Dev nD) : W6 m ρ c (Proc.devRef .tc main_call0_v0) = W1 m ρ c (Proc.devRef .tc main_call0_v0) :=
  (W6_keep m ρ c main_call0_v0 (by decide)).trans <| (StableHlo.after_of_writes_sub hostOps2 _ hostOps2_writes (by decide)).trans <|
    (W4_keep m ρ c main_call0_v0 (by decide)).trans <| (StableHlo.after_of_writes_sub hostOps1 _ hostOps1_writes (by decide)).trans <|
    W2_keep m ρ c main_call0_v0 (by decide)

theorem W7_v27 (c : Dev nD) : @Eq (FVec F S8x1024 .f32) (W7 m ρ c (Proc.devRef .tc main_call0_v27))
    (Stages.pad1024 (F := F) (W6 m ρ c (Proc.devRef .tc main_call0_v0))) := by
  show StableHlo.after hostOps3 _ (Proc.devRef .tc main_call0_v27) = _
  after_results_simp <;> (try simp only [ofBuf_toBuf']) <;> rfl

theorem W7_v28 (c : Dev nD) : @Eq (FVec F S1x4096 .f32) (W7 m ρ c (Proc.devRef .tc main_call0_v28))
    (Stages.asRow4096 (F := F) (W6 m ρ c (Proc.devRef .tc main_arg10))) := by
  show StableHlo.after hostOps3 _ (Proc.devRef .tc main_call0_v28) = _
  after_results_simp <;> (try simp only [ofBuf_toBuf']) <;> rfl

theorem W7_v29 (c : Dev nD) : @Eq (FVec F S1x4096 .f32) (W7 m ρ c (Proc.devRef .tc main_call0_v29))
    (Stages.asRow4096 (F := F) (W6 m ρ c (Proc.devRef .tc main_arg12))) := by
  show StableHlo.after hostOps3 _ (Proc.devRef .tc main_call0_v29) = _
  after_results_simp <;> (try simp only [ofBuf_toBuf']) <;> rfl

theorem W7_v26 (c : Dev nD) : W7 m ρ c (Proc.devRef .tc main_call0_v26) = W6 m ρ c (Proc.devRef .tc main_call0_v26) :=
  StableHlo.after_of_writes_sub hostOps3 _ hostOps3_writes (by decide)

/-! ## Region 3 and the cell update -/

theorem W8_v1 (c : Dev nD) : W8 m ρ c (Proc.devRef .tc main_call0_v1) = W1 m ρ c (Proc.devRef .tc main_call0_v1) :=
  (W8_keep m ρ c main_call0_v1 (by decide)).trans <| (StableHlo.after_of_writes_sub hostOps3 _ hostOps3_writes (by decide)).trans <|
    (W6_keep m ρ c main_call0_v1 (by decide)).trans <| (StableHlo.after_of_writes_sub hostOps2 _ hostOps2_writes (by decide)).trans <|
    (W4_keep m ρ c main_call0_v1 (by decide)).trans <| (StableHlo.after_of_writes_sub hostOps1 _ hostOps1_writes (by decide)).trans <|
    W2_keep m ρ c main_call0_v1 (by decide)

theorem W9_v51 (c : Dev nD) : @Eq (FVec F S8x1024 .f32) (W9 m ρ c (Proc.devRef .tc main_call0_v51))
    (Stages.cell1 (F := F) (W8 m ρ c (Proc.devRef .tc main_call0_v30)) (W8 m ρ c (Proc.devRef .tc main_call0_v1))) := by
  show StableHlo.after hostOps4 _ (Proc.devRef .tc main_call0_v51) = _
  after_results_simp <;> (try simp only [ofBuf_toBuf']) <;> rfl

theorem W9_v59 (c : Dev nD) : @Eq (FVec F S8x1024 .f32) (W9 m ρ c (Proc.devRef .tc main_call0_v59))
    (Stages.hid1 (F := F) (W8 m ρ c (Proc.devRef .tc main_call0_v30)) (W8 m ρ c (Proc.devRef .tc main_call0_v1))) := by
  show StableHlo.after hostOps4 _ (Proc.devRef .tc main_call0_v59) = _
  after_results_simp <;> (try simp only [ofBuf_toBuf']) <;> rfl

theorem W9_v60 (c : Dev nD) : @Eq (FVec F S1x50257 .f32) (W9 m ρ c (Proc.devRef .tc main_call0_v60))
    (Stages.asRow50257 (F := F) (W8 m ρ c (Proc.devRef .tc main_arg14))) := by
  show StableHlo.after hostOps4 _ (Proc.devRef .tc main_call0_v60) = _
  after_results_simp <;> (try simp only [ofBuf_toBuf']) <;> rfl

/-! ## Region 4 and the results -/

theorem W10_v59 (c : Dev nD) : W10 m ρ c (Proc.devRef .tc main_call0_v59) = W9 m ρ c (Proc.devRef .tc main_call0_v59) :=
  W10_keep m ρ c main_call0_v59 (by decide)
theorem W10_v51 (c : Dev nD) : W10 m ρ c (Proc.devRef .tc main_call0_v51) = W9 m ρ c (Proc.devRef .tc main_call0_v51) :=
  W10_keep m ρ c main_call0_v51 (by decide)

theorem W11_v0_0 (c : Dev nD) : @Eq (FVec F S1x50257 .f32) (W11 m ρ c (Proc.devRef .tc main_v0_0))
    (Stages.logSoftmax (F := F) (Stages.row50257 (F := F) (W10 m ρ c (Proc.devRef .tc main_call0_v61)))) := by
  show StableHlo.after hostOps5 _ (Proc.devRef .tc main_v0_0) = _
  after_results_simp <;> (try simp only [ofBuf_toBuf']) <;> rfl

theorem W11_v0_1 (c : Dev nD) : @Eq (FVec F S1x1x1024 .f32) (W11 m ρ c (Proc.devRef .tc main_v0_1))
    (Stages.lift3 (F := F) (Stages.row1024 (F := F) (W10 m ρ c (Proc.devRef .tc main_call0_v59)))) := by
  show StableHlo.after hostOps5 _ (Proc.devRef .tc main_v0_1) = _
  after_results_simp <;> (try simp only [ofBuf_toBuf']) <;> rfl

theorem W11_v0_2 (c : Dev nD) : @Eq (FVec F S1x1x1024 .f32) (W11 m ρ c (Proc.devRef .tc main_v0_2))
    (Stages.lift3 (F := F) (Stages.row1024 (F := F) (W10 m ρ c (Proc.devRef .tc main_call0_v51)))) := by
  show StableHlo.after hostOps5 _ (Proc.devRef .tc main_v0_2) = _
  after_results_simp <;> (try simp only [ofBuf_toBuf']) <;> rfl

/-- The attention weights are not written after the softmax stretch. -/
theorem W11_v0_3 (c : Dev nD) : W11 m ρ c (Proc.devRef .tc main_v0_3) = W3 m ρ c (Proc.devRef .tc main_v0_3) :=
  (StableHlo.after_of_writes_sub hostOps5 _ hostOps5_writes (by decide)).trans <| (W10_keep m ρ c main_v0_3 (by decide)).trans <|
    (StableHlo.after_of_writes_sub hostOps4 _ hostOps4_writes (by decide)).trans <| (W8_keep m ρ c main_v0_3 (by decide)).trans <|
    (StableHlo.after_of_writes_sub hostOps3 _ hostOps3_writes (by decide)).trans <| (W6_keep m ρ c main_v0_3 (by decide)).trans <|
    (StableHlo.after_of_writes_sub hostOps2 _ hostOps2_writes (by decide)).trans <| W4_keep m ρ c main_v0_3 (by decide)

end Cert.KernelIdeal.Hand

end
-- ==== Proof.Closed.lean ====
/-
  The five matrix-vector stages of the decode step as whole-array functions over the extended reals, coordinate by
  coordinate: an (8, K) activation against an (N, K) weight, row n of the weight giving column n of the result, plus a
  (1, N) bias row. Stage 1 has no bias and contracts over the 4096 encoder steps; stage 2 ends in max(·, 0); stage 3
  adds two products and two bias rows, in the order ((x·Wihᵀ + h·Whhᵀ) + bih) + bhh.
-/
import proofs.«425349_j42889543417942_3_alg».proof.KernelIdeal
import Idealize.ShloMosaic.Lib.ValueIdx
import Idealize.ShloMosaic.PureOps.Ideal.Laws

noncomputable section

namespace Cert.KernelIdeal.Closed

open Cert.KernelIdeal Idealize.ShloMosaic Idealize.ShloMosaic.ValueIdx

/-- Stage 0, the attention logits: `(∑ₖ x[p,k]·w[n,k]) + b[0,n]`, k over the 2048 joined features. -/
def lin0 (x : FVec Ideal S8x2048 .f32) (w : FVec Ideal S4096x2048 .f32) (b : FVec Ideal S1x4096 .f32)
    (p : Fin 8) (n : Fin 4096) : EReal :=
  (∑ k : Fin 2048, x (ix2 p k) * w (ix2 n k)) + b (ix2 (0 : Fin 1) n)

/-- Stage 1, the attention read-out: `∑ₗ a[p,l]·e[l,q]`, l over the 4096 encoder steps. -/
def app1 (a : FVec Ideal S8x4096 .f32) (e : FVec Ideal S4096x1024 .f32) (p : Fin 8) (q : Fin 1024) : EReal :=
  ∑ l : Fin 4096, a (ix2 p l) * e (ix2 l q)

/-- Stage 2, the combining layer: `max ((∑ₖ x[p,k]·w[n,k]) + b[0,n]) 0`. -/
def lin2 (x : FVec Ideal S8x2048 .f32) (w : FVec Ideal S1024x2048 .f32) (b : FVec Ideal S1x1024 .f32)
    (p : Fin 8) (n : Fin 1024) : EReal :=
  max ((∑ k : Fin 2048, x (ix2 p k) * w (ix2 n k)) + b (ix2 (0 : Fin 1) n)) 0

/-- Stage 3, the four gates' pre-activations:
    `(((∑ₖ x[p,k]·wih[n,k]) + (∑ₖ h[p,k]·whh[n,k])) + bih[0,n]) + bhh[0,n]`. -/
def gates3 (x h : FVec Ideal S8x1024 .f32) (wih whh : FVec Ideal S4096x1024 .f32) (bih bhh : FVec Ideal S1x4096 .f32)
    (p : Fin 8) (n : Fin 4096) : EReal :=
  (((∑ k : Fin 1024, x (ix2 p k) * wih (ix2 n k)) + (∑ k : Fin 1024, h (ix2 p k) * whh (ix2 n k)))
    + bih (ix2 (0 : Fin 1) n)) + bhh (ix2 (0 : Fin 1) n)

/-- Stage 4, the vocabulary logits: `(∑ₖ x[p,k]·w[n,k]) + b[0,n]`, n over the 50257 words. -/
def lin4 (x : FVec Ideal S8x1024 .f32) (w : FVec Ideal S50257x1024 .f32) (b : FVec Ideal S1x50257 .f32)
    (p : Fin 8) (n : Fin 50257) : EReal :=
  (∑ k : Fin 1024, x (ix2 p k) * w (ix2 n k)) + b (ix2 (0 : Fin 1) n)

end Cert.KernelIdeal.Closed

end
-- ==== Proof.ValueKernelIdeal.V0.lean ====
/-
  Region 0 of the decode step, the VALUE of its output array at the extended reals: the attention logits
  `y[p, n] = (∑ₖ x[p, k] · W[n, k]) + b[0, n]`, k over the 2048 joined features. The region runs four points along
  the 4096 output columns; point `t` sees the whole (8, 2048) activation, rows `1024·t … 1024·t + 1023` of the weight
  and columns `1024·t … 1024·t + 1023` of the bias row, and writes columns `1024·t … 1024·t + 1023` of the result.

  The steps: the body's arithmetic read at one element of its (8, 1024) result block (a change of float format is
  the identity on extended reals, the matrix unit's product into a zero accumulator is the plain sum over the
  contracted axis, the bias row is broadcast down the eight rows); each input block read as the part of its array the
  point's block indices name; hence what point `t` writes back is block `t` of ONE function of the three arrays,
  `Closed.lin0`; the four blocks tile the array (column `n` lies in the block of point `n / 1024`), so the array ends
  holding that function.
-/
import proofs.«425349_j42889543417942_3_alg».proof.Proof.FrameKernelIdeal.R0
import proofs.«425349_j42889543417942_3_alg».proof.Proof.Closed
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The matrix unit's index maps: contraction over axis 1 of both operands

For the (8, 2048) × (1024, 2048) → (8, 1024) product contracting axis 1 with axis 1: the left operand is read at
(output row, contraction position), the right at (output column, contraction position). One lemma per axis. -/

theorem lhs0_0 (i : S8x1024.Idx) (q : dot_S8x2048_S1024x2048_S8x1024_1_1_0_0_n_n.contr.Idx) :
    (dot_S8x2048_S1024x2048_S8x1024_1_1_0_0_n_n.lhsIdx i q 0).val = (i 0).val := by
  unfold DotDims.lhsIdx
  rw [dif_neg (show ¬(0 : Fin S8x2048.rank) ∈ dot_S8x2048_S1024x2048_S8x1024_1_1_0_0_n_n.lhsBatch by decide), dif_pos (show (0 : Fin S8x2048.rank) ∈ dot_S8x2048_S1024x2048_S8x1024_1_1_0_0_n_n.lhsNonContracting by decide)]
  rfl
theorem lhs0_1 (i : S8x1024.Idx) (q : dot_S8x2048_S1024x2048_S8x1024_1_1_0_0_n_n.contr.Idx) :
    (dot_S8x2048_S1024x2048_S8x1024_1_1_0_0_n_n.lhsIdx i q 1).val = (q ⟨0, by decide⟩).val :=
  dot_S8x2048_S1024x2048_S8x1024_1_1_0_0_n_n.lhsIdx_val_of_single rfl i q
theorem rhs0_0 (i : S8x1024.Idx) (q : dot_S8x2048_S1024x2048_S8x1024_1_1_0_0_n_n.contr.Idx) :
    (dot_S8x2048_S1024x2048_S8x1024_1_1_0_0_n_n.rhsIdx i q 0).val = (i 1).val := by
  unfold DotDims.rhsIdx
  rw [dif_neg (show ¬(0 : Fin S1024x2048.rank) ∈ dot_S8x2048_S1024x2048_S8x1024_1_1_0_0_n_n.rhsBatch by decide), dif_pos (show (0 : Fin S1024x2048.rank) ∈ dot_S8x2048_S1024x2048_S8x1024_1_1_0_0_n_n.rhsNonContracting by decide)]
  rfl
theorem rhs0_1 (i : S8x1024.Idx) (q : dot_S8x2048_S1024x2048_S8x1024_1_1_0_0_n_n.contr.Idx) :
    (dot_S8x2048_S1024x2048_S8x1024_1_1_0_0_n_n.rhsIdx i q 1).val = (q ⟨0, by decide⟩).val :=
  dot_S8x2048_S1024x2048_S8x1024_1_1_0_0_n_n.rhsIdx_val_of_single rfl i q

/-! ## The body's arithmetic at one element -/

/-- Element (p, q) of the body's result block: row p of the activation block against row q of the weight block,
    summed over the 2048 features, plus entry q of the bias block's one row. -/
theorem pay0_apply (x : Vec Ideal S8x2048 .f32) (w : Vec Ideal S1024x2048 .f32) (b : Vec Ideal S1x1024 .f32) (p : Fin 8) (q : Fin 1024) :
    k0_pay1 (F := Ideal) x w b (ix2 p q) = (∑ k : Fin 2048, x (ix2 p k) * w (ix2 q k)) + b (ix2 (0 : Fin 1) q) := by
  unfold k0_pay1
  simp only [shapeCast_self]
  rw [addf_apply, broadcastTo_1b_ab_apply]
  refine congrArg (· + b (ix2 (0 : Fin 1) q)) ?_
  refine (Ideal.matmul_constant_zero_apply dot_S8x2048_S1024x2048_S8x1024_1_1_0_0_n_n none _ _ (ix2 p q)).trans ?_
  rw [← Equiv.sum_comp (contrEquiv1 dot_S8x2048_S1024x2048_S8x1024_1_1_0_0_n_n 2048 rfl rfl).symm]
  refine Finset.sum_congr rfl fun k _ => ?_
  have hk := contrEquiv1_symm_val dot_S8x2048_S1024x2048_S8x1024_1_1_0_0_n_n 2048 rfl rfl k
  have el : dot_S8x2048_S1024x2048_S8x1024_1_1_0_0_n_n.lhsIdx (ix2 p q) ((contrEquiv1 dot_S8x2048_S1024x2048_S8x1024_1_1_0_0_n_n 2048 rfl rfl).symm k) = ix2 p k := funext fun a => Fin.ext (by
    match a with
    | ⟨0, _⟩ => exact lhs0_0 _ _
    | ⟨1, _⟩ => exact (lhs0_1 _ _).trans hk)
  have er : dot_S8x2048_S1024x2048_S8x1024_1_1_0_0_n_n.rhsIdx (ix2 p q) ((contrEquiv1 dot_S8x2048_S1024x2048_S8x1024_1_1_0_0_n_n 2048 rfl rfl).symm k) = ix2 q k := funext fun a => Fin.ext (by
    match a with
    | ⟨0, _⟩ => exact rhs0_0 _ _
    | ⟨1, _⟩ => exact (rhs0_1 _ _).trans hk)
  rw [el, er]
  rfl

/-- The same element as the closed form at output column `n`, once the three blocks are known to be the parts of
    whole arrays `X`, `W`, `B` that column `n` needs: row p of `X`, row n of `W`, entry n of `B`'s row. -/
theorem block0_apply (X : FVec Ideal S8x2048 .f32) (W : FVec Ideal S4096x2048 .f32) (B : FVec Ideal S1x4096 .f32)
    (x : Vec Ideal S8x2048 .f32) (w : Vec Ideal S1024x2048 .f32) (b : Vec Ideal S1x1024 .f32)
    (p : Fin 8) (q : Fin 1024) (n : Fin 4096)
    (hx : ∀ k : Fin 2048, x (ix2 p k) = X (ix2 p k))
    (hw : ∀ k : Fin 2048, w (ix2 q k) = W (ix2 n k))
    (hb : b (ix2 (0 : Fin 1) q) = B (ix2 (0 : Fin 1) n)) :
    k0_pay1 (F := Ideal) x w b (ix2 p q) = Closed.lin0 X W B p n := by
  rw [pay0_apply]
  unfold Closed.lin0
  rw [hb]
  exact congrArg (· + B (ix2 (0 : Fin 1) n)) (Finset.sum_congr rfl fun k _ => by rw [hx, hw])

/-! ## The arrays as the region finds them, and the closed form over them -/

variable (V : (c : Dev nD) → (b : Ref sig .tc) → Buf (Elt Ideal) ((c : Thread nD τ).loc b))

/-- The (8, 2048) activation, -/
abbrev xarr0 (c : Dev nD) : FVec Ideal S8x2048 .f32 := V c (Pipeline.arrRef spec0 0)
/-- the (4096, 2048) weight, -/
abbrev warr0 (c : Dev nD) : FVec Ideal S4096x2048 .f32 := V c (Pipeline.arrRef spec0 1)
/-- the (1, 4096) bias row. -/
abbrev barr0 (c : Dev nD) : FVec Ideal S1x4096 .f32 := V c (Pipeline.arrRef spec0 2)

/-- What the (8, 4096) output ends holding: the attention logits of the three arrays, element by element. -/
abbrev G0 (c : Dev nD) : S8x4096.Idx → EReal := fun j => Closed.lin0 (xarr0 V c) (warr0 V c) (barr0 V c) (j 0) (j 1)

theorem hz0 : (![0, 0] : Fin 2 → Nat) = fun _ => 0 := funext fun a => by fin_cases a <;> rfl

/-- The block indices at point `t`, decided over the four points: the activation's block stays at (0, 0), the
    weight's is (t, 0), the bias's and the output's are (0, t). -/
theorem idx_facts0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-! ## Each input block is a part of its array

A block's element at (r, s) sits in the array at (block index × block size + r, …) on each axis. -/

/-- The activation block at any point is the whole activation. -/
theorem xblk0_apply (c : Dev nD) (t : Fin cfg0.N) (p : Fin 8) (k : Fin 2048) :
    (iblk0 V c 0 t : Vec Ideal S8x2048 .f32) (ix2 p k) = xarr0 V c (ix2 p k) := by
  obtain ⟨e00, e01, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 8 + 1 * p.val = p.val; omega
  | ⟨1, _⟩ => show win0_0.index t (1 : Fin 2) * 2048 + 1 * k.val = k.val; omega

/-- Row q of the weight block at point `t` is row `1024·t + q` of the weight. -/
theorem wblk0_apply (c : Dev nD) (t : Fin cfg0.N) (q : Fin 1024) (k : Fin 2048) (n : Fin 4096) (hn : n.val = t.val * 1024 + q.val) :
    (iblk0 V c 1 t : Vec Ideal S1024x2048 .f32) (ix2 q k) = warr0 V c (ix2 n k) := by
  obtain ⟨-, -, e10, e11, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 1024 + 1 * q.val = n.val; omega
  | ⟨1, _⟩ => show win0_1.index t (1 : Fin 2) * 2048 + 1 * k.val = k.val; omega

/-- Entry q of the bias block at point `t` is entry `1024·t + q` of the bias row. -/
theorem bblk0_apply (c : Dev nD) (t : Fin cfg0.N) (q : Fin 1024) (n : Fin 4096) (hn : n.val = t.val * 1024 + q.val) :
    (iblk0 V c 2 t : Vec Ideal S1x1024 .f32) (ix2 (0 : Fin 1) q) = barr0 V c (ix2 (0 : Fin 1) n) := by
  obtain ⟨-, -, -, -, e20, e21, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 1024 + 1 * q.val = n.val; omega

/-! ## From blocks to the array -/

/-- What point `t` writes back is block `t` of the closed form: element (p, q) of the body's result is the closed
    form at column `1024·t + q`, which is where the output's block puts it. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz0]
  simp only [View.ld_unit_zero (S := S8x2048) hz0, View.ld_unit_zero (S := S1024x2048) hz0, View.ld_unit_zero (S := S1x1024) hz0]
  funext y
  have hp : (y 0).val < 8 := (y 0).isLt
  have hq : (y 1).val < 1024 := (y 1).isLt
  have ht : t.val < 4 := N_0 ▸ t.isLt
  obtain ⟨-, -, -, -, -, -, e30, e31⟩ := idx_facts0 t
  have ey : (win0 3).xinj (grid0.coords t) y = ix2 (⟨(y 0).val, hp⟩ : Fin 8) (⟨(y 1).val, hq⟩ : Fin 1024) :=
    funext fun a => by match a with | ⟨0, _⟩ => rfl | ⟨1, _⟩ => rfl
  show k0_pay1 (F := Ideal) (iblk0 V c 0 t) (iblk0 V c 1 t) (iblk0 V c 2 t) ((win0 3).xinj (grid0.coords t) y) = _
  refine (congrArg (k0_pay1 (F := Ideal) (iblk0 V c 0 t) (iblk0 V c 1 t) (iblk0 V c 2 t)) ey).trans ?_
  refine (block0_apply (xarr0 V c) (warr0 V c) (barr0 V c) (iblk0 V c 0 t) (iblk0 V c 1 t) (iblk0 V c 2 t)
    ⟨(y 0).val, hp⟩ ⟨(y 1).val, hq⟩ ⟨t.val * 1024 + (y 1).val, by omega⟩
    (fun k => xblk0_apply V c t _ k) (fun k => wblk0_apply V c t _ k _ rfl) (bblk0_apply V c t _ _ rfl)).trans ?_
  have h0 : (⟨(y 0).val, hp⟩ : Fin 8) = (((cfg0.win 3).blk t).view.emb y) 0 :=
    Fin.ext (by show (y 0).val = win0_3.index t (0 : Fin 2) * 8 + 1 * (y 0).val; omega)
  have h1 : (⟨t.val * 1024 + (y 1).val, by omega⟩ : Fin 4096) = (((cfg0.win 3).blk t).view.emb y) 1 :=
    Fin.ext (by show t.val * 1024 + (y 1).val = win0_3.index t (1 : Fin 2) * 1024 + 1 * (y 1).val; omega)
  exact congrArg₂ (Closed.lin0 (xarr0 V c) (warr0 V c) (barr0 V c)) h0 h1

/-- An index of the output array is in point `t`'s block iff each coordinate is in the block's range on its axis. -/
theorem mem_blk0 (t : Fin cfg0.N) (i : S8x4096.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_call0_v8).slice (win0_3.rect t)).set ↔ _
  rw [View.set_slice_whole, Rect.mem_set_unit]
  exact Iff.rfl

/-- The four blocks tile the array: column `n` lies in the block of point `n / 1024`. -/
theorem cover0 (i : S8x4096.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hN : cfg0.N = 4 := N_0
  let t : Fin cfg0.N := ⟨(i 1).val / 1024, by rw [hN]; omega⟩
  obtain ⟨-, -, -, -, -, -, e30, e31⟩ := idx_facts0 t
  refine ⟨t, flush0_3 t, ?_⟩
  rw [mem_blk0]
  intro a
  match a with
  | ⟨0, _⟩ => show win0_3.index t (0 : Fin 2) * 8 ≤ (i 0).val ∧ (i 0).val < win0_3.index t (0 : Fin 2) * 8 + 8; omega
  | ⟨1, _⟩ =>
    show win0_3.index t (1 : Fin 2) * 1024 ≤ (i 1).val ∧ (i 1).val < win0_3.index t (1 : Fin 2) * 1024 + 1024
    rw [e31]; show (i 1).val / 1024 * 1024 ≤ (i 1).val ∧ (i 1).val < (i 1).val / 1024 * 1024 + 1024; omega

/-- The output array after the region: the attention logits of the three arrays as the region found them. -/
theorem value0 (c : Dev nD) : ((dat0 (F := Ideal) V c).arrAt 3 cfg0.N : S8x4096.Idx → EReal)
    = fun j => Closed.lin0 (V c (Pipeline.arrRef spec0 0)) (V c (Pipeline.arrRef spec0 1)) (V c (Pipeline.arrRef spec0 2)) (j 0) (j 1) :=
  (dat0 (F := Ideal) V c).arrAt_eq_of_cover 3 (G0 V c) (fun t _ => flushed0_eq V c t) cover0

end Cert.KernelIdeal.HandValue

end
-- ==== Proof.ValueKernelIdeal.V1.lean ====
/-
  The VALUE of region 1 of the decode step at the ideal instance: the attention read-out. The region multiplies the
  (8, 4096) attention weights (row 0 the weights, rows 1 to 7 zero padding) by the (4096, 1024) encoder outputs. Its
  grid is 2 column halves by 4 steps; point t = 4 j + k takes the (8, 1024) block of the weights at columns 1024 k
  onwards and the (1024, 512) block of the encoder outputs at rows 1024 k onwards and columns 512 j onwards, and adds
  their product into an (8, 512) accumulator that is reset at k = 0 and written back to columns 512 j onwards of the
  (8, 1024) output after k = 3.

  Over the extended reals a narrowing of the operands is the identity and a product into the zero block is a plain
  sum, so one step adds, at entry (p, q), the sum over 1024 positions l of w[p, 1024 k + l] * e[1024 k + l, 512 j + q].
  By induction on the point the accumulator after step k holds the sum of the addends of steps 0 to k (only 0 + x = x
  and the associativity of + are used: no finiteness). After step 3 the four sums over 1024 positions regroup into the
  one sum over the 4096 encoder steps, which is the closed form; the two write-back points cover the output array, so
  the array ends holding  out[p, r] = ∑ l : Fin 4096, w[p, l] * e[l, r].
-/
import proofs.«425349_j42889543417942_3_alg».proof.Proof.FrameKernelIdeal.R1
import proofs.«425349_j42889543417942_3_alg».proof.Proof.Closed
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## One step at an entry -/

theorem lhs_mm1_0 (i : S8x512.Idx) (q : dot_S8x1024_S1024x512_S8x512_1_0_0_1_n_n.contr.Idx) :
    (dot_S8x1024_S1024x512_S8x512_1_0_0_1_n_n.lhsIdx i q 0).val = (i 0).val := by
  unfold DotDims.lhsIdx
  rw [dif_neg (show ¬(0 : Fin S8x1024.rank) ∈ dot_S8x1024_S1024x512_S8x512_1_0_0_1_n_n.lhsBatch by decide), dif_pos (show (0 : Fin S8x1024.rank) ∈ dot_S8x1024_S1024x512_S8x512_1_0_0_1_n_n.lhsNonContracting by decide)]
  rfl
theorem lhs_mm1_1 (i : S8x512.Idx) (q : dot_S8x1024_S1024x512_S8x512_1_0_0_1_n_n.contr.Idx) :
    (dot_S8x1024_S1024x512_S8x512_1_0_0_1_n_n.lhsIdx i q 1).val = (q ⟨0, by decide⟩).val :=
  dot_S8x1024_S1024x512_S8x512_1_0_0_1_n_n.lhsIdx_val_of_single rfl i q
theorem rhs_mm1_0 (i : S8x512.Idx) (q : dot_S8x1024_S1024x512_S8x512_1_0_0_1_n_n.contr.Idx) :
    (dot_S8x1024_S1024x512_S8x512_1_0_0_1_n_n.rhsIdx i q 0).val = (q ⟨0, by decide⟩).val :=
  dot_S8x1024_S1024x512_S8x512_1_0_0_1_n_n.rhsIdx_val_of_single rfl i q
theorem rhs_mm1_1 (i : S8x512.Idx) (q : dot_S8x1024_S1024x512_S8x512_1_0_0_1_n_n.contr.Idx) :
    (dot_S8x1024_S1024x512_S8x512_1_0_0_1_n_n.rhsIdx i q 1).val = (i 1).val := by
  unfold DotDims.rhsIdx
  rw [dif_neg (show ¬(1 : Fin S1024x512.rank) ∈ dot_S8x1024_S1024x512_S8x512_1_0_0_1_n_n.rhsBatch by decide), dif_pos (show (1 : Fin S1024x512.rank) ∈ dot_S8x1024_S1024x512_S8x512_1_0_0_1_n_n.rhsNonContracting by decide)]
  rfl

/-- The product of an (8, 1024) block with a (1024, 512) block into the zero accumulator, at entry (p, q): the sum
    over the 1024 contracted positions of row p of the left block against column q of the right block. -/
theorem mm1_apply (x : FVec Ideal S8x1024 .bf16) (e : FVec Ideal S1024x512 .bf16) (p : Fin 8) (q : Fin 512) :
    matmul dot_S8x1024_S1024x512_S8x512_1_0_0_1_n_n none x e (constant (F := Ideal) S8x512 .f32 0x00000000#32) (ix2 p q)
      = ∑ l : Fin 1024, x (ix2 p l) * e (ix2 l q) := by
  refine (Ideal.matmul_constant_zero_apply dot_S8x1024_S1024x512_S8x512_1_0_0_1_n_n none x e (ix2 p q)).trans ?_
  rw [← Equiv.sum_comp (ValueIdx.contrEquiv1 dot_S8x1024_S1024x512_S8x512_1_0_0_1_n_n 1024 rfl rfl).symm]
  refine Finset.sum_congr rfl fun k _ => ?_
  have hk := ValueIdx.contrEquiv1_symm_val dot_S8x1024_S1024x512_S8x512_1_0_0_1_n_n 1024 rfl rfl k
  have el : dot_S8x1024_S1024x512_S8x512_1_0_0_1_n_n.lhsIdx (ix2 p q) ((ValueIdx.contrEquiv1 dot_S8x1024_S1024x512_S8x512_1_0_0_1_n_n 1024 rfl rfl).symm k) = ix2 p k := funext fun a => Fin.ext (by
    match a with
    | ⟨0, _⟩ => exact lhs_mm1_0 _ _
    | ⟨1, _⟩ => exact (lhs_mm1_1 _ _).trans hk)
  have er : dot_S8x1024_S1024x512_S8x512_1_0_0_1_n_n.rhsIdx (ix2 p q) ((ValueIdx.contrEquiv1 dot_S8x1024_S1024x512_S8x512_1_0_0_1_n_n 1024 rfl rfl).symm k) = ix2 k q := funext fun a => Fin.ext (by
    match a with
    | ⟨0, _⟩ => exact (rhs_mm1_0 _ _).trans hk
    | ⟨1, _⟩ => exact rhs_mm1_1 _ _)
  rw [el, er]

/-- One step of the accumulation at entry (p, q): what the accumulator held there plus the product of row p of the
    weights' block with column q of the encoder block. Narrowing the operands to bf16 is the identity on the extended
    reals, and the reshapes are between equal shapes. -/
theorem k1_pay2_apply (x : Vec Ideal S8x1024 .f32) (e : Vec Ideal S1024x512 .f32) (a : Vec Ideal S8x512 .f32) (p : Fin 8) (q : Fin 512) :
    k1_pay2 (F := Ideal) x e a (ix2 p q) = a (ix2 p q) + ∑ l : Fin 1024, x (ix2 p l) * e (ix2 l q) := by
  unfold k1_pay2
  rw [addf_apply, shapeCast_self, shapeCast_self]
  refine congrArg (a (ix2 p q) + ·) ?_
  exact mm1_apply _ _ p q

/-- The block the reset stores is zero at every entry. -/
theorem k1_pay1_apply (j : S8x512.Idx) : k1_pay1 (F := Ideal) j = 0 := by
  unfold k1_pay1
  rw [broadcast_apply]
  exact Ideal.ofBits_zero_f32

/-! ## The arrays and their blocks -/

variable (V : (c : Dev nD) → (b : Ref sig .tc) → Buf (Elt Ideal) ((c : Thread nD τ).loc b))

/-- The attention weights as the region finds them: (8, 4096), row 0 the weights, rows 1 to 7 padding. -/
abbrev wArr1 (c : Dev nD) : Vec Ideal S8x4096 .f32 := V c (Pipeline.arrRef spec1 0)
/-- The encoder outputs as the region finds them: (4096, 1024). -/
abbrev eArr1 (c : Dev nD) : Vec Ideal S4096x1024 .f32 := V c (Pipeline.arrRef spec1 1)
/-- The weights' block at point t: columns 1024 (t mod 4) onwards. -/
abbrev wBlk1 (c : Dev nD) (t : Fin cfg1.N) : Vec Ideal S8x1024 .f32 := iblk1 V c 0 t
/-- The encoder block at point t: rows 1024 (t mod 4) onwards, columns 512 (t div 4) onwards. -/
abbrev eBlk1 (c : Dev nD) (t : Fin cfg1.N) : Vec Ideal S1024x512 .f32 := iblk1 V c 1 t

/-- The block indices over the grid of 2 column halves by 4 steps: point t is step t mod 4 of column half t div 4. -/
theorem idx_facts1 : ∀ t : Fin cfg1.N,
    win1_0.index t (0 : Fin 2) = 0 ∧ win1_0.index t (1 : Fin 2) = t.val % 4
    ∧ win1_1.index t (0 : Fin 2) = t.val % 4 ∧ win1_1.index t (1 : Fin 2) = t.val / 4
    ∧ win1_2.index t (0 : Fin 2) = 0 ∧ win1_2.index t (1 : Fin 2) = t.val / 4 :=
  (by decide +kernel : ∀ t : Fin grid1.N, _)

/-- Entry (p, l) of the weights' block at point t is entry (p, 1024 (t mod 4) + l) of the weights. -/
theorem wBlk1_apply (c : Dev nD) (t : Fin cfg1.N) (p : Fin 8) (l : Fin 1024) (r : Fin 4096)
    (hr : r.val = 1024 * (t.val % 4) + l.val) : wBlk1 V c t (ix2 p l) = wArr1 V c (ix2 p r) := by
  obtain ⟨e0, e1, -⟩ := idx_facts1 t
  unfold wBlk1 iblk1
  rw [View.read_apply]
  show V c (Pipeline.arrRef spec1 0) (((cfg1.win 0).blk t).view.emb (ix2 p l)) = V c (Pipeline.arrRef spec1 0) (ix2 p r)
  refine congrArg (V c (Pipeline.arrRef spec1 0)) (funext fun a => Fin.ext ?_)
  match a with
  | ⟨0, _⟩ => show win1_0.index t (0 : Fin 2) * 8 + 1 * p.val = p.val; rw [e0]; omega
  | ⟨1, _⟩ => show win1_0.index t (1 : Fin 2) * 1024 + 1 * l.val = r.val; rw [e1, hr]; omega

/-- Entry (l, q) of the encoder block at point t is entry (1024 (t mod 4) + l, 512 (t div 4) + q) of the encoder
    outputs. -/
theorem eBlk1_apply (c : Dev nD) (t : Fin cfg1.N) (l : Fin 1024) (q : Fin 512) (r : Fin 4096) (s : Fin 1024)
    (hr : r.val = 1024 * (t.val % 4) + l.val) (hs : s.val = 512 * (t.val / 4) + q.val) :
    eBlk1 V c t (ix2 l q) = eArr1 V c (ix2 r s) := by
  obtain ⟨-, -, e2, e3, -⟩ := idx_facts1 t
  unfold eBlk1 iblk1
  rw [View.read_apply]
  show V c (Pipeline.arrRef spec1 1) (((cfg1.win 1).blk t).view.emb (ix2 l q)) = V c (Pipeline.arrRef spec1 1) (ix2 r s)
  refine congrArg (V c (Pipeline.arrRef spec1 1)) (funext fun a => Fin.ext ?_)
  match a with
  | ⟨0, _⟩ => show win1_1.index t (0 : Fin 2) * 1024 + 1 * l.val = r.val; rw [e2, hr]; omega
  | ⟨1, _⟩ => show win1_1.index t (1 : Fin 2) * 512 + 1 * q.val = s.val; rw [e3, hs]; omega

/-! ## The accumulation over the four steps of a column half -/

/-- The addend1 of point n at entry (p, q): the product of the point's two blocks there (zero past the grid, where it is
    never used). -/
def addend1 (c : Dev nD) (n : ℕ) (p : Fin 8) (q : Fin 512) : EReal :=
  if h : n < cfg1.N then ∑ l : Fin 1024, wBlk1 V c ⟨n, h⟩ (ix2 p l) * eBlk1 V c ⟨n, h⟩ (ix2 l q) else 0

theorem addend1_eq (c : Dev nD) (t : Fin cfg1.N) (p : Fin 8) (q : Fin 512) :
    addend1 V c t.val p q = ∑ l : Fin 1024, wBlk1 V c t (ix2 p l) * eBlk1 V c t (ix2 l q) := by
  unfold addend1
  rw [dif_pos t.isLt]

/-- At the first step of a column half the accumulator is reset and then holds the step's addend1. -/
theorem first_step1 (c : Dev nD) (t : Fin cfg1.N) (h0 : t.val % 4 = 0) (p : Fin 8) (q : Fin 512) :
    outsAt1 V c t.val t.isLt (ix2 p q) = addend1 V c t.val p q := by
  have e1 : outsAt1 V c t.val t.isLt = k1_pay2 (F := Ideal) (wBlk1 V c t) (eBlk1 V c t) (zero1 (F := Ideal)) :=
    (outsAt1_A V c t h0).trans (acc1_eq (wBlk1 V c t) (eBlk1 V c t) (zero1 (F := Ideal)))
  refine (congrFun e1 (ix2 p q)).trans ?_
  refine (k1_pay2_apply (wBlk1 V c t) (eBlk1 V c t) (zero1 (F := Ideal)) p q).trans ?_
  rw [addend1_eq, show zero1 (F := Ideal) (ix2 p q) = 0 from k1_pay1_apply (ix2 p q), zero_add]

/-- At a later step it holds what the step before left plus the step's addend1. -/
theorem later_step1 (c : Dev nD) (t : Fin cfg1.N) (h0 : ¬ t.val % 4 = 0) (p : Fin 8) (q : Fin 512) :
    outsAt1 V c t.val t.isLt (ix2 p q)
      = outsAt1 V c (t.val - 1) (Nat.lt_of_le_of_lt (Nat.sub_le _ _) t.isLt) (ix2 p q) + addend1 V c t.val p q := by
  have e1 : outsAt1 V c t.val t.isLt
      = k1_pay2 (F := Ideal) (wBlk1 V c t) (eBlk1 V c t) (outsAt1 V c (t.val - 1) (Nat.lt_of_le_of_lt (Nat.sub_le _ _) t.isLt)) :=
    (outsAt1_B V c t h0).trans (acc1_eq (wBlk1 V c t) (eBlk1 V c t) (outsAt1 V c (t.val - 1) (Nat.lt_of_le_of_lt (Nat.sub_le _ _) t.isLt)))
  refine (congrFun e1 (ix2 p q)).trans ?_
  refine (k1_pay2_apply (wBlk1 V c t) (eBlk1 V c t) (outsAt1 V c (t.val - 1) (Nat.lt_of_le_of_lt (Nat.sub_le _ _) t.isLt)) p q).trans ?_
  rw [addend1_eq]

/-- THE INVARIANT: after the body at point n the accumulator holds, at entry (p, q), the sum of the addends of the
    points of n's column half up to n — the points 4 (n div 4) + s for s ≤ n mod 4. By induction on the point; only
    0 + x = x and the associativity of + on the extended reals are used. -/
theorem outs1_apply (c : Dev nD) : ∀ (n : ℕ) (h : n < cfg1.N) (p : Fin 8) (q : Fin 512),
    outsAt1 V c n h (ix2 p q) = ∑ s ∈ Finset.range (n % 4 + 1), addend1 V c (4 * (n / 4) + s) p q
  | 0, h, p, q => by
    rw [first_step1 V c ⟨0, h⟩ rfl p q]
    simp
  | n + 1, h, p, q => by
    by_cases h0 : (n + 1) % 4 = 0
    · rw [first_step1 V c ⟨n + 1, h⟩ h0 p q, h0, Finset.sum_range_one]
      show addend1 V c (n + 1) p q = addend1 V c (4 * ((n + 1) / 4) + 0) p q
      congr 1; omega
    · rw [later_step1 V c ⟨n + 1, h⟩ h0 p q]
      show outsAt1 V c n _ (ix2 p q) + addend1 V c (n + 1) p q = _
      rw [outs1_apply c n (Nat.lt_of_succ_lt h) p q]
      have hd : (n + 1) / 4 = n / 4 := by omega
      have hm : (n + 1) % 4 = n % 4 + 1 := by omega
      rw [hd, hm, Finset.sum_range_succ _ (n % 4 + 1)]
      congr 2; omega

/-! ## At the write-back points: the block of the closed form -/

/-- Four runs of 1024 consecutive positions make up the 4096 positions. -/
theorem sum_runs1 (f : Fin 4096 → EReal) :
    ∑ s : Fin 4, ∑ l : Fin 1024, f ⟨1024 * s.val + l.val, by have := s.isLt; have := l.isLt; omega⟩ = ∑ m : Fin 4096, f m := by
  rw [← Fintype.sum_prod_type' (f := fun (s : Fin 4) (l : Fin 1024) => f ⟨1024 * s.val + l.val, by have := s.isLt; have := l.isLt; omega⟩)]
  exact Fintype.sum_equiv (finProdFinEquiv (m := 4) (n := 1024)) _ f fun x => congrArg f (Fin.ext (by
    show 1024 * x.1.val + x.2.val = x.2.val + 1024 * x.1.val
    omega))

/-- After the last step of a column half (t mod 4 = 3) the accumulator holds, at entry (p, q), the whole contraction
    over the 4096 encoder steps for column 512 (t div 4) + q: the four steps' sums over 1024 positions, regrouped. -/
theorem last_step1_apply (c : Dev nD) (t : Fin cfg1.N) (h3 : t.val % 4 = 3) (p : Fin 8) (q : Fin 512) (s : Fin 1024)
    (hs : s.val = 512 * (t.val / 4) + q.val) :
    outsAt1 V c t.val t.isLt (ix2 p q) = Closed.app1 (wArr1 V c) (eArr1 V c) p s := by
  have hN : cfg1.N = 8 := N_1
  have ht : t.val < 8 := hN ▸ t.isLt
  rw [outs1_apply V c t.val t.isLt p q, show t.val % 4 + 1 = 4 from by omega, Finset.sum_range]
  unfold Closed.app1
  rw [← sum_runs1]
  refine Finset.sum_congr rfl fun k _ => ?_
  have hk : k.val < 4 := k.isLt
  have hlt : 4 * (t.val / 4) + k.val < cfg1.N := Nat.lt_of_lt_of_eq (by omega : 4 * (t.val / 4) + k.val < 8) hN.symm
  refine (addend1_eq V c ⟨4 * (t.val / 4) + k.val, hlt⟩ p q).trans ?_
  refine Finset.sum_congr rfl fun l _ => ?_
  have hl : l.val < 1024 := l.isLt
  rw [wBlk1_apply V c ⟨4 * (t.val / 4) + k.val, hlt⟩ p l ⟨1024 * k.val + l.val, by omega⟩
      (by show 1024 * k.val + l.val = 1024 * ((4 * (t.val / 4) + k.val) % 4) + l.val; omega),
    eBlk1_apply V c ⟨4 * (t.val / 4) + k.val, hlt⟩ l q ⟨1024 * k.val + l.val, by omega⟩ s
      (by show 1024 * k.val + l.val = 1024 * ((4 * (t.val / 4) + k.val) % 4) + l.val; omega)
      (by show s.val = 512 * ((4 * (t.val / 4) + k.val) / 4) + q.val; omega)]

/-- The closed form as contents of the (8, 1024) output array. -/
abbrev G1 (c : Dev nD) : Vec Ideal S8x1024 .f32 := fun j => Closed.app1 (wArr1 V c) (eArr1 V c) (j 0) (j 1)

/-- WHAT A WRITE-BACK POINT WRITES is its block of the closed form: the (8, 512) block at block column t div 4. -/
theorem flushed1_eq (c : Dev nD) (t : Fin cfg1.N) (hf : (cfg1.win 2).flush t = true) :
    (dat1 (F := Ideal) V c).flushed 2 t = ((cfg1.win 2).blk t).view.read (Elt Ideal) (G1 V c) := by
  have h3 : t.val % 4 = 3 := (flush1_2 t).mp hf
  have hN : cfg1.N = 8 := N_1
  have ht : t.val < 8 := hN ▸ t.isLt
  obtain ⟨-, -, -, -, e4, e5⟩ := idx_facts1 t
  show (cfg1.win 2).cut (grid1.coords t) ((dat1 (F := Ideal) V c).after 2 t) = _
  rw [after1_2]
  funext y
  obtain ⟨p, q, rfl⟩ : ∃ (p : Fin 8) (q : Fin 512), y = ix2 p q := ⟨y 0, y 1, eq_ix2 y⟩
  have hq : q.val < 512 := q.isLt
  rw [View.read_apply]
  show outsAt1 V c t.val t.isLt (ix2 p q) = G1 V c (((cfg1.win 2).blk t).view.emb (ix2 p q))
  refine (last_step1_apply V c t h3 p q ⟨512 * (t.val / 4) + q.val, by omega⟩ rfl).trans ?_
  show Closed.app1 (wArr1 V c) (eArr1 V c) p ⟨512 * (t.val / 4) + q.val, _⟩
    = Closed.app1 (wArr1 V c) (eArr1 V c) ((((cfg1.win 2).blk t).view.emb (ix2 p q)) 0) ((((cfg1.win 2).blk t).view.emb (ix2 p q)) 1)
  congr 1
  · exact Fin.ext (show p.val = win1_2.index t (0 : Fin 2) * 8 + 1 * p.val by rw [e4]; omega)
  · exact Fin.ext (show 512 * (t.val / 4) + q.val = win1_2.index t (1 : Fin 2) * 512 + 1 * q.val by rw [e5]; omega)

/-- An index of the output array is in point t's block iff each coordinate is in the block's range on its axis. -/
theorem mem_blk1 (t : Fin cfg1.N) (i : S8x1024.Idx) :
    i ∈ ((cfg1.win 2).blk t).view.set ↔ ∀ a : Fin 2, win1_2.index t a * S8x512.size a ≤ (i a).val ∧ (i a).val < win1_2.index t a * S8x512.size a + S8x512.size a := by
  show i ∈ ((View.whole main_call0_v22).slice (win1_2.rect t)).set ↔ _
  rw [View.set_slice_whole, Rect.mem_set_unit]
  exact Iff.rfl

/-- THE OUTPUT ARRAY after the region: the attention read-out, entry by entry. Column r is written back by the last
    step of its column half, the point 4 (r div 512) + 3. -/
theorem value1 (c : Dev nD) : ((dat1 (F := Ideal) V c).arrAt 2 cfg1.N : S8x1024.Idx → EReal)
    = fun j => Closed.app1 (V c (Pipeline.arrRef spec1 0)) (V c (Pipeline.arrRef spec1 1)) (j 0) (j 1) :=
  (dat1 (F := Ideal) V c).arrAt_eq_of_cover 2 (G1 V c) (flushed1_eq V c) fun i => by
    have hN : cfg1.N = 8 := N_1
    have hi0 : (i 0).val < 8 := (i 0).isLt
    have hi1 : (i 1).val < 1024 := (i 1).isLt
    have hlt : 4 * ((i 1).val / 512) + 3 < cfg1.N := Nat.lt_of_lt_of_eq (by omega : 4 * ((i 1).val / 512) + 3 < 8) hN.symm
    obtain ⟨-, -, -, -, e4, e5⟩ := idx_facts1 ⟨4 * ((i 1).val / 512) + 3, hlt⟩
    refine ⟨⟨4 * ((i 1).val / 512) + 3, hlt⟩, (flush1_2 _).mpr (by show (4 * ((i 1).val / 512) + 3) % 4 = 3; omega), ?_⟩
    rw [mem_blk1]
    intro a
    match a with
    | ⟨0, _⟩ =>
      show win1_2.index ⟨4 * ((i 1).val / 512) + 3, hlt⟩ (0 : Fin 2) * 8 ≤ (i 0).val ∧ (i 0).val < win1_2.index ⟨4 * ((i 1).val / 512) + 3, hlt⟩ (0 : Fin 2) * 8 + 8
      rw [e4]; omega
    | ⟨1, _⟩ =>
      show win1_2.index ⟨4 * ((i 1).val / 512) + 3, hlt⟩ (1 : Fin 2) * 512 ≤ (i 1).val ∧ (i 1).val < win1_2.index ⟨4 * ((i 1).val / 512) + 3, hlt⟩ (1 : Fin 2) * 512 + 512
      rw [e5]
      show (4 * ((i 1).val / 512) + 3) / 4 * 512 ≤ (i 1).val ∧ (i 1).val < (4 * ((i 1).val / 512) + 3) / 4 * 512 + 512
      omega

end Cert.KernelIdeal.HandValue

end
-- ==== Proof.ValueKernelIdeal.V2.lean ====
/-
  Region 2 of the decode step, the VALUE of its output array at the extended reals: the combining layer
  `y[p, n] = max ((∑ₖ x[p, k] · W[n, k]) + b[0, n]) 0`, k over the 2048 joined features. The region runs two points
  along the 1024 output columns; point `t` sees the whole (8, 2048) activation, rows `512·t … 512·t + 511` of the
  weight and columns `512·t … 512·t + 511` of the bias row, and writes columns `512·t … 512·t + 511` of the result.

  The steps: the body's arithmetic read at one element of its (8, 512) result block (a change of float format is
  the identity on extended reals, the matrix unit's product into a zero accumulator is the plain sum over the
  contracted axis, the bias row is broadcast down the eight rows, the maximum is taken against the zero splat); each
  input block read as the part of its array the point's block indices name; hence what point `t` writes back is
  block `t` of ONE function of the three arrays, `Closed.lin2`; the two blocks tile the array (column `n` lies in
  the block of point `n / 512`), so the array ends holding that function.
-/
import proofs.«425349_j42889543417942_3_alg».proof.Proof.FrameKernelIdeal.R2
import proofs.«425349_j42889543417942_3_alg».proof.Proof.Closed
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The matrix unit's index maps: contraction over axis 1 of both operands

For the (8, 2048) × (512, 2048) → (8, 512) product contracting axis 1 with axis 1: the left operand is read at
(output row, contraction position), the right at (output column, contraction position). One lemma per axis. -/

theorem lhs2_0 (i : S8x512.Idx) (q : dot_S8x2048_S512x2048_S8x512_1_1_0_0_n_n.contr.Idx) :
    (dot_S8x2048_S512x2048_S8x512_1_1_0_0_n_n.lhsIdx i q 0).val = (i 0).val := by
  unfold DotDims.lhsIdx
  rw [dif_neg (show ¬(0 : Fin S8x2048.rank) ∈ dot_S8x2048_S512x2048_S8x512_1_1_0_0_n_n.lhsBatch by decide), dif_pos (show (0 : Fin S8x2048.rank) ∈ dot_S8x2048_S512x2048_S8x512_1_1_0_0_n_n.lhsNonContracting by decide)]
  rfl
theorem lhs2_1 (i : S8x512.Idx) (q : dot_S8x2048_S512x2048_S8x512_1_1_0_0_n_n.contr.Idx) :
    (dot_S8x2048_S512x2048_S8x512_1_1_0_0_n_n.lhsIdx i q 1).val = (q ⟨0, by decide⟩).val :=
  dot_S8x2048_S512x2048_S8x512_1_1_0_0_n_n.lhsIdx_val_of_single rfl i q
theorem rhs2_0 (i : S8x512.Idx) (q : dot_S8x2048_S512x2048_S8x512_1_1_0_0_n_n.contr.Idx) :
    (dot_S8x2048_S512x2048_S8x512_1_1_0_0_n_n.rhsIdx i q 0).val = (i 1).val := by
  unfold DotDims.rhsIdx
  rw [dif_neg (show ¬(0 : Fin S512x2048.rank) ∈ dot_S8x2048_S512x2048_S8x512_1_1_0_0_n_n.rhsBatch by decide), dif_pos (show (0 : Fin S512x2048.rank) ∈ dot_S8x2048_S512x2048_S8x512_1_1_0_0_n_n.rhsNonContracting by decide)]
  rfl
theorem rhs2_1 (i : S8x512.Idx) (q : dot_S8x2048_S512x2048_S8x512_1_1_0_0_n_n.contr.Idx) :
    (dot_S8x2048_S512x2048_S8x512_1_1_0_0_n_n.rhsIdx i q 1).val = (q ⟨0, by decide⟩).val :=
  dot_S8x2048_S512x2048_S8x512_1_1_0_0_n_n.rhsIdx_val_of_single rfl i q

/-! ## The body's arithmetic at one element -/

/-- Element (p, q) of the body's result block: row p of the activation block against row q of the weight block,
    summed over the 2048 features, plus entry q of the bias block's one row, then the maximum with zero. -/
theorem pay2_apply (x : Vec Ideal S8x2048 .f32) (w : Vec Ideal S512x2048 .f32) (b : Vec Ideal S1x512 .f32) (p : Fin 8) (q : Fin 512) :
    k2_pay1 (F := Ideal) x w b (ix2 p q) = max ((∑ k : Fin 2048, x (ix2 p k) * w (ix2 q k)) + b (ix2 (0 : Fin 1) q)) 0 := by
  unfold k2_pay1
  simp only [shapeCast_self]
  rw [maximumf_apply, broadcast_apply, addf_apply, broadcastTo_1b_ab_apply]
  show max _ (Ideal.ofBits .f32 0x00000000#32) = _
  rw [Ideal.ofBits_zero_f32]
  refine congrArg (fun s => max (s + b (ix2 (0 : Fin 1) q)) 0) ?_
  refine (Ideal.matmul_constant_zero_apply dot_S8x2048_S512x2048_S8x512_1_1_0_0_n_n none _ _ (ix2 p q)).trans ?_
  rw [← Equiv.sum_comp (contrEquiv1 dot_S8x2048_S512x2048_S8x512_1_1_0_0_n_n 2048 rfl rfl).symm]
  refine Finset.sum_congr rfl fun k _ => ?_
  have hk := contrEquiv1_symm_val dot_S8x2048_S512x2048_S8x512_1_1_0_0_n_n 2048 rfl rfl k
  have el : dot_S8x2048_S512x2048_S8x512_1_1_0_0_n_n.lhsIdx (ix2 p q) ((contrEquiv1 dot_S8x2048_S512x2048_S8x512_1_1_0_0_n_n 2048 rfl rfl).symm k) = ix2 p k := funext fun a => Fin.ext (by
    match a with
    | ⟨0, _⟩ => exact lhs2_0 _ _
    | ⟨1, _⟩ => exact (lhs2_1 _ _).trans hk)
  have er : dot_S8x2048_S512x2048_S8x512_1_1_0_0_n_n.rhsIdx (ix2 p q) ((contrEquiv1 dot_S8x2048_S512x2048_S8x512_1_1_0_0_n_n 2048 rfl rfl).symm k) = ix2 q k := funext fun a => Fin.ext (by
    match a with
    | ⟨0, _⟩ => exact rhs2_0 _ _
    | ⟨1, _⟩ => exact (rhs2_1 _ _).trans hk)
  rw [el, er]
  rfl

/-- The same element as the closed form at output column `n`, once the three blocks are known to be the parts of
    whole arrays `X`, `W`, `B` that column `n` needs: row p of `X`, row n of `W`, entry n of `B`'s row. -/
theorem block2_apply (X : FVec Ideal S8x2048 .f32) (W : FVec Ideal S1024x2048 .f32) (B : FVec Ideal S1x1024 .f32)
    (x : Vec Ideal S8x2048 .f32) (w : Vec Ideal S512x2048 .f32) (b : Vec Ideal S1x512 .f32)
    (p : Fin 8) (q : Fin 512) (n : Fin 1024)
    (hx : ∀ k : Fin 2048, x (ix2 p k) = X (ix2 p k))
    (hw : ∀ k : Fin 2048, w (ix2 q k) = W (ix2 n k))
    (hb : b (ix2 (0 : Fin 1) q) = B (ix2 (0 : Fin 1) n)) :
    k2_pay1 (F := Ideal) x w b (ix2 p q) = Closed.lin2 X W B p n := by
  rw [pay2_apply]
  unfold Closed.lin2
  rw [hb]
  exact congrArg (fun s => max (s + B (ix2 (0 : Fin 1) n)) 0) (Finset.sum_congr rfl fun k _ => by rw [hx, hw])

/-! ## The arrays as the region finds them, and the closed form over them -/

variable (V : (c : Dev nD) → (b : Ref sig .tc) → Buf (Elt Ideal) ((c : Thread nD τ).loc b))

/-- The (8, 2048) activation, -/
abbrev xarr2 (c : Dev nD) : FVec Ideal S8x2048 .f32 := V c (Pipeline.arrRef spec2 0)
/-- the (1024, 2048) weight, -/
abbrev warr2 (c : Dev nD) : FVec Ideal S1024x2048 .f32 := V c (Pipeline.arrRef spec2 1)
/-- the (1, 1024) bias row. -/
abbrev barr2 (c : Dev nD) : FVec Ideal S1x1024 .f32 := V c (Pipeline.arrRef spec2 2)

/-- What the (8, 1024) output ends holding: the combining layer of the three arrays, element by element. -/
abbrev G2 (c : Dev nD) : S8x1024.Idx → EReal := fun j => Closed.lin2 (xarr2 V c) (warr2 V c) (barr2 V c) (j 0) (j 1)

theorem hz2 : (![0, 0] : Fin 2 → Nat) = fun _ => 0 := funext fun a => by fin_cases a <;> rfl

/-- The block indices at point `t`, decided over the two points: the activation's block stays at (0, 0), the
    weight's is (t, 0), the bias's and the output's are (0, t). -/
theorem idx_facts2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-! ## Each input block is a part of its array

A block's element at (r, s) sits in the array at (block index × block size + r, …) on each axis. -/

/-- The activation block at any point is the whole activation. -/
theorem xblk2_apply (c : Dev nD) (t : Fin cfg2.N) (p : Fin 8) (k : Fin 2048) :
    (iblk2 V c 0 t : Vec Ideal S8x2048 .f32) (ix2 p k) = xarr2 V c (ix2 p k) := by
  obtain ⟨e00, e01, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 8 + 1 * p.val = p.val; omega
  | ⟨1, _⟩ => show win2_0.index t (1 : Fin 2) * 2048 + 1 * k.val = k.val; omega

/-- Row q of the weight block at point `t` is row `512·t + q` of the weight. -/
theorem wblk2_apply (c : Dev nD) (t : Fin cfg2.N) (q : Fin 512) (k : Fin 2048) (n : Fin 1024) (hn : n.val = t.val * 512 + q.val) :
    (iblk2 V c 1 t : Vec Ideal S512x2048 .f32) (ix2 q k) = warr2 V c (ix2 n k) := by
  obtain ⟨-, -, e10, e11, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 512 + 1 * q.val = n.val; omega
  | ⟨1, _⟩ => show win2_1.index t (1 : Fin 2) * 2048 + 1 * k.val = k.val; omega

/-- Entry q of the bias block at point `t` is entry `512·t + q` of the bias row. -/
theorem bblk2_apply (c : Dev nD) (t : Fin cfg2.N) (q : Fin 512) (n : Fin 1024) (hn : n.val = t.val * 512 + q.val) :
    (iblk2 V c 2 t : Vec Ideal S1x512 .f32) (ix2 (0 : Fin 1) q) = barr2 V c (ix2 (0 : Fin 1) n) := by
  obtain ⟨-, -, -, -, e20, e21, -⟩ := idx_facts2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * (0 : Fin 1).val = (0 : Fin 1).val; omega
  | ⟨1, _⟩ => show win2_2.index t (1 : Fin 2) * 512 + 1 * q.val = n.val; omega

/-! ## From blocks to the array -/

/-- What point `t` writes back is block `t` of the closed form: element (p, q) of the body's result is the closed
    form at column `512·t + q`, which is where the output's block puts it. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S8x2048) hz2, View.ld_unit_zero (S := S512x2048) hz2, View.ld_unit_zero (S := S1x512) hz2]
  funext y
  have hp : (y 0).val < 8 := (y 0).isLt
  have hq : (y 1).val < 512 := (y 1).isLt
  have ht : t.val < 2 := N_2 ▸ t.isLt
  obtain ⟨-, -, -, -, -, -, e30, e31⟩ := idx_facts2 t
  have ey : (win2 3).xinj (grid2.coords t) y = ix2 (⟨(y 0).val, hp⟩ : Fin 8) (⟨(y 1).val, hq⟩ : Fin 512) :=
    funext fun a => by match a with | ⟨0, _⟩ => rfl | ⟨1, _⟩ => rfl
  show k2_pay1 (F := Ideal) (iblk2 V c 0 t) (iblk2 V c 1 t) (iblk2 V c 2 t) ((win2 3).xinj (grid2.coords t) y) = _
  refine (congrArg (k2_pay1 (F := Ideal) (iblk2 V c 0 t) (iblk2 V c 1 t) (iblk2 V c 2 t)) ey).trans ?_
  refine (block2_apply (xarr2 V c) (warr2 V c) (barr2 V c) (iblk2 V c 0 t) (iblk2 V c 1 t) (iblk2 V c 2 t)
    ⟨(y 0).val, hp⟩ ⟨(y 1).val, hq⟩ ⟨t.val * 512 + (y 1).val, by omega⟩
    (fun k => xblk2_apply V c t _ k) (fun k => wblk2_apply V c t _ k _ rfl) (bblk2_apply V c t _ _ rfl)).trans ?_
  have h0 : (⟨(y 0).val, hp⟩ : Fin 8) = (((cfg2.win 3).blk t).view.emb y) 0 :=
    Fin.ext (by show (y 0).val = win2_3.index t (0 : Fin 2) * 8 + 1 * (y 0).val; omega)
  have h1 : (⟨t.val * 512 + (y 1).val, by omega⟩ : Fin 1024) = (((cfg2.win 3).blk t).view.emb y) 1 :=
    Fin.ext (by show t.val * 512 + (y 1).val = win2_3.index t (1 : Fin 2) * 512 + 1 * (y 1).val; omega)
  exact congrArg₂ (Closed.lin2 (xarr2 V c) (warr2 V c) (barr2 V c)) h0 h1

/-- An index of the output array is in point `t`'s block iff each coordinate is in the block's range on its axis. -/
theorem mem_blk2 (t : Fin cfg2.N) (i : S8x1024.Idx) :
    i ∈ ((cfg2.win 3).blk t).view.set ↔ ∀ a : Fin 2, win2_3.index t a * S8x512.size a ≤ (i a).val ∧ (i a).val < win2_3.index t a * S8x512.size a + S8x512.size a := by
  show i ∈ ((View.whole main_call0_v26).slice (win2_3.rect t)).set ↔ _
  rw [View.set_slice_whole, Rect.mem_set_unit]
  exact Iff.rfl

/-- The two blocks tile the array: column `n` lies in the block of point `n / 512`. -/
theorem cover2 (i : S8x1024.Idx) : ∃ t : Fin cfg2.N, (cfg2.win 3).flush t = true ∧ i ∈ ((cfg2.win 3).blk t).view.set := by
  have hi0 : (i 0).val < 8 := (i 0).isLt
  have hi1 : (i 1).val < 1024 := (i 1).isLt
  have hN : cfg2.N = 2 := N_2
  let t : Fin cfg2.N := ⟨(i 1).val / 512, by rw [hN]; omega⟩
  obtain ⟨-, -, -, -, -, -, e30, e31⟩ := idx_facts2 t
  refine ⟨t, flush2_3 t, ?_⟩
  rw [mem_blk2]
  intro a
  match a with
  | ⟨0, _⟩ => show win2_3.index t (0 : Fin 2) * 8 ≤ (i 0).val ∧ (i 0).val < win2_3.index t (0 : Fin 2) * 8 + 8; omega
  | ⟨1, _⟩ =>
    show win2_3.index t (1 : Fin 2) * 512 ≤ (i 1).val ∧ (i 1).val < win2_3.index t (1 : Fin 2) * 512 + 512
    rw [e31]; show (i 1).val / 512 * 512 ≤ (i 1).val ∧ (i 1).val < (i 1).val / 512 * 512 + 512; omega

/-- The output array after the region: the combining layer of the three arrays as the region found them. -/
theorem value2 (c : Dev nD) : ((dat2 (F := Ideal) V c).arrAt 3 cfg2.N : S8x1024.Idx → EReal)
    = fun j => Closed.lin2 (V c (Pipeline.arrRef spec2 0)) (V c (Pipeline.arrRef spec2 1)) (V c (Pipeline.arrRef spec2 2)) (j 0) (j 1) :=
  (dat2 (F := Ideal) V c).arrAt_eq_of_cover 3 (G2 V c) (fun t _ => flushed2_eq V c t) cover2

end Cert.KernelIdeal.HandValue

end
-- ==== Proof.ValueKernelIdeal.V3.lean ====
/-
  Region 3 of the decode step, the VALUE of its output array at the extended reals: the four gates' pre-activations
  `g[p, n] = (((∑ₖ x[p, k] · Wih[n, k]) + (∑ₖ h[p, k] · Whh[n, k])) + bih[0, n]) + bhh[0, n]`, k over the 1024 hidden
  features. The region runs four points along the 4096 gate columns; point `t` sees the whole (8, 1024) input and
  hidden state, rows `1024·t … 1024·t + 1023` of each weight and columns `1024·t … 1024·t + 1023` of each bias row,
  and writes columns `1024·t … 1024·t + 1023` of the result.

  The steps: the body's arithmetic read at one element of its (8, 1024) result block (a change of float format is
  the identity on extended reals, each matrix-unit product into a zero accumulator is the plain sum over the
  contracted axis, each bias row is broadcast down the eight rows, the four terms are added in the order written
  above); each input block read as the part of its array the point's block indices name; hence what point `t`
  writes back is block `t` of ONE function of the six arrays, `Closed.gates3`; the four blocks tile the array
  (column `n` lies in the block of point `n / 1024`), so the array ends holding that function.
-/
import proofs.«425349_j42889543417942_3_alg».proof.Proof.FrameKernelIdeal.R3
import proofs.«425349_j42889543417942_3_alg».proof.Proof.Closed
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The matrix unit's index maps: contraction over axis 1 of both operands

For the (8, 1024) × (1024, 1024) → (8, 1024) product contracting axis 1 with axis 1: the left operand is read at
(output row, contraction position), the right at (output column, contraction position). One lemma per axis. -/

theorem lhs3_0 (i : S8x1024.Idx) (q : dot_S8x1024_S1024x1024_S8x1024_1_1_0_0_n_n.contr.Idx) :
    (dot_S8x1024_S1024x1024_S8x1024_1_1_0_0_n_n.lhsIdx i q 0).val = (i 0).val := by
  unfold DotDims.lhsIdx
  rw [dif_neg (show ¬(0 : Fin S8x1024.rank) ∈ dot_S8x1024_S1024x1024_S8x1024_1_1_0_0_n_n.lhsBatch by decide), dif_pos (show (0 : Fin S8x1024.rank) ∈ dot_S8x1024_S1024x1024_S8x1024_1_1_0_0_n_n.lhsNonContracting by decide)]
  rfl
theorem lhs3_1 (i : S8x1024.Idx) (q : dot_S8x1024_S1024x1024_S8x1024_1_1_0_0_n_n.contr.Idx) :
    (dot_S8x1024_S1024x1024_S8x1024_1_1_0_0_n_n.lhsIdx i q 1).val = (q ⟨0, by decide⟩).val :=
  dot_S8x1024_S1024x1024_S8x1024_1_1_0_0_n_n.lhsIdx_val_of_single rfl i q
theorem rhs3_0 (i : S8x1024.Idx) (q : dot_S8x1024_S1024x1024_S8x1024_1_1_0_0_n_n.contr.Idx) :
    (dot_S8x1024_S1024x1024_S8x1024_1_1_0_0_n_n.rhsIdx i q 0).val = (i 1).val := by
  unfold DotDims.rhsIdx
  rw [dif_neg (show ¬(0 : Fin S1024x1024.rank) ∈ dot_S8x1024_S1024x1024_S8x1024_1_1_0_0_n_n.rhsBatch by decide), dif_pos (show (0 : Fin S1024x1024.rank) ∈ dot_S8x1024_S1024x1024_S8x1024_1_1_0_0_n_n.rhsNonContracting by decide)]
  rfl
theorem rhs3_1 (i : S8x1024.Idx) (q : dot_S8x1024_S1024x1024_S8x1024_1_1_0_0_n_n.contr.Idx) :
    (dot_S8x1024_S1024x1024_S8x1024_1_1_0_0_n_n.rhsIdx i q 1).val = (q ⟨0, by decide⟩).val :=
  dot_S8x1024_S1024x1024_S8x1024_1_1_0_0_n_n.rhsIdx_val_of_single rfl i q

/-! ## The body's arithmetic at one element -/

/-- One matrix-unit product into the zero accumulator, at element (p, q): row p of the left block against row q of the
    right block, summed over the 1024 contracted positions. -/
theorem mm3_apply (a : FVec Ideal S8x1024 .bf16) (m : FVec Ideal S1024x1024 .bf16) (p : Fin 8) (q : Fin 1024) :
    FloatOps.matmul dot_S8x1024_S1024x1024_S8x1024_1_1_0_0_n_n none a m (constant (F := Ideal) S8x1024 .f32 0x00000000#32) (ix2 p q) = ∑ k : Fin 1024, a (ix2 p k) * m (ix2 q k) := by
  refine (Ideal.matmul_constant_zero_apply dot_S8x1024_S1024x1024_S8x1024_1_1_0_0_n_n none a m (ix2 p q)).trans ?_
  rw [← Equiv.sum_comp (contrEquiv1 dot_S8x1024_S1024x1024_S8x1024_1_1_0_0_n_n 1024 rfl rfl).symm]
  refine Finset.sum_congr rfl fun k _ => ?_
  have hk := contrEquiv1_symm_val dot_S8x1024_S1024x1024_S8x1024_1_1_0_0_n_n 1024 rfl rfl k
  have el : dot_S8x1024_S1024x1024_S8x1024_1_1_0_0_n_n.lhsIdx (ix2 p q) ((contrEquiv1 dot_S8x1024_S1024x1024_S8x1024_1_1_0_0_n_n 1024 rfl rfl).symm k) = ix2 p k := funext fun a => Fin.ext (by
    match a with
    | ⟨0, _⟩ => exact lhs3_0 _ _
    | ⟨1, _⟩ => exact (lhs3_1 _ _).trans hk)
  have er : dot_S8x1024_S1024x1024_S8x1024_1_1_0_0_n_n.rhsIdx (ix2 p q) ((contrEquiv1 dot_S8x1024_S1024x1024_S8x1024_1_1_0_0_n_n 1024 rfl rfl).symm k) = ix2 q k := funext fun a => Fin.ext (by
    match a with
    | ⟨0, _⟩ => exact rhs3_0 _ _
    | ⟨1, _⟩ => exact (rhs3_1 _ _).trans hk)
  rw [el, er]

/-- Element (p, q) of the body's result block: the input's row p against row q of the first weight block, plus the
    hidden state's row p against row q of the second, plus entry q of each bias block's one row, in that order. -/
theorem pay3_apply (x h : Vec Ideal S8x1024 .f32) (wi wh : Vec Ideal S1024x1024 .f32) (bi bh : Vec Ideal S1x1024 .f32) (p : Fin 8) (q : Fin 1024) :
    k3_pay1 (F := Ideal) x h wi wh bi bh (ix2 p q)
      = (((∑ k : Fin 1024, x (ix2 p k) * wi (ix2 q k)) + (∑ k : Fin 1024, h (ix2 p k) * wh (ix2 q k)))
          + bi (ix2 (0 : Fin 1) q)) + bh (ix2 (0 : Fin 1) q) := by
  unfold k3_pay1
  simp only [shapeCast_self]
  rw [addf_apply, addf_apply, addf_apply, broadcastTo_1b_ab_apply, broadcastTo_1b_ab_apply]
  refine congrArg₂ (fun s s' => ((s + s') + bi (ix2 (0 : Fin 1) q)) + bh (ix2 (0 : Fin 1) q)) ?_ ?_
  · exact mm3_apply (truncf .bf16 x bitsLt_bf16_f32) (truncf .bf16 wi bitsLt_bf16_f32) p q
  · exact mm3_apply (truncf .bf16 h bitsLt_bf16_f32) (truncf .bf16 wh bitsLt_bf16_f32) p q

/-- The same element as the closed form at gate column `n`, once the six blocks are known to be the parts of whole
    arrays that column `n` needs: row p of the input and of the hidden state, row n of each weight, entry n of each
    bias row. -/
theorem block3_apply (X H : FVec Ideal S8x1024 .f32) (Wi Wh : FVec Ideal S4096x1024 .f32) (Bi Bh : FVec Ideal S1x4096 .f32)
    (x h : Vec Ideal S8x1024 .f32) (wi wh : Vec Ideal S1024x1024 .f32) (bi bh : Vec Ideal S1x1024 .f32)
    (p : Fin 8) (q : Fin 1024) (n : Fin 4096)
    (hx : ∀ k : Fin 1024, x (ix2 p k) = X (ix2 p k))
    (hh : ∀ k : Fin 1024, h (ix2 p k) = H (ix2 p k))
    (hwi : ∀ k : Fin 1024, wi (ix2 q k) = Wi (ix2 n k))
    (hwh : ∀ k : Fin 1024, wh (ix2 q k) = Wh (ix2 n k))
    (hbi : bi (ix2 (0 : Fin 1) q) = Bi (ix2 (0 : Fin 1) n))
    (hbh : bh (ix2 (0 : Fin 1) q) = Bh (ix2 (0 : Fin 1) n)) :
    k3_pay1 (F := Ideal) x h wi wh bi bh (ix2 p q) = Closed.gates3 X H Wi Wh Bi Bh p n := by
  rw [pay3_apply]
  unfold Closed.gates3
  rw [hbi, hbh]
  exact congrArg₂ (fun s s' => ((s + s') + Bi (ix2 (0 : Fin 1) n)) + Bh (ix2 (0 : Fin 1) n))
    (Finset.sum_congr rfl fun k _ => by rw [hx, hwi]) (Finset.sum_congr rfl fun k _ => by rw [hh, hwh])

/-! ## The arrays as the region finds them, and the closed form over them -/

variable (V : (c : Dev nD) → (b : Ref sig .tc) → Buf (Elt Ideal) ((c : Thread nD τ).loc b))

/-- The (8, 1024) input, -/
abbrev xarr3 (c : Dev nD) : FVec Ideal S8x1024 .f32 := V c (Pipeline.arrRef spec3 0)
/-- the (8, 1024) hidden state, -/
abbrev harr3 (c : Dev nD) : FVec Ideal S8x1024 .f32 := V c (Pipeline.arrRef spec3 1)
/-- the two (4096, 1024) weights, -/
abbrev wiarr3 (c : Dev nD) : FVec Ideal S4096x1024 .f32 := V c (Pipeline.arrRef spec3 2)
abbrev wharr3 (c : Dev nD) : FVec Ideal S4096x1024 .f32 := V c (Pipeline.arrRef spec3 3)
/-- the two (1, 4096) bias rows. -/
abbrev biarr3 (c : Dev nD) : FVec Ideal S1x4096 .f32 := V c (Pipeline.arrRef spec3 4)
abbrev bharr3 (c : Dev nD) : FVec Ideal S1x4096 .f32 := V c (Pipeline.arrRef spec3 5)

/-- What the (8, 4096) output ends holding: the gates' pre-activations of the six arrays, element by element. -/
abbrev G3 (c : Dev nD) : S8x4096.Idx → EReal := fun j =>
  Closed.gates3 (xarr3 V c) (harr3 V c) (wiarr3 V c) (wharr3 V c) (biarr3 V c) (bharr3 V c) (j 0) (j 1)

theorem hz3 : (![0, 0] : Fin 2 → Nat) = fun _ => 0 := funext fun a => by fin_cases a <;> rfl

/-- The block indices at point `t`, decided over the four points: the input's and the hidden state's blocks stay at
    (0, 0), each weight's is (t, 0), each bias's and the output's are (0, t). -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = t.val
    ∧ win3_5.index t (0 : Fin 2) = 0 ∧ win3_5.index t (1 : Fin 2) = t.val
    ∧ win3_6.index t (0 : Fin 2) = 0 ∧ win3_6.index t (1 : Fin 2) = t.val :=
  (by decide +kernel : ∀ t : Fin grid3.N, _)

/-! ## Each input block is a part of its array

A block's element at (r, s) sits in the array at (block index × block size + r, …) on each axis. -/

/-- The input block at any point is the whole input. -/
theorem xblk3_apply (c : Dev nD) (t : Fin cfg3.N) (p : Fin 8) (k : Fin 1024) :
    (iblk3 V c 0 t : Vec Ideal S8x1024 .f32) (ix2 p k) = xarr3 V c (ix2 p k) := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 8 + 1 * p.val = p.val; omega
  | ⟨1, _⟩ => show win3_0.index t (1 : Fin 2) * 1024 + 1 * k.val = k.val; omega

/-- The hidden-state block at any point is the whole hidden state. -/
theorem hblk3_apply (c : Dev nD) (t : Fin cfg3.N) (p : Fin 8) (k : Fin 1024) :
    (iblk3 V c 1 t : Vec Ideal S8x1024 .f32) (ix2 p k) = harr3 V c (ix2 p k) := by
  obtain ⟨-, -, e0, e1, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 8 + 1 * p.val = p.val; omega
  | ⟨1, _⟩ => show win3_1.index t (1 : Fin 2) * 1024 + 1 * k.val = k.val; omega

/-- Row q of the first weight's block at point `t` is row `1024·t + q` of that weight. -/
theorem wiblk3_apply (c : Dev nD) (t : Fin cfg3.N) (q : Fin 1024) (k : Fin 1024) (n : Fin 4096) (hn : n.val = t.val * 1024 + q.val) :
    (iblk3 V c 2 t : Vec Ideal S1024x1024 .f32) (ix2 q k) = wiarr3 V c (ix2 n k) := by
  obtain ⟨-, -, -, -, e0, e1, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1024 + 1 * q.val = n.val; omega
  | ⟨1, _⟩ => show win3_2.index t (1 : Fin 2) * 1024 + 1 * k.val = k.val; omega

/-- Row q of the second weight's block at point `t` is row `1024·t + q` of that weight. -/
theorem whblk3_apply (c : Dev nD) (t : Fin cfg3.N) (q : Fin 1024) (k : Fin 1024) (n : Fin 4096) (hn : n.val = t.val * 1024 + q.val) :
    (iblk3 V c 3 t : Vec Ideal S1024x1024 .f32) (ix2 q k) = wharr3 V c (ix2 n k) := by
  obtain ⟨-, -, -, -, -, -, e0, e1, -⟩ := idx_facts3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1024 + 1 * q.val = n.val; omega
  | ⟨1, _⟩ => show win3_3.index t (1 : Fin 2) * 1024 + 1 * k.val = k.val; omega

/-- Entry q of the first bias block at point `t` is entry `1024·t + q` of that bias row. -/
theorem biblk3_apply (c : Dev nD) (t : Fin cfg3.N) (q : Fin 1024) (n : Fin 4096) (hn : n.val = t.val * 1024 + q.val) :
    (iblk3 V c 4 t : Vec Ideal S1x1024 .f32) (ix2 (0 : Fin 1) q) = biarr3 V c (ix2 (0 : Fin 1) n) := by
  obtain ⟨-, -, -, -, -, -, -, -, e0, e1, -⟩ := idx_facts3 t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (0 : Fin 1).val = (0 : Fin 1).val; omega
  | ⟨1, _⟩ => show win3_4.index t (1 : Fin 2) * 1024 + 1 * q.val = n.val; omega

/-- Entry q of the second bias block at point `t` is entry `1024·t + q` of that bias row. -/
theorem bhblk3_apply (c : Dev nD) (t : Fin cfg3.N) (q : Fin 1024) (n : Fin 4096) (hn : n.val = t.val * 1024 + q.val) :
    (iblk3 V c 5 t : Vec Ideal S1x1024 .f32) (ix2 (0 : Fin 1) q) = bharr3 V c (ix2 (0 : Fin 1) n) := by
  obtain ⟨-, -, -, -, -, -, -, -, -, -, e0, e1, -⟩ := idx_facts3 t
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * (0 : Fin 1).val = (0 : Fin 1).val; omega
  | ⟨1, _⟩ => show win3_5.index t (1 : Fin 2) * 1024 + 1 * q.val = n.val; omega

/-! ## From blocks to the array -/

/-- What point `t` writes back is block `t` of the closed form: element (p, q) of the body's result is the closed
    form at column `1024·t + q`, which is where the output's block puts it. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz3]
  simp only [View.ld_unit_zero (S := S8x1024) hz3, View.ld_unit_zero (S := S1024x1024) hz3, View.ld_unit_zero (S := S1x1024) hz3]
  funext y
  have hp : (y 0).val < 8 := (y 0).isLt
  have hq : (y 1).val < 1024 := (y 1).isLt
  have ht : t.val < 4 := N_3 ▸ t.isLt
  obtain ⟨-, -, -, -, -, -, -, -, -, -, -, -, e60, e61⟩ := idx_facts3 t
  have ey : (win3 6).xinj (grid3.coords t) y = ix2 (⟨(y 0).val, hp⟩ : Fin 8) (⟨(y 1).val, hq⟩ : Fin 1024) :=
    funext fun a => by match a with | ⟨0, _⟩ => rfl | ⟨1, _⟩ => rfl
  show k3_pay1 (F := Ideal) (iblk3 V c 0 t) (iblk3 V c 1 t) (iblk3 V c 2 t) (iblk3 V c 3 t) (iblk3 V c 4 t) (iblk3 V c 5 t)
    ((win3 6).xinj (grid3.coords t) y) = _
  refine (congrArg (k3_pay1 (F := Ideal) (iblk3 V c 0 t) (iblk3 V c 1 t) (iblk3 V c 2 t) (iblk3 V c 3 t) (iblk3 V c 4 t) (iblk3 V c 5 t)) ey).trans ?_
  refine (block3_apply (xarr3 V c) (harr3 V c) (wiarr3 V c) (wharr3 V c) (biarr3 V c) (bharr3 V c)
    (iblk3 V c 0 t) (iblk3 V c 1 t) (iblk3 V c 2 t) (iblk3 V c 3 t) (iblk3 V c 4 t) (iblk3 V c 5 t)
    ⟨(y 0).val, hp⟩ ⟨(y 1).val, hq⟩ ⟨t.val * 1024 + (y 1).val, by omega⟩
    (fun k => xblk3_apply V c t _ k) (fun k => hblk3_apply V c t _ k)
    (fun k => wiblk3_apply V c t _ k _ rfl) (fun k => whblk3_apply V c t _ k _ rfl)
    (biblk3_apply V c t _ _ rfl) (bhblk3_apply V c t _ _ rfl)).trans ?_
  have h0 : (⟨(y 0).val, hp⟩ : Fin 8) = (((cfg3.win 6).blk t).view.emb y) 0 :=
    Fin.ext (by show (y 0).val = win3_6.index t (0 : Fin 2) * 8 + 1 * (y 0).val; omega)
  have h1 : (⟨t.val * 1024 + (y 1).val, by omega⟩ : Fin 4096) = (((cfg3.win 6).blk t).view.emb y) 1 :=
    Fin.ext (by show t.val * 1024 + (y 1).val = win3_6.index t (1 : Fin 2) * 1024 + 1 * (y 1).val; omega)
  exact congrArg₂ (Closed.gates3 (xarr3 V c) (harr3 V c) (wiarr3 V c) (wharr3 V c) (biarr3 V c) (bharr3 V c)) h0 h1

/-- An index of the output array is in point `t`'s block iff each coordinate is in the block's range on its axis. -/
theorem mem_blk3 (t : Fin cfg3.N) (i : S8x4096.Idx) :
    i ∈ ((cfg3.win 6).blk t).view.set ↔ ∀ a : Fin 2, win3_6.index t a * S8x1024.size a ≤ (i a).val ∧ (i a).val < win3_6.index t a * S8x1024.size a + S8x1024.size a := by
  show i ∈ ((View.whole main_call0_v30).slice (win3_6.rect t)).set ↔ _
  rw [View.set_slice_whole, Rect.mem_set_unit]
  exact Iff.rfl

/-- The four blocks tile the array: column `n` lies in the block of point `n / 1024`. -/
theorem cover3 (i : S8x4096.Idx) : ∃ t : Fin cfg3.N, (cfg3.win 6).flush t = true ∧ i ∈ ((cfg3.win 6).blk t).view.set := by
  have hi0 : (i 0).val < 8 := (i 0).isLt
  have hi1 : (i 1).val < 4096 := (i 1).isLt
  have hN : cfg3.N = 4 := N_3
  let t : Fin cfg3.N := ⟨(i 1).val / 1024, by rw [hN]; omega⟩
  obtain ⟨-, -, -, -, -, -, -, -, -, -, -, -, e60, e61⟩ := idx_facts3 t
  refine ⟨t, flush3_6 t, ?_⟩
  rw [mem_blk3]
  intro a
  match a with
  | ⟨0, _⟩ => show win3_6.index t (0 : Fin 2) * 8 ≤ (i 0).val ∧ (i 0).val < win3_6.index t (0 : Fin 2) * 8 + 8; omega
  | ⟨1, _⟩ =>
    show win3_6.index t (1 : Fin 2) * 1024 ≤ (i 1).val ∧ (i 1).val < win3_6.index t (1 : Fin 2) * 1024 + 1024
    rw [e61]; show (i 1).val / 1024 * 1024 ≤ (i 1).val ∧ (i 1).val < (i 1).val / 1024 * 1024 + 1024; omega

/-- The output array after the region: the gates' pre-activations of the six arrays as the region found them. -/
theorem value3 (c : Dev nD) : ((dat3 (F := Ideal) V c).arrAt 6 cfg3.N : S8x4096.Idx → EReal)
    = fun j => Closed.gates3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (j 0) (j 1) :=
  (dat3 (F := Ideal) V c).arrAt_eq_of_cover 6 (G3 V c) (fun t _ => flushed3_eq V c t) cover3

end Cert.KernelIdeal.HandValue

end
-- ==== Proof.ValueKernelIdeal.V4.lean ====
/-
  Region 4 of the decode step, the VALUE of its output array at the extended reals: the vocabulary logits
  `y[p, n] = (∑ₖ x[p, k] · W[n, k]) + b[0, n]`, k over the 1024 hidden features, n over the 50257 words. The region
  runs fifty points along the output columns; point `t` sees the whole (8, 1024) activation, rows `1024·t …` of the
  weight and columns `1024·t …` of the bias row, and writes columns `1024·t …` of the result. 50257 = 49 · 1024 + 81:
  at the last point only 81 rows of the weight block, 81 entries of the bias block and 81 columns of the result
  block lie inside their arrays, and the write-back writes those 81 columns and nothing else.

  The steps: the body's arithmetic read at one element of its (8, 1024) result block (a change of float format is
  the identity on extended reals, the matrix unit's product into a zero accumulator is the plain sum over the
  contracted axis, the bias row is broadcast down the eight rows); the weight and bias buffers, which are the blocks
  filled out with zeros past the arrays' ends, read INSIDE the arrays as the arrays' own rows and entries; hence what
  point `t` writes back — the columns of its result block inside the array — is block `t`, cut at the array's end,
  of ONE function of the three arrays, `Closed.lin4`; the fifty cut blocks tile the array (column `n` lies in the
  block of point `n / 1024`), so the array ends holding that function.
-/
import proofs.«425349_j42889543417942_3_alg».proof.Proof.FrameKernelIdeal.R4
import proofs.«425349_j42889543417942_3_alg».proof.Proof.Closed
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Window)

/-! ## The matrix unit's index maps: contraction over axis 1 of both operands

For the (8, 1024) × (1024, 1024) → (8, 1024) product contracting axis 1 with axis 1: the left operand is read at
(output row, contraction position), the right at (output column, contraction position). One lemma per axis; the
right operand's row is `Hand.rhsIdx4_0`. -/

theorem lhs4_0 (i : S8x1024.Idx) (q : dot_S8x1024_S1024x1024_S8x1024_1_1_0_0_n_n.contr.Idx) :
    (dot_S8x1024_S1024x1024_S8x1024_1_1_0_0_n_n.lhsIdx i q 0).val = (i 0).val := by
  simp [DotDims.lhsIdx, dot_S8x1024_S1024x1024_S8x1024_1_1_0_0_n_n]; rfl
theorem lhs4_1 (i : S8x1024.Idx) (q : dot_S8x1024_S1024x1024_S8x1024_1_1_0_0_n_n.contr.Idx) :
    (dot_S8x1024_S1024x1024_S8x1024_1_1_0_0_n_n.lhsIdx i q 1).val = (q ⟨0, by decide⟩).val :=
  dot_S8x1024_S1024x1024_S8x1024_1_1_0_0_n_n.lhsIdx_val_of_single rfl i q
theorem rhs4_1 (i : S8x1024.Idx) (q : dot_S8x1024_S1024x1024_S8x1024_1_1_0_0_n_n.contr.Idx) :
    (dot_S8x1024_S1024x1024_S8x1024_1_1_0_0_n_n.rhsIdx i q 1).val = (q ⟨0, by decide⟩).val :=
  dot_S8x1024_S1024x1024_S8x1024_1_1_0_0_n_n.rhsIdx_val_of_single rfl i q

/-! ## The body's arithmetic at one element -/

/-- Element (p, q) of the body's result buffer: row p of the activation buffer against row q of the weight buffer,
    summed over the 1024 features, plus entry q of the bias buffer's one row. -/
theorem pay4_apply (x : Vec Ideal S8x1024 .f32) (w : Vec Ideal S1024x1024 .f32) (b : Vec Ideal S1x1024 .f32) (p : Fin 8) (q : Fin 1024) :
    k4_pay1 (F := Ideal) x w b (ix2 p q) = (∑ k : Fin 1024, x (ix2 p k) * w (ix2 q k)) + b (ix2 (0 : Fin 1) q) := by
  unfold k4_pay1
  simp only [shapeCast_self]
  rw [addf_apply, broadcastTo_1b_ab_apply]
  refine congrArg (· + b (ix2 (0 : Fin 1) q)) ?_
  refine (Ideal.matmul_constant_zero_apply dot_S8x1024_S1024x1024_S8x1024_1_1_0_0_n_n none _ _ (ix2 p q)).trans ?_
  rw [← Equiv.sum_comp (contrEquiv1 dot_S8x1024_S1024x1024_S8x1024_1_1_0_0_n_n 1024 rfl rfl).symm]
  refine Finset.sum_congr rfl fun k _ => ?_
  have hk := contrEquiv1_symm_val dot_S8x1024_S1024x1024_S8x1024_1_1_0_0_n_n 1024 rfl rfl k
  have el : dot_S8x1024_S1024x1024_S8x1024_1_1_0_0_n_n.lhsIdx (ix2 p q) ((contrEquiv1 dot_S8x1024_S1024x1024_S8x1024_1_1_0_0_n_n 1024 rfl rfl).symm k) = ix2 p k :=
    funext fun a => Fin.ext (by
      match a with
      | ⟨0, _⟩ => exact lhs4_0 _ _
      | ⟨1, _⟩ => exact (lhs4_1 _ _).trans hk)
  have er : dot_S8x1024_S1024x1024_S8x1024_1_1_0_0_n_n.rhsIdx (ix2 p q) ((contrEquiv1 dot_S8x1024_S1024x1024_S8x1024_1_1_0_0_n_n 1024 rfl rfl).symm k) = ix2 q k :=
    funext fun a => Fin.ext (by
      match a with
      | ⟨0, _⟩ => exact rhsIdx4_0 _ _
      | ⟨1, _⟩ => exact (rhs4_1 _ _).trans hk)
  rw [el, er]
  rfl

/-- The same element as the closed form at output column `n`, once the three buffers are known to hold the parts of
    whole arrays `X`, `W`, `B` that column `n` needs: row p of `X`, row n of `W`, entry n of `B`'s row. -/
theorem block4_apply (X : FVec Ideal S8x1024 .f32) (W : FVec Ideal S50257x1024 .f32) (B : FVec Ideal S1x50257 .f32)
    (x : Vec Ideal S8x1024 .f32) (w : Vec Ideal S1024x1024 .f32) (b : Vec Ideal S1x1024 .f32)
    (p : Fin 8) (q : Fin 1024) (n : Fin 50257)
    (hx : ∀ k : Fin 1024, x (ix2 p k) = X (ix2 p k))
    (hw : ∀ k : Fin 1024, w (ix2 q k) = W (ix2 n k))
    (hb : b (ix2 (0 : Fin 1) q) = B (ix2 (0 : Fin 1) n)) :
    k4_pay1 (F := Ideal) x w b (ix2 p q) = Closed.lin4 X W B p n := by
  rw [pay4_apply]
  unfold Closed.lin4
  rw [hb]
  exact congrArg (· + B (ix2 (0 : Fin 1) n)) (Finset.sum_congr rfl fun k _ => by rw [hx, hw])

/-! ## The arrays as the region finds them, and the closed form over them -/

variable (V : (c : Dev nD) → (b : Ref sig .tc) → Buf (Elt Ideal) ((c : Thread nD τ).loc b))

/-- The (8, 1024) activation, -/
abbrev xarr4 (c : Dev nD) : FVec Ideal S8x1024 .f32 := V c (Pipeline.arrRef spec4 0)
/-- the (50257, 1024) weight, -/
abbrev warr4 (c : Dev nD) : FVec Ideal S50257x1024 .f32 := V c (Pipeline.arrRef spec4 1)
/-- the (1, 50257) bias row. -/
abbrev barr4 (c : Dev nD) : FVec Ideal S1x50257 .f32 := V c (Pipeline.arrRef spec4 2)

/-- What the (8, 50257) output ends holding: the logits of the three arrays, element by element. -/
abbrev G4 (c : Dev nD) : S8x50257.Idx → EReal := fun j => Closed.lin4 (xarr4 V c) (warr4 V c) (barr4 V c) (j 0) (j 1)

/-- The block indices at point `t`, decided over the fifty points: the activation's block stays at (0, 0), the
    weight's is (t, 0), the bias's and the output's are (0, t); and how much of the output block a write-back
    moves: all eight rows, and the columns up to the next multiple of 1024 or the array's end, whichever is first. -/
theorem idx_facts4 : ∀ t : Fin cfg4.N, win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val
    ∧ win4_3.index t (0 : Fin 2) = 0 ∧ win4_3.index t (1 : Fin 2) = t.val
    ∧ win4_3.xsize (grid4.coords t) (0 : Fin 2) = 8
    ∧ t.val * 1024 + win4_3.xsize (grid4.coords t) (1 : Fin 2) = min ((t.val + 1) * 1024) 50257 :=
  (by decide +kernel : ∀ t : Fin grid4.N, _)

/-! ## Each input buffer, inside its array, is a part of the array

A block's element at (r, s) sits in the array at (block index × block size + r, …) on each axis; the weight and bias
buffers are their blocks on the part a fetch moves, which is where the columns the write-back moves read them. -/

/-- The activation block at any point is the whole activation. -/
theorem xblk4_apply (c : Dev nD) (t : Fin cfg4.N) (p : Fin 8) (k : Fin 1024) :
    (iblk4 V c 0 t : Vec Ideal S8x1024 .f32) (ix2 p k) = xarr4 V c (ix2 p k) := by
  obtain ⟨e00, e01, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 8 + 1 * p.val = p.val; omega
  | ⟨1, _⟩ => show win4_0.index t (1 : Fin 2) * 1024 + 1 * k.val = k.val; omega

/-- Row q of the weight buffer at point `t`, for q a column the write-back moves, is row `1024·t + q` of the weight. -/
theorem wblk4_apply (c : Dev nD) (t : Fin cfg4.N) (q : Fin 1024) (hq : q.val < (cfg4.win 3).xsize (cfg4.grid.coords t) (1 : Fin 2))
    (k : Fin 1024) (n : Fin 50257) (hn : n.val = t.val * 1024 + q.val) :
    wblk4 V c t (ix2 q k) = warr4 V c (ix2 n k) := by
  obtain ⟨-, -, e10, e11, -⟩ := idx_facts4 t
  unfold wblk4 Window.fill
  rw [dif_pos (moved4_1 t q.val hq (ix2 q k) rfl)]
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 1024 + 1 * q.val = n.val; omega
  | ⟨1, _⟩ => show win4_1.index t (1 : Fin 2) * 1024 + 1 * k.val = k.val; omega

/-- Entry q of the bias buffer at point `t`, for q a column the write-back moves, is entry `1024·t + q` of the bias row. -/
theorem bblk4_apply (c : Dev nD) (t : Fin cfg4.N) (q : Fin 1024) (hq : q.val < (cfg4.win 3).xsize (cfg4.grid.coords t) (1 : Fin 2))
    (n : Fin 50257) (hn : n.val = t.val * 1024 + q.val) :
    bblk4 V c t (ix2 (0 : Fin 1) q) = barr4 V c (ix2 (0 : Fin 1) n) := by
  obtain ⟨-, -, -, -, e20, e21, -⟩ := idx_facts4 t
  unfold bblk4 Window.fill
  rw [dif_pos (moved4_2 t q.val hq (ix2 (0 : Fin 1) q) rfl)]
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * (0 : Fin 1).val = (0 : Fin 1).val; omega
  | ⟨1, _⟩ => show win4_2.index t (1 : Fin 2) * 1024 + 1 * q.val = n.val; omega

/-! ## From blocks to the array -/

/-- What point `t` writes back is block `t`, cut at the array's end, of the closed form: element (p, q) of the
    body's result, q a column inside the array, is the closed form at column `1024·t + q`, which is where the
    output's block puts it. -/
theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_3_cut]
  funext y
  obtain ⟨-, -, -, -, -, -, e30, e31, x30, x31⟩ := idx_facts4 t
  have hp : (y 0).val < 8 := Nat.lt_of_lt_of_eq (y 0).isLt x30
  have hq : (y 1).val < (cfg4.win 3).xsize (cfg4.grid.coords t) (1 : Fin 2) := (y 1).isLt
  have hq' : (y 1).val < 1024 := Nat.lt_of_lt_of_le hq ((cfg4.win 3).xsize_le (cfg4.grid.coords t) (1 : Fin 2))
  have hn : t.val * 1024 + (y 1).val < 50257 := by
    have : t.val * 1024 + (y 1).val < t.val * 1024 + win4_3.xsize (grid4.coords t) (1 : Fin 2) := Nat.add_lt_add_left hq _
    omega
  have ey : (win4 3).xinj (grid4.coords t) y = ix2 (⟨(y 0).val, hp⟩ : Fin 8) (⟨(y 1).val, hq'⟩ : Fin 1024) :=
    funext fun a => by match a with | ⟨0, _⟩ => rfl | ⟨1, _⟩ => rfl
  show k4_pay1 (F := Ideal) (iblk4 V c 0 t) (wblk4 V c t) (bblk4 V c t) ((win4 3).xinj (grid4.coords t) y) = _
  refine (congrArg (k4_pay1 (F := Ideal) (iblk4 V c 0 t) (wblk4 V c t) (bblk4 V c t)) ey).trans ?_
  refine (block4_apply (xarr4 V c) (warr4 V c) (barr4 V c) (iblk4 V c 0 t) (wblk4 V c t) (bblk4 V c t)
    ⟨(y 0).val, hp⟩ ⟨(y 1).val, hq'⟩ ⟨t.val * 1024 + (y 1).val, hn⟩
    (fun k => xblk4_apply V c t _ k) (fun k => wblk4_apply V c t _ hq k _ rfl) (bblk4_apply V c t _ hq _ rfl)).trans ?_
  have h0 : (⟨(y 0).val, hp⟩ : Fin 8) = (((cfg4.win 3).blk t).view.emb y) 0 :=
    Fin.ext (by show (y 0).val = win4_3.index t (0 : Fin 2) * 8 + 1 * (y 0).val; omega)
  have h1 : (⟨t.val * 1024 + (y 1).val, hn⟩ : Fin 50257) = (((cfg4.win 3).blk t).view.emb y) 1 :=
    Fin.ext (by show t.val * 1024 + (y 1).val = win4_3.index t (1 : Fin 2) * 1024 + 1 * (y 1).val; omega)
  exact congrArg₂ (Closed.lin4 (xarr4 V c) (warr4 V c) (barr4 V c)) h0 h1

/-- An index of the output array is in point `t`'s cut block iff each coordinate is in the range the block keeps on
    its axis. -/
theorem mem_blk4 (t : Fin cfg4.N) (i : S8x50257.Idx) :
    i ∈ ((cfg4.win 3).blk t).view.set ↔ ∀ a : Fin 2, win4_3.index t a * S8x1024.size a ≤ (i a).val
      ∧ (i a).val < win4_3.index t a * S8x1024.size a + win4_3.xsize (grid4.coords t) a := by
  show i ∈ ((View.whole main_call0_v61).slice (win4_3.rect t)).set ↔ _
  rw [View.set_slice_whole, Rect.mem_set_unit]
  exact Iff.rfl

/-- The fifty cut blocks tile the array: column `n` lies in the block of point `n / 1024`. -/
theorem cover4 (i : S8x50257.Idx) : ∃ t : Fin cfg4.N, (cfg4.win 3).flush t = true ∧ i ∈ ((cfg4.win 3).blk t).view.set := by
  have hi0 : (i 0).val < 8 := (i 0).isLt
  have hi1 : (i 1).val < 50257 := (i 1).isLt
  have hN : cfg4.N = 50 := N_4
  let t : Fin cfg4.N := ⟨(i 1).val / 1024, by rw [hN]; omega⟩
  obtain ⟨-, -, -, -, -, -, e30, e31, x30, x31⟩ := idx_facts4 t
  refine ⟨t, flush4_3 t, ?_⟩
  rw [mem_blk4]
  intro a
  match a with
  | ⟨0, _⟩ =>
    show win4_3.index t (0 : Fin 2) * 8 ≤ (i 0).val ∧ (i 0).val < win4_3.index t (0 : Fin 2) * 8 + win4_3.xsize (grid4.coords t) (0 : Fin 2)
    omega
  | ⟨1, _⟩ =>
    show win4_3.index t (1 : Fin 2) * 1024 ≤ (i 1).val ∧ (i 1).val < win4_3.index t (1 : Fin 2) * 1024 + win4_3.xsize (grid4.coords t) (1 : Fin 2)
    rw [e31]
    have x31' : (i 1).val / 1024 * 1024 + win4_3.xsize (grid4.coords t) (1 : Fin 2) = min (((i 1).val / 1024 + 1) * 1024) 50257 := x31
    show (i 1).val / 1024 * 1024 ≤ (i 1).val ∧ (i 1).val < (i 1).val / 1024 * 1024 + win4_3.xsize (grid4.coords t) (1 : Fin 2)
    omega

/-- The output array after the region: the vocabulary logits of the three arrays as the region found them. -/
theorem value4 (c : Dev nD) : ((dat4 (F := Ideal) V c).arrAt 3 cfg4.N : S8x50257.Idx → EReal)
    = fun j => Closed.lin4 (V c (Pipeline.arrRef spec4 0)) (V c (Pipeline.arrRef spec4 1)) (V c (Pipeline.arrRef spec4 2)) (j 0) (j 1) :=
  (dat4 (F := Ideal) V c).arrAt_eq_of_cover 3 (G4 V c) (fun t _ => flushed4_eq V c t) cover4

end Cert.KernelIdeal.HandValue

end
-- ==== Proof.ValueKernelIdeal.Chain.lean ====
/-
  What the five kernel regions leave, at the ideal instance: each region's output array at its exit boundary is the
  closed form of the arrays its input windows read at its entry boundary, and those are the host arithmetic of the
  boundary before (the host reads), so every region's result is a closed form of earlier results and launch arrays.
-/
import proofs.«425349_j42889543417942_3_alg».proof.Proof.ValueKernelIdeal.HostReads
import proofs.«425349_j42889543417942_3_alg».proof.Proof.ValueKernelIdeal.V0
import proofs.«425349_j42889543417942_3_alg».proof.Proof.ValueKernelIdeal.V1
import proofs.«425349_j42889543417942_3_alg».proof.Proof.ValueKernelIdeal.V2
import proofs.«425349_j42889543417942_3_alg».proof.Proof.ValueKernelIdeal.V3
import proofs.«425349_j42889543417942_3_alg».proof.Proof.ValueKernelIdeal.V4

set_option maxRecDepth 16384
set_option maxHeartbeats 4000000

noncomputable section

namespace Cert.KernelIdeal.Hand

open Cert.KernelIdeal Cert.KernelIdeal.Gen Cert.KernelIdeal.HandValue
open Idealize.ShloMosaic Idealize.ShloMosaic.TcCoe Idealize.ShloMosaic.Tactic
open Idealize.SL Idealize.SL.Sem Idealize.ShloMosaic.StableHlo

variable (m : (ℓ : Loc nD τ sig) → Buf (Elt Ideal) ℓ) (ρ : Dev nD → PrngReg)

/-! ## The regions' value lemmas with their arrays named -/

section Refs
variable (V : (c : Dev nD) → (b : Ref sig .tc) → Buf (Elt Ideal) ((c : Thread nD τ).loc b))

theorem value0_refs (c : Dev nD) : @Eq (FVec Ideal S8x4096 .f32) ((dat0 (F := Ideal) V c).arrAt 3 cfg0.N)
    (fun j => Closed.lin0 (V c main_call0_v6) (V c main_arg5) (V c main_call0_v7) (j 0) (j 1)) := value0 V c
theorem value1_refs (c : Dev nD) : @Eq (FVec Ideal S8x1024 .f32) ((dat1 (F := Ideal) V c).arrAt 2 cfg1.N)
    (fun j => Closed.app1 (V c main_call0_v21) (V c main_arg3) (j 0) (j 1)) := value1 V c
theorem value2_refs (c : Dev nD) : @Eq (FVec Ideal S8x1024 .f32) ((dat2 (F := Ideal) V c).arrAt 3 cfg2.N)
    (fun j => Closed.lin2 (V c main_call0_v24) (V c main_arg7) (V c main_call0_v25) (j 0) (j 1)) := value2 V c
theorem value3_refs (c : Dev nD) : @Eq (FVec Ideal S8x4096 .f32) ((dat3 (F := Ideal) V c).arrAt 6 cfg3.N)
    (fun j => Closed.gates3 (V c main_call0_v26) (V c main_call0_v27) (V c main_arg9) (V c main_arg11) (V c main_call0_v28) (V c main_call0_v29) (j 0) (j 1)) :=
  value3 V c
theorem value4_refs (c : Dev nD) : @Eq (FVec Ideal S8x50257 .f32) ((dat4 (F := Ideal) V c).arrAt 3 cfg4.N)
    (fun j => Closed.lin4 (V c main_call0_v59) (V c main_arg13) (V c main_call0_v60) (j 0) (j 1)) := value4 V c

end Refs

theorem W2_arr_v8 (c : Dev nD) : W2 m ρ c (Proc.devRef .tc main_call0_v8) = (dat0 (V1 m ρ) c).arrAt 3 cfg0.N := W2_arr m ρ c 3
theorem W4_arr_v22 (c : Dev nD) : W4 m ρ c (Proc.devRef .tc main_call0_v22) = (dat1 (V3 m ρ) c).arrAt 2 cfg1.N := W4_arr m ρ c 2
theorem W6_arr_v26 (c : Dev nD) : W6 m ρ c (Proc.devRef .tc main_call0_v26) = (dat2 (V5 m ρ) c).arrAt 3 cfg2.N := W6_arr m ρ c 3
theorem W8_arr_v30 (c : Dev nD) : W8 m ρ c (Proc.devRef .tc main_call0_v30) = (dat3 (V7 m ρ) c).arrAt 6 cfg3.N := W8_arr m ρ c 6
theorem W10_arr_v61 (c : Dev nD) : W10 m ρ c (Proc.devRef .tc main_call0_v61) = (dat4 (V9 m ρ) c).arrAt 3 cfg4.N := W10_arr m ρ c 3

theorem W2_v8 (c : Dev nD) : @Eq (FVec Ideal S8x4096 .f32) (W2 m ρ c (Proc.devRef .tc main_call0_v8))
    (fun j => Closed.lin0 (Stages.attnIn (F := Ideal) (W1 m ρ c (Proc.devRef .tc main_call0_v4)) (Stages.state2 (F := Ideal) (m ((c : Thread nD τ).loc main_arg1)))) (m ((c : Thread nD τ).loc main_arg5)) (Stages.asRow4096 (F := Ideal) (m ((c : Thread nD τ).loc main_arg6))) (j 0) (j 1)) := by
  have h : @Eq (FVec Ideal S8x4096 .f32) (W2 m ρ c (Proc.devRef .tc main_call0_v8)) (fun j => Closed.lin0 (W1 m ρ c (Proc.devRef .tc main_call0_v6)) (W1 m ρ c (Proc.devRef .tc main_arg5)) (W1 m ρ c (Proc.devRef .tc main_call0_v7)) (j 0) (j 1)) :=
    (W2_arr_v8 m ρ c).trans (value0_refs (V1 m ρ) c)
  rw [W1_v6, W1_v7, W1_nw m ρ c main_arg5 (by decide)] at h
  exact h

theorem W4_v22 (c : Dev nD) : @Eq (FVec Ideal S8x1024 .f32) (W4 m ρ c (Proc.devRef .tc main_call0_v22))
    (fun j => Closed.app1 (Stages.pad4096 (F := Ideal) (Stages.softmax (F := Ideal) (Stages.row4096 (F := Ideal) (W2 m ρ c (Proc.devRef .tc main_call0_v8))))) (m ((c : Thread nD τ).loc main_arg3)) (j 0) (j 1)) := by
  have h : @Eq (FVec Ideal S8x1024 .f32) (W4 m ρ c (Proc.devRef .tc main_call0_v22)) (fun j => Closed.app1 (W3 m ρ c (Proc.devRef .tc main_call0_v21)) (W3 m ρ c (Proc.devRef .tc main_arg3)) (j 0) (j 1)) :=
    (W4_arr_v22 m ρ c).trans (value1_refs (V3 m ρ) c)
  rw [W3_v21, W3_arg3] at h
  exact h

/-- The embedded token's row is not written after the first stretch. -/
theorem W6_v26 (c : Dev nD) : @Eq (FVec Ideal S8x1024 .f32) (W6 m ρ c (Proc.devRef .tc main_call0_v26))
    (fun j => Closed.lin2 (Stages.combIn (F := Ideal) (W1 m ρ c (Proc.devRef .tc main_call0_v4)) (W4 m ρ c (Proc.devRef .tc main_call0_v22))) (m ((c : Thread nD τ).loc main_arg7)) (Stages.asRow1024 (F := Ideal) (m ((c : Thread nD τ).loc main_arg8))) (j 0) (j 1)) := by
  have h : @Eq (FVec Ideal S8x1024 .f32) (W6 m ρ c (Proc.devRef .tc main_call0_v26)) (fun j => Closed.lin2 (W5 m ρ c (Proc.devRef .tc main_call0_v24)) (W5 m ρ c (Proc.devRef .tc main_arg7)) (W5 m ρ c (Proc.devRef .tc main_call0_v25)) (j 0) (j 1)) :=
    (W6_arr_v26 m ρ c).trans (value2_refs (V5 m ρ) c)
  rw [W5_v24, W5_v25, W4_v4, W5_nw m ρ c main_arg7 (by decide), W4_nw m ρ c main_arg8 (by decide)] at h
  exact h

/-- The hidden state's row is not written after the first stretch. -/
theorem W8_v30 (c : Dev nD) : @Eq (FVec Ideal S8x4096 .f32) (W8 m ρ c (Proc.devRef .tc main_call0_v30))
    (fun j => Closed.gates3 (W6 m ρ c (Proc.devRef .tc main_call0_v26)) (Stages.pad1024 (F := Ideal) (Stages.state2 (F := Ideal) (m ((c : Thread nD τ).loc main_arg1)))) (m ((c : Thread nD τ).loc main_arg9)) (m ((c : Thread nD τ).loc main_arg11))
        (Stages.asRow4096 (F := Ideal) (m ((c : Thread nD τ).loc main_arg10))) (Stages.asRow4096 (F := Ideal) (m ((c : Thread nD τ).loc main_arg12))) (j 0) (j 1)) := by
  have h : @Eq (FVec Ideal S8x4096 .f32) (W8 m ρ c (Proc.devRef .tc main_call0_v30)) (fun j => Closed.gates3 (W7 m ρ c (Proc.devRef .tc main_call0_v26)) (W7 m ρ c (Proc.devRef .tc main_call0_v27)) (W7 m ρ c (Proc.devRef .tc main_arg9))
    (W7 m ρ c (Proc.devRef .tc main_arg11)) (W7 m ρ c (Proc.devRef .tc main_call0_v28)) (W7 m ρ c (Proc.devRef .tc main_call0_v29)) (j 0) (j 1)) :=
    (W8_arr_v30 m ρ c).trans (value3_refs (V7 m ρ) c)
  rw [W7_v26, W7_v27, W7_v28, W7_v29, W6_v0, W1_v0, W7_nw m ρ c main_arg9 (by decide), W7_nw m ρ c main_arg11 (by decide),
    W6_nw m ρ c main_arg10 (by decide), W6_nw m ρ c main_arg12 (by decide)] at h
  exact h

/-- The cell state's row is not written after the first stretch. -/
theorem W10_v61 (c : Dev nD) : @Eq (FVec Ideal S8x50257 .f32) (W10 m ρ c (Proc.devRef .tc main_call0_v61))
    (fun j => Closed.lin4 (W9 m ρ c (Proc.devRef .tc main_call0_v59)) (m ((c : Thread nD τ).loc main_arg13)) (Stages.asRow50257 (F := Ideal) (m ((c : Thread nD τ).loc main_arg14))) (j 0) (j 1)) := by
  have h : @Eq (FVec Ideal S8x50257 .f32) (W10 m ρ c (Proc.devRef .tc main_call0_v61)) (fun j => Closed.lin4 (W9 m ρ c (Proc.devRef .tc main_call0_v59)) (W9 m ρ c (Proc.devRef .tc main_arg13)) (W9 m ρ c (Proc.devRef .tc main_call0_v60)) (j 0) (j 1)) :=
    (W10_arr_v61 m ρ c).trans (value4_refs (V9 m ρ) c)
  rw [W9_v60, W9_nw m ρ c main_arg13 (by decide), W8_nw m ρ c main_arg14 (by decide)] at h
  exact h

end Cert.KernelIdeal.Hand

end
-- ==== Proof.Bridge.StageBD.lean ====
/-
  Two stages of the decode step, kernel side against reference side, over the extended reals.

  Stage B, the attention logits: row 0 of  x · Wᵀ + b  over the eight-row input whose row 0 is the embedded token
  beside the hidden state (rows 1 to 7 zero) is the reference's  (e ‖ h) · Wᵀ + b : both are, at column n,
  ∑ₖ (e ‖ h)[0, k] · W[n, k] + b[n], the same sum over the same joined row.

  Stage D, the attention read-out: row 0 of  a · E  over the eight-row weights whose row 0 is the softmax (rows 1 to 7
  zero) is the reference's  a · E : both are, at column q, ∑ₗ a[0, l] · E[l, q].

  In each, row 0 of a one-row array padded below with zeros is that row, so the two sums have the same terms.
-/
import proofs.«425349_j42889543417942_3_alg».proof.Proof.RefRead
import proofs.«425349_j42889543417942_3_alg».proof.Proof.Closed
import proofs.«425349_j42889543417942_3_alg».proof.Proof.Bridge.KerStages
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal.Stages Cert.KernelIdeal.Closed Cert.ReferenceIdeal.ReadP

/-- Row 0 of a (1, 4096) array padded to eight rows is its row: entry (0, l) is the array's entry at any index with
    row 0 and column l. -/
theorem pad4096_row0 (a : FVec Ideal Cert.KernelIdeal.S1x4096 .f32) (l : Fin 4096) (k : Cert.KernelIdeal.S1x4096.Idx)
    (hk0 : (k 0).val = 0) (hk1 : (k 1).val = l.val) : pad4096 a (ix2 (0 : Fin 8) l) = a k := by
  unfold pad4096
  exact pad_apply_of_inside _ _ _ a _ _ _ (ix2 (0 : Fin 8) l) k (fun b => match b with
    | ⟨0, _⟩ => by show 0 = 0 + (k 0).val * (0 + 1); omega
    | ⟨1, _⟩ => by show l.val = 0 + (k 1).val * (0 + 1); omega)

/-- Row 0 of a (1, 2048) array padded to eight rows is its row. -/
theorem pad2048_row0 (a : FVec Ideal Cert.KernelIdeal.S1x2048 .f32) (l : Fin 2048) (k : Cert.KernelIdeal.S1x2048.Idx)
    (hk0 : (k 0).val = 0) (hk1 : (k 1).val = l.val) : pad2048 a (ix2 (0 : Fin 8) l) = a k := by
  unfold pad2048
  exact pad_apply_of_inside _ _ _ a _ _ _ (ix2 (0 : Fin 8) l) k (fun b => match b with
    | ⟨0, _⟩ => by show 0 = 0 + (k 0).val * (0 + 1); omega
    | ⟨1, _⟩ => by show l.val = 0 + (k 1).val * (0 + 1); omega)

/-- STAGE D. Row 0 of the read-out over the padded attention weights is the reference's read-out. -/
theorem stageD (x0 : (⟨Cert.ReferenceIdeal.S1, .i32⟩ : BufTy).Contents (Elt Ideal)) (x1 : (⟨Cert.ReferenceIdeal.S1x1x1024, .f32⟩ : BufTy).Contents (Elt Ideal))
    (x3 : (⟨Cert.ReferenceIdeal.S4096x1024, .f32⟩ : BufTy).Contents (Elt Ideal)) (x4 : (⟨Cert.ReferenceIdeal.S50257x1024, .f32⟩ : BufTy).Contents (Elt Ideal))
    (x5 : (⟨Cert.ReferenceIdeal.S4096x2048, .f32⟩ : BufTy).Contents (Elt Ideal)) (x6 : (⟨Cert.ReferenceIdeal.S4096, .f32⟩ : BufTy).Contents (Elt Ideal)) :
    row1024 (F := Ideal) (fun j => app1 (pad4096 (val_main_v24 (F := Ideal) x0 x1 x4 x5 x6)) x3 (j 0) (j 1))
      = (val_main_v25 (F := Ideal) x0 x1 x3 x4 x5 x6 : FVec Ideal Cert.KernelIdeal.S1x1024 .f32) := by
  funext i
  have hi0 : (i 0).val < 1 := (i 0).isLt
  rw [val_main_v25_apply]
  generalize val_main_v24 (F := Ideal) x0 x1 x4 x5 x6 = aw
  unfold row1024
  refine (extractStridedSlice_apply _ _ _ i (ix2 (0 : Fin 8) (⟨(i 1).val, (i 1).isLt⟩ : Fin 1024)) (fun b => match b with
    | ⟨0, _⟩ => by show 0 = 0 + (i 0).val; omega
    | ⟨1, _⟩ => by show (i 1).val = 0 + (i 1).val; omega)).trans ?_
  show app1 (pad4096 aw) x3 (0 : Fin 8) (⟨(i 1).val, (i 1).isLt⟩ : Fin 1024) = _
  unfold app1
  refine Finset.sum_congr rfl fun l _ => ?_
  congr 1
  · exact pad4096_row0 aw l (lidx_main_v25 i l) (by show (i 0).val = 0; omega) rfl
  · exact congrArg x3 (funext fun b => match b with | ⟨0, _⟩ => rfl | ⟨1, _⟩ => rfl)

/-- STAGE B. Row 0 of the attention layer over the padded, joined input is the reference's attention logits. -/
theorem stageB (x0 : (⟨Cert.ReferenceIdeal.S1, .i32⟩ : BufTy).Contents (Elt Ideal)) (x1 : (⟨Cert.ReferenceIdeal.S1x1x1024, .f32⟩ : BufTy).Contents (Elt Ideal))
    (x4 : (⟨Cert.ReferenceIdeal.S50257x1024, .f32⟩ : BufTy).Contents (Elt Ideal))
    (x5 : (⟨Cert.ReferenceIdeal.S4096x2048, .f32⟩ : BufTy).Contents (Elt Ideal)) (x6 : (⟨Cert.ReferenceIdeal.S4096, .f32⟩ : BufTy).Contents (Elt Ideal)) :
    row4096 (F := Ideal) (fun j => lin0 (attnIn (val_main_v8 (F := Ideal) x0 x4) (val_main_v0 (F := Ideal) x1)) x5 (asRow4096 (F := Ideal) x6) (j 0) (j 1))
      = (val_main_v13 (F := Ideal) x0 x1 x4 x5 x6 : FVec Ideal Cert.KernelIdeal.S1x4096 .f32) := by
  funext i
  have hi0 : (i 0).val < 1 := (i 0).isLt
  rw [val_main_v13_apply, val_main_v11_apply, val_main_v12_apply]
  have hcat : attnIn (F := Ideal) (val_main_v8 (F := Ideal) x0 x4) (val_main_v0 (F := Ideal) x1) = pad2048 (F := Ideal) (val_main_v9 (F := Ideal) x0 x1 x4) := by
    unfold attnIn val_main_v9
    rfl
  rw [hcat]
  generalize val_main_v9 (F := Ideal) x0 x1 x4 = cat
  unfold row4096
  refine (extractStridedSlice_apply _ _ _ i (ix2 (0 : Fin 8) (⟨(i 1).val, (i 1).isLt⟩ : Fin 4096)) (fun b => match b with
    | ⟨0, _⟩ => by show 0 = 0 + (i 0).val; omega
    | ⟨1, _⟩ => by show (i 1).val = 0 + (i 1).val; omega)).trans ?_
  show lin0 (pad2048 (F := Ideal) cat) x5 (asRow4096 (F := Ideal) x6) (0 : Fin 8) (⟨(i 1).val, (i 1).isLt⟩ : Fin 4096) = _
  unfold lin0
  show (∑ k : Fin 2048, pad2048 (F := Ideal) cat (ix2 (0 : Fin 8) k) * x5 (ix2 (⟨(i 1).val, (i 1).isLt⟩ : Fin 4096) k)) + asRow4096 (F := Ideal) x6 (ix2 (0 : Fin 1) (⟨(i 1).val, (i 1).isLt⟩ : Fin 4096))
    = (∑ k : Fin 2048, cat (lidx_main_v11 i k) * val_main_v10 (F := Ideal) x5 (ridx_main_v11 i k)) + x6 (idx_main_v12 i)
  congr 1
  · refine Finset.sum_congr rfl fun k _ => ?_
    congr 1
    · exact pad2048_row0 cat k (lidx_main_v11 i k) (by show (i 0).val = 0; omega) rfl
    · rw [val_main_v10_apply]
      exact congrArg x5 (funext fun b => match b with | ⟨0, _⟩ => rfl | ⟨1, _⟩ => rfl)
  · unfold asRow4096
    exact shapeCast_apply x6 _ _ (idx_main_v12 i) (by
      rw [Shape.rowMajor_val_one, Shape.rowMajor_val_two]
      show (i 1).val = 0 * 4096 + (i 1).val
      omega)

end Cert.Bridge

end
-- ==== Proof.Bridge.StageG.lean ====
/-
  The decode step's host arithmetic between the kernel regions, matched with the reference's, at the extended reals.

  The cell update: the kernel computes `σ(f)·c₀ + σ(i)·tanh(g)` and `σ(o)·tanh(c₁)` on EIGHT rows (the four gates are
  the column ranges 0‥1023, 1024‥2047, 2048‥3071, 3072‥4095 of the (8, 4096) pre-activations; the old cell state is a
  one-row array under seven rows of zeros) and takes row 0 at the end; the reference slices the same column ranges out
  of its ONE-row pre-activations and computes on one row. Every operation in between is entry by entry, so taking row 0
  commutes with it; row 0 of a column range is the column range of row 0; row 0 of the padded cell state is the cell
  state; row 0 of a constant array is the constant array. So if row 0 of the kernel's pre-activations is the
  reference's, row 0 of the kernel's new cell and hidden states are the reference's — at any float instance, since
  both sides apply the same operations to the same entries.

  The softmax over the encoder steps, the log-softmax over the vocabulary and the lift of a (1, 1024) array to
  (1, 1, 1024) are the same compositions of the same operations in both programs.
-/
import proofs.«425349_j42889543417942_3_alg».proof.Proof.RefRead
import proofs.«425349_j42889543417942_3_alg».proof.Proof.Closed
import proofs.«425349_j42889543417942_3_alg».proof.Proof.Bridge.KerStages
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.Bridge

open Idealize.ShloMosaic Idealize.ShloMosaic.ValueIdx Idealize.SL.Sem
open Cert.KernelIdeal.Stages Cert.ReferenceIdeal.ReadP

section AnyInstance

variable {F : FTy → Type} [FloatOps F]

/-! ## Row 0 of the kernel's eight-row arithmetic

Taking row 0 of an (8, 1024) array is reading it at `(0 + 0, 0 + q)`: it commutes with every entry-by-entry
operation by unfolding. What is left are the three operations that are not entry by entry. -/

/-- The logistic function `1 / (1 + exp (-x))` on one row. -/
def sigmRow (x : FVec F Cert.KernelIdeal.S1x1024 .f32) : FVec F Cert.KernelIdeal.S1x1024 .f32 :=
  Host.divf (broadcastInDim Cert.KernelIdeal.S1x1024 ![] Cert.ReferenceIdeal.Gen.bcast_S_S1x1024 (constant Cert.KernelIdeal.S_ .f32 0x3F800000#32))
    (addf (broadcastInDim Cert.KernelIdeal.S1x1024 ![] Cert.ReferenceIdeal.Gen.bcast_S_S1x1024 (constant Cert.KernelIdeal.S_ .f32 0x3F800000#32)) (Host.exp (Host.negf x)))

/-- Row 0 of the logistic function of an eight-row array is the logistic function of its row 0. -/
theorem row_sigm (x : FVec F Cert.KernelIdeal.S8x1024 .f32) : row1024 (sigm x) = sigmRow (row1024 x) := rfl

/-- Row 0 of a range of 1024 columns of an eight-row array is that range of columns of its row 0. -/
theorem row_cols (off : Nat) (g : FVec F Cert.KernelIdeal.S8x4096 .f32) (h8 : Cert.KernelIdeal.S8x4096.Slices ![0, off] Cert.KernelIdeal.S8x1024)
    (h1 : Cert.KernelIdeal.S1x4096.Slices ![0, off] Cert.KernelIdeal.S1x1024) :
    row1024 (extractStridedSlice Cert.KernelIdeal.S8x1024 ![0, off] g h8) = extractStridedSlice Cert.KernelIdeal.S1x1024 ![0, off] (row4096 g) h1 := by
  funext i
  unfold row1024 row4096 extractStridedSlice
  refine congrArg g (funext fun a => Fin.ext ?_)
  match a with
  | ⟨0, _⟩ => show 0 + (0 + (i 0).val) = 0 + (0 + (i 0).val); rfl
  | ⟨1, _⟩ => show off + (0 + (i 1).val) = 0 + (off + (i 1).val); omega

/-- Row 0 of a one-row array set above seven rows of zeros is the array. -/
theorem row_pad (c0 : FVec F Cert.KernelIdeal.S1x1024 .f32) : row1024 (pad1024 c0) = c0 := by
  funext i
  unfold row1024 pad1024 extractStridedSlice
  refine pad_apply_of_inside _ _ _ c0 _ _ _ _ i fun a => ?_
  match a with
  | ⟨0, _⟩ => show 0 + (i 0).val = 0 + (i 0).val * (0 + 1); omega
  | ⟨1, _⟩ => show 0 + (i 1).val = 0 + (i 1).val * (0 + 1); omega

/-- Row 0 of the kernel's new cell state, from row 0 of the pre-activations and the old cell state:
    `σ(f)·c₀ + σ(i)·tanh(g)` on one row, the gates being column ranges of that row. -/
theorem row_cell1 (g : FVec F Cert.KernelIdeal.S8x4096 .f32) (c0 : FVec F Cert.KernelIdeal.S1x1024 .f32) :
    row1024 (cell1 g c0)
      = addf (mulf (sigmRow (extractStridedSlice Cert.KernelIdeal.S1x1024 ![0, 1024] (row4096 g) Cert.ReferenceIdeal.Gen.slices_S1x4096_S1x1024_0_1024)) c0)
          (mulf (sigmRow (extractStridedSlice Cert.KernelIdeal.S1x1024 ![0, 0] (row4096 g) Cert.ReferenceIdeal.Gen.slices_S1x4096_S1x1024_0_0))
            (Host.tanh (extractStridedSlice Cert.KernelIdeal.S1x1024 ![0, 2048] (row4096 g) Cert.ReferenceIdeal.Gen.slices_S1x4096_S1x1024_0_2048))) := by
  have e : row1024 (cell1 g c0)
      = addf (mulf (sigmRow (row1024 (gateF g))) (row1024 (pad1024 c0)))
          (mulf (sigmRow (row1024 (gateI g))) (Host.tanh (row1024 (gateG g)))) := rfl
  rw [e, row_pad]
  unfold gateF gateI gateG
  rw [row_cols 1024 g _ Cert.ReferenceIdeal.Gen.slices_S1x4096_S1x1024_0_1024, row_cols 0 g _ Cert.ReferenceIdeal.Gen.slices_S1x4096_S1x1024_0_0,
    row_cols 2048 g _ Cert.ReferenceIdeal.Gen.slices_S1x4096_S1x1024_0_2048]

/-- Row 0 of the kernel's new hidden state: `σ(o)·tanh(c₁)` on one row. -/
theorem row_hid1 (g : FVec F Cert.KernelIdeal.S8x4096 .f32) (c0 : FVec F Cert.KernelIdeal.S1x1024 .f32) :
    row1024 (hid1 g c0)
      = mulf (sigmRow (extractStridedSlice Cert.KernelIdeal.S1x1024 ![0, 3072] (row4096 g) Cert.ReferenceIdeal.Gen.slices_S1x4096_S1x1024_0_3072))
          (Host.tanh (row1024 (cell1 g c0))) := by
  have e : row1024 (hid1 g c0) = mulf (sigmRow (row1024 (gateO g))) (Host.tanh (row1024 (cell1 g c0))) := rfl
  rw [e]
  unfold gateO
  rw [row_cols 3072 g _ Cert.ReferenceIdeal.Gen.slices_S1x4096_S1x1024_0_3072]

variable (x0 : (⟨Cert.ReferenceIdeal.S1, .i32⟩ : BufTy).Contents (Elt F)) (x1 x2 : (⟨Cert.ReferenceIdeal.S1x1x1024, .f32⟩ : BufTy).Contents (Elt F))
  (x3 : (⟨Cert.ReferenceIdeal.S4096x1024, .f32⟩ : BufTy).Contents (Elt F)) (x4 : (⟨Cert.ReferenceIdeal.S50257x1024, .f32⟩ : BufTy).Contents (Elt F))
  (x5 : (⟨Cert.ReferenceIdeal.S4096x2048, .f32⟩ : BufTy).Contents (Elt F)) (x6 : (⟨Cert.ReferenceIdeal.S4096, .f32⟩ : BufTy).Contents (Elt F))
  (x7 : (⟨Cert.ReferenceIdeal.S1024x2048, .f32⟩ : BufTy).Contents (Elt F)) (x8 : (⟨Cert.ReferenceIdeal.S1024, .f32⟩ : BufTy).Contents (Elt F))
  (x9 : (⟨Cert.ReferenceIdeal.S4096x1024, .f32⟩ : BufTy).Contents (Elt F)) (x10 : (⟨Cert.ReferenceIdeal.S4096, .f32⟩ : BufTy).Contents (Elt F))
  (x11 : (⟨Cert.ReferenceIdeal.S4096x1024, .f32⟩ : BufTy).Contents (Elt F)) (x12 : (⟨Cert.ReferenceIdeal.S4096, .f32⟩ : BufTy).Contents (Elt F))
  (x13 : (⟨Cert.ReferenceIdeal.S50257x1024, .f32⟩ : BufTy).Contents (Elt F)) (x14 : (⟨Cert.ReferenceIdeal.S50257, .f32⟩ : BufTy).Contents (Elt F))

/-- The cell update at any float instance: the reference's new cell state is the same one-row expression of its
    pre-activations and its old cell state. -/
theorem stageG_cell_any (g : FVec F Cert.KernelIdeal.S8x4096 .f32)
    (hg : row4096 g = val_main_v40 (F := F) x0 x1 x3 x4 x5 x6 x7 x8 x9 x10 x11 x12) :
    row1024 (cell1 g (val_main_v1 (F := F) x2)) = val_main_v60 (F := F) x0 x1 x2 x3 x4 x5 x6 x7 x8 x9 x10 x11 x12 := by
  unfold val_main_v60 val_main_v59 val_main_v58 val_main_v57 val_main_v56 val_main_v55 val_main_v54 val_main_v53 val_main_v52
    val_main_v51 val_main_v50 val_main_v49 val_main_v48 val_main_v47 val_main_v46 val_main_v45 val_main_v43 val_main_v42 val_main_v41
    val_main_cst_3 val_main_cst_4 val_main_cst_5 val_main_cst_6
  rw [← hg, row_cell1]
  rfl

theorem stageG_hid_any (g : FVec F Cert.KernelIdeal.S8x4096 .f32)
    (hg : row4096 g = val_main_v40 (F := F) x0 x1 x3 x4 x5 x6 x7 x8 x9 x10 x11 x12) :
    row1024 (hid1 g (val_main_v1 (F := F) x2)) = val_main_v68 (F := F) x0 x1 x2 x3 x4 x5 x6 x7 x8 x9 x10 x11 x12 := by
  unfold val_main_v68 val_main_v67 val_main_v66 val_main_v65 val_main_v64 val_main_v63 val_main_v62 val_main_v61 val_main_v44
    val_main_cst_7 val_main_cst_8
  rw [← stageG_cell_any x0 x1 x2 x3 x4 x5 x6 x7 x8 x9 x10 x11 x12 g hg, ← hg, row_hid1]
  rfl

/-! ## The softmax, the log-softmax and the lift: one composition in both programs -/

theorem stageC_any : softmax (val_main_v13 (F := F) x0 x1 x4 x5 x6) = val_main_v24 (F := F) x0 x1 x4 x5 x6 := by
  unfold val_main_v24 val_main_v23 val_main_v22 val_main_v21 val_main_v20 val_main_v19 val_main_v18 val_main_v17 val_main_v16
    val_main_v15 val_main_v14 val_main_cst val_main_cst_1 val_main_cst_2 softmax
  generalize val_main_v13 (F := F) x0 x1 x4 x5 x6 = y
  rfl

theorem stageI_logp_any : logSoftmax (val_main_v72 (F := F) x0 x1 x2 x3 x4 x5 x6 x7 x8 x9 x10 x11 x12 x13 x14) = val_main_v73 (F := F) x0 x1 x2 x3 x4 x5 x6 x7 x8 x9 x10 x11 x12 x13 x14 := by
  unfold val_main_v73 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_call1_cst_0
    val_main_call1_cst_1 logSoftmax
  generalize val_main_v72 (F := F) x0 x1 x2 x3 x4 x5 x6 x7 x8 x9 x10 x11 x12 x13 x14 = y
  rfl

theorem stageI_h_any : lift3 (val_main_v68 (F := F) x0 x1 x2 x3 x4 x5 x6 x7 x8 x9 x10 x11 x12) = val_main_v74 (F := F) x0 x1 x2 x3 x4 x5 x6 x7 x8 x9 x10 x11 x12 := by
  unfold val_main_v74 lift3
  rfl

theorem stageI_c_any : lift3 (val_main_v60 (F := F) x0 x1 x2 x3 x4 x5 x6 x7 x8 x9 x10 x11 x12) = val_main_v75 (F := F) x0 x1 x2 x3 x4 x5 x6 x7 x8 x9 x10 x11 x12 := by
  unfold val_main_v75 lift3
  rfl

end AnyInstance

section AtIdeal

variable (x0 : (⟨Cert.ReferenceIdeal.S1, .i32⟩ : BufTy).Contents (Elt Ideal)) (x1 x2 : (⟨Cert.ReferenceIdeal.S1x1x1024, .f32⟩ : BufTy).Contents (Elt Ideal))
  (x3 : (⟨Cert.ReferenceIdeal.S4096x1024, .f32⟩ : BufTy).Contents (Elt Ideal)) (x4 : (⟨Cert.ReferenceIdeal.S50257x1024, .f32⟩ : BufTy).Contents (Elt Ideal))
  (x5 : (⟨Cert.ReferenceIdeal.S4096x2048, .f32⟩ : BufTy).Contents (Elt Ideal)) (x6 : (⟨Cert.ReferenceIdeal.S4096, .f32⟩ : BufTy).Contents (Elt Ideal))
  (x7 : (⟨Cert.ReferenceIdeal.S1024x2048, .f32⟩ : BufTy).Contents (Elt Ideal)) (x8 : (⟨Cert.ReferenceIdeal.S1024, .f32⟩ : BufTy).Contents (Elt Ideal))
  (x9 : (⟨Cert.ReferenceIdeal.S4096x1024, .f32⟩ : BufTy).Contents (Elt Ideal)) (x10 : (⟨Cert.ReferenceIdeal.S4096, .f32⟩ : BufTy).Contents (Elt Ideal))
  (x11 : (⟨Cert.ReferenceIdeal.S4096x1024, .f32⟩ : BufTy).Contents (Elt Ideal)) (x12 : (⟨Cert.ReferenceIdeal.S4096, .f32⟩ : BufTy).Contents (Elt Ideal))
  (x13 : (⟨Cert.ReferenceIdeal.S50257x1024, .f32⟩ : BufTy).Contents (Elt Ideal)) (x14 : (⟨Cert.ReferenceIdeal.S50257, .f32⟩ : BufTy).Contents (Elt Ideal))

/-- The new cell state: row 0 of the kernel's eight-row cell update is the reference's. -/
theorem stageG_cell (g : FVec Ideal Cert.KernelIdeal.S8x4096 .f32)
    (hg : row4096 g = val_main_v40 x0 x1 x3 x4 x5 x6 x7 x8 x9 x10 x11 x12) :
    row1024 (cell1 g (val_main_v1 x2)) = val_main_v60 x0 x1 x2 x3 x4 x5 x6 x7 x8 x9 x10 x11 x12 :=
  stageG_cell_any x0 x1 x2 x3 x4 x5 x6 x7 x8 x9 x10 x11 x12 g hg

/-- The new hidden state likewise. -/
theorem stageG_hid (g : FVec Ideal Cert.KernelIdeal.S8x4096 .f32)
    (hg : row4096 g = val_main_v40 x0 x1 x3 x4 x5 x6 x7 x8 x9 x10 x11 x12) :
    row1024 (hid1 g (val_main_v1 x2)) = val_main_v68 x0 x1 x2 x3 x4 x5 x6 x7 x8 x9 x10 x11 x12 :=
  stageG_hid_any x0 x1 x2 x3 x4 x5 x6 x7 x8 x9 x10 x11 x12 g hg

/-- The attention weights: the kernel program's softmax of the reference's logits is the reference's softmax. -/
theorem stageC : softmax (val_main_v13 x0 x1 x4 x5 x6) = val_main_v24 x0 x1 x4 x5 x6 :=
  stageC_any x0 x1 x4 x5 x6

/-- The log-probabilities. -/
theorem stageI_logp : logSoftmax (val_main_v72 x0 x1 x2 x3 x4 x5 x6 x7 x8 x9 x10 x11 x12 x13 x14) = val_main_v73 x0 x1 x2 x3 x4 x5 x6 x7 x8 x9 x10 x11 x12 x13 x14 :=
  stageI_logp_any x0 x1 x2 x3 x4 x5 x6 x7 x8 x9 x10 x11 x12 x13 x14

/-- The states handed back as (1, 1, 1024) arrays. -/
theorem stageI_h : lift3 (val_main_v68 x0 x1 x2 x3 x4 x5 x6 x7 x8 x9 x10 x11 x12) = val_main_v74 x0 x1 x2 x3 x4 x5 x6 x7 x8 x9 x10 x11 x12 :=
  stageI_h_any x0 x1 x2 x3 x4 x5 x6 x7 x8 x9 x10 x11 x12
theorem stageI_c : lift3 (val_main_v60 x0 x1 x2 x3 x4 x5 x6 x7 x8 x9 x10 x11 x12) = val_main_v75 x0 x1 x2 x3 x4 x5 x6 x7 x8 x9 x10 x11 x12 :=
  stageI_c_any x0 x1 x2 x3 x4 x5 x6 x7 x8 x9 x10 x11 x12

end AtIdeal

end Cert.Bridge

end
-- ==== Proof.Bridge.StageEFH.lean ====
/-
  Three stages of the decode step where the kernel program's closed forms meet the reference's operations, row 0
  against the reference's one row: the combining layer (a join of the embedded token and the attention read-out
  against the combining weight, plus bias, then the maximum with zero), the four gates' pre-activations (two
  products and two bias rows, which the two programs add in different orders), and the vocabulary logits.
  Each kernel-side activation has eight rows of which only row 0 carries data; every closed form reads only row p of
  its activation at output row p, so row 0 of the result depends on row 0 of the activation alone.
-/
import proofs.«425349_j42889543417942_3_alg».proof.Proof.RefRead
import proofs.«425349_j42889543417942_3_alg».proof.Proof.Closed
import proofs.«425349_j42889543417942_3_alg».proof.Proof.Bridge.KerStages
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.Bridge

open Idealize.ShloMosaic Idealize.ShloMosaic.ValueIdx

namespace EFH

/-! ## Reading the kernel-side layout operations at an index -/

/-- Row 0 of an eight-row array, at column `n`. -/
theorem row1024_apply (l : FVec Ideal Cert.KernelIdeal.S8x1024 .f32) (u : Fin 1) (n : Fin 1024) :
    Cert.KernelIdeal.Stages.row1024 (F := Ideal) l (ix2 u n) = l (ix2 (0 : Fin 8) n) := by
  unfold Cert.KernelIdeal.Stages.row1024
  exact slice2_axis0_apply 0 l _ u n (0 : Fin 8) (by have := u.isLt; show 0 = 0 + u.val; omega)
theorem row4096_apply (l : FVec Ideal Cert.KernelIdeal.S8x4096 .f32) (u : Fin 1) (n : Fin 4096) :
    Cert.KernelIdeal.Stages.row4096 (F := Ideal) l (ix2 u n) = l (ix2 (0 : Fin 8) n) := by
  unfold Cert.KernelIdeal.Stages.row4096
  exact slice2_axis0_apply 0 l _ u n (0 : Fin 8) (by have := u.isLt; show 0 = 0 + u.val; omega)
theorem row50257_apply (l : FVec Ideal Cert.KernelIdeal.S8x50257 .f32) (u : Fin 1) (n : Fin 50257) :
    Cert.KernelIdeal.Stages.row50257 (F := Ideal) l (ix2 u n) = l (ix2 (0 : Fin 8) n) := by
  unfold Cert.KernelIdeal.Stages.row50257
  exact slice2_axis0_apply 0 l _ u n (0 : Fin 8) (by have := u.isLt; show 0 = 0 + u.val; omega)

/-- A vector as a one-row array, at column `n`. -/
theorem asRow1024_apply (b : FVec Ideal Cert.KernelIdeal.S1024 .f32) (u : Fin 1) (n : Fin 1024) :
    Cert.KernelIdeal.Stages.asRow1024 (F := Ideal) b (ix2 u n) = b (ix1 n) := by
  unfold Cert.KernelIdeal.Stages.asRow1024
  exact shapeCast_a_1a_apply b _ u n
theorem asRow4096_apply (b : FVec Ideal Cert.KernelIdeal.S4096 .f32) (u : Fin 1) (n : Fin 4096) :
    Cert.KernelIdeal.Stages.asRow4096 (F := Ideal) b (ix2 u n) = b (ix1 n) := by
  unfold Cert.KernelIdeal.Stages.asRow4096
  exact shapeCast_a_1a_apply b _ u n
theorem asRow50257_apply (b : FVec Ideal Cert.KernelIdeal.S50257 .f32) (u : Fin 1) (n : Fin 50257) :
    Cert.KernelIdeal.Stages.asRow50257 (F := Ideal) b (ix2 u n) = b (ix1 n) := by
  unfold Cert.KernelIdeal.Stages.asRow50257
  exact shapeCast_a_1a_apply b _ u n

/-- Row 0 of a one-row array under seven zero rows is that row. -/
theorem pad1024_row0 (a : FVec Ideal Cert.KernelIdeal.S1x1024 .f32) (k : Fin 1024) :
    Cert.KernelIdeal.Stages.pad1024 (F := Ideal) a (ix2 (0 : Fin 8) k) = a (ix2 (0 : Fin 1) k) := by
  unfold Cert.KernelIdeal.Stages.pad1024
  exact pad_apply_of_inside _ _ _ a _ _ _ (ix2 (0 : Fin 8) k) (ix2 (0 : Fin 1) k) (fun ax => by
    match ax with
    | ⟨0, _⟩ => rfl
    | ⟨1, _⟩ => show k.val = 0 + k.val * (0 + 1); omega)

/-- Row 0 of the combining layer's input is the reference's join: the embedded token on columns 0‥1023 (row 0 of
    its zero-padded copy), the attention read-out on columns 1024‥2047 (row 0 of the eight-row read-out). -/
theorem combIn_row0 (x0 : (⟨Cert.ReferenceIdeal.S1, .i32⟩ : BufTy).Contents (Elt Ideal)) (x1 : (⟨Cert.ReferenceIdeal.S1x1x1024, .f32⟩ : BufTy).Contents (Elt Ideal)) (x3 : (⟨Cert.ReferenceIdeal.S4096x1024, .f32⟩ : BufTy).Contents (Elt Ideal)) (x4 : (⟨Cert.ReferenceIdeal.S50257x1024, .f32⟩ : BufTy).Contents (Elt Ideal)) (x5 : (⟨Cert.ReferenceIdeal.S4096x2048, .f32⟩ : BufTy).Contents (Elt Ideal)) (x6 : (⟨Cert.ReferenceIdeal.S4096, .f32⟩ : BufTy).Contents (Elt Ideal))
    (aa : FVec Ideal Cert.KernelIdeal.S8x1024 .f32)
    (haa : Cert.KernelIdeal.Stages.row1024 (F := Ideal) aa = Cert.ReferenceIdeal.ReadP.val_main_v25 (F := Ideal) x0 x1 x3 x4 x5 x6) (k : Fin 2048) :
    Cert.KernelIdeal.Stages.combIn (F := Ideal) (Cert.ReferenceIdeal.ReadP.val_main_v8 (F := Ideal) x0 x4) aa (ix2 (0 : Fin 8) k)
      = Cert.ReferenceIdeal.ReadP.val_main_v26 (F := Ideal) x0 x1 x3 x4 x5 x6 (ix2 (0 : Fin 1) k) := by
  unfold Cert.KernelIdeal.Stages.combIn Cert.ReferenceIdeal.ReadP.val_main_v26
  by_cases hk : k.val < 1024
  · refine (concatenate_pair_apply_left (t := Cert.KernelIdeal.S8x2048) (s₁ := Cert.KernelIdeal.S8x1024) (s₂ := Cert.KernelIdeal.S8x1024) _ _ _ _ (ix2 (0 : Fin 8) k) rfl (ix2 (0 : Fin 8) (⟨k.val, hk⟩ : Fin 1024))
      (fun b => by match b with | ⟨0, _⟩ => rfl | ⟨1, _⟩ => rfl)).trans ?_
    refine (pad1024_row0 _ _).trans ?_
    exact (concatenate_pair_apply_left (t := Cert.ReferenceIdeal.S1x2048) (s₁ := Cert.ReferenceIdeal.S1x1024) (s₂ := Cert.ReferenceIdeal.S1x1024) _ _ _ _ (ix2 (0 : Fin 1) k) rfl (ix2 (0 : Fin 1) (⟨k.val, hk⟩ : Fin 1024))
      (fun b => by match b with | ⟨0, _⟩ => rfl | ⟨1, _⟩ => rfl)).symm
  · have hk2 : k.val - 1024 < 1024 := by have := k.isLt; omega
    refine (concatenate_pair_apply_right (t := Cert.KernelIdeal.S8x2048) (s₁ := Cert.KernelIdeal.S8x1024) (s₂ := Cert.KernelIdeal.S8x1024) _ _ _ _ (ix2 (0 : Fin 8) k) rfl rfl (ix2 (0 : Fin 8) (⟨k.val - 1024, hk2⟩ : Fin 1024))
      (fun b hb => by match b with | ⟨0, _⟩ => rfl | ⟨1, _⟩ => exact absurd rfl hb)
      (by show k.val - 1024 + 1024 = k.val; omega)).trans ?_
    refine Eq.trans ?_ (concatenate_pair_apply_right (t := Cert.ReferenceIdeal.S1x2048) (s₁ := Cert.ReferenceIdeal.S1x1024) (s₂ := Cert.ReferenceIdeal.S1x1024) _ _ _ _ (ix2 (0 : Fin 1) k) rfl rfl (ix2 (0 : Fin 1) (⟨k.val - 1024, hk2⟩ : Fin 1024))
      (fun b hb => by match b with | ⟨0, _⟩ => rfl | ⟨1, _⟩ => exact absurd rfl hb)
      (by show k.val - 1024 + 1024 = k.val; omega)).symm
    rw [← haa, row1024_apply]

end EFH

/-! ## The three stages -/

/-- The combining layer. Kernel side: row 0 of `max ((∑ₖ in[0, k] · W[n, k]) + b[n]) 0` over the joined input.
    Reference: the join of the embedded token and the attention read-out against the transposed weight, plus the
    broadcast bias, then the maximum with a broadcast zero. The two joined inputs agree on row 0, column by column. -/
theorem stageE (x0 : (⟨Cert.ReferenceIdeal.S1, .i32⟩ : BufTy).Contents (Elt Ideal)) (x1 : (⟨Cert.ReferenceIdeal.S1x1x1024, .f32⟩ : BufTy).Contents (Elt Ideal)) (x3 : (⟨Cert.ReferenceIdeal.S4096x1024, .f32⟩ : BufTy).Contents (Elt Ideal)) (x4 : (⟨Cert.ReferenceIdeal.S50257x1024, .f32⟩ : BufTy).Contents (Elt Ideal)) (x5 : (⟨Cert.ReferenceIdeal.S4096x2048, .f32⟩ : BufTy).Contents (Elt Ideal)) (x6 : (⟨Cert.ReferenceIdeal.S4096, .f32⟩ : BufTy).Contents (Elt Ideal)) (x7 : (⟨Cert.ReferenceIdeal.S1024x2048, .f32⟩ : BufTy).Contents (Elt Ideal)) (x8 : (⟨Cert.ReferenceIdeal.S1024, .f32⟩ : BufTy).Contents (Elt Ideal))
    (aa : FVec Ideal Cert.KernelIdeal.S8x1024 .f32)
    (haa : Cert.KernelIdeal.Stages.row1024 (F := Ideal) aa = Cert.ReferenceIdeal.ReadP.val_main_v25 (F := Ideal) x0 x1 x3 x4 x5 x6) :
    Cert.KernelIdeal.Stages.row1024 (F := Ideal) (fun j : Cert.KernelIdeal.S8x1024.Idx => Cert.KernelIdeal.Closed.lin2 (Cert.KernelIdeal.Stages.combIn (F := Ideal) (Cert.ReferenceIdeal.ReadP.val_main_v8 (F := Ideal) x0 x4) aa) x7 (Cert.KernelIdeal.Stages.asRow1024 (F := Ideal) x8) (j 0) (j 1))
      = Cert.ReferenceIdeal.ReadP.val_main_v31 (F := Ideal) x0 x1 x3 x4 x5 x6 x7 x8 := by
  funext i
  obtain ⟨u, n, rfl⟩ : ∃ (u : Fin 1) (n : Fin 1024), i = ix2 u n := ⟨i 0, i 1, eq_ix2 i⟩
  obtain rfl : u = 0 := Subsingleton.elim u 0
  rw [EFH.row1024_apply]
  show Cert.KernelIdeal.Closed.lin2 (Cert.KernelIdeal.Stages.combIn (F := Ideal) (Cert.ReferenceIdeal.ReadP.val_main_v8 (F := Ideal) x0 x4) aa) x7 (Cert.KernelIdeal.Stages.asRow1024 (F := Ideal) x8) (0 : Fin 8) n = _
  unfold Cert.KernelIdeal.Closed.lin2
  rw [EFH.asRow1024_apply, Cert.ReferenceIdeal.ReadP.val_main_v31_apply, Cert.ReferenceIdeal.ReadP.val_main_v30_apply, Cert.ReferenceIdeal.ReadP.val_main_v28_apply, Cert.ReferenceIdeal.ReadP.val_main_v29_apply,
    Cert.ReferenceIdeal.ReadP.val_main_call0_v0_apply, Cert.ReferenceIdeal.ReadP.val_main_call0_cst_apply]
  have e29 : Cert.ReferenceIdeal.ReadP.idx_main_v29 (ix2 (0 : Fin 1) n) = ix1 n := funext fun a => Fin.ext (by match a with | ⟨0, _⟩ => rfl)
  rw [e29]
  have s : (∑ k : Fin 2048, Cert.ReferenceIdeal.ReadP.val_main_v26 (F := Ideal) x0 x1 x3 x4 x5 x6 (Cert.ReferenceIdeal.ReadP.lidx_main_v28 (ix2 (0 : Fin 1) n) k)
        * Cert.ReferenceIdeal.ReadP.val_main_v27 (F := Ideal) x7 (Cert.ReferenceIdeal.ReadP.ridx_main_v28 (ix2 (0 : Fin 1) n) k))
      = ∑ k : Fin 2048, Cert.KernelIdeal.Stages.combIn (F := Ideal) (Cert.ReferenceIdeal.ReadP.val_main_v8 (F := Ideal) x0 x4) aa (ix2 (0 : Fin 8) k) * x7 (ix2 n k) :=
    Finset.sum_congr rfl fun k _ => by
      have el : Cert.ReferenceIdeal.ReadP.lidx_main_v28 (ix2 (0 : Fin 1) n) k = ix2 (0 : Fin 1) k :=
        funext fun a => Fin.ext (by match a with | ⟨0, _⟩ => rfl | ⟨1, _⟩ => rfl)
      have er : Cert.ReferenceIdeal.ReadP.idx_main_v27 (Cert.ReferenceIdeal.ReadP.ridx_main_v28 (ix2 (0 : Fin 1) n) k) = ix2 n k :=
        funext fun a => Fin.ext (by match a with | ⟨0, _⟩ => rfl | ⟨1, _⟩ => rfl)
      rw [Cert.ReferenceIdeal.ReadP.val_main_v27_apply, el, er, EFH.combIn_row0 x0 x1 x3 x4 x5 x6 aa haa k]
  rw [s]
  show _ = max (_ + x8 (ix1 n)) (Ideal.ofBits .f32 0x00000000#32)
  rw [Ideal.ofBits_zero_f32]

/-- The gates' pre-activations. Kernel side: row 0 of `((x·Wihᵀ + h₀·Whhᵀ) + bih) + bhh`; the reference adds
    `((x·Wihᵀ + bih) + h₀·Whhᵀ) + bhh`: the same four terms, the middle two exchanged, by commutativity and
    associativity of addition on the extended reals. Row 0 of the zero-padded hidden state is the hidden state. -/
theorem stageF (x0 : (⟨Cert.ReferenceIdeal.S1, .i32⟩ : BufTy).Contents (Elt Ideal)) (x1 : (⟨Cert.ReferenceIdeal.S1x1x1024, .f32⟩ : BufTy).Contents (Elt Ideal)) (x3 : (⟨Cert.ReferenceIdeal.S4096x1024, .f32⟩ : BufTy).Contents (Elt Ideal)) (x4 : (⟨Cert.ReferenceIdeal.S50257x1024, .f32⟩ : BufTy).Contents (Elt Ideal)) (x5 : (⟨Cert.ReferenceIdeal.S4096x2048, .f32⟩ : BufTy).Contents (Elt Ideal)) (x6 : (⟨Cert.ReferenceIdeal.S4096, .f32⟩ : BufTy).Contents (Elt Ideal)) (x7 : (⟨Cert.ReferenceIdeal.S1024x2048, .f32⟩ : BufTy).Contents (Elt Ideal)) (x8 : (⟨Cert.ReferenceIdeal.S1024, .f32⟩ : BufTy).Contents (Elt Ideal)) (x9 : (⟨Cert.ReferenceIdeal.S4096x1024, .f32⟩ : BufTy).Contents (Elt Ideal)) (x10 : (⟨Cert.ReferenceIdeal.S4096, .f32⟩ : BufTy).Contents (Elt Ideal)) (x11 : (⟨Cert.ReferenceIdeal.S4096x1024, .f32⟩ : BufTy).Contents (Elt Ideal)) (x12 : (⟨Cert.ReferenceIdeal.S4096, .f32⟩ : BufTy).Contents (Elt Ideal))
    (xx : FVec Ideal Cert.KernelIdeal.S8x1024 .f32)
    (hx : Cert.KernelIdeal.Stages.row1024 (F := Ideal) xx = Cert.ReferenceIdeal.ReadP.val_main_v31 (F := Ideal) x0 x1 x3 x4 x5 x6 x7 x8) :
    Cert.KernelIdeal.Stages.row4096 (F := Ideal) (fun j : Cert.KernelIdeal.S8x4096.Idx => Cert.KernelIdeal.Closed.gates3 xx (Cert.KernelIdeal.Stages.pad1024 (F := Ideal) (Cert.ReferenceIdeal.ReadP.val_main_v0 (F := Ideal) x1)) x9 x11 (Cert.KernelIdeal.Stages.asRow4096 (F := Ideal) x10) (Cert.KernelIdeal.Stages.asRow4096 (F := Ideal) x12) (j 0) (j 1))
      = Cert.ReferenceIdeal.ReadP.val_main_v40 (F := Ideal) x0 x1 x3 x4 x5 x6 x7 x8 x9 x10 x11 x12 := by
  funext i
  obtain ⟨u, n, rfl⟩ : ∃ (u : Fin 1) (n : Fin 4096), i = ix2 u n := ⟨i 0, i 1, eq_ix2 i⟩
  obtain rfl : u = 0 := Subsingleton.elim u 0
  rw [EFH.row4096_apply]
  show Cert.KernelIdeal.Closed.gates3 xx (Cert.KernelIdeal.Stages.pad1024 (F := Ideal) (Cert.ReferenceIdeal.ReadP.val_main_v0 (F := Ideal) x1)) x9 x11
    (Cert.KernelIdeal.Stages.asRow4096 (F := Ideal) x10) (Cert.KernelIdeal.Stages.asRow4096 (F := Ideal) x12) (0 : Fin 8) n = _
  unfold Cert.KernelIdeal.Closed.gates3
  rw [EFH.asRow4096_apply, EFH.asRow4096_apply, Cert.ReferenceIdeal.ReadP.val_main_v40_apply, Cert.ReferenceIdeal.ReadP.val_main_v38_apply, Cert.ReferenceIdeal.ReadP.val_main_v35_apply,
    Cert.ReferenceIdeal.ReadP.val_main_v33_apply, Cert.ReferenceIdeal.ReadP.val_main_v37_apply, Cert.ReferenceIdeal.ReadP.val_main_v34_apply, Cert.ReferenceIdeal.ReadP.val_main_v39_apply]
  have e34 : Cert.ReferenceIdeal.ReadP.idx_main_v34 (ix2 (0 : Fin 1) n) = ix1 n := funext fun a => Fin.ext (by match a with | ⟨0, _⟩ => rfl)
  have e39 : Cert.ReferenceIdeal.ReadP.idx_main_v39 (ix2 (0 : Fin 1) n) = ix1 n := funext fun a => Fin.ext (by match a with | ⟨0, _⟩ => rfl)
  rw [e34, e39]
  have s1 : (∑ k : Fin 1024, Cert.ReferenceIdeal.ReadP.val_main_v31 (F := Ideal) x0 x1 x3 x4 x5 x6 x7 x8 (Cert.ReferenceIdeal.ReadP.lidx_main_v33 (ix2 (0 : Fin 1) n) k)
        * Cert.ReferenceIdeal.ReadP.val_main_v32 (F := Ideal) x9 (Cert.ReferenceIdeal.ReadP.ridx_main_v33 (ix2 (0 : Fin 1) n) k))
      = ∑ k : Fin 1024, xx (ix2 (0 : Fin 8) k) * x9 (ix2 n k) :=
    Finset.sum_congr rfl fun k _ => by
      have el : Cert.ReferenceIdeal.ReadP.lidx_main_v33 (ix2 (0 : Fin 1) n) k = ix2 (0 : Fin 1) k :=
        funext fun a => Fin.ext (by match a with | ⟨0, _⟩ => rfl | ⟨1, _⟩ => rfl)
      have er : Cert.ReferenceIdeal.ReadP.idx_main_v32 (Cert.ReferenceIdeal.ReadP.ridx_main_v33 (ix2 (0 : Fin 1) n) k) = ix2 n k :=
        funext fun a => Fin.ext (by match a with | ⟨0, _⟩ => rfl | ⟨1, _⟩ => rfl)
      rw [Cert.ReferenceIdeal.ReadP.val_main_v32_apply, el, er, ← hx, EFH.row1024_apply]
  have s2 : (∑ k : Fin 1024, Cert.ReferenceIdeal.ReadP.val_main_v0 (F := Ideal) x1 (Cert.ReferenceIdeal.ReadP.lidx_main_v37 (ix2 (0 : Fin 1) n) k)
        * Cert.ReferenceIdeal.ReadP.val_main_v36 (F := Ideal) x11 (Cert.ReferenceIdeal.ReadP.ridx_main_v37 (ix2 (0 : Fin 1) n) k))
      = ∑ k : Fin 1024, Cert.KernelIdeal.Stages.pad1024 (F := Ideal) (Cert.ReferenceIdeal.ReadP.val_main_v0 (F := Ideal) x1) (ix2 (0 : Fin 8) k) * x11 (ix2 n k) :=
    Finset.sum_congr rfl fun k _ => by
      have el : Cert.ReferenceIdeal.ReadP.lidx_main_v37 (ix2 (0 : Fin 1) n) k = ix2 (0 : Fin 1) k :=
        funext fun a => Fin.ext (by match a with | ⟨0, _⟩ => rfl | ⟨1, _⟩ => rfl)
      have er : Cert.ReferenceIdeal.ReadP.idx_main_v36 (Cert.ReferenceIdeal.ReadP.ridx_main_v37 (ix2 (0 : Fin 1) n) k) = ix2 n k :=
        funext fun a => Fin.ext (by match a with | ⟨0, _⟩ => rfl | ⟨1, _⟩ => rfl)
      rw [Cert.ReferenceIdeal.ReadP.val_main_v36_apply, el, er, EFH.pad1024_row0]
  rw [s1, s2]
  exact congrArg (· + x12 (ix1 n)) (add_right_comm (G := EReal) _ _ _)

/-- The vocabulary logits. Kernel side: row 0 of `(∑ₖ h₁[0, k] · W[n, k]) + b[n]`; the reference: the new hidden
    state against the transposed weight, plus the broadcast bias. -/
theorem stageH (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S1x1x1024, .f32⟩ : BufTy).Contents (Elt Ideal)) (x3 : (⟨Cert.ReferenceIdeal.S4096x1024, .f32⟩ : BufTy).Contents (Elt Ideal)) (x4 : (⟨Cert.ReferenceIdeal.S50257x1024, .f32⟩ : BufTy).Contents (Elt Ideal)) (x5 : (⟨Cert.ReferenceIdeal.S4096x2048, .f32⟩ : BufTy).Contents (Elt Ideal)) (x6 : (⟨Cert.ReferenceIdeal.S4096, .f32⟩ : BufTy).Contents (Elt Ideal)) (x7 : (⟨Cert.ReferenceIdeal.S1024x2048, .f32⟩ : BufTy).Contents (Elt Ideal)) (x8 : (⟨Cert.ReferenceIdeal.S1024, .f32⟩ : BufTy).Contents (Elt Ideal)) (x9 : (⟨Cert.ReferenceIdeal.S4096x1024, .f32⟩ : BufTy).Contents (Elt Ideal)) (x10 : (⟨Cert.ReferenceIdeal.S4096, .f32⟩ : BufTy).Contents (Elt Ideal)) (x11 : (⟨Cert.ReferenceIdeal.S4096x1024, .f32⟩ : BufTy).Contents (Elt Ideal)) (x12 : (⟨Cert.ReferenceIdeal.S4096, .f32⟩ : BufTy).Contents (Elt Ideal)) (x13 : (⟨Cert.ReferenceIdeal.S50257x1024, .f32⟩ : BufTy).Contents (Elt Ideal)) (x14 : (⟨Cert.ReferenceIdeal.S50257, .f32⟩ : BufTy).Contents (Elt Ideal))
    (hh : FVec Ideal Cert.KernelIdeal.S8x1024 .f32)
    (hhh : Cert.KernelIdeal.Stages.row1024 (F := Ideal) hh = Cert.ReferenceIdeal.ReadP.val_main_v68 (F := Ideal) x0 x1 x2 x3 x4 x5 x6 x7 x8 x9 x10 x11 x12) :
    Cert.KernelIdeal.Stages.row50257 (F := Ideal) (fun j : Cert.KernelIdeal.S8x50257.Idx => Cert.KernelIdeal.Closed.lin4 hh x13 (Cert.KernelIdeal.Stages.asRow50257 (F := Ideal) x14) (j 0) (j 1))
      = Cert.ReferenceIdeal.ReadP.val_main_v72 (F := Ideal) x0 x1 x2 x3 x4 x5 x6 x7 x8 x9 x10 x11 x12 x13 x14 := by
  funext i
  obtain ⟨u, n, rfl⟩ : ∃ (u : Fin 1) (n : Fin 50257), i = ix2 u n := ⟨i 0, i 1, eq_ix2 i⟩
  rw [EFH.row50257_apply]
  show Cert.KernelIdeal.Closed.lin4 hh x13 (Cert.KernelIdeal.Stages.asRow50257 (F := Ideal) x14) (0 : Fin 8) n = _
  unfold Cert.KernelIdeal.Closed.lin4
  rw [EFH.asRow50257_apply, Cert.ReferenceIdeal.ReadP.val_main_v72_apply, Cert.ReferenceIdeal.ReadP.val_main_v70_apply, Cert.ReferenceIdeal.ReadP.val_main_v71_apply]
  have e71 : Cert.ReferenceIdeal.ReadP.idx_main_v71 (ix2 u n) = ix1 n := funext fun a => Fin.ext (by match a with | ⟨0, _⟩ => rfl)
  rw [e71]
  show _ = (∑ k : Fin 1024, _) + x14 (ix1 n)
  refine congrArg (· + x14 (ix1 n)) (Finset.sum_congr rfl fun k _ => ?_)
  have el : Cert.ReferenceIdeal.ReadP.lidx_main_v70 (ix2 u n) k = ix2 u k :=
    funext fun a => Fin.ext (by match a with | ⟨0, _⟩ => rfl | ⟨1, _⟩ => rfl)
  have er : Cert.ReferenceIdeal.ReadP.idx_main_v69 (Cert.ReferenceIdeal.ReadP.ridx_main_v70 (ix2 u n) k) = ix2 n k :=
    funext fun a => Fin.ext (by match a with | ⟨0, _⟩ => rfl | ⟨1, _⟩ => rfl)
  rw [Cert.ReferenceIdeal.ReadP.val_main_v69_apply, el, er, ← hhh, EFH.row1024_apply]

end Cert.Bridge

end
-- ==== Proof.Bridge.Compose.lean ====
/-
  The decode step's kernel program, stage after stage over the extended reals, against the reference: the attention
  logits, their softmax, the attention read-out, the combining layer, the four gates' pre-activations, the new cell
  and hidden states, the vocabulary logits and their log-softmax. The kernel program carries every activation on
  eight rows of which row 0 is the data; the reference carries one row. Each stage's row 0 is the reference's stage
  given that the stage before's is, so by chaining the stages the program's three results and its attention weights
  are the reference's.
-/
import proofs.«425349_j42889543417942_3_alg».proof.Proof.Bridge.StageBD
import proofs.«425349_j42889543417942_3_alg».proof.Proof.Bridge.StageG
import proofs.«425349_j42889543417942_3_alg».proof.Proof.Bridge.StageEFH

noncomputable section

namespace Cert.Bridge

open Idealize.ShloMosaic Idealize.ShloMosaic.ValueIdx
open Cert.KernelIdeal.Stages Cert.KernelIdeal.Closed Cert.ReferenceIdeal.ReadP

section Arrays

variable (e : FVec Ideal Cert.KernelIdeal.S1x1024 .f32)
  (x1 x2 : (⟨Cert.ReferenceIdeal.S1x1x1024, .f32⟩ : BufTy).Contents (Elt Ideal))
  (x3 : (⟨Cert.ReferenceIdeal.S4096x1024, .f32⟩ : BufTy).Contents (Elt Ideal)) (x4 : (⟨Cert.ReferenceIdeal.S50257x1024, .f32⟩ : BufTy).Contents (Elt Ideal))
  (x5 : (⟨Cert.ReferenceIdeal.S4096x2048, .f32⟩ : BufTy).Contents (Elt Ideal)) (x6 : (⟨Cert.ReferenceIdeal.S4096, .f32⟩ : BufTy).Contents (Elt Ideal))
  (x7 : (⟨Cert.ReferenceIdeal.S1024x2048, .f32⟩ : BufTy).Contents (Elt Ideal)) (x8 : (⟨Cert.ReferenceIdeal.S1024, .f32⟩ : BufTy).Contents (Elt Ideal))
  (x9 : (⟨Cert.ReferenceIdeal.S4096x1024, .f32⟩ : BufTy).Contents (Elt Ideal)) (x10 : (⟨Cert.ReferenceIdeal.S4096, .f32⟩ : BufTy).Contents (Elt Ideal))
  (x11 : (⟨Cert.ReferenceIdeal.S4096x1024, .f32⟩ : BufTy).Contents (Elt Ideal)) (x12 : (⟨Cert.ReferenceIdeal.S4096, .f32⟩ : BufTy).Contents (Elt Ideal))
  (x13 : (⟨Cert.ReferenceIdeal.S50257x1024, .f32⟩ : BufTy).Contents (Elt Ideal)) (x14 : (⟨Cert.ReferenceIdeal.S50257, .f32⟩ : BufTy).Contents (Elt Ideal))

/-! ## The kernel program's arrays, stage after stage, as functions of the embedded row and the arguments -/

/-- The attention logits on eight rows. -/
def kL : FVec Ideal Cert.KernelIdeal.S8x4096 .f32 :=
  fun j => lin0 (attnIn (F := Ideal) e (state2 (F := Ideal) x1)) x5 (asRow4096 (F := Ideal) x6) (j 0) (j 1)
/-- The attention weights: the softmax of row 0 of the logits. -/
def kAW : FVec Ideal Cert.KernelIdeal.S1x4096 .f32 := softmax (F := Ideal) (row4096 (F := Ideal) (kL e x1 x5 x6))
/-- The attention read-out on eight rows. -/
def kAA : FVec Ideal Cert.KernelIdeal.S8x1024 .f32 :=
  fun j => app1 (pad4096 (F := Ideal) (kAW e x1 x5 x6)) x3 (j 0) (j 1)
/-- The combining layer's result on eight rows. -/
def kX : FVec Ideal Cert.KernelIdeal.S8x1024 .f32 :=
  fun j => lin2 (combIn (F := Ideal) e (kAA e x1 x3 x5 x6)) x7 (asRow1024 (F := Ideal) x8) (j 0) (j 1)
/-- The four gates' pre-activations on eight rows. -/
def kG : FVec Ideal Cert.KernelIdeal.S8x4096 .f32 :=
  fun j => gates3 (kX e x1 x3 x5 x6 x7 x8) (pad1024 (F := Ideal) (state2 (F := Ideal) x1)) x9 x11 (asRow4096 (F := Ideal) x10) (asRow4096 (F := Ideal) x12) (j 0) (j 1)
/-- The new cell state and the new hidden state on eight rows. -/
def kC1 : FVec Ideal Cert.KernelIdeal.S8x1024 .f32 := cell1 (F := Ideal) (kG e x1 x3 x5 x6 x7 x8 x9 x10 x11 x12) (state2 (F := Ideal) x2)
def kH1 : FVec Ideal Cert.KernelIdeal.S8x1024 .f32 := hid1 (F := Ideal) (kG e x1 x3 x5 x6 x7 x8 x9 x10 x11 x12) (state2 (F := Ideal) x2)
/-- The vocabulary logits on eight rows. -/
def kLo : FVec Ideal Cert.KernelIdeal.S8x50257 .f32 :=
  fun j => lin4 (kH1 e x1 x2 x3 x5 x6 x7 x8 x9 x10 x11 x12) x13 (asRow50257 (F := Ideal) x14) (j 0) (j 1)

end Arrays

section Stages

variable (x0 : (⟨Cert.ReferenceIdeal.S1, .i32⟩ : BufTy).Contents (Elt Ideal))
  (x1 x2 : (⟨Cert.ReferenceIdeal.S1x1x1024, .f32⟩ : BufTy).Contents (Elt Ideal))
  (x3 : (⟨Cert.ReferenceIdeal.S4096x1024, .f32⟩ : BufTy).Contents (Elt Ideal)) (x4 : (⟨Cert.ReferenceIdeal.S50257x1024, .f32⟩ : BufTy).Contents (Elt Ideal))
  (x5 : (⟨Cert.ReferenceIdeal.S4096x2048, .f32⟩ : BufTy).Contents (Elt Ideal)) (x6 : (⟨Cert.ReferenceIdeal.S4096, .f32⟩ : BufTy).Contents (Elt Ideal))
  (x7 : (⟨Cert.ReferenceIdeal.S1024x2048, .f32⟩ : BufTy).Contents (Elt Ideal)) (x8 : (⟨Cert.ReferenceIdeal.S1024, .f32⟩ : BufTy).Contents (Elt Ideal))
  (x9 : (⟨Cert.ReferenceIdeal.S4096x1024, .f32⟩ : BufTy).Contents (Elt Ideal)) (x10 : (⟨Cert.ReferenceIdeal.S4096, .f32⟩ : BufTy).Contents (Elt Ideal))
  (x11 : (⟨Cert.ReferenceIdeal.S4096x1024, .f32⟩ : BufTy).Contents (Elt Ideal)) (x12 : (⟨Cert.ReferenceIdeal.S4096, .f32⟩ : BufTy).Contents (Elt Ideal))
  (x13 : (⟨Cert.ReferenceIdeal.S50257x1024, .f32⟩ : BufTy).Contents (Elt Ideal)) (x14 : (⟨Cert.ReferenceIdeal.S50257, .f32⟩ : BufTy).Contents (Elt Ideal))
  (e : FVec Ideal Cert.KernelIdeal.S1x1024 .f32)

/-! ## Row 0 of each stage is the reference's stage -/

/-- The (1, 1, 1024) state as a one-row array is the reference's reshape of it. -/
theorem state2_h : state2 (F := Ideal) x1 = (val_main_v0 (F := Ideal) x1 : FVec Ideal Cert.KernelIdeal.S1x1024 .f32) := rfl
theorem state2_c : state2 (F := Ideal) x2 = (val_main_v1 (F := Ideal) x2 : FVec Ideal Cert.KernelIdeal.S1x1024 .f32) := rfl

theorem row4096_kL (he : e = val_main_v8 (F := Ideal) x0 x4) :
    row4096 (F := Ideal) (kL e x1 x5 x6) = (val_main_v13 (F := Ideal) x0 x1 x4 x5 x6 : FVec Ideal Cert.KernelIdeal.S1x4096 .f32) := by
  subst he
  unfold kL
  rw [state2_h]
  exact stageB x0 x1 x4 x5 x6

theorem kAW_eq (he : e = val_main_v8 (F := Ideal) x0 x4) :
    kAW e x1 x5 x6 = (val_main_v24 (F := Ideal) x0 x1 x4 x5 x6 : FVec Ideal Cert.KernelIdeal.S1x4096 .f32) := by
  unfold kAW
  rw [row4096_kL x0 x1 x4 x5 x6 e he]
  exact stageC x0 x1 x4 x5 x6

theorem row1024_kAA (he : e = val_main_v8 (F := Ideal) x0 x4) :
    row1024 (F := Ideal) (kAA e x1 x3 x5 x6) = (val_main_v25 (F := Ideal) x0 x1 x3 x4 x5 x6 : FVec Ideal Cert.KernelIdeal.S1x1024 .f32) := by
  unfold kAA
  rw [kAW_eq x0 x1 x4 x5 x6 e he]
  exact stageD x0 x1 x3 x4 x5 x6

theorem row1024_kX (he : e = val_main_v8 (F := Ideal) x0 x4) :
    row1024 (F := Ideal) (kX e x1 x3 x5 x6 x7 x8) = (val_main_v31 (F := Ideal) x0 x1 x3 x4 x5 x6 x7 x8 : FVec Ideal Cert.KernelIdeal.S1x1024 .f32) := by
  have haa := row1024_kAA x0 x1 x3 x4 x5 x6 e he
  subst he
  unfold kX
  exact stageE x0 x1 x3 x4 x5 x6 x7 x8 (kAA (val_main_v8 (F := Ideal) x0 x4) x1 x3 x5 x6) haa

theorem row4096_kG (he : e = val_main_v8 (F := Ideal) x0 x4) :
    row4096 (F := Ideal) (kG e x1 x3 x5 x6 x7 x8 x9 x10 x11 x12)
      = (val_main_v40 (F := Ideal) x0 x1 x3 x4 x5 x6 x7 x8 x9 x10 x11 x12 : FVec Ideal Cert.KernelIdeal.S1x4096 .f32) := by
  unfold kG
  rw [state2_h]
  exact stageF x0 x1 x3 x4 x5 x6 x7 x8 x9 x10 x11 x12 (kX e x1 x3 x5 x6 x7 x8) (row1024_kX x0 x1 x3 x4 x5 x6 x7 x8 e he)

theorem row1024_kC1 (he : e = val_main_v8 (F := Ideal) x0 x4) :
    row1024 (F := Ideal) (kC1 e x1 x2 x3 x5 x6 x7 x8 x9 x10 x11 x12)
      = (val_main_v60 (F := Ideal) x0 x1 x2 x3 x4 x5 x6 x7 x8 x9 x10 x11 x12 : FVec Ideal Cert.KernelIdeal.S1x1024 .f32) := by
  unfold kC1
  rw [state2_c]
  exact stageG_cell x0 x1 x2 x3 x4 x5 x6 x7 x8 x9 x10 x11 x12 (kG e x1 x3 x5 x6 x7 x8 x9 x10 x11 x12)
    (row4096_kG x0 x1 x3 x4 x5 x6 x7 x8 x9 x10 x11 x12 e he)

theorem row1024_kH1 (he : e = val_main_v8 (F := Ideal) x0 x4) :
    row1024 (F := Ideal) (kH1 e x1 x2 x3 x5 x6 x7 x8 x9 x10 x11 x12)
      = (val_main_v68 (F := Ideal) x0 x1 x2 x3 x4 x5 x6 x7 x8 x9 x10 x11 x12 : FVec Ideal Cert.KernelIdeal.S1x1024 .f32) := by
  unfold kH1
  rw [state2_c]
  exact stageG_hid x0 x1 x2 x3 x4 x5 x6 x7 x8 x9 x10 x11 x12 (kG e x1 x3 x5 x6 x7 x8 x9 x10 x11 x12)
    (row4096_kG x0 x1 x3 x4 x5 x6 x7 x8 x9 x10 x11 x12 e he)

theorem row50257_kLo (he : e = val_main_v8 (F := Ideal) x0 x4) :
    row50257 (F := Ideal) (kLo e x1 x2 x3 x5 x6 x7 x8 x9 x10 x11 x12 x13 x14)
      = (val_main_v72 (F := Ideal) x0 x1 x2 x3 x4 x5 x6 x7 x8 x9 x10 x11 x12 x13 x14 : FVec Ideal Cert.KernelIdeal.S1x50257 .f32) := by
  unfold kLo
  exact stageH x0 x1 x2 x3 x4 x5 x6 x7 x8 x9 x10 x11 x12 x13 x14 (kH1 e x1 x2 x3 x5 x6 x7 x8 x9 x10 x11 x12)
    (row1024_kH1 x0 x1 x2 x3 x4 x5 x6 x7 x8 x9 x10 x11 x12 e he)

/-- THE BRIDGE. With the embedded row the reference's, the kernel program's log-probabilities, new hidden state, new
    cell state and attention weights are the reference's. -/
theorem compose (he : e = val_main_v8 (F := Ideal) x0 x4) :
    logSoftmax (F := Ideal) (row50257 (F := Ideal) (kLo e x1 x2 x3 x5 x6 x7 x8 x9 x10 x11 x12 x13 x14))
        = (val_main_v73 (F := Ideal) x0 x1 x2 x3 x4 x5 x6 x7 x8 x9 x10 x11 x12 x13 x14 : FVec Ideal Cert.KernelIdeal.S1x50257 .f32)
    ∧ lift3 (F := Ideal) (row1024 (F := Ideal) (kH1 e x1 x2 x3 x5 x6 x7 x8 x9 x10 x11 x12))
        = (val_main_v74 (F := Ideal) x0 x1 x2 x3 x4 x5 x6 x7 x8 x9 x10 x11 x12 : FVec Ideal Cert.KernelIdeal.S1x1x1024 .f32)
    ∧ lift3 (F := Ideal) (row1024 (F := Ideal) (kC1 e x1 x2 x3 x5 x6 x7 x8 x9 x10 x11 x12))
        = (val_main_v75 (F := Ideal) x0 x1 x2 x3 x4 x5 x6 x7 x8 x9 x10 x11 x12 : FVec Ideal Cert.KernelIdeal.S1x1x1024 .f32)
    ∧ kAW e x1 x5 x6 = (val_main_v24 (F := Ideal) x0 x1 x4 x5 x6 : FVec Ideal Cert.KernelIdeal.S1x4096 .f32) := by
  refine ⟨?_, ?_, ?_, kAW_eq x0 x1 x4 x5 x6 e he⟩
  · rw [row50257_kLo x0 x1 x2 x3 x4 x5 x6 x7 x8 x9 x10 x11 x12 x13 x14 e he]
    exact stageI_logp x0 x1 x2 x3 x4 x5 x6 x7 x8 x9 x10 x11 x12 x13 x14
  · rw [row1024_kH1 x0 x1 x2 x3 x4 x5 x6 x7 x8 x9 x10 x11 x12 e he]
    exact stageI_h x0 x1 x2 x3 x4 x5 x6 x7 x8 x9 x10 x11 x12
  · rw [row1024_kC1 x0 x1 x2 x3 x4 x5 x6 x7 x8 x9 x10 x11 x12 e he]
    exact stageI_c x0 x1 x2 x3 x4 x5 x6 x7 x8 x9 x10 x11 x12

end Stages

end Cert.Bridge

end
-- ==== Proof.Bridge.Embed.lean ====
/-
  The embedded token: the first stage of the decode step, at the extended reals. Both programs look up row `token` of
  the (50257, 1024) embedding table, by different routes.

  The reference wraps the index (a negative one has the table's length 50257 added), lays it out as a (1, 1) array of
  start indices and gathers a (1, 1024) slice; a gather clamps its start index into the table, here into [0, 50256].

  The kernel makes the one-element token array a scalar, wraps it the same way, tests 0 ≤ index ≤ 50256, gathers a
  (1024) row at the index (clamped likewise), replaces the row by the not-a-number word where the test fails, and lays
  the row out as a (1, 1024) array.

  With 0 ≤ token < 50257, signed — the last conjunct of the precondition — the wrap is the identity, the test is true,
  and both gathers read row `token` (the clamp, the same on both sides, is never evaluated): the two arrays are equal
  element by element. Outside that range they differ — the kernel fills with not-a-number where the reference clamps —,
  which is why the precondition carries the range.

  Contents: `TokInRange`; the two gathers read at an element (`kGather_apply`, `rGather_apply`: the operand's index is
  the clamped start index on the table's row axis and the result's column on the other); the words of the wrap and of
  the range test (`wrap_id`, `mask_one`, `reduce_andi_one`); the kernel's composed term `kEmb`, which the first host
  stretch leaves in the embedded-token buffer (`kEmb_after`); the reference's composed term `rEmb`;
  `kEmb_eq_rEmb`; and `tok_range`, the range read off the printed precondition, whose last link is the conjunction
  over the token array of the two comparisons.
-/
import proofs.«425349_j42889543417942_3_alg».proof.Defs
import proofs.«425349_j42889543417942_3_alg».proof.Proof.Gen.KernelIdeal.Launch
import proofs.«425349_j42889543417942_3_alg».proof.Proof.Gen.ReferenceIdeal
import proofs.«425349_j42889543417942_3_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx Idealize.SL.Sem Idealize.ShloMosaic.StableHlo

/-- The token word lies in the table: read signed, 0 ≤ token < 50257. -/
def TokInRange (tok : IVec (⟨1, ![1]⟩ : Shape) 32) : Prop :=
  0 ≤ (tok (ix1 (0 : Fin 1))).toInt ∧ (tok (ix1 (0 : Fin 1))).toInt < 50257

/-! ## Indices of the unit shapes -/

/-- A rank-1 index of extent one is the index 0. -/
theorem S1_idx (x : (⟨1, ![1]⟩ : Shape).Idx) : x = ix1 (0 : Fin 1) := by
  funext a
  match a with
  | ⟨0, _⟩ =>
    apply Fin.ext
    have h := (x ⟨0, by decide⟩).isLt
    show (x ⟨0, _⟩).val = 0
    have hs : (⟨1, ![1]⟩ : Shape).size ⟨0, by decide⟩ = 1 := by decide
    omega

/-- A rank-2 index of extents one and one is the index (0, 0). -/
theorem S1x1_idx (x : (⟨2, ![1, 1]⟩ : Shape).Idx) : x = ix2 (0 : Fin 1) (0 : Fin 1) := by
  funext a
  match a with
  | ⟨0, _⟩ =>
    apply Fin.ext
    have h := (x ⟨0, by decide⟩).isLt
    show (x ⟨0, _⟩).val = 0
    have hs : (⟨2, ![1, 1]⟩ : Shape).size ⟨0, by decide⟩ = 1 := by decide
    omega
  | ⟨1, _⟩ =>
    apply Fin.ext
    have h := (x ⟨1, by decide⟩).isLt
    show (x ⟨1, _⟩).val = 0
    have hs : (⟨2, ![1, 1]⟩ : Shape).size ⟨1, by decide⟩ = 1 := by decide
    omega

/-- A rank-1 index built from a coordinate has that coordinate on its one axis. -/
theorem ix1_val {n : Nat} (q : Fin n) (d : Fin 1) : (ix1 q d).val = q.val := by
  match d with
  | ⟨0, _⟩ => rfl

/-- A rank-2 index built from coordinates has the second one on axis 1. -/
theorem ix2_val1 {n0 n1 : Nat} (p : Fin n0) (q : Fin n1) (d : Fin 2) (hd : d.val = 1) : (ix2 p q d).val = q.val := by
  match d, hd with
  | ⟨1, _⟩, _ => rfl

/-! ## The token's words: in range, the wrap is the identity and the range test is true -/

theorem toInt_zero32 : (0#32 : BitVec 32).toInt = 0 := by decide
theorem toInt_50256 : (50256#32 : BitVec 32).toInt = 50256 := by decide
theorem toInt_50257 : (50257#32 : BitVec 32).toInt = 50257 := by decide

/-- A non-negative index is not wrapped: "if the index is negative add the table's length" keeps it. -/
theorem wrap_id (t : BitVec 32) (h0 : 0 ≤ t.toInt) :
    Scalar.select (IntOp.cmpi .slt t 0#32) (IntOp.addi t 50257#32) t = t := by
  have hc : IntOp.cmpi .slt t 0#32 = 0#1 := by
    show BitVec.ofBool (decide (t.toInt < (0#32 : BitVec 32).toInt)) = 0#1
    rw [toInt_zero32, decide_eq_false (by omega)]
    rfl
  rw [hc]
  exact select_zero _ _

/-- An index in [0, 50257) passes the test 0 ≤ index ≤ 50256. -/
theorem mask_one (t : BitVec 32) (h0 : 0 ≤ t.toInt) (h1 : t.toInt < 50257) :
    IntOp.andi (IntOp.cmpi .sge t 0#32) (IntOp.cmpi .sle t 50256#32) = 1#1 := by
  refine IntOp.andi_eq_one.2 ⟨?_, ?_⟩
  · show BitVec.ofBool (decide ((0#32 : BitVec 32).toInt ≤ t.toInt)) = 1#1
    rw [toInt_zero32, decide_eq_true h0]
    rfl
  · show BitVec.ofBool (decide (t.toInt ≤ (50256#32 : BitVec 32).toInt)) = 1#1
    rw [toInt_50256, decide_eq_true (by omega)]
    rfl

/-- A reduction by "and" from 1 over words that are all 1 is 1. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  unfold Host.reduce
  rw [hi]
  generalize (List.finRange s.numel).filter (fun n => h.drop (s.rowMajor.symm n) = j) = l
  induction l with
  | nil => rfl
  | cons a l ih =>
    rw [List.foldl_cons, hx, show IntOp.andi (1#1 : BitVec 1) 1#1 = 1#1 from by decide]
    exact ih

/-! ## The kernel's row: the token made a scalar, wrapped, range-tested, the row gathered, and replaced by the
not-a-number word where the test fails -/

section Kernel
open Cert.KernelIdeal Cert.KernelIdeal.Gen

/-- The one-element token array as a scalar. -/
def kTok (tok : IVec S1 32) : IVec S_ 32 := shapeCast S_ tok shapeCasts_S1_S_
/-- The index wrapped: a negative one has the table's length, 50257, added. -/
def kWrap (tok : IVec S1 32) : IVec S_ 32 :=
  select (cmpi .slt (kTok tok) (constantI S_ 32 0#32)) (addi (kTok tok) (constantI S_ 32 50257#32)) (kTok tok)
/-- The wrapped index as a one-element array: the gather's start index. -/
def kIdx (tok : IVec S1 32) : IVec S1 32 := broadcastInDim S1 ![] bcast_S_S1 (kWrap tok)
/-- The range test 0 ≤ index ≤ 50256, reduced over its one element by "and". -/
def kMask (tok : IVec S1 32) : IVec S_ 1 :=
  Host.reduce IntOp.andi
    (andi (cmpi .sge (kIdx tok) (broadcastInDim S1 ![] bcast_S_S1 (constantI S_ 32 0#32)))
      (cmpi .sle (kIdx tok) (constantI S1 32 50256#32)))
    (constantI S_ 1 1#1) reducesTo_S1_S_d0 h_S_
/-- The gathered row where the test holds, the not-a-number word elsewhere. -/
def kRow (tok : IVec S1 32) (emb : FVec Ideal S50257x1024 .f32) : FVec Ideal S1024 .f32 :=
  select (broadcastInDim S1024 ![] bcast_S_S1024 (kMask tok))
    (Host.gather gather_S50257x1024_S1_S1024_0_0_n_n_0_0_11024 emb (kIdx tok))
    (broadcastInDim S1024 ![] bcast_S_S1024 (constant (F := Ideal) S_ .f32 0x7FC00000#32))
/-- The row as a (1, 1024) array: what the kernel's first host stretch leaves for the embedded token. -/
def kEmb (tok : IVec S1 32) (emb : FVec Ideal S50257x1024 .f32) : FVec Ideal S1x1024 .f32 :=
  broadcastInDim S1x1024 ![1] bcast_S1024_S1x1024_1 (kRow tok emb)

/-- The first host stretch's embedded-token buffer holds that term of the token and the table. -/
theorem kEmb_after (U : Valuation τ sig (Elt Ideal)) :
    StableHlo.after (Cert.KernelIdeal.Gen.hostOps0 (F := Ideal)) U (Proc.devRef .tc main_call0_v4)
      = kEmb (U (Proc.devRef .tc main_arg0)) (U (Proc.devRef .tc main_arg4)) := by
  after_results_simp
  rfl

/-- The kernel's gather at column q: the table at the row the start index names, read signed and clamped into the
    table, and column q. -/
theorem kGather_apply (emb : FVec Ideal S50257x1024 .f32) (idx : IVec S1 32) (q : Fin 1024) :
    Host.gather gather_S50257x1024_S1_S1024_0_0_n_n_0_0_11024 emb idx (ix1 q)
      = emb (ix2 (⟨min (idx (ix1 (0 : Fin 1))).toInt.toNat 50256, by omega⟩ : Fin 50257) q) := by
  unfold Host.gather
  congr 1
  funext a
  apply Fin.ext
  match a with
  | ⟨0, _⟩ =>
    show gather_S50257x1024_S1_S1024_0_0_n_n_0_0_11024.start (ix1 q) idx 0
        + gather_S50257x1024_S1_S1024_0_0_n_n_0_0_11024.batchCoord (ix1 q) 0
        + gather_S50257x1024_S1_S1024_0_0_n_n_0_0_11024.offCoord (ix1 q) 0 = min (idx (ix1 (0 : Fin 1))).toInt.toNat 50256
    rw [GatherDims.batchCoord_eq_zero _ _ _ (by decide), GatherDims.offCoord_eq_zero _ _ _ (by decide)]
    unfold GatherDims.start
    rw [dif_pos (by decide)]
    rw [S1_idx (gather_S50257x1024_S1_S1024_0_0_n_n_0_0_11024.siIdx _ _)]
    rfl
  | ⟨1, _⟩ =>
    show gather_S50257x1024_S1_S1024_0_0_n_n_0_0_11024.start (ix1 q) idx 1
        + gather_S50257x1024_S1_S1024_0_0_n_n_0_0_11024.batchCoord (ix1 q) 1
        + gather_S50257x1024_S1_S1024_0_0_n_n_0_0_11024.offCoord (ix1 q) 1 = q.val
    rw [GatherDims.batchCoord_eq_zero _ _ _ (by decide)]
    unfold GatherDims.start GatherDims.offCoord
    rw [dif_neg (by decide), dif_pos (by decide)]
    simp only [Nat.zero_add]
    exact ix1_val q _

theorem kTok_apply (tok : IVec S1 32) (i : S_.Idx) : kTok tok i = tok (ix1 (0 : Fin 1)) := by
  unfold kTok shapeCast
  exact congrArg tok (S1_idx _)

theorem kWrap_apply (tok : IVec S1 32) (h0 : 0 ≤ (tok (ix1 (0 : Fin 1))).toInt) (i : S_.Idx) :
    kWrap tok i = tok (ix1 (0 : Fin 1)) := by
  show Scalar.select (IntOp.cmpi .slt (kTok tok i) 0#32) (IntOp.addi (kTok tok i) 50257#32) (kTok tok i) = _
  rw [kTok_apply]
  exact wrap_id _ h0

theorem kIdx_apply (tok : IVec S1 32) (h0 : 0 ≤ (tok (ix1 (0 : Fin 1))).toInt) (i : S1.Idx) :
    kIdx tok i = tok (ix1 (0 : Fin 1)) := by
  show kWrap tok _ = _
  exact kWrap_apply tok h0 _

theorem kMask_apply (tok : IVec S1 32) (h : TokInRange tok) (i : S_.Idx) : kMask tok i = 1#1 := by
  unfold kMask
  refine reduce_andi_one _ _ _ _ _ rfl (fun i => ?_)
  show IntOp.andi (IntOp.cmpi .sge (kIdx tok i) 0#32) (IntOp.cmpi .sle (kIdx tok i) 50256#32) = 1#1
  rw [kIdx_apply tok h.1]
  exact mask_one _ h.1 h.2

/-- In range, column q of the kernel's row is the table at row token (clamped, which changes nothing) and column q. -/
theorem kRow_apply (tok : IVec S1 32) (emb : FVec Ideal S50257x1024 .f32) (h : TokInRange tok) (q : Fin 1024) :
    kRow tok emb (ix1 q)
      = emb (ix2 (⟨min (tok (ix1 (0 : Fin 1))).toInt.toNat 50256, by omega⟩ : Fin 50257) q) := by
  show Scalar.select (kMask tok _) (Host.gather gather_S50257x1024_S1_S1024_0_0_n_n_0_0_11024 emb (kIdx tok) (ix1 q)) _ = _
  rw [kMask_apply tok h, select_one, kGather_apply]
  simp only [kIdx_apply tok h.1]

theorem kEmb_apply (tok : IVec S1 32) (emb : FVec Ideal S50257x1024 .f32) (p : Fin 1) (q : Fin 1024) :
    kEmb tok emb (ix2 p q) = kRow tok emb (ix1 q) := by
  unfold kEmb
  exact broadcastInDim_apply _ _ _ _ (ix1 q) (fun a => match a with
    | ⟨0, _⟩ => by show q.val = if (1024 : Nat) = 1 then 0 else q.val; rw [if_neg (by decide)])

end Kernel

/-! ## The reference's row: the token wrapped, the row gathered (the gather clamps its start index into the table) -/

section Reference
open Cert.ReferenceIdeal Cert.ReferenceIdeal.Gen

/-- The index wrapped: a negative one has the table's length, 50257, added. -/
def rWrap (tok : IVec S1 32) : IVec S1 32 :=
  select (cmpi .slt tok (broadcastInDim S1 ![] bcast_S_S1 (constantI S_ 32 0#32)))
    (addi tok (broadcastInDim S1 ![] bcast_S_S1 (constantI S_ 32 50257#32))) tok
/-- The wrapped index as a (1, 1) array: the gather's start indices. -/
def rIdx (tok : IVec S1 32) : IVec S1x1 32 := broadcastInDim S1x1 ![0] bcast_S1_S1x1_0 (rWrap tok)
/-- The gathered row, a (1, 1024) array: the reference's embedded token. -/
def rEmb (tok : IVec S1 32) (emb : FVec Ideal S50257x1024 .f32) : FVec Ideal S1x1024 .f32 :=
  Host.gather gather_S50257x1024_S1x1_S1x1024_1_0_n_n_0_1_11024 emb (rIdx tok)

/-- The reference's gather at (p, q): the table at the row the start index names, read signed and clamped into the
    table, and column q. -/
theorem rGather_apply (emb : FVec Ideal S50257x1024 .f32) (idx : IVec S1x1 32) (p : Fin 1) (q : Fin 1024) :
    Host.gather gather_S50257x1024_S1x1_S1x1024_1_0_n_n_0_1_11024 emb idx (ix2 p q)
      = emb (ix2 (⟨min (idx (ix2 (0 : Fin 1) (0 : Fin 1))).toInt.toNat 50256, by omega⟩ : Fin 50257) q) := by
  unfold Host.gather
  congr 1
  funext a
  apply Fin.ext
  match a with
  | ⟨0, _⟩ =>
    show gather_S50257x1024_S1x1_S1x1024_1_0_n_n_0_1_11024.start (ix2 p q) idx 0
        + gather_S50257x1024_S1x1_S1x1024_1_0_n_n_0_1_11024.batchCoord (ix2 p q) 0
        + gather_S50257x1024_S1x1_S1x1024_1_0_n_n_0_1_11024.offCoord (ix2 p q) 0 = min (idx (ix2 (0 : Fin 1) (0 : Fin 1))).toInt.toNat 50256
    rw [GatherDims.batchCoord_eq_zero _ _ _ (by decide), GatherDims.offCoord_eq_zero _ _ _ (by decide)]
    unfold GatherDims.start
    rw [dif_pos (by decide)]
    rw [S1x1_idx (gather_S50257x1024_S1x1_S1x1024_1_0_n_n_0_1_11024.siIdx _ _)]
    rfl
  | ⟨1, _⟩ =>
    show gather_S50257x1024_S1x1_S1x1024_1_0_n_n_0_1_11024.start (ix2 p q) idx 1
        + gather_S50257x1024_S1x1_S1x1024_1_0_n_n_0_1_11024.batchCoord (ix2 p q) 1
        + gather_S50257x1024_S1x1_S1x1024_1_0_n_n_0_1_11024.offCoord (ix2 p q) 1 = q.val
    rw [GatherDims.batchCoord_eq_zero _ _ _ (by decide)]
    unfold GatherDims.start GatherDims.offCoord
    rw [dif_neg (by decide), dif_pos (by decide)]
    simp only [Nat.zero_add]
    exact ix2_val1 p q _ (by decide)

theorem rWrap_apply (tok : IVec S1 32) (h0 : 0 ≤ (tok (ix1 (0 : Fin 1))).toInt) (i : S1.Idx) :
    rWrap tok i = tok (ix1 (0 : Fin 1)) := by
  show Scalar.select (IntOp.cmpi .slt (tok i) 0#32) (IntOp.addi (tok i) 50257#32) (tok i) = _
  rw [S1_idx i]
  exact wrap_id _ h0

theorem rIdx_apply (tok : IVec S1 32) (h0 : 0 ≤ (tok (ix1 (0 : Fin 1))).toInt) (i : S1x1.Idx) :
    rIdx tok i = tok (ix1 (0 : Fin 1)) := by
  show rWrap tok _ = _
  exact rWrap_apply tok h0 _

/-- With a non-negative token, element (p, q) of the reference's row is the table at row token (clamped) and column q. -/
theorem rEmb_apply (tok : IVec S1 32) (emb : FVec Ideal S50257x1024 .f32) (h0 : 0 ≤ (tok (ix1 (0 : Fin 1))).toInt)
    (p : Fin 1) (q : Fin 1024) :
    rEmb tok emb (ix2 p q)
      = emb (ix2 (⟨min (tok (ix1 (0 : Fin 1))).toInt.toNat 50256, by omega⟩ : Fin 50257) q) := by
  unfold rEmb
  rw [rGather_apply]
  simp only [rIdx_apply tok h0]

end Reference

/-! ## The two rows are equal in range -/

/-- With the token in [0, 50257) neither program wraps the index, the kernel's range test is true, and both gathers read
    row token of the table: the kernel's embedded token is the reference's. -/
theorem kEmb_eq_rEmb (tok : IVec (⟨1, ![1]⟩ : Shape) 32) (emb : FVec Ideal (⟨2, ![50257, 1024]⟩ : Shape) .f32)
    (h : TokInRange tok) : kEmb tok emb = rEmb tok emb := by
  funext j
  obtain ⟨p, q, rfl⟩ : ∃ (p : Fin 1) (q : Fin 1024), j = ix2 p q := ⟨j 0, j 1, eq_ix2 j⟩
  rw [kEmb_apply, kRow_apply tok emb h, rEmb_apply tok emb h.1]

/-! ## The precondition's last conjunct is the token's range -/

section Pre
open Cert.Pre_finite_inputs

instance : Subsingleton Cert.Pre_finite_inputs.S_.Idx := ⟨fun a b => funext fun d => d.elim0⟩

/-- The printed precondition is a chain of "and"s whose last link is the conjunction, over the token array's one
    element, of (token ≥ 0) and (token < 50257), both signed: when the whole chain is 1 that link is 1, so every element
    of the reduced array is 1, and the two comparisons of the token's word hold. -/
theorem range_of_fn [Facts] (a0 : IVec S1 32) (a1 a2 : FVec Ideal S1x1x1024 .f32) (a3 : FVec Ideal S4096x1024 .f32)
    (a4 : FVec Ideal S50257x1024 .f32) (a5 : FVec Ideal S4096x2048 .f32) (a6 : FVec Ideal S4096 .f32)
    (a7 : FVec Ideal S1024x2048 .f32) (a8 : FVec Ideal S1024 .f32) (a9 : FVec Ideal S4096x1024 .f32)
    (a10 : FVec Ideal S4096 .f32) (a11 : FVec Ideal S4096x1024 .f32) (a12 : FVec Ideal S4096 .f32)
    (a13 : FVec Ideal S50257x1024 .f32) (a14 : FVec Ideal S50257 .f32)
    (e : fn (F := Ideal) a0 a1 a2 a3 a4 a5 a6 a7 a8 a9 a10 a11 a12 a13 a14 = fun _ => 1#1) : TokInRange a0 := by
  obtain ⟨X, Y, hfn⟩ : ∃ X Y : IVec S_ 1,
      fn (F := Ideal) a0 a1 a2 a3 a4 a5 a6 a7 a8 a9 a10 a11 a12 a13 a14 = fn_part4 (F := Ideal) a0 X Y := ⟨_, _, rfl⟩
  have e0 := congrFun e ix0
  rw [hfn] at e0
  dsimp only [fn_part4] at e0
  obtain ⟨-, e1⟩ := IntOp.andi_eq_one.1 e0
  have e2 := Host.reduce_andi_all _ _ _ _ _ e1 (ix1 (0 : Fin 1))
  obtain ⟨hge, hlt⟩ := IntOp.andi_eq_one.1 e2
  have hge' : BitVec.ofBool (decide ((0#32 : BitVec 32).toInt ≤ (a0 (ix1 (0 : Fin 1))).toInt)) = 1#1 := hge
  have hlt' : BitVec.ofBool (decide ((a0 (ix1 (0 : Fin 1))).toInt < (50257#32 : BitVec 32).toInt)) = 1#1 := hlt
  rw [Predicate.ofBool_eq_one_iff, decide_eq_true_eq, toInt_zero32] at hge'
  rw [Predicate.ofBool_eq_one_iff, decide_eq_true_eq, toInt_50257] at hlt'
  exact ⟨hge', hlt'⟩

end Pre

/-- On every device the token the launch memory holds is in range. -/
theorem tok_range [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    TokInRange (m ((c.tc : Thread Cert.KernelIdeal.nD Cert.KernelIdeal.τ).loc Cert.KernelIdeal.main_arg0)) :=
  range_of_fn _ _ _ _ _ _ _ _ _ _ _ _ _ _ _ (hpre c)

end Cert.Bridge
-- ==== Proof.Bridge.Final.lean ====
/-
  The value claim assembled. The ideal program's four results at the last boundary of its run are the host arithmetic
  applied to the closed forms of the five regions, stage after stage from the embedded token's row; row 0 of every
  stage is the reference's stage (the stage lemmas), so under the precondition — which puts the token in range, where
  the kernel's masked lookup and the reference's clamped lookup read the same row — the results are the reference's.
-/
import proofs.«425349_j42889543417942_3_alg».proof.Proof.ValueKernelIdeal.Chain
import proofs.«425349_j42889543417942_3_alg».proof.Proof.Bridge.Compose
import proofs.«425349_j42889543417942_3_alg».proof.Proof.Bridge.Embed

set_option maxRecDepth 16384
set_option maxHeartbeats 4000000

noncomputable section

namespace Cert.KernelIdeal.Hand

open Cert.KernelIdeal Cert.KernelIdeal.Gen Cert.KernelIdeal.Stages
open Idealize.ShloMosaic Idealize.ShloMosaic.TcCoe Idealize.ShloMosaic.Tactic
open Idealize.SL Idealize.SL.Sem Idealize.ShloMosaic.StableHlo

variable (m : (ℓ : Loc nD τ sig) → Buf (Elt Ideal) ℓ) (ρ : Dev nD → PrngReg)

/-- The embedded token's row at the first boundary, as the kernel's lookup of the launch arrays. -/
theorem W1_v4 (c : Dev nD) : @Eq (FVec Ideal S1x1024 .f32) (W1 m ρ c (Proc.devRef .tc main_call0_v4))
    (Cert.Bridge.kEmb (m ((c : Thread nD τ).loc main_arg0)) (m ((c : Thread nD τ).loc main_arg4))) :=
  Cert.Bridge.kEmb_after (W0 m ρ c)

/-- The four results at the last boundary, as the stage arrays of the launch arrays. -/
theorem res_logp (c : Dev nD) : @Eq (FVec Ideal S1x50257 .f32) (W11 m ρ c (Proc.devRef .tc main_v0_0))
    (logSoftmax (F := Ideal) (row50257 (F := Ideal) (Cert.Bridge.kLo (Cert.Bridge.kEmb (m ((c : Thread nD τ).loc main_arg0)) (m ((c : Thread nD τ).loc main_arg4))) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))))) := by
  rw [W11_v0_0, W10_v61, W9_v59, W8_v30, W8_v1, W1_v1, W6_v26, W4_v22, W2_v8, W1_v4]
  rfl
theorem res_h (c : Dev nD) : @Eq (FVec Ideal S1x1x1024 .f32) (W11 m ρ c (Proc.devRef .tc main_v0_1))
    (lift3 (F := Ideal) (row1024 (F := Ideal) (Cert.Bridge.kH1 (Cert.Bridge.kEmb (m ((c : Thread nD τ).loc main_arg0)) (m ((c : Thread nD τ).loc main_arg4))) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))))) := by
  rw [W11_v0_1, W10_v59, W9_v59, W8_v30, W8_v1, W1_v1, W6_v26, W4_v22, W2_v8, W1_v4]
  rfl
theorem res_c (c : Dev nD) : @Eq (FVec Ideal S1x1x1024 .f32) (W11 m ρ c (Proc.devRef .tc main_v0_2))
    (lift3 (F := Ideal) (row1024 (F := Ideal) (Cert.Bridge.kC1 (Cert.Bridge.kEmb (m ((c : Thread nD τ).loc main_arg0)) (m ((c : Thread nD τ).loc main_arg4))) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))))) := by
  rw [W11_v0_2, W10_v51, W9_v51, W8_v30, W8_v1, W1_v1, W6_v26, W4_v22, W2_v8, W1_v4]
  rfl
theorem res_aw (c : Dev nD) : @Eq (FVec Ideal S1x4096 .f32) (W11 m ρ c (Proc.devRef .tc main_v0_3))
    (Cert.Bridge.kAW (Cert.Bridge.kEmb (m ((c : Thread nD τ).loc main_arg0)) (m ((c : Thread nD τ).loc main_arg4))) (m ((c : Thread nD τ).loc main_arg1)) (m ((c : Thread nD τ).loc main_arg5)) (m ((c : Thread nD τ).loc main_arg6))) := by
  rw [W11_v0_3, W3_v0_3, W2_v8, W1_v4]
  rfl

end Cert.KernelIdeal.Hand

namespace Cert.Proof

open Idealize.ShloMosaic Idealize.ShloMosaic.TcCoe Idealize.SL.Sem
open Cert.KernelIdeal.Hand

/-- The ideal program runs, and ends with its results at the last boundary's contents and its arguments unchanged. -/
theorem kernelIdeal_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0_0) = W11 m ρ c (Proc.devRef .tc Cert.KernelIdeal.main_v0_0)
        ∧ r.2.mem ((c.tc : Thread Cert.KernelIdeal.nD Cert.KernelIdeal.τ).loc Cert.KernelIdeal.main_v0_1) = W11 m ρ c (Proc.devRef .tc Cert.KernelIdeal.main_v0_1)
        ∧ r.2.mem ((c.tc : Thread Cert.KernelIdeal.nD Cert.KernelIdeal.τ).loc Cert.KernelIdeal.main_v0_2) = W11 m ρ c (Proc.devRef .tc Cert.KernelIdeal.main_v0_2)
        ∧ r.2.mem ((c.tc : Thread Cert.KernelIdeal.nD Cert.KernelIdeal.τ).loc Cert.KernelIdeal.main_v0_3) = W11 m ρ c (Proc.devRef .tc Cert.KernelIdeal.main_v0_3)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run (Cert.KernelIdeal.defs (F := Ideal)) _ _).mono (fun r h c =>
    ⟨h c _ (mem_uc Cert.KernelIdeal.main_v0_0 (by decide)), h c _ (mem_uc Cert.KernelIdeal.main_v0_1 (by decide)),
     h c _ (mem_uc Cert.KernelIdeal.main_v0_2 (by decide)), h c _ (mem_uc Cert.KernelIdeal.main_v0_3 (by decide)),
     (h c _ (mem_uc Cert.KernelIdeal.main_arg0 (by decide))).trans (W11_of m ρ c Cert.KernelIdeal.main_arg0 (by decide)),
     (h c _ (mem_uc Cert.KernelIdeal.main_arg1 (by decide))).trans (W11_of m ρ c Cert.KernelIdeal.main_arg1 (by decide)),
     (h c _ (mem_uc Cert.KernelIdeal.main_arg2 (by decide))).trans (W11_of m ρ c Cert.KernelIdeal.main_arg2 (by decide)),
     (h c _ (mem_uc Cert.KernelIdeal.main_arg3 (by decide))).trans (W11_of m ρ c Cert.KernelIdeal.main_arg3 (by decide)),
     (h c _ (mem_uc Cert.KernelIdeal.main_arg4 (by decide))).trans (W11_of m ρ c Cert.KernelIdeal.main_arg4 (by decide)),
     (h c _ (mem_uc Cert.KernelIdeal.main_arg5 (by decide))).trans (W11_of m ρ c Cert.KernelIdeal.main_arg5 (by decide)),
     (h c _ (mem_uc Cert.KernelIdeal.main_arg6 (by decide))).trans (W11_of m ρ c Cert.KernelIdeal.main_arg6 (by decide)),
     (h c _ (mem_uc Cert.KernelIdeal.main_arg7 (by decide))).trans (W11_of m ρ c Cert.KernelIdeal.main_arg7 (by decide)),
     (h c _ (mem_uc Cert.KernelIdeal.main_arg8 (by decide))).trans (W11_of m ρ c Cert.KernelIdeal.main_arg8 (by decide)),
     (h c _ (mem_uc Cert.KernelIdeal.main_arg9 (by decide))).trans (W11_of m ρ c Cert.KernelIdeal.main_arg9 (by decide)),
     (h c _ (mem_uc Cert.KernelIdeal.main_arg10 (by decide))).trans (W11_of m ρ c Cert.KernelIdeal.main_arg10 (by decide)),
     (h c _ (mem_uc Cert.KernelIdeal.main_arg11 (by decide))).trans (W11_of m ρ c Cert.KernelIdeal.main_arg11 (by decide)),
     (h c _ (mem_uc Cert.KernelIdeal.main_arg12 (by decide))).trans (W11_of m ρ c Cert.KernelIdeal.main_arg12 (by decide)),
     (h c _ (mem_uc Cert.KernelIdeal.main_arg13 (by decide))).trans (W11_of m ρ c Cert.KernelIdeal.main_arg13 (by decide)),
     (h c _ (mem_uc Cert.KernelIdeal.main_arg14 (by decide))).trans (W11_of m ρ c Cert.KernelIdeal.main_arg14 (by decide))⟩)
    (run_all m ρ Cert.KernelIdeal.Hand.k4Local_ideal)

end Cert.Proof

end
-- ==== Proof.RefCuts.lean ====
/-
  The reference program's 103 operations cut into eight stretches, and what is known of the buffer contents at each
  cut. The final contents are the fold of the operations' results over the launch contents; the fold over a list cut
  in two is the fold over the second part of the fold over the first. At each cut only a few buffers matter: those a
  later operation still reads, and the results. Of each it is recorded that it holds its value as a function of the
  arguments; of every buffer no operation writes, that it is as launched.
-/
import proofs.«425349_j42889543417942_3_alg».proof.Proof.RefRun
import proofs.«425349_j42889543417942_3_alg».proof.Proof.RefRead
import Idealize.ShloMosaic.Lib.StableHlo.Run

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-! ## The fold over a list cut in two -/

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Contents moved to a typed reference's buffer type and back are the contents. -/
theorem ofBuf_toBuf' {T : BufTy} (x : StableHlo.TRef sig T) (v : T.Contents (Elt F)) : x.ofBuf (x.toBuf v) = v := by
  unfold StableHlo.TRef.ofBuf StableHlo.TRef.toBuf; rw [cast_cast, cast_eq]

/-! ## The buffers the operations write -/

/-- Every buffer the 103 operations write: each operation's result buffer, in program order. -/
abbrev written : List (Ref sig .tc) :=
  [main_v0, main_v1, main_c, main_v2, main_v3, main_c_0, main_v4, main_v5, main_v6, main_v7, main_v8, main_v9, main_v10, main_v11, main_v12, main_v13, main_cst, main_v14, main_cst_1, main_v15, main_v16, main_v17, main_v18, main_v19, main_v20, main_cst_2, main_v21, main_v22, main_v23, main_v24, main_v25, main_v26, main_v27, main_v28, main_v29, main_v30, main_call0_cst, main_call0_v0, main_v31, main_v32, main_v33, main_v34, main_v35, main_v36, main_v37, main_v38, main_v39, main_v40, main_v41, main_v42, main_v43, main_v44, main_v45, main_v46, main_cst_3, main_v47, main_v48, main_cst_4, main_v49, main_v50, main_v51, main_v52, main_v53, main_cst_5, main_v54, main_v55, main_cst_6, main_v56, main_v57, main_v58, main_v59, main_v60, main_v61, main_v62, main_cst_7, main_v63, main_v64, main_cst_8, main_v65, main_v66, main_v67, main_v68, main_v69, main_v70, main_v71, main_v72, main_call1_cst, main_call1_v0, main_call1_cst_0, main_call1_v1, main_call1_v2, main_call1_v3, main_call1_v4, main_call1_v5, main_call1_v6, main_call1_cst_1, main_call1_v7, main_call1_v8, main_call1_v9, main_call1_v10, main_v73, main_v74, main_v75]

theorem ops_writes : (ops (F := F)).Forall fun op => op.writes ⊆ (written.map (Proc.devRef (τ := τ) .tc)).toFinset := by
  simp only [ops, List.Forall, nullary_writes, unary_writes, binary_writes, ternary_writes, reshape_writes,
    Finset.singleton_subset_iff, List.mem_toFinset]
  repeat' apply And.intro
  all_goals exact List.mem_map_of_mem (by decide)

/-- A part of the operation list writes no buffer outside that list: such a buffer keeps its contents. -/
theorem keep_of_sub (l : List (HloOp τ sig (Elt F))) (hl : ∀ op ∈ l, op ∈ ops (F := F)) (W : Valuation τ sig (Elt F))
    (r : Ref sig .tc) (h : r ∉ written) : after l W (Proc.devRef .tc r) = W (Proc.devRef .tc r) :=
  after_of_writes_sub l W (List.forall_iff_forall_mem.mpr fun op hop => List.forall_iff_forall_mem.mp ops_writes op (hl op hop)) h

/-! ## The operation list in eight stretches -/

/-- Operations 0 … 15: %v0 … %v13. -/
abbrev seg0 : List (HloOp τ sig (Elt F)) := ops.take 16
/-- Operations 16 … 29: %cst … %v24. -/
abbrev seg1 : List (HloOp τ sig (Elt F)) := (ops.drop 16).take 14
/-- Operations 30 … 38: %v25 … %v31. -/
abbrev seg2 : List (HloOp τ sig (Elt F)) := (ops.drop 30).take 9
/-- Operations 39 … 47: %v32 … %v40. -/
abbrev seg3 : List (HloOp τ sig (Elt F)) := (ops.drop 39).take 9
/-- Operations 48 … 71: %v41 … %v60. -/
abbrev seg4 : List (HloOp τ sig (Elt F)) := (ops.drop 48).take 24
/-- Operations 72 … 81: %v61 … %v68. -/
abbrev seg5 : List (HloOp τ sig (Elt F)) := (ops.drop 72).take 10
/-- Operations 82 … 85: %v69 … %v72. -/
abbrev seg6 : List (HloOp τ sig (Elt F)) := (ops.drop 82).take 4
/-- Operations 86 … 102: %call1_cst … %v75. -/
abbrev seg7 : List (HloOp τ sig (Elt F)) := ops.drop 86

theorem ops_eq : ops (F := F) = seg0 ++ (seg1 ++ (seg2 ++ (seg3 ++ (seg4 ++ (seg5 ++ (seg6 ++ seg7)))))) := rfl

theorem after_ops (V : Valuation τ sig (Elt F)) :
    after (ops (F := F)) V = after seg7 (after seg6 (after seg5 (after seg4 (after seg3 (after seg2 (after seg1 (after seg0 V))))))) := by
  rw [ops_eq, after_app, after_app, after_app, after_app, after_app, after_app, after_app]

theorem seg0_sub : ∀ op ∈ seg0 (F := F), op ∈ ops (F := F) := fun op h => List.mem_of_mem_take h
theorem seg1_sub : ∀ op ∈ seg1 (F := F), op ∈ ops (F := F) := fun op h => List.mem_of_mem_drop (List.mem_of_mem_take h)
theorem seg2_sub : ∀ op ∈ seg2 (F := F), op ∈ ops (F := F) := fun op h => List.mem_of_mem_drop (List.mem_of_mem_take h)
theorem seg3_sub : ∀ op ∈ seg3 (F := F), op ∈ ops (F := F) := fun op h => List.mem_of_mem_drop (List.mem_of_mem_take h)
theorem seg4_sub : ∀ op ∈ seg4 (F := F), op ∈ ops (F := F) := fun op h => List.mem_of_mem_drop (List.mem_of_mem_take h)
theorem seg5_sub : ∀ op ∈ seg5 (F := F), op ∈ ops (F := F) := fun op h => List.mem_of_mem_drop (List.mem_of_mem_take h)
theorem seg6_sub : ∀ op ∈ seg6 (F := F), op ∈ ops (F := F) := fun op h => List.mem_of_mem_drop (List.mem_of_mem_take h)
theorem seg7_sub : ∀ op ∈ seg7 (F := F), op ∈ ops (F := F) := fun op h => List.mem_of_mem_drop h

/-! ## What is known of the contents at each cut -/

/-- The contents `W` after the first 16 operations, from launch contents `V`: each buffer a later operation reads
    (or that is a result) at its value as a function of the arguments, and every unwritten buffer as launched. -/
structure Cut1 (V W : Valuation τ sig (Elt F)) : Prop where
  v13 : W (Proc.devRef .tc main_v13) = ReadP.val_main_v13 (F := F) (V (Proc.devRef .tc main_arg0)) (V (Proc.devRef .tc main_arg1)) (V (Proc.devRef .tc main_arg4)) (V (Proc.devRef .tc main_arg5)) (V (Proc.devRef .tc main_arg6))
  v8 : W (Proc.devRef .tc main_v8) = ReadP.val_main_v8 (F := F) (V (Proc.devRef .tc main_arg0)) (V (Proc.devRef .tc main_arg4))
  v0 : W (Proc.devRef .tc main_v0) = ReadP.val_main_v0 (F := F) (V (Proc.devRef .tc main_arg1))
  v1 : W (Proc.devRef .tc main_v1) = ReadP.val_main_v1 (F := F) (V (Proc.devRef .tc main_arg2))
  keep : ∀ r : Ref sig .tc, r ∉ written → W (Proc.devRef .tc r) = V (Proc.devRef .tc r)

/-- The contents `W` after the first 30 operations, from launch contents `V`: each buffer a later operation reads
    (or that is a result) at its value as a function of the arguments, and every unwritten buffer as launched. -/
structure Cut2 (V W : Valuation τ sig (Elt F)) : Prop where
  v24 : W (Proc.devRef .tc main_v24) = ReadP.val_main_v24 (F := F) (V (Proc.devRef .tc main_arg0)) (V (Proc.devRef .tc main_arg1)) (V (Proc.devRef .tc main_arg4)) (V (Proc.devRef .tc main_arg5)) (V (Proc.devRef .tc main_arg6))
  v8 : W (Proc.devRef .tc main_v8) = ReadP.val_main_v8 (F := F) (V (Proc.devRef .tc main_arg0)) (V (Proc.devRef .tc main_arg4))
  v0 : W (Proc.devRef .tc main_v0) = ReadP.val_main_v0 (F := F) (V (Proc.devRef .tc main_arg1))
  v1 : W (Proc.devRef .tc main_v1) = ReadP.val_main_v1 (F := F) (V (Proc.devRef .tc main_arg2))
  keep : ∀ r : Ref sig .tc, r ∉ written → W (Proc.devRef .tc r) = V (Proc.devRef .tc r)

/-- The contents `W` after the first 39 operations, from launch contents `V`: each buffer a later operation reads
    (or that is a result) at its value as a function of the arguments, and every unwritten buffer as launched. -/
structure Cut3 (V W : Valuation τ sig (Elt F)) : Prop where
  v31 : W (Proc.devRef .tc main_v31) = ReadP.val_main_v31 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8))
  v0 : W (Proc.devRef .tc main_v0) = ReadP.val_main_v0 (F := F) (V (Proc.devRef .tc main_arg1))
  v1 : W (Proc.devRef .tc main_v1) = ReadP.val_main_v1 (F := F) (V (Proc.devRef .tc main_arg2))
  v24 : W (Proc.devRef .tc main_v24) = ReadP.val_main_v24 (F := F) (V (Proc.devRef .tc main_arg0)) (V (Proc.devRef .tc main_arg1)) (V (Proc.devRef .tc main_arg4)) (V (Proc.devRef .tc main_arg5)) (V (Proc.devRef .tc main_arg6))
  keep : ∀ r : Ref sig .tc, r ∉ written → W (Proc.devRef .tc r) = V (Proc.devRef .tc r)

/-- The contents `W` after the first 48 operations, from launch contents `V`: each buffer a later operation reads
    (or that is a result) at its value as a function of the arguments, and every unwritten buffer as launched. -/
structure Cut4 (V W : Valuation τ sig (Elt F)) : Prop where
  v40 : W (Proc.devRef .tc main_v40) = ReadP.val_main_v40 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v1 : W (Proc.devRef .tc main_v1) = ReadP.val_main_v1 (F := F) (V (Proc.devRef .tc main_arg2))
  v24 : W (Proc.devRef .tc main_v24) = ReadP.val_main_v24 (F := F) (V (Proc.devRef .tc main_arg0)) (V (Proc.devRef .tc main_arg1)) (V (Proc.devRef .tc main_arg4)) (V (Proc.devRef .tc main_arg5)) (V (Proc.devRef .tc main_arg6))
  keep : ∀ r : Ref sig .tc, r ∉ written → W (Proc.devRef .tc r) = V (Proc.devRef .tc r)

/-- The contents `W` after the first 72 operations, from launch contents `V`: each buffer a later operation reads
    (or that is a result) at its value as a function of the arguments, and every unwritten buffer as launched. -/
structure Cut5 (V W : Valuation τ sig (Elt F)) : Prop where
  v44 : W (Proc.devRef .tc main_v44) = ReadP.val_main_v44 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v60 : W (Proc.devRef .tc main_v60) = ReadP.val_main_v60 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v24 : W (Proc.devRef .tc main_v24) = ReadP.val_main_v24 (F := F) (V (Proc.devRef .tc main_arg0)) (V (Proc.devRef .tc main_arg1)) (V (Proc.devRef .tc main_arg4)) (V (Proc.devRef .tc main_arg5)) (V (Proc.devRef .tc main_arg6))
  keep : ∀ r : Ref sig .tc, r ∉ written → W (Proc.devRef .tc r) = V (Proc.devRef .tc r)

/-- The contents `W` after the first 82 operations, from launch contents `V`: each buffer a later operation reads
    (or that is a result) at its value as a function of the arguments, and every unwritten buffer as launched. -/
structure Cut6 (V W : Valuation τ sig (Elt F)) : Prop where
  v68 : W (Proc.devRef .tc main_v68) = ReadP.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v60 : W (Proc.devRef .tc main_v60) = ReadP.val_main_v60 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v24 : W (Proc.devRef .tc main_v24) = ReadP.val_main_v24 (F := F) (V (Proc.devRef .tc main_arg0)) (V (Proc.devRef .tc main_arg1)) (V (Proc.devRef .tc main_arg4)) (V (Proc.devRef .tc main_arg5)) (V (Proc.devRef .tc main_arg6))
  keep : ∀ r : Ref sig .tc, r ∉ written → W (Proc.devRef .tc r) = V (Proc.devRef .tc r)

/-- The contents `W` after the first 86 operations, from launch contents `V`: each buffer a later operation reads
    (or that is a result) at its value as a function of the arguments, and every unwritten buffer as launched. -/
structure Cut7 (V W : Valuation τ sig (Elt F)) : Prop where
  v72 : W (Proc.devRef .tc main_v72) = ReadP.val_main_v72 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))
  v68 : W (Proc.devRef .tc main_v68) = ReadP.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v60 : W (Proc.devRef .tc main_v60) = ReadP.val_main_v60 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v24 : W (Proc.devRef .tc main_v24) = ReadP.val_main_v24 (F := F) (V (Proc.devRef .tc main_arg0)) (V (Proc.devRef .tc main_arg1)) (V (Proc.devRef .tc main_arg4)) (V (Proc.devRef .tc main_arg5)) (V (Proc.devRef .tc main_arg6))
  keep : ∀ r : Ref sig .tc, r ∉ written → W (Proc.devRef .tc r) = V (Proc.devRef .tc r)

/-- The contents `W` after the first 103 operations, from launch contents `V`: each buffer a later operation reads
    (or that is a result) at its value as a function of the arguments, and every unwritten buffer as launched. -/
structure Cut8 (V W : Valuation τ sig (Elt F)) : Prop where
  v73 : W (Proc.devRef .tc main_v73) = ReadP.val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))
  v74 : W (Proc.devRef .tc main_v74) = ReadP.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v75 : W (Proc.devRef .tc main_v75) = ReadP.val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v24 : W (Proc.devRef .tc main_v24) = ReadP.val_main_v24 (F := F) (V (Proc.devRef .tc main_arg0)) (V (Proc.devRef .tc main_arg1)) (V (Proc.devRef .tc main_arg4)) (V (Proc.devRef .tc main_arg5)) (V (Proc.devRef .tc main_arg6))
  keep : ∀ r : Ref sig .tc, r ∉ written → W (Proc.devRef .tc r) = V (Proc.devRef .tc r)

end Cert.ReferenceIdeal.ValueV

end
-- ==== Proof.RefSeg1.lean ====
/-
  Operations 0 … 15 of the reference program: the two state reshapes, the token index wrapped into range, the embedded row, its join with the hidden state and the attention logits.
  From what is known of the contents before this stretch, what is known after it: the buffers still needed
  (%v13, %v8, %v0, %v1) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 0 … 15. -/
theorem cut1 (V : Valuation τ sig (Elt F)) : Cut1 V (after seg0 V) where
  v13 := by
    simp only [seg0, ops, List.drop_succ_cons, List.drop_zero, List.take_succ_cons, List.take_zero]
    after_results_simp
    try simp only [ofBuf_toBuf']
    rfl
  v8 := by
    simp only [seg0, ops, List.drop_succ_cons, List.drop_zero, List.take_succ_cons, List.take_zero]
    after_results_simp
    try simp only [ofBuf_toBuf']
    rfl
  v0 := by
    simp only [seg0, ops, List.drop_succ_cons, List.drop_zero, List.take_succ_cons, List.take_zero]
    after_results_simp
    try simp only [ofBuf_toBuf']
    rfl
  v1 := by
    simp only [seg0, ops, List.drop_succ_cons, List.drop_zero, List.take_succ_cons, List.take_zero]
    after_results_simp
    try simp only [ofBuf_toBuf']
    rfl
  keep := fun r hr => keep_of_sub seg0 seg0_sub V r hr

end Cert.ReferenceIdeal.ValueV

end
-- ==== Proof.RefSeg2.lean ====
/-
  Operations 16 … 29 of the reference program: the softmax over the 4096 encoder steps: the row maximum, the shifted exponentials, their sum and the quotient.
  From what is known of the contents before this stretch, what is known after it: the buffers still needed
  (%v24, %v8, %v0, %v1) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 16 … 29. -/
theorem cut2 (V W : Valuation τ sig (Elt F)) (h : Cut1 V W) : Cut2 V (after seg1 W) where
  v24 := by
    simp only [seg1, ops, List.drop_succ_cons, List.drop_zero, List.take_succ_cons, List.take_zero]
    after_results_simp
    try simp only [ofBuf_toBuf']
    simp only [h.v13, h.v8, h.v0, h.v1]
    rfl
  v8 := by
    simp only [seg1, ops, List.drop_succ_cons, List.drop_zero, List.take_succ_cons, List.take_zero]
    after_results_simp
    exact h.v8
  v0 := by
    simp only [seg1, ops, List.drop_succ_cons, List.drop_zero, List.take_succ_cons, List.take_zero]
    after_results_simp
    exact h.v0
  v1 := by
    simp only [seg1, ops, List.drop_succ_cons, List.drop_zero, List.take_succ_cons, List.take_zero]
    after_results_simp
    exact h.v1
  keep := fun r hr => (keep_of_sub seg1 seg1_sub W r hr).trans (h.keep r hr)

end Cert.ReferenceIdeal.ValueV

end
-- ==== Proof.RefSeg3.lean ====
/-
  Operations 30 … 38 of the reference program: the attention read-out, its join with the embedded row, the combining layer and the maximum with zero.
  From what is known of the contents before this stretch, what is known after it: the buffers still needed
  (%v31, %v0, %v1, %v24) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 30 … 38. -/
theorem cut3 (V W : Valuation τ sig (Elt F)) (h : Cut2 V W) : Cut3 V (after seg2 W) where
  v31 := by
    simp only [seg2, ops, List.drop_succ_cons, List.drop_zero, List.take_succ_cons, List.take_zero]
    after_results
    try simp only [ofBuf_toBuf']
    try rw [h.v24]
    try rw [h.v8]
    try rw [h.v0]
    try rw [h.v1]
    try rw [h.keep main_arg3 (by decide)]
    try rw [h.keep main_arg7 (by decide)]
    try rw [h.keep main_arg8 (by decide)]
    rfl
  v0 := by
    simp only [seg2, ops, List.drop_succ_cons, List.drop_zero, List.take_succ_cons, List.take_zero]
    after_results_simp
    exact h.v0
  v1 := by
    simp only [seg2, ops, List.drop_succ_cons, List.drop_zero, List.take_succ_cons, List.take_zero]
    after_results_simp
    exact h.v1
  v24 := by
    simp only [seg2, ops, List.drop_succ_cons, List.drop_zero, List.take_succ_cons, List.take_zero]
    after_results_simp
    exact h.v24
  keep := fun r hr => (keep_of_sub seg2 seg2_sub W r hr).trans (h.keep r hr)

end Cert.ReferenceIdeal.ValueV

end
-- ==== Proof.RefSeg4.lean ====
/-
  Operations 39 … 47 of the reference program: the four gates' pre-activations: two products and two bias rows.
  From what is known of the contents before this stretch, what is known after it: the buffers still needed
  (%v40, %v1, %v24) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 39 … 47. -/
theorem cut4 (V W : Valuation τ sig (Elt F)) (h : Cut3 V W) : Cut4 V (after seg3 W) where
  v40 := by
    simp only [seg3, ops, List.drop_succ_cons, List.drop_zero, List.take_succ_cons, List.take_zero]
    after_results_simp
    try simp only [ofBuf_toBuf']
    simp only [h.v31, h.v0, h.v1, h.v24, h.keep main_arg9 (by decide), h.keep main_arg10 (by decide), h.keep main_arg11 (by decide), h.keep main_arg12 (by decide)]
    rfl
  v1 := by
    simp only [seg3, ops, List.drop_succ_cons, List.drop_zero, List.take_succ_cons, List.take_zero]
    after_results_simp
    exact h.v1
  v24 := by
    simp only [seg3, ops, List.drop_succ_cons, List.drop_zero, List.take_succ_cons, List.take_zero]
    after_results_simp
    exact h.v24
  keep := fun r hr => (keep_of_sub seg3 seg3_sub W r hr).trans (h.keep r hr)

end Cert.ReferenceIdeal.ValueV

end
-- ==== Proof.RefSeg5.lean ====
/-
  Operations 48 … 71 of the reference program: the four gate slices, the three logistic gates, the candidate's hyperbolic tangent and the new cell state.
  From what is known of the contents before this stretch, what is known after it: the buffers still needed
  (%v44, %v60, %v24) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 48 … 71. -/
theorem cut5 (V W : Valuation τ sig (Elt F)) (h : Cut4 V W) : Cut5 V (after seg4 W) where
  v44 := by
    simp only [seg4, ops, List.drop_succ_cons, List.drop_zero, List.take_succ_cons, List.take_zero]
    after_results_simp
    try simp only [ofBuf_toBuf']
    simp only [h.v40, h.v1, h.v24]
    rfl
  v60 := by
    simp only [seg4, ops, List.drop_succ_cons, List.drop_zero, List.take_succ_cons, List.take_zero]
    after_results_simp
    try simp only [ofBuf_toBuf']
    simp only [h.v40, h.v1, h.v24]
    rfl
  v24 := by
    simp only [seg4, ops, List.drop_succ_cons, List.drop_zero, List.take_succ_cons, List.take_zero]
    after_results_simp
    exact h.v24
  keep := fun r hr => (keep_of_sub seg4 seg4_sub W r hr).trans (h.keep r hr)

end Cert.ReferenceIdeal.ValueV

end
-- ==== Proof.RefSeg6.lean ====
/-
  Operations 72 … 81 of the reference program: the output gate and the new hidden state.
  From what is known of the contents before this stretch, what is known after it: the buffers still needed
  (%v68, %v60, %v24) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 72 … 81. -/
theorem cut6 (V W : Valuation τ sig (Elt F)) (h : Cut5 V W) : Cut6 V (after seg5 W) where
  v68 := by
    simp only [seg5, ops, List.drop_succ_cons, List.drop_zero, List.take_succ_cons, List.take_zero]
    after_results_simp
    try simp only [ofBuf_toBuf']
    simp only [h.v44, h.v60, h.v24]
    rfl
  v60 := by
    simp only [seg5, ops, List.drop_succ_cons, List.drop_zero, List.take_succ_cons, List.take_zero]
    after_results_simp
    exact h.v60
  v24 := by
    simp only [seg5, ops, List.drop_succ_cons, List.drop_zero, List.take_succ_cons, List.take_zero]
    after_results_simp
    exact h.v24
  keep := fun r hr => (keep_of_sub seg5 seg5_sub W r hr).trans (h.keep r hr)

end Cert.ReferenceIdeal.ValueV

end
-- ==== Proof.RefSeg7.lean ====
/-
  Operations 82 … 85 of the reference program: the vocabulary logits.
  From what is known of the contents before this stretch, what is known after it: the buffers still needed
  (%v72, %v68, %v60, %v24) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 82 … 85. -/
theorem cut7 (V W : Valuation τ sig (Elt F)) (h : Cut6 V W) : Cut7 V (after seg6 W) where
  v72 := by
    simp only [seg6, ops, List.drop_succ_cons, List.drop_zero, List.take_succ_cons, List.take_zero]
    after_results_simp
    try simp only [ofBuf_toBuf']
    simp only [h.v68, h.v60, h.v24, h.keep main_arg13 (by decide), h.keep main_arg14 (by decide)]
    rfl
  v68 := by
    simp only [seg6, ops, List.drop_succ_cons, List.drop_zero, List.take_succ_cons, List.take_zero]
    after_results_simp
    exact h.v68
  v60 := by
    simp only [seg6, ops, List.drop_succ_cons, List.drop_zero, List.take_succ_cons, List.take_zero]
    after_results_simp
    exact h.v60
  v24 := by
    simp only [seg6, ops, List.drop_succ_cons, List.drop_zero, List.take_succ_cons, List.take_zero]
    after_results_simp
    exact h.v24
  keep := fun r hr => (keep_of_sub seg6 seg6_sub W r hr).trans (h.keep r hr)

end Cert.ReferenceIdeal.ValueV

end
-- ==== Proof.RefSeg8.lean ====
/-
  Operations 86 … 102 of the reference program: the log-softmax over the vocabulary and the two new states as (1, 1, 1024) arrays.
  From what is known of the contents before this stretch, what is known after it: the buffers still needed
  (%v73, %v74, %v75, %v24) hold their values as functions of the arguments — each read off the fold over this stretch,
  the facts before it substituted, the value's definition unfolding to the same operations —, and unwritten buffers
  are as launched.
-/
import proofs.«425349_j42889543417942_3_alg».proof.Proof.RefCuts

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 4000000 in
/-- The contents after operations 86 … 102. -/
theorem cut8 (V W : Valuation τ sig (Elt F)) (h : Cut7 V W) : Cut8 V (after seg7 W) where
  v73 := by
    simp only [seg7, ops, List.drop_succ_cons, List.drop_zero, List.take_succ_cons, List.take_zero]
    after_results_simp
    try simp only [ofBuf_toBuf']
    simp only [h.v72, h.v68, h.v60, h.v24]
    rfl
  v74 := by
    simp only [seg7, ops, List.drop_succ_cons, List.drop_zero, List.take_succ_cons, List.take_zero]
    after_results_simp
    try simp only [ofBuf_toBuf']
    simp only [h.v72, h.v68, h.v60, h.v24]
    rfl
  v75 := by
    simp only [seg7, ops, List.drop_succ_cons, List.drop_zero, List.take_succ_cons, List.take_zero]
    after_results_simp
    try simp only [ofBuf_toBuf']
    simp only [h.v72, h.v68, h.v60, h.v24]
    rfl
  v24 := by
    simp only [seg7, ops, List.drop_succ_cons, List.drop_zero, List.take_succ_cons, List.take_zero]
    after_results_simp
    exact h.v24
  keep := fun r hr => (keep_of_sub seg7 seg7_sub W r hr).trans (h.keep r hr)

end Cert.ReferenceIdeal.ValueV

end
-- ==== Proof.RefRunV.lean ====
/-
  The reference program's run, stated over the stage values: on every device, every weakly fair execution of the
  103 operations of @main ends with the three results and the attention weights at the values the operations compose
  to, as functions of the fifteen arguments, and with the arguments unchanged. The final contents of a buffer are the
  fold of the operations' results over the launch contents; the fold is taken stretch by stretch, eight stretches,
  each handing the next what it needs of the buffers written so far; a buffer no operation writes keeps its contents.
-/
import proofs.«425349_j42889543417942_3_alg».proof.Proof.RefSeg1
import proofs.«425349_j42889543417942_3_alg».proof.Proof.RefSeg2
import proofs.«425349_j42889543417942_3_alg».proof.Proof.RefSeg3
import proofs.«425349_j42889543417942_3_alg».proof.Proof.RefSeg4
import proofs.«425349_j42889543417942_3_alg».proof.Proof.RefSeg5
import proofs.«425349_j42889543417942_3_alg».proof.Proof.RefSeg6
import proofs.«425349_j42889543417942_3_alg».proof.Proof.RefSeg7
import proofs.«425349_j42889543417942_3_alg».proof.Proof.RefSeg8

noncomputable section

namespace Cert.ReferenceIdeal.ValueV

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- After all 103 operations: the three results and the attention weights at their values as functions of the
    arguments, every unwritten buffer as launched — the eight stretches' facts chained. -/
theorem after_facts (V : Valuation τ sig (Elt F)) : Cut8 V (after (ops (F := F)) V) := by
  rw [after_ops]
  exact cut8 V _ (cut7 V _ (cut6 V _ (cut5 V _ (cut4 V _ (cut3 V _ (cut2 V _ (cut1 V)))))))

/-- On every device, for any float values, from any memory with zero counters: every weakly fair execution of
    @main terminates with each result at its value as a function of the arguments, and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = ReadP.val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v74) = ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v75) = ReadP.val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v24) = ReadP.val_main_v24 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    have hc := after_facts (F := F) (launchContents m c)
    ⟨(h c main_v73).trans hc.v73, (h c main_v74).trans hc.v74, (h c main_v75).trans hc.v75, (h c main_v24).trans hc.v24,
      (h c main_arg0).trans (hc.keep main_arg0 (by decide)),
      (h c main_arg1).trans (hc.keep main_arg1 (by decide)),
      (h c main_arg2).trans (hc.keep main_arg2 (by decide)),
      (h c main_arg3).trans (hc.keep main_arg3 (by decide)),
      (h c main_arg4).trans (hc.keep main_arg4 (by decide)),
      (h c main_arg5).trans (hc.keep main_arg5 (by decide)),
      (h c main_arg6).trans (hc.keep main_arg6 (by decide)),
      (h c main_arg7).trans (hc.keep main_arg7 (by decide)),
      (h c main_arg8).trans (hc.keep main_arg8 (by decide)),
      (h c main_arg9).trans (hc.keep main_arg9 (by decide)),
      (h c main_arg10).trans (hc.keep main_arg10 (by decide)),
      (h c main_arg11).trans (hc.keep main_arg11 (by decide)),
      (h c main_arg12).trans (hc.keep main_arg12 (by decide)),
      (h c main_arg13).trans (hc.keep main_arg13 (by decide)),
      (h c main_arg14).trans (hc.keep main_arg14 (by decide))⟩)
    (run_seq scopedRefs_eq scopedSems_eq defs main (fun _ => ops) main_eq (fun _ => ops_sub) m ρ)

end Cert.ReferenceIdeal.ValueV

end
-- ==== Proof.lean ====
/-
  One decode step of an LSTM decoder with attention: the token's embedding row beside the hidden state gives the
  attention logits (a linear layer over the 4096 encoder steps), their softmax weights the encoder outputs, the
  weighted sum beside the embedding goes through a linear layer and a relu, one LSTM cell update follows, and a linear
  layer over the 50257 words ends in a log-softmax. The kernel computes the five matrix-vector products in five
  pipelined regions on an activation padded from one row to eight, block by block along the output columns (the
  attention read-out accumulates over four blocks of encoder steps; the last of the fifty vocabulary blocks is ragged:
  50257 = 49 · 1024 + 81), and takes row 0 at the end; the reference computes them as whole products on the one row.

  Over the extended reals the two agree: a block of columns of a product is the product with that block of weight
  rows; the accumulated blocks of a contraction add up to the whole contraction (only commutativity and associativity
  of addition); row 0 of every padded stage is the reference's stage, and rows 1 to 7 are never read into row 0; the
  softmax, the cell update and the log-softmax are the same expressions on both sides. The embedding lookup is the one
  place where the token's range matters: in range the kernel's masked lookup and the reference's clamped lookup read
  the same row, which is why the precondition carries 0 ≤ token < 50257. No finiteness of the float inputs is used.

  The frames: the ideal program's run names every buffer at its last boundary; the word-level program's frame forgets
  what the last, ragged block of region 4 leaves, since there a block-level matrix product is not known to be local to
  its rows; the reference's frame is its run with the results dropped. The ideal pass rewrote nothing, so the
  idealization claim is trivial.
-/
import proofs.«425349_j42889543417942_3_alg».proof.Defs
import proofs.«425349_j42889543417942_3_alg».proof.Proof.Gen.Kernel
import proofs.«425349_j42889543417942_3_alg».proof.Proof.Gen.KernelIdeal
import proofs.«425349_j42889543417942_3_alg».proof.Proof.Gen.ReferenceIdeal
import proofs.«425349_j42889543417942_3_alg».proof.Proof.Gen.Pre_finite_inputs
import proofs.«425349_j42889543417942_3_alg».proof.Proof.FrameKernel.RunB
import proofs.«425349_j42889543417942_3_alg».proof.Proof.Bridge.Final
import proofs.«425349_j42889543417942_3_alg».proof.Proof.RefRunV
import Idealize.ShloMosaic.Adequacy
import Idealize.ShloMosaic.Init

set_option maxRecDepth 16384
set_option maxHeartbeats 4000000

noncomputable section

namespace Cert.Proof

open Idealize.ShloMosaic Idealize.ShloMosaic.TcCoe Idealize.SL.Sem
open Cert.KernelIdeal.Hand

theorem frame_p : Cert.frame_Kernel := fun m ρ _ => Cert.Kernel.Hand.frame m ρ

theorem frame_pi : Cert.frame_KernelIdeal := fun m ρ _ =>
  (θ_run (Cert.KernelIdeal.defs (F := Ideal)) _ _).mono (fun _ h c => (h c).2.2.2.2) (kernelIdeal_run m ρ)

theorem frame_ri : Cert.frame_ReferenceIdeal := fun m ρ _ =>
  (θ_run (Cert.ReferenceIdeal.defs (F := Ideal)) _ _).mono (fun _ h c => (h c).2.2.2.2) (Cert.ReferenceIdeal.ValueV.run_val (F := Ideal) m ρ)

theorem preserves : Cert.preserves_Kernel_KernelIdeal := trivial

/-- From memories agreeing on the arguments both programs run, and the reference's four results are the ideal
    program's: each is the reference's stage value of the arguments, which the bridge identifies with the kernel's
    stage array once the token is in range. -/
theorem algebraic : Cert.algebraic_KernelIdeal_ReferenceIdeal := by
  intro m ρ m' ρ' hpre hagree
  refine ⟨_, _, _, _, kernelIdeal_run m ρ, ?_⟩
  refine (θ_run (Cert.ReferenceIdeal.defs (F := Ideal)) _ _).mono (fun r h c => ?_) (Cert.ReferenceIdeal.ValueV.run_val (F := Ideal) m' ρ')
  obtain ⟨h73, h74, h75, h24, hargs⟩ := h c
  obtain ⟨a0, a1, a2, a3, a4, a5, a6, a7, a8, a9, a10, a11, a12, a13, a14⟩ := hagree c
  have he : Cert.Bridge.kEmb (m ((c.tc : Thread Cert.KernelIdeal.nD Cert.KernelIdeal.τ).loc Cert.KernelIdeal.main_arg0)) (m ((c.tc : Thread Cert.KernelIdeal.nD Cert.KernelIdeal.τ).loc Cert.KernelIdeal.main_arg4))
      = Cert.ReferenceIdeal.ReadP.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) :=
    Cert.Bridge.kEmb_eq_rEmb _ _ (Cert.Bridge.tok_range m hpre c)
  obtain ⟨c0, c1, c2, c3⟩ := Cert.Bridge.compose (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) _ he
  refine ⟨h73.trans ?_, h74.trans ?_, h75.trans ?_, h24.trans ?_, hargs⟩
  · simp only [a0, a1, a2, a3, a4, a5, a6, a7, a8, a9, a10, a11, a12, a13, a14]
    exact c0.symm.trans (res_logp m ρ c).symm
  · simp only [a0, a1, a2, a3, a4, a5, a6, a7, a8, a9, a10, a11, a12, a13, a14]
    exact c1.symm.trans (res_h m ρ c).symm
  · simp only [a0, a1, a2, a3, a4, a5, a6, a7, a8, a9, a10, a11, a12, a13, a14]
    exact c2.symm.trans (res_c m ρ c).symm
  · simp only [a0, a1, a2, a3, a4, a5, a6, a7, a8, a9, a10, a11, a12, a13, a14]
    exact c3.symm.trans (res_aw m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
